-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x54x32 : Shape := ⟨3, ![4096, 54, 32]⟩
abbrev S4096x72x16 : Shape := ⟨3, ![4096, 72, 16]⟩
abbrev S5x48x32 : Shape := ⟨3, ![5, 48, 32]⟩
abbrev S5x32 : Shape := ⟨2, ![5, 32]⟩
abbrev S5x64x32 : Shape := ⟨3, ![5, 64, 32]⟩
abbrev S54x3x2 : Shape := ⟨3, ![54, 3, 2]⟩
abbrev S54x3x1 : Shape := ⟨3, ![54, 3, 1]⟩
abbrev S54x3 : Shape := ⟨2, ![54, 3]⟩
abbrev S_ : Shape := ⟨0, ![]⟩
abbrev S4096x54x3x32 : Shape := ⟨4, ![4096, 54, 3, 32]⟩
abbrev S4096x54x3x16 : Shape := ⟨4, ![4096, 54, 3, 16]⟩
abbrev S4096x54x3x48 : Shape := ⟨4, ![4096, 54, 3, 48]⟩
abbrev S1x48x32 : Shape := ⟨3, ![1, 48, 32]⟩
abbrev S48x32 : Shape := ⟨2, ![48, 32]⟩
abbrev S1x32 : Shape := ⟨2, ![1, 32]⟩
abbrev S32 : Shape := ⟨1, ![32]⟩
abbrev S1x1x1x32 : Shape := ⟨4, ![1, 1, 1, 32]⟩
abbrev S4096x54x64 : Shape := ⟨3, ![4096, 54, 64]⟩
abbrev S1x64x32 : Shape := ⟨3, ![1, 64, 32]⟩
abbrev S64x32 : Shape := ⟨2, ![64, 32]⟩
abbrev S1x1x32 : Shape := ⟨3, ![1, 1, 32]⟩
abbrev S4096x54 : Shape := ⟨2, ![4096, 54]⟩
abbrev S4096x54x1 : Shape := ⟨3, ![4096, 54, 1]⟩

class Facts : Prop where
  slices_S54x3x2_S54x3x1_0_0_0 : S54x3x2.Slices ![0, 0, 0] S54x3x1
  shapeCasts_S54x3x1_S54x3 : S54x3x1.ShapeCasts S54x3
  slices_S54x3x2_S54x3x1_0_0_1 : S54x3x2.Slices ![0, 0, 1] S54x3x1
  bcast_S_S54x3 : S_.BroadcastsInDim S54x3 (![] : Fin 0 → Fin S54x3.rank)
  bcast_S54x3_S54x3x1_0_1 : S54x3.BroadcastsInDim S54x3x1 (![0, 1] : Fin 2 → Fin S54x3x1.rank)
  concatenates_S4096x54x3x32_S4096x54x3x16_S4096x54x3x48_d3 : Shape.Concatenates [S4096x54x3x32, S4096x54x3x16] S4096x54x3x48 3
  slices_S5x48x32_S1x48x32_0_0_0 : S5x48x32.Slices ![0, 0, 0] S1x48x32
  shapeCasts_S1x48x32_S48x32 : S1x48x32.ShapeCasts S48x32
  slices_S5x32_S1x32_0_0 : S5x32.Slices ![0, 0] S1x32
  shapeCasts_S1x32_S32 : S1x32.ShapeCasts S32
  bcast_S32_S1x1x1x32_3 : S32.BroadcastsInDim S1x1x1x32 (![3] : Fin 1 → Fin S1x1x1x32.rank)
  bcast_S1x1x1x32_S4096x54x3x32_0_1_2_3 : S1x1x1x32.BroadcastsInDim S4096x54x3x32 (![0, 1, 2, 3] : Fin 4 → Fin S4096x54x3x32.rank)
  reducesTo_S4096x54x3x32_S4096x54x32_d2 : S4096x54x3x32.ReducesTo [2] S4096x54x32
  h_S_ : 0 < S_.numel
  concatenates_S4096x54x32_S4096x54x32_S4096x54x64_d2 : Shape.Concatenates [S4096x54x32, S4096x54x32] S4096x54x64 2
  slices_S5x64x32_S1x64x32_0_0_0 : S5x64x32.Slices ![0, 0, 0] S1x64x32
  shapeCasts_S1x64x32_S64x32 : S1x64x32.ShapeCasts S64x32
  bcast_S32_S1x1x32_2 : S32.BroadcastsInDim S1x1x32 (![2] : Fin 1 → Fin S1x1x32.rank)
  bcast_S1x1x32_S4096x54x32_0_1_2 : S1x1x32.BroadcastsInDim S4096x54x32 (![0, 1, 2] : Fin 3 → Fin S4096x54x32.rank)
  reducesTo_S4096x54x32_S4096x54_d2 : S4096x54x32.ReducesTo [2] S4096x54
  bcast_S4096x54_S4096x54x1_0_1 : S4096x54.BroadcastsInDim S4096x54x1 (![0, 1] : Fin 2 → Fin S4096x54x1.rank)
  bcast_S4096x54x1_S4096x54x32_0_1_2 : S4096x54x1.BroadcastsInDim S4096x54x32 (![0, 1, 2] : Fin 3 → Fin S4096x54x32.rank)
  slices_S5x48x32_S1x48x32_1_0_0 : S5x48x32.Slices ![1, 0, 0] S1x48x32
  slices_S5x32_S1x32_1_0 : S5x32.Slices ![1, 0] S1x32
  slices_S5x64x32_S1x64x32_1_0_0 : S5x64x32.Slices ![1, 0, 0] S1x64x32
  slices_S5x48x32_S1x48x32_2_0_0 : S5x48x32.Slices ![2, 0, 0] S1x48x32
  slices_S5x32_S1x32_2_0 : S5x32.Slices ![2, 0] S1x32
  slices_S5x64x32_S1x64x32_2_0_0 : S5x64x32.Slices ![2, 0, 0] S1x64x32
  slices_S5x48x32_S1x48x32_3_0_0 : S5x48x32.Slices ![3, 0, 0] S1x48x32
  slices_S5x32_S1x32_3_0 : S5x32.Slices ![3, 0] S1x32
  slices_S5x64x32_S1x64x32_3_0_0 : S5x64x32.Slices ![3, 0, 0] S1x64x32
  bcast_S_S4096x54x32 : S_.BroadcastsInDim S4096x54x32 (![] : Fin 0 → Fin S4096x54x32.rank)
  reducesTo_S4096x54x32_S_d0_1_2 : S4096x54x32.ReducesTo [0, 1, 2] S_
  bcast_S_S4096x72x16 : S_.BroadcastsInDim S4096x72x16 (![] : Fin 0 → Fin S4096x72x16.rank)
  reducesTo_S4096x72x16_S_d0_1_2 : S4096x72x16.ReducesTo [0, 1, 2] S_
  bcast_S_S5x48x32 : S_.BroadcastsInDim S5x48x32 (![] : Fin 0 → Fin S5x48x32.rank)
  reducesTo_S5x48x32_S_d0_1_2 : S5x48x32.ReducesTo [0, 1, 2] S_
  bcast_S_S5x32 : S_.BroadcastsInDim S5x32 (![] : Fin 0 → Fin S5x32.rank)
  reducesTo_S5x32_S_d0_1 : S5x32.ReducesTo [0, 1] S_
  bcast_S_S5x64x32 : S_.BroadcastsInDim S5x64x32 (![] : Fin 0 → Fin S5x64x32.rank)
  reducesTo_S5x64x32_S_d0_1_2 : S5x64x32.ReducesTo [0, 1, 2] S_
  bcast_S_S4096x54x1 : S_.BroadcastsInDim S4096x54x1 (![] : Fin 0 → Fin S4096x54x1.rank)
  reducesTo_S4096x54x1_S_d0_1_2 : S4096x54x1.ReducesTo [0, 1, 2] S_
  gather_S4096x54x32_S54x3x1_S4096x54x3x32_03_1_n_n_1_2_4096132_wf : GatherDims.WF S4096x54x32 S54x3x1 S4096x54x3x32 [0, 3] [1] [] [1] [] 2 ![4096, 1, 32]
  gather_S4096x72x16_S54x3x1_S4096x54x3x16_03_1_n_n_1_2_4096116_wf : GatherDims.WF S4096x72x16 S54x3x1 S4096x54x3x16 [0, 3] [1] [] [1] [] 2 ![4096, 1, 16]
  dot_S4096x54x3x48_S48x32_S4096x54x3x32_3_0_012_1_n_n_wf : DotDims.WF S4096x54x3x48 S48x32 S4096x54x3x32 [3] [0] [0, 1, 2] [1] [] []
  dot_S4096x54x64_S64x32_S4096x54x32_2_0_01_1_n_n_wf : DotDims.WF S4096x54x64 S64x32 S4096x54x32 [2] [0] [0, 1] [1] [] []

variable [Facts]

def gather_S4096x54x32_S54x3x1_S4096x54x3x32_03_1_n_n_1_2_4096132 : GatherDims S4096x54x32 S54x3x1 S4096x54x3x32 where
  offsetDims := [0, 3]
  collapsedSliceDims := [1]
  operandBatchingDims := []
  startIndicesBatchingDims := []
  startIndexMap := [1]
  indexVectorDim := 2
  sliceSizes := ![4096, 1, 32]
  wf := gather_S4096x54x32_S54x3x1_S4096x54x3x32_03_1_n_n_1_2_4096132_wf
def gather_S4096x72x16_S54x3x1_S4096x54x3x16_03_1_n_n_1_2_4096116 : GatherDims S4096x72x16 S54x3x1 S4096x54x3x16 where
  offsetDims := [0, 3]
  collapsedSliceDims := [1]
  operandBatchingDims := []
  startIndicesBatchingDims := []
  startIndexMap := [1]
  indexVectorDim := 2
  sliceSizes := ![4096, 1, 16]
  wf := gather_S4096x72x16_S54x3x1_S4096x54x3x16_03_1_n_n_1_2_4096116_wf
def dot_S4096x54x3x48_S48x32_S4096x54x3x32_3_0_012_1_n_n : DotDims S4096x54x3x48 S48x32 S4096x54x3x32 where
  lhsContracting := [3]
  rhsContracting := [0]
  lhsNonContracting := [0, 1, 2]
  rhsNonContracting := [1]
  lhsBatch := []
  rhsBatch := []
  wf := dot_S4096x54x3x48_S48x32_S4096x54x3x32_3_0_012_1_n_n_wf
def dot_S4096x54x64_S64x32_S4096x54x32_2_0_01_1_n_n : DotDims S4096x54x64 S64x32 S4096x54x32 where
  lhsContracting := [2]
  rhsContracting := [0]
  lhsNonContracting := [0, 1]
  rhsNonContracting := [1]
  lhsBatch := []
  rhsBatch := []
  wf := dot_S4096x54x64_S64x32_S4096x54x32_2_0_01_1_n_n_wf

abbrev lit0 : Fin 324 → BitVec 32 := fun
  | 0 => 1#32 | 1 => 0#32 | 2 => 2#32 | 3 => 1#32 | 4 => 3#32 | 5 => 2#32 | 6 => 2#32 | 7 => 3#32
  | 8 => 3#32 | 9 => 4#32 | 10 => 4#32 | 11 => 5#32 | 12 => 3#32 | 13 => 6#32 | 14 => 4#32 | 15 => 7#32
  | 16 => 5#32 | 17 => 8#32 | 18 => 4#32 | 19 => 9#32 | 20 => 5#32 | 21 => 10#32 | 22 => 6#32 | 23 => 11#32
  | 24 => 5#32 | 25 => 12#32 | 26 => 6#32 | 27 => 13#32 | 28 => 7#32 | 29 => 14#32 | 30 => 6#32 | 31 => 15#32
  | 32 => 7#32 | 33 => 16#32 | 34 => 8#32 | 35 => 17#32 | 36 => 7#32 | 37 => 18#32 | 38 => 8#32 | 39 => 19#32
  | 40 => 9#32 | 41 => 20#32 | 42 => 8#32 | 43 => 21#32 | 44 => 9#32 | 45 => 22#32 | 46 => 10#32 | 47 => 23#32
  | 48 => 9#32 | 49 => 24#32 | 50 => 10#32 | 51 => 25#32 | 52 => 11#32 | 53 => 26#32 | 54 => 10#32 | 55 => 27#32
  | 56 => 11#32 | 57 => 28#32 | 58 => 12#32 | 59 => 29#32 | 60 => 11#32 | 61 => 30#32 | 62 => 12#32 | 63 => 31#32
  | 64 => 13#32 | 65 => 32#32 | 66 => 12#32 | 67 => 33#32 | 68 => 13#32 | 69 => 34#32 | 70 => 14#32 | 71 => 35#32
  | 72 => 13#32 | 73 => 36#32 | 74 => 14#32 | 75 => 37#32 | 76 => 15#32 | 77 => 38#32 | 78 => 14#32 | 79 => 39#32
  | 80 => 15#32 | 81 => 40#32 | 82 => 16#32 | 83 => 41#32 | 84 => 15#32 | 85 => 42#32 | 86 => 16#32 | 87 => 43#32
  | 88 => 17#32 | 89 => 44#32 | 90 => 16#32 | 91 => 45#32 | 92 => 17#32 | 93 => 46#32 | 94 => 18#32 | 95 => 47#32
  | 96 => 17#32 | 97 => 48#32 | 98 => 18#32 | 99 => 49#32 | 100 => 19#32 | 101 => 50#32 | 102 => 18#32 | 103 => 51#32
  | 104 => 19#32 | 105 => 52#32 | 106 => 20#32 | 107 => 53#32 | 108 => 19#32 | 109 => 54#32 | 110 => 20#32 | 111 => 55#32
  | 112 => 21#32 | 113 => 56#32 | 114 => 20#32 | 115 => 57#32 | 116 => 21#32 | 117 => 58#32 | 118 => 22#32 | 119 => 59#32
  | 120 => 21#32 | 121 => 60#32 | 122 => 22#32 | 123 => 61#32 | 124 => 23#32 | 125 => 62#32 | 126 => 22#32 | 127 => 63#32
  | 128 => 23#32 | 129 => 64#32 | 130 => 24#32 | 131 => 65#32 | 132 => 23#32 | 133 => 66#32 | 134 => 24#32 | 135 => 67#32
  | 136 => 25#32 | 137 => 68#32 | 138 => 24#32 | 139 => 69#32 | 140 => 25#32 | 141 => 70#32 | 142 => 26#32 | 143 => 71#32
  | 144 => 25#32 | 145 => 0#32 | 146 => 26#32 | 147 => 1#32 | 148 => 27#32 | 149 => 2#32 | 150 => 26#32 | 151 => 3#32
  | 152 => 27#32 | 153 => 4#32 | 154 => 28#32 | 155 => 5#32 | 156 => 27#32 | 157 => 6#32 | 158 => 28#32 | 159 => 7#32
  | 160 => 29#32 | 161 => 8#32 | 162 => 28#32 | 163 => 9#32 | 164 => 29#32 | 165 => 10#32 | 166 => 30#32 | 167 => 11#32
  | 168 => 29#32 | 169 => 12#32 | 170 => 30#32 | 171 => 13#32 | 172 => 31#32 | 173 => 14#32 | 174 => 30#32 | 175 => 15#32
  | 176 => 31#32 | 177 => 16#32 | 178 => 32#32 | 179 => 17#32 | 180 => 31#32 | 181 => 18#32 | 182 => 32#32 | 183 => 19#32
  | 184 => 33#32 | 185 => 20#32 | 186 => 32#32 | 187 => 21#32 | 188 => 33#32 | 189 => 22#32 | 190 => 34#32 | 191 => 23#32
  | 192 => 33#32 | 193 => 24#32 | 194 => 34#32 | 195 => 25#32 | 196 => 35#32 | 197 => 26#32 | 198 => 34#32 | 199 => 27#32
  | 200 => 35#32 | 201 => 28#32 | 202 => 36#32 | 203 => 29#32 | 204 => 35#32 | 205 => 30#32 | 206 => 36#32 | 207 => 31#32
  | 208 => 37#32 | 209 => 32#32 | 210 => 36#32 | 211 => 33#32 | 212 => 37#32 | 213 => 34#32 | 214 => 38#32 | 215 => 35#32
  | 216 => 37#32 | 217 => 36#32 | 218 => 38#32 | 219 => 37#32 | 220 => 39#32 | 221 => 38#32 | 222 => 38#32 | 223 => 39#32
  | 224 => 39#32 | 225 => 40#32 | 226 => 40#32 | 227 => 41#32 | 228 => 39#32 | 229 => 42#32 | 230 => 40#32 | 231 => 43#32
  | 232 => 41#32 | 233 => 44#32 | 234 => 40#32 | 235 => 45#32 | 236 => 41#32 | 237 => 46#32 | 238 => 42#32 | 239 => 47#32
  | 240 => 41#32 | 241 => 48#32 | 242 => 42#32 | 243 => 49#32 | 244 => 43#32 | 245 => 50#32 | 246 => 42#32 | 247 => 51#32
  | 248 => 43#32 | 249 => 52#32 | 250 => 44#32 | 251 => 53#32 | 252 => 43#32 | 253 => 54#32 | 254 => 44#32 | 255 => 55#32
  | 256 => 45#32 | 257 => 56#32 | 258 => 44#32 | 259 => 57#32 | 260 => 45#32 | 261 => 58#32 | 262 => 46#32 | 263 => 59#32
  | 264 => 45#32 | 265 => 60#32 | 266 => 46#32 | 267 => 61#32 | 268 => 47#32 | 269 => 62#32 | 270 => 46#32 | 271 => 63#32
  | 272 => 47#32 | 273 => 64#32 | 274 => 48#32 | 275 => 65#32 | 276 => 47#32 | 277 => 66#32 | 278 => 48#32 | 279 => 67#32
  | 280 => 49#32 | 281 => 68#32 | 282 => 48#32 | 283 => 69#32 | 284 => 49#32 | 285 => 70#32 | 286 => 50#32 | 287 => 71#32
  | 288 => 49#32 | 289 => 0#32 | 290 => 50#32 | 291 => 1#32 | 292 => 51#32 | 293 => 2#32 | 294 => 50#32 | 295 => 3#32
  | 296 => 51#32 | 297 => 4#32 | 298 => 52#32 | 299 => 5#32 | 300 => 51#32 | 301 => 6#32 | 302 => 52#32 | 303 => 7#32
  | 304 => 53#32 | 305 => 8#32 | 306 => 52#32 | 307 => 9#32 | 308 => 53#32 | 309 => 10#32 | 310 => 0#32 | 311 => 11#32
  | 312 => 53#32 | 313 => 12#32 | 314 => 0#32 | 315 => 13#32 | 316 => 1#32 | 317 => 14#32 | 318 => 0#32 | 319 => 15#32
  | 320 => 1#32 | 321 => 16#32 | 322 => 2#32 | 323 => 17#32
  | _ => 0#32

def fn_part10 {F : FTy → Type} [FloatOps F] (main_v83 : FVec F S4096x54x1 .f32) (main_v124 : FVec F S4096x54x1 .f32) (main_v165 : FVec F S4096x54x1 .f32) (main_v200 : IVec S_ 1) : IVec S_ 1 :=
  let main_cst_37 : FVec F S_ .f32 := constant S_ .f32 0x00000000#32
  let main_v201 : FVec F S4096x54x1 .f32 := broadcastInDim S4096x54x1 ![] bcast_S_S4096x54x1 main_cst_37
  let main_v202 : IVec S4096x54x1 1 := cmpf .ogt main_v83 main_v201
  let main_c_38 : IVec S_ 1 := constantI S_ 1 1#1
  let main_v203 : IVec S_ 1 := (fun x v => Host.reduce IntOp.andi x v reducesTo_S4096x54x1_S_d0_1_2 h_S_) main_v202 main_c_38
  let main_v204 : IVec S_ 1 := andi main_v200 main_v203
  let main_cst_39 : FVec F S_ .f32 := constant S_ .f32 0x00000000#32
  let main_v205 : FVec F S4096x54x1 .f32 := broadcastInDim S4096x54x1 ![] bcast_S_S4096x54x1 main_cst_39
  let main_v206 : IVec S4096x54x1 1 := cmpf .ogt main_v124 main_v205
  let main_c_40 : IVec S_ 1 := constantI S_ 1 1#1
  let main_v207 : IVec S_ 1 := (fun x v => Host.reduce IntOp.andi x v reducesTo_S4096x54x1_S_d0_1_2 h_S_) main_v206 main_c_40
  let main_v208 : IVec S_ 1 := andi main_v204 main_v207
  let main_cst_41 : FVec F S_ .f32 := constant S_ .f32 0x00000000#32
  let main_v209 : FVec F S4096x54x1 .f32 := broadcastInDim S4096x54x1 ![] bcast_S_S4096x54x1 main_cst_41
  let main_v210 : IVec S4096x54x1 1 := cmpf .ogt main_v165 main_v209
  let main_c_42 : IVec S_ 1 := constantI S_ 1 1#1
  let main_v211 : IVec S_ 1 := (fun x v => Host.reduce IntOp.andi x v reducesTo_S4096x54x1_S_d0_1_2 h_S_) main_v210 main_c_42
  let main_v212 : IVec S_ 1 := andi main_v208 main_v211
  main_v212

def fn_part9 {F : FTy → Type} [FloatOps F] (main_arg4 : FVec F S5x64x32 .f32) (main_arg5 : FVec F S5x32 .f32) (main_v42 : FVec F S4096x54x1 .f32) (main_v83 : FVec F S4096x54x1 .f32) (main_v124 : FVec F S4096x54x1 .f32) (main_v165 : FVec F S4096x54x1 .f32) (main_v181 : IVec S_ 1) (main_v182 : FVec F S5x32 .f32) (main_v183 : FVec F S5x32 .f32) : IVec S_ 1 :=
  let main_v184 : IVec S5x32 1 := cmpf .olt main_v182 main_v183
  let main_c_30 : IVec S_ 1 := constantI S_ 1 1#1
  let main_v185 : IVec S_ 1 := (fun x v => Host.reduce IntOp.andi x v reducesTo_S5x32_S_d0_1 h_S_) main_v184 main_c_30
  let main_v186 : IVec S_ 1 := andi main_v181 main_v185
  let main_v187 : FVec F S5x64x32 .f32 := Host.absf main_arg4
  let main_cst_31 : FVec F S_ .f32 := constant S_ .f32 0x7F800000#32
  let main_v188 : FVec F S5x64x32 .f32 := broadcastInDim S5x64x32 ![] bcast_S_S5x64x32 main_cst_31
  let main_v189 : IVec S5x64x32 1 := cmpf .olt main_v187 main_v188
  let main_c_32 : IVec S_ 1 := constantI S_ 1 1#1
  let main_v190 : IVec S_ 1 := (fun x v => Host.reduce IntOp.andi x v reducesTo_S5x64x32_S_d0_1_2 h_S_) main_v189 main_c_32
  let main_v191 : IVec S_ 1 := andi main_v186 main_v190
  let main_v192 : FVec F S5x32 .f32 := Host.absf main_arg5
  let main_cst_33 : FVec F S_ .f32 := constant S_ .f32 0x7F800000#32
  let main_v193 : FVec F S5x32 .f32 := broadcastInDim S5x32 ![] bcast_S_S5x32 main_cst_33
  let main_v194 : IVec S5x32 1 := cmpf .olt main_v192 main_v193
  let main_c_34 : IVec S_ 1 := constantI S_ 1 1#1
  let main_v195 : IVec S_ 1 := (fun x v => Host.reduce IntOp.andi x v reducesTo_S5x32_S_d0_1 h_S_) main_v194 main_c_34
  let main_v196 : IVec S_ 1 := andi main_v191 main_v195
  let main_cst_35 : FVec F S_ .f32 := constant S_ .f32 0x00000000#32
  let main_v197 : FVec F S4096x54x1 .f32 := broadcastInDim S4096x54x1 ![] bcast_S_S4096x54x1 main_cst_35
  let main_v198 : IVec S4096x54x1 1 := cmpf .ogt main_v42 main_v197
  let main_c_36 : IVec S_ 1 := constantI S_ 1 1#1
  let main_v199 : IVec S_ 1 := (fun x v => Host.reduce IntOp.andi x v reducesTo_S4096x54x1_S_d0_1_2 h_S_) main_v198 main_c_36
  let main_v200 : IVec S_ 1 := andi main_v196 main_v199
  fn_part10 (F := F) main_v83 main_v124 main_v165 main_v200

def fn_part8 {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) (main_v42 : FVec F S4096x54x1 .f32) (main_v83 : FVec F S4096x54x1 .f32) (main_v124 : FVec F S4096x54x1 .f32) (main_v161 : FVec F S4096x54x32 .f32) (main_v165 : FVec F S4096x54x1 .f32) (main_v166 : FVec F S4096x54x32 .f32) : IVec S_ 1 :=
  let main_v167 : FVec F S4096x54x32 .f32 := Host.divf main_v161 main_v166
  let main_v168 : FVec F S4096x54x32 .f32 := Host.absf main_arg0
  let main_cst_23 : FVec F S_ .f32 := constant S_ .f32 0x7F800000#32
  let main_v169 : FVec F S4096x54x32 .f32 := broadcastInDim S4096x54x32 ![] bcast_S_S4096x54x32 main_cst_23
  let main_v170 : IVec S4096x54x32 1 := cmpf .olt main_v168 main_v169
  let main_c_24 : IVec S_ 1 := constantI S_ 1 1#1
  let main_v171 : IVec S_ 1 := (fun x v => Host.reduce IntOp.andi x v reducesTo_S4096x54x32_S_d0_1_2 h_S_) main_v170 main_c_24
  let main_v172 : FVec F S4096x72x16 .f32 := Host.absf main_arg1
  let main_cst_25 : FVec F S_ .f32 := constant S_ .f32 0x7F800000#32
  let main_v173 : FVec F S4096x72x16 .f32 := broadcastInDim S4096x72x16 ![] bcast_S_S4096x72x16 main_cst_25
  let main_v174 : IVec S4096x72x16 1 := cmpf .olt main_v172 main_v173
  let main_c_26 : IVec S_ 1 := constantI S_ 1 1#1
  let main_v175 : IVec S_ 1 := (fun x v => Host.reduce IntOp.andi x v reducesTo_S4096x72x16_S_d0_1_2 h_S_) main_v174 main_c_26
  let main_v176 : IVec S_ 1 := andi main_v171 main_v175
  let main_v177 : FVec F S5x48x32 .f32 := Host.absf main_arg2
  let main_cst_27 : FVec F S_ .f32 := constant S_ .f32 0x7F800000#32
  let main_v178 : FVec F S5x48x32 .f32 := broadcastInDim S5x48x32 ![] bcast_S_S5x48x32 main_cst_27
  let main_v179 : IVec S5x48x32 1 := cmpf .olt main_v177 main_v178
  let main_c_28 : IVec S_ 1 := constantI S_ 1 1#1
  let main_v180 : IVec S_ 1 := (fun x v => Host.reduce IntOp.andi x v reducesTo_S5x48x32_S_d0_1_2 h_S_) main_v179 main_c_28
  let main_v181 : IVec S_ 1 := andi main_v176 main_v180
  let main_v182 : FVec F S5x32 .f32 := Host.absf main_arg3
  let main_cst_29 : FVec F S_ .f32 := constant S_ .f32 0x7F800000#32
  let main_v183 : FVec F S5x32 .f32 := broadcastInDim S5x32 ![] bcast_S_S5x32 main_cst_29
  fn_part9 (F := F) main_arg4 main_arg5 main_v42 main_v83 main_v124 main_v165 main_v181 main_v182 main_v183

def fn_part7 {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) (main_v42 : FVec F S4096x54x1 .f32) (main_v83 : FVec F S4096x54x1 .f32) (main_v124 : FVec F S4096x54x1 .f32) (main_v126 : FVec F S4096x54x32 .f32) (main_v144 : FVec F S4096x54x3x32 .f32) : IVec S_ 1 :=
  let main_v145 : FVec F S1x32 .f32 := (extractStridedSlice S1x32 ![3, 0] · slices_S5x32_S1x32_3_0) main_arg3
  let main_v146 : FVec F S32 .f32 := shapeCast S32 main_v145 shapeCasts_S1x32_S32
  let main_v147 : FVec F S1x1x1x32 .f32 := broadcastInDim S1x1x1x32 ![3] bcast_S32_S1x1x1x32_3 main_v146
  let main_v148 : FVec F S4096x54x3x32 .f32 := broadcastInDim S4096x54x3x32 ![0, 1, 2, 3] bcast_S1x1x1x32_S4096x54x3x32_0_1_2_3 main_v147
  let main_v149 : FVec F S4096x54x3x32 .f32 := addf main_v144 main_v148
  let main_v150 : FVec F S4096x54x3x32 .f32 := Host.tanh main_v149
  let main_cst_21 : FVec F S_ .f32 := constant S_ .f32 0xFF800000#32
  let main_v151 : FVec F S4096x54x32 .f32 := (fun x v => Host.reduce FloatOps.maximumf x v reducesTo_S4096x54x3x32_S4096x54x32_d2 h_S_) main_v150 main_cst_21
  let main_v152 : FVec F S4096x54x64 .f32 := (fun a b => concatenate S4096x54x64 2 [⟨S4096x54x32, a⟩, ⟨S4096x54x32, b⟩] concatenates_S4096x54x32_S4096x54x32_S4096x54x64_d2) main_v126 main_v151
  let main_v153 : FVec F S1x64x32 .f32 := (extractStridedSlice S1x64x32 ![3, 0, 0] · slices_S5x64x32_S1x64x32_3_0_0) main_arg4
  let main_v154 : FVec F S64x32 .f32 := shapeCast S64x32 main_v153 shapeCasts_S1x64x32_S64x32
  let main_v155 : FVec F S4096x54x32 .f32 := (fun l r => Host.dotGeneral dot_S4096x54x64_S64x32_S4096x54x32_2_0_01_1_n_n none l r) main_v152 main_v154
  let main_v156 : FVec F S1x32 .f32 := (extractStridedSlice S1x32 ![3, 0] · slices_S5x32_S1x32_3_0) main_arg5
  let main_v157 : FVec F S32 .f32 := shapeCast S32 main_v156 shapeCasts_S1x32_S32
  let main_v158 : FVec F S1x1x32 .f32 := broadcastInDim S1x1x32 ![2] bcast_S32_S1x1x32_2 main_v157
  let main_v159 : FVec F S4096x54x32 .f32 := broadcastInDim S4096x54x32 ![0, 1, 2] bcast_S1x1x32_S4096x54x32_0_1_2 main_v158
  let main_v160 : FVec F S4096x54x32 .f32 := addf main_v155 main_v159
  let main_v161 : FVec F S4096x54x32 .f32 := Host.tanh main_v160
  let main_v162 : FVec F S4096x54x32 .f32 := mulf main_v161 main_v161
  let main_cst_22 : FVec F S_ .f32 := constant S_ .f32 0x00000000#32
  let main_v163 : FVec F S4096x54 .f32 := (fun x v => Host.reduceAdd x v reducesTo_S4096x54x32_S4096x54_d2 h_S_) main_v162 main_cst_22
  let main_v164 : FVec F S4096x54x1 .f32 := broadcastInDim S4096x54x1 ![0, 1] bcast_S4096x54_S4096x54x1_0_1 main_v163
  let main_v165 : FVec F S4096x54x1 .f32 := Host.sqrt main_v164
  let main_v166 : FVec F S4096x54x32 .f32 := broadcastInDim S4096x54x32 ![0, 1, 2] bcast_S4096x54x1_S4096x54x32_0_1_2 main_v165
  fn_part8 (F := F) main_arg0 main_arg1 main_arg2 main_arg3 main_arg4 main_arg5 main_v42 main_v83 main_v124 main_v161 main_v165 main_v166

def fn_part6 {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) (main_v1 : IVec S54x3 32) (main_v3 : IVec S54x3 32) (main_v42 : FVec F S4096x54x1 .f32) (main_v83 : FVec F S4096x54x1 .f32) (main_v120 : FVec F S4096x54x32 .f32) (main_v124 : FVec F S4096x54x1 .f32) : IVec S_ 1 :=
  let main_v125 : FVec F S4096x54x32 .f32 := broadcastInDim S4096x54x32 ![0, 1, 2] bcast_S4096x54x1_S4096x54x32_0_1_2 main_v124
  let main_v126 : FVec F S4096x54x32 .f32 := Host.divf main_v120 main_v125
  let main_c_17 : IVec S_ 32 := constantI S_ 32 0#32
  let main_v127 : IVec S54x3 32 := broadcastInDim S54x3 ![] bcast_S_S54x3 main_c_17
  let main_v128 : IVec S54x3 1 := cmpi .slt main_v1 main_v127
  let main_c_18 : IVec S_ 32 := constantI S_ 32 54#32
  let main_v129 : IVec S54x3 32 := broadcastInDim S54x3 ![] bcast_S_S54x3 main_c_18
  let main_v130 : IVec S54x3 32 := addi main_v1 main_v129
  let main_v131 : IVec S54x3 32 := select main_v128 main_v130 main_v1
  let main_v132 : IVec S54x3x1 32 := broadcastInDim S54x3x1 ![0, 1] bcast_S54x3_S54x3x1_0_1 main_v131
  let main_v133 : FVec F S4096x54x3x32 .f32 := (fun x i => Host.gather gather_S4096x54x32_S54x3x1_S4096x54x3x32_03_1_n_n_1_2_4096132 x i) main_v126 main_v132
  let main_c_19 : IVec S_ 32 := constantI S_ 32 0#32
  let main_v134 : IVec S54x3 32 := broadcastInDim S54x3 ![] bcast_S_S54x3 main_c_19
  let main_v135 : IVec S54x3 1 := cmpi .slt main_v3 main_v134
  let main_c_20 : IVec S_ 32 := constantI S_ 32 72#32
  let main_v136 : IVec S54x3 32 := broadcastInDim S54x3 ![] bcast_S_S54x3 main_c_20
  let main_v137 : IVec S54x3 32 := addi main_v3 main_v136
  let main_v138 : IVec S54x3 32 := select main_v135 main_v137 main_v3
  let main_v139 : IVec S54x3x1 32 := broadcastInDim S54x3x1 ![0, 1] bcast_S54x3_S54x3x1_0_1 main_v138
  let main_v140 : FVec F S4096x54x3x16 .f32 := (fun x i => Host.gather gather_S4096x72x16_S54x3x1_S4096x54x3x16_03_1_n_n_1_2_4096116 x i) main_arg1 main_v139
  let main_v141 : FVec F S4096x54x3x48 .f32 := (fun a b => concatenate S4096x54x3x48 3 [⟨S4096x54x3x32, a⟩, ⟨S4096x54x3x16, b⟩] concatenates_S4096x54x3x32_S4096x54x3x16_S4096x54x3x48_d3) main_v133 main_v140
  let main_v142 : FVec F S1x48x32 .f32 := (extractStridedSlice S1x48x32 ![3, 0, 0] · slices_S5x48x32_S1x48x32_3_0_0) main_arg2
  let main_v143 : FVec F S48x32 .f32 := shapeCast S48x32 main_v142 shapeCasts_S1x48x32_S48x32
  let main_v144 : FVec F S4096x54x3x32 .f32 := (fun l r => Host.dotGeneral dot_S4096x54x3x48_S48x32_S4096x54x3x32_3_0_012_1_n_n none l r) main_v141 main_v143
  fn_part7 (F := F) main_arg0 main_arg1 main_arg2 main_arg3 main_arg4 main_arg5 main_v42 main_v83 main_v124 main_v126 main_v144

def fn_part5 {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) (main_v1 : IVec S54x3 32) (main_v3 : IVec S54x3 32) (main_v42 : FVec F S4096x54x1 .f32) (main_v83 : FVec F S4096x54x1 .f32) (main_v85 : FVec F S4096x54x32 .f32) (main_v100 : FVec F S4096x54x3x48 .f32) (main_v102 : FVec F S48x32 .f32) : IVec S_ 1 :=
  let main_v103 : FVec F S4096x54x3x32 .f32 := (fun l r => Host.dotGeneral dot_S4096x54x3x48_S48x32_S4096x54x3x32_3_0_012_1_n_n none l r) main_v100 main_v102
  let main_v104 : FVec F S1x32 .f32 := (extractStridedSlice S1x32 ![2, 0] · slices_S5x32_S1x32_2_0) main_arg3
  let main_v105 : FVec F S32 .f32 := shapeCast S32 main_v104 shapeCasts_S1x32_S32
  let main_v106 : FVec F S1x1x1x32 .f32 := broadcastInDim S1x1x1x32 ![3] bcast_S32_S1x1x1x32_3 main_v105
  let main_v107 : FVec F S4096x54x3x32 .f32 := broadcastInDim S4096x54x3x32 ![0, 1, 2, 3] bcast_S1x1x1x32_S4096x54x3x32_0_1_2_3 main_v106
  let main_v108 : FVec F S4096x54x3x32 .f32 := addf main_v103 main_v107
  let main_v109 : FVec F S4096x54x3x32 .f32 := Host.tanh main_v108
  let main_cst_15 : FVec F S_ .f32 := constant S_ .f32 0xFF800000#32
  let main_v110 : FVec F S4096x54x32 .f32 := (fun x v => Host.reduce FloatOps.maximumf x v reducesTo_S4096x54x3x32_S4096x54x32_d2 h_S_) main_v109 main_cst_15
  let main_v111 : FVec F S4096x54x64 .f32 := (fun a b => concatenate S4096x54x64 2 [⟨S4096x54x32, a⟩, ⟨S4096x54x32, b⟩] concatenates_S4096x54x32_S4096x54x32_S4096x54x64_d2) main_v85 main_v110
  let main_v112 : FVec F S1x64x32 .f32 := (extractStridedSlice S1x64x32 ![2, 0, 0] · slices_S5x64x32_S1x64x32_2_0_0) main_arg4
  let main_v113 : FVec F S64x32 .f32 := shapeCast S64x32 main_v112 shapeCasts_S1x64x32_S64x32
  let main_v114 : FVec F S4096x54x32 .f32 := (fun l r => Host.dotGeneral dot_S4096x54x64_S64x32_S4096x54x32_2_0_01_1_n_n none l r) main_v111 main_v113
  let main_v115 : FVec F S1x32 .f32 := (extractStridedSlice S1x32 ![2, 0] · slices_S5x32_S1x32_2_0) main_arg5
  let main_v116 : FVec F S32 .f32 := shapeCast S32 main_v115 shapeCasts_S1x32_S32
  let main_v117 : FVec F S1x1x32 .f32 := broadcastInDim S1x1x32 ![2] bcast_S32_S1x1x32_2 main_v116
  let main_v118 : FVec F S4096x54x32 .f32 := broadcastInDim S4096x54x32 ![0, 1, 2] bcast_S1x1x32_S4096x54x32_0_1_2 main_v117
  let main_v119 : FVec F S4096x54x32 .f32 := addf main_v114 main_v118
  let main_v120 : FVec F S4096x54x32 .f32 := Host.tanh main_v119
  let main_v121 : FVec F S4096x54x32 .f32 := mulf main_v120 main_v120
  let main_cst_16 : FVec F S_ .f32 := constant S_ .f32 0x00000000#32
  let main_v122 : FVec F S4096x54 .f32 := (fun x v => Host.reduceAdd x v reducesTo_S4096x54x32_S4096x54_d2 h_S_) main_v121 main_cst_16
  let main_v123 : FVec F S4096x54x1 .f32 := broadcastInDim S4096x54x1 ![0, 1] bcast_S4096x54_S4096x54x1_0_1 main_v122
  let main_v124 : FVec F S4096x54x1 .f32 := Host.sqrt main_v123
  fn_part6 (F := F) main_arg0 main_arg1 main_arg2 main_arg3 main_arg4 main_arg5 main_v1 main_v3 main_v42 main_v83 main_v120 main_v124

def fn_part4 {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) (main_v1 : IVec S54x3 32) (main_v3 : IVec S54x3 32) (main_v42 : FVec F S4096x54x1 .f32) (main_v79 : FVec F S4096x54x32 .f32) (main_v82 : FVec F S4096x54x1 .f32) : IVec S_ 1 :=
  let main_v83 : FVec F S4096x54x1 .f32 := Host.sqrt main_v82
  let main_v84 : FVec F S4096x54x32 .f32 := broadcastInDim S4096x54x32 ![0, 1, 2] bcast_S4096x54x1_S4096x54x32_0_1_2 main_v83
  let main_v85 : FVec F S4096x54x32 .f32 := Host.divf main_v79 main_v84
  let main_c_11 : IVec S_ 32 := constantI S_ 32 0#32
  let main_v86 : IVec S54x3 32 := broadcastInDim S54x3 ![] bcast_S_S54x3 main_c_11
  let main_v87 : IVec S54x3 1 := cmpi .slt main_v1 main_v86
  let main_c_12 : IVec S_ 32 := constantI S_ 32 54#32
  let main_v88 : IVec S54x3 32 := broadcastInDim S54x3 ![] bcast_S_S54x3 main_c_12
  let main_v89 : IVec S54x3 32 := addi main_v1 main_v88
  let main_v90 : IVec S54x3 32 := select main_v87 main_v89 main_v1
  let main_v91 : IVec S54x3x1 32 := broadcastInDim S54x3x1 ![0, 1] bcast_S54x3_S54x3x1_0_1 main_v90
  let main_v92 : FVec F S4096x54x3x32 .f32 := (fun x i => Host.gather gather_S4096x54x32_S54x3x1_S4096x54x3x32_03_1_n_n_1_2_4096132 x i) main_v85 main_v91
  let main_c_13 : IVec S_ 32 := constantI S_ 32 0#32
  let main_v93 : IVec S54x3 32 := broadcastInDim S54x3 ![] bcast_S_S54x3 main_c_13
  let main_v94 : IVec S54x3 1 := cmpi .slt main_v3 main_v93
  let main_c_14 : IVec S_ 32 := constantI S_ 32 72#32
  let main_v95 : IVec S54x3 32 := broadcastInDim S54x3 ![] bcast_S_S54x3 main_c_14
  let main_v96 : IVec S54x3 32 := addi main_v3 main_v95
  let main_v97 : IVec S54x3 32 := select main_v94 main_v96 main_v3
  let main_v98 : IVec S54x3x1 32 := broadcastInDim S54x3x1 ![0, 1] bcast_S54x3_S54x3x1_0_1 main_v97
  let main_v99 : FVec F S4096x54x3x16 .f32 := (fun x i => Host.gather gather_S4096x72x16_S54x3x1_S4096x54x3x16_03_1_n_n_1_2_4096116 x i) main_arg1 main_v98
  let main_v100 : FVec F S4096x54x3x48 .f32 := (fun a b => concatenate S4096x54x3x48 3 [⟨S4096x54x3x32, a⟩, ⟨S4096x54x3x16, b⟩] concatenates_S4096x54x3x32_S4096x54x3x16_S4096x54x3x48_d3) main_v92 main_v99
  let main_v101 : FVec F S1x48x32 .f32 := (extractStridedSlice S1x48x32 ![2, 0, 0] · slices_S5x48x32_S1x48x32_2_0_0) main_arg2
  let main_v102 : FVec F S48x32 .f32 := shapeCast S48x32 main_v101 shapeCasts_S1x48x32_S48x32
  fn_part5 (F := F) main_arg0 main_arg1 main_arg2 main_arg3 main_arg4 main_arg5 main_v1 main_v3 main_v42 main_v83 main_v85 main_v100 main_v102

def fn_part3 {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) (main_v1 : IVec S54x3 32) (main_v3 : IVec S54x3 32) (main_v42 : FVec F S4096x54x1 .f32) (main_v44 : FVec F S4096x54x32 .f32) (main_v59 : FVec F S4096x54x3x48 .f32) (main_v60 : FVec F S1x48x32 .f32) : IVec S_ 1 :=
  let main_v61 : FVec F S48x32 .f32 := shapeCast S48x32 main_v60 shapeCasts_S1x48x32_S48x32
  let main_v62 : FVec F S4096x54x3x32 .f32 := (fun l r => Host.dotGeneral dot_S4096x54x3x48_S48x32_S4096x54x3x32_3_0_012_1_n_n none l r) main_v59 main_v61
  let main_v63 : FVec F S1x32 .f32 := (extractStridedSlice S1x32 ![1, 0] · slices_S5x32_S1x32_1_0) main_arg3
  let main_v64 : FVec F S32 .f32 := shapeCast S32 main_v63 shapeCasts_S1x32_S32
  let main_v65 : FVec F S1x1x1x32 .f32 := broadcastInDim S1x1x1x32 ![3] bcast_S32_S1x1x1x32_3 main_v64
  let main_v66 : FVec F S4096x54x3x32 .f32 := broadcastInDim S4096x54x3x32 ![0, 1, 2, 3] bcast_S1x1x1x32_S4096x54x3x32_0_1_2_3 main_v65
  let main_v67 : FVec F S4096x54x3x32 .f32 := addf main_v62 main_v66
  let main_v68 : FVec F S4096x54x3x32 .f32 := Host.tanh main_v67
  let main_cst_9 : FVec F S_ .f32 := constant S_ .f32 0xFF800000#32
  let main_v69 : FVec F S4096x54x32 .f32 := (fun x v => Host.reduce FloatOps.maximumf x v reducesTo_S4096x54x3x32_S4096x54x32_d2 h_S_) main_v68 main_cst_9
  let main_v70 : FVec F S4096x54x64 .f32 := (fun a b => concatenate S4096x54x64 2 [⟨S4096x54x32, a⟩, ⟨S4096x54x32, b⟩] concatenates_S4096x54x32_S4096x54x32_S4096x54x64_d2) main_v44 main_v69
  let main_v71 : FVec F S1x64x32 .f32 := (extractStridedSlice S1x64x32 ![1, 0, 0] · slices_S5x64x32_S1x64x32_1_0_0) main_arg4
  let main_v72 : FVec F S64x32 .f32 := shapeCast S64x32 main_v71 shapeCasts_S1x64x32_S64x32
  let main_v73 : FVec F S4096x54x32 .f32 := (fun l r => Host.dotGeneral dot_S4096x54x64_S64x32_S4096x54x32_2_0_01_1_n_n none l r) main_v70 main_v72
  let main_v74 : FVec F S1x32 .f32 := (extractStridedSlice S1x32 ![1, 0] · slices_S5x32_S1x32_1_0) main_arg5
  let main_v75 : FVec F S32 .f32 := shapeCast S32 main_v74 shapeCasts_S1x32_S32
  let main_v76 : FVec F S1x1x32 .f32 := broadcastInDim S1x1x32 ![2] bcast_S32_S1x1x32_2 main_v75
  let main_v77 : FVec F S4096x54x32 .f32 := broadcastInDim S4096x54x32 ![0, 1, 2] bcast_S1x1x32_S4096x54x32_0_1_2 main_v76
  let main_v78 : FVec F S4096x54x32 .f32 := addf main_v73 main_v77
  let main_v79 : FVec F S4096x54x32 .f32 := Host.tanh main_v78
  let main_v80 : FVec F S4096x54x32 .f32 := mulf main_v79 main_v79
  let main_cst_10 : FVec F S_ .f32 := constant S_ .f32 0x00000000#32
  let main_v81 : FVec F S4096x54 .f32 := (fun x v => Host.reduceAdd x v reducesTo_S4096x54x32_S4096x54_d2 h_S_) main_v80 main_cst_10
  let main_v82 : FVec F S4096x54x1 .f32 := broadcastInDim S4096x54x1 ![0, 1] bcast_S4096x54_S4096x54x1_0_1 main_v81
  fn_part4 (F := F) main_arg0 main_arg1 main_arg2 main_arg3 main_arg4 main_arg5 main_v1 main_v3 main_v42 main_v79 main_v82

def fn_part2 {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) (main_v1 : IVec S54x3 32) (main_v3 : IVec S54x3 32) (main_v38 : FVec F S4096x54x32 .f32) (main_v40 : FVec F S4096x54 .f32) : IVec S_ 1 :=
  let main_v41 : FVec F S4096x54x1 .f32 := broadcastInDim S4096x54x1 ![0, 1] bcast_S4096x54_S4096x54x1_0_1 main_v40
  let main_v42 : FVec F S4096x54x1 .f32 := Host.sqrt main_v41
  let main_v43 : FVec F S4096x54x32 .f32 := broadcastInDim S4096x54x32 ![0, 1, 2] bcast_S4096x54x1_S4096x54x32_0_1_2 main_v42
  let main_v44 : FVec F S4096x54x32 .f32 := Host.divf main_v38 main_v43
  let main_c_5 : IVec S_ 32 := constantI S_ 32 0#32
  let main_v45 : IVec S54x3 32 := broadcastInDim S54x3 ![] bcast_S_S54x3 main_c_5
  let main_v46 : IVec S54x3 1 := cmpi .slt main_v1 main_v45
  let main_c_6 : IVec S_ 32 := constantI S_ 32 54#32
  let main_v47 : IVec S54x3 32 := broadcastInDim S54x3 ![] bcast_S_S54x3 main_c_6
  let main_v48 : IVec S54x3 32 := addi main_v1 main_v47
  let main_v49 : IVec S54x3 32 := select main_v46 main_v48 main_v1
  let main_v50 : IVec S54x3x1 32 := broadcastInDim S54x3x1 ![0, 1] bcast_S54x3_S54x3x1_0_1 main_v49
  let main_v51 : FVec F S4096x54x3x32 .f32 := (fun x i => Host.gather gather_S4096x54x32_S54x3x1_S4096x54x3x32_03_1_n_n_1_2_4096132 x i) main_v44 main_v50
  let main_c_7 : IVec S_ 32 := constantI S_ 32 0#32
  let main_v52 : IVec S54x3 32 := broadcastInDim S54x3 ![] bcast_S_S54x3 main_c_7
  let main_v53 : IVec S54x3 1 := cmpi .slt main_v3 main_v52
  let main_c_8 : IVec S_ 32 := constantI S_ 32 72#32
  let main_v54 : IVec S54x3 32 := broadcastInDim S54x3 ![] bcast_S_S54x3 main_c_8
  let main_v55 : IVec S54x3 32 := addi main_v3 main_v54
  let main_v56 : IVec S54x3 32 := select main_v53 main_v55 main_v3
  let main_v57 : IVec S54x3x1 32 := broadcastInDim S54x3x1 ![0, 1] bcast_S54x3_S54x3x1_0_1 main_v56
  let main_v58 : FVec F S4096x54x3x16 .f32 := (fun x i => Host.gather gather_S4096x72x16_S54x3x1_S4096x54x3x16_03_1_n_n_1_2_4096116 x i) main_arg1 main_v57
  let main_v59 : FVec F S4096x54x3x48 .f32 := (fun a b => concatenate S4096x54x3x48 3 [⟨S4096x54x3x32, a⟩, ⟨S4096x54x3x16, b⟩] concatenates_S4096x54x3x32_S4096x54x3x16_S4096x54x3x48_d3) main_v51 main_v58
  let main_v60 : FVec F S1x48x32 .f32 := (extractStridedSlice S1x48x32 ![1, 0, 0] · slices_S5x48x32_S1x48x32_1_0_0) main_arg2
  fn_part3 (F := F) main_arg0 main_arg1 main_arg2 main_arg3 main_arg4 main_arg5 main_v1 main_v3 main_v42 main_v44 main_v59 main_v60

def fn_part1 {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) (main_v1 : IVec S54x3 32) (main_v3 : IVec S54x3 32) (main_v18 : FVec F S4096x54x3x48 .f32) : IVec S_ 1 :=
  let main_v19 : FVec F S1x48x32 .f32 := (extractStridedSlice S1x48x32 ![0, 0, 0] · slices_S5x48x32_S1x48x32_0_0_0) main_arg2
  let main_v20 : FVec F S48x32 .f32 := shapeCast S48x32 main_v19 shapeCasts_S1x48x32_S48x32
  let main_v21 : FVec F S4096x54x3x32 .f32 := (fun l r => Host.dotGeneral dot_S4096x54x3x48_S48x32_S4096x54x3x32_3_0_012_1_n_n none l r) main_v18 main_v20
  let main_v22 : FVec F S1x32 .f32 := (extractStridedSlice S1x32 ![0, 0] · slices_S5x32_S1x32_0_0) main_arg3
  let main_v23 : FVec F S32 .f32 := shapeCast S32 main_v22 shapeCasts_S1x32_S32
  let main_v24 : FVec F S1x1x1x32 .f32 := broadcastInDim S1x1x1x32 ![3] bcast_S32_S1x1x1x32_3 main_v23
  let main_v25 : FVec F S4096x54x3x32 .f32 := broadcastInDim S4096x54x3x32 ![0, 1, 2, 3] bcast_S1x1x1x32_S4096x54x3x32_0_1_2_3 main_v24
  let main_v26 : FVec F S4096x54x3x32 .f32 := addf main_v21 main_v25
  let main_v27 : FVec F S4096x54x3x32 .f32 := Host.tanh main_v26
  let main_cst : FVec F S_ .f32 := constant S_ .f32 0xFF800000#32
  let main_v28 : FVec F S4096x54x32 .f32 := (fun x v => Host.reduce FloatOps.maximumf x v reducesTo_S4096x54x3x32_S4096x54x32_d2 h_S_) main_v27 main_cst
  let main_v29 : FVec F S4096x54x64 .f32 := (fun a b => concatenate S4096x54x64 2 [⟨S4096x54x32, a⟩, ⟨S4096x54x32, b⟩] concatenates_S4096x54x32_S4096x54x32_S4096x54x64_d2) main_arg0 main_v28
  let main_v30 : FVec F S1x64x32 .f32 := (extractStridedSlice S1x64x32 ![0, 0, 0] · slices_S5x64x32_S1x64x32_0_0_0) main_arg4
  let main_v31 : FVec F S64x32 .f32 := shapeCast S64x32 main_v30 shapeCasts_S1x64x32_S64x32
  let main_v32 : FVec F S4096x54x32 .f32 := (fun l r => Host.dotGeneral dot_S4096x54x64_S64x32_S4096x54x32_2_0_01_1_n_n none l r) main_v29 main_v31
  let main_v33 : FVec F S1x32 .f32 := (extractStridedSlice S1x32 ![0, 0] · slices_S5x32_S1x32_0_0) main_arg5
  let main_v34 : FVec F S32 .f32 := shapeCast S32 main_v33 shapeCasts_S1x32_S32
  let main_v35 : FVec F S1x1x32 .f32 := broadcastInDim S1x1x32 ![2] bcast_S32_S1x1x32_2 main_v34
  let main_v36 : FVec F S4096x54x32 .f32 := broadcastInDim S4096x54x32 ![0, 1, 2] bcast_S1x1x32_S4096x54x32_0_1_2 main_v35
  let main_v37 : FVec F S4096x54x32 .f32 := addf main_v32 main_v36
  let main_v38 : FVec F S4096x54x32 .f32 := Host.tanh main_v37
  let main_v39 : FVec F S4096x54x32 .f32 := mulf main_v38 main_v38
  let main_cst_4 : FVec F S_ .f32 := constant S_ .f32 0x00000000#32
  let main_v40 : FVec F S4096x54 .f32 := (fun x v => Host.reduceAdd x v reducesTo_S4096x54x32_S4096x54_d2 h_S_) main_v39 main_cst_4
  fn_part2 (F := F) main_arg0 main_arg1 main_arg2 main_arg3 main_arg4 main_arg5 main_v1 main_v3 main_v38 main_v40

def fn {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) : IVec S_ 1 :=
  let main_c : IVec S54x3x2 32 := fun i => lit0 (S54x3x2.rowMajor i)
  let main_v0 : IVec S54x3x1 32 := (extractStridedSlice S54x3x1 ![0, 0, 0] · slices_S54x3x2_S54x3x1_0_0_0) main_c
  let main_v1 : IVec S54x3 32 := shapeCast S54x3 main_v0 shapeCasts_S54x3x1_S54x3
  let main_v2 : IVec S54x3x1 32 := (extractStridedSlice S54x3x1 ![0, 0, 1] · slices_S54x3x2_S54x3x1_0_0_1) main_c
  let main_v3 : IVec S54x3 32 := shapeCast S54x3 main_v2 shapeCasts_S54x3x1_S54x3
  let main_c_0 : IVec S_ 32 := constantI S_ 32 0#32
  let main_v4 : IVec S54x3 32 := broadcastInDim S54x3 ![] bcast_S_S54x3 main_c_0
  let main_v5 : IVec S54x3 1 := cmpi .slt main_v1 main_v4
  let main_c_1 : IVec S_ 32 := constantI S_ 32 54#32
  let main_v6 : IVec S54x3 32 := broadcastInDim S54x3 ![] bcast_S_S54x3 main_c_1
  let main_v7 : IVec S54x3 32 := addi main_v1 main_v6
  let main_v8 : IVec S54x3 32 := select main_v5 main_v7 main_v1
  let main_v9 : IVec S54x3x1 32 := broadcastInDim S54x3x1 ![0, 1] bcast_S54x3_S54x3x1_0_1 main_v8
  let main_v10 : FVec F S4096x54x3x32 .f32 := (fun x i => Host.gather gather_S4096x54x32_S54x3x1_S4096x54x3x32_03_1_n_n_1_2_4096132 x i) main_arg0 main_v9
  let main_c_2 : IVec S_ 32 := constantI S_ 32 0#32
  let main_v11 : IVec S54x3 32 := broadcastInDim S54x3 ![] bcast_S_S54x3 main_c_2
  let main_v12 : IVec S54x3 1 := cmpi .slt main_v3 main_v11
  let main_c_3 : IVec S_ 32 := constantI S_ 32 72#32
  let main_v13 : IVec S54x3 32 := broadcastInDim S54x3 ![] bcast_S_S54x3 main_c_3
  let main_v14 : IVec S54x3 32 := addi main_v3 main_v13
  let main_v15 : IVec S54x3 32 := select main_v12 main_v14 main_v3
  let main_v16 : IVec S54x3x1 32 := broadcastInDim S54x3x1 ![0, 1] bcast_S54x3_S54x3x1_0_1 main_v15
  let main_v17 : FVec F S4096x54x3x16 .f32 := (fun x i => Host.gather gather_S4096x72x16_S54x3x1_S4096x54x3x16_03_1_n_n_1_2_4096116 x i) main_arg1 main_v16
  let main_v18 : FVec F S4096x54x3x48 .f32 := (fun a b => concatenate S4096x54x3x48 3 [⟨S4096x54x3x32, a⟩, ⟨S4096x54x3x16, b⟩] concatenates_S4096x54x3x32_S4096x54x3x16_S4096x54x3x48_d3) main_v10 main_v17
  fn_part1 (F := F) main_arg0 main_arg1 main_arg2 main_arg3 main_arg4 main_arg5 main_v1 main_v3 main_v18
-- ==== Kernel.lean ====
abbrev S4096x54x32 : Shape := ⟨3, ![4096, 54, 32]⟩
abbrev S4096x72x16 : Shape := ⟨3, ![4096, 72, 16]⟩
abbrev S5x48x32 : Shape := ⟨3, ![5, 48, 32]⟩
abbrev S5x32 : Shape := ⟨2, ![5, 32]⟩
abbrev S5x64x32 : Shape := ⟨3, ![5, 64, 32]⟩
abbrev S54x4096x32 : Shape := ⟨3, ![54, 4096, 32]⟩
abbrev S54x1024x128 : Shape := ⟨3, ![54, 1024, 128]⟩
abbrev S1024x4x24x3x16 : Shape := ⟨5, ![1024, 4, 24, 3, 16]⟩
abbrev S3x24x1024x4x16 : Shape := ⟨5, ![3, 24, 1024, 4, 16]⟩
abbrev S72x1024x64 : Shape := ⟨3, ![72, 1024, 64]⟩
abbrev S5x32x32 : Shape := ⟨3, ![5, 32, 32]⟩
abbrev S5x16x32 : Shape := ⟨3, ![5, 16, 32]⟩
abbrev S4x4 : Shape := ⟨2, ![4, 4]⟩
abbrev S_ : Shape := ⟨0, ![]⟩
abbrev S1x4x1x4x1 : Shape := ⟨5, ![1, 4, 1, 4, 1]⟩
abbrev S5x1x32x1x32 : Shape := ⟨5, ![5, 1, 32, 1, 32]⟩
abbrev S5x4x32x4x32 : Shape := ⟨5, ![5, 4, 32, 4, 32]⟩
abbrev S5x128x128 : Shape := ⟨3, ![5, 128, 128]⟩
abbrev S5x1x16x1x32 : Shape := ⟨5, ![5, 1, 16, 1, 32]⟩
abbrev S5x4x16x4x32 : Shape := ⟨5, ![5, 4, 16, 4, 32]⟩
abbrev S5x64x128 : Shape := ⟨3, ![5, 64, 128]⟩
abbrev S1x5x1x32 : Shape := ⟨4, ![1, 5, 1, 32]⟩
abbrev S1x5x4x32 : Shape := ⟨4, ![1, 5, 4, 32]⟩
abbrev S5x128 : Shape := ⟨2, ![5, 128]⟩
abbrev S5x1x128 : Shape := ⟨3, ![5, 1, 128]⟩
abbrev S32x32 : Shape := ⟨2, ![32, 32]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S54x128x128 : Shape := ⟨3, ![54, 128, 128]⟩
abbrev S72x128x64 : Shape := ⟨3, ![72, 128, 64]⟩
abbrev S1x128x128 : Shape := ⟨3, ![1, 128, 128]⟩
abbrev S6912x128 : Shape := ⟨2, ![6912, 128]⟩
abbrev S1x64x128 : Shape := ⟨3, ![1, 64, 128]⟩
abbrev S64x128 : Shape := ⟨2, ![64, 128]⟩
abbrev S9216x64 : Shape := ⟨2, ![9216, 64]⟩
abbrev S9216x128 : Shape := ⟨2, ![9216, 128]⟩
abbrev S72x128x128 : Shape := ⟨3, ![72, 128, 128]⟩
abbrev S53x128x128 : Shape := ⟨3, ![53, 128, 128]⟩
abbrev S24x128x128 : Shape := ⟨3, ![24, 128, 128]⟩
abbrev S6x128x128 : Shape := ⟨3, ![6, 128, 128]⟩
abbrev S52x128x128 : Shape := ⟨3, ![52, 128, 128]⟩
abbrev S2x128x128 : Shape := ⟨3, ![2, 128, 128]⟩
abbrev S51x128x128 : Shape := ⟨3, ![51, 128, 128]⟩
abbrev S3x128x128 : Shape := ⟨3, ![3, 128, 128]⟩
abbrev S1x1x128 : Shape := ⟨3, ![1, 1, 128]⟩
abbrev S1x128 : Shape := ⟨2, ![1, 128]⟩

abbrev nBuf : Space → Nat
  | .hbm => 93
  | .vmem => 13
  | .smem => 0
  | _ => 0

abbrev bufTy : (tb : Table) → Fin (tcTables nBuf tb) → BufTy
  | .hbm, ⟨0, _⟩ => ⟨S4096x54x32, .f32⟩
  | .hbm, ⟨1, _⟩ => ⟨S4096x72x16, .f32⟩
  | .hbm, ⟨2, _⟩ => ⟨S5x48x32, .f32⟩
  | .hbm, ⟨3, _⟩ => ⟨S5x32, .f32⟩
  | .hbm, ⟨4, _⟩ => ⟨S5x64x32, .f32⟩
  | .hbm, ⟨5, _⟩ => ⟨S5x32, .f32⟩
  | .hbm, ⟨6, _⟩ => ⟨S54x4096x32, .f32⟩
  | .hbm, ⟨7, _⟩ => ⟨S54x1024x128, .f32⟩
  | .hbm, ⟨8, _⟩ => ⟨S1024x4x24x3x16, .f32⟩
  | .hbm, ⟨9, _⟩ => ⟨S3x24x1024x4x16, .f32⟩
  | .hbm, ⟨10, _⟩ => ⟨S72x1024x64, .f32⟩
  | .hbm, ⟨11, _⟩ => ⟨S5x32x32, .f32⟩
  | .hbm, ⟨12, _⟩ => ⟨S5x16x32, .f32⟩
  | .hbm, ⟨13, _⟩ => ⟨S4x4, .i32⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i1⟩
  | .hbm, ⟨19, _⟩ => ⟨S4x4, .f32⟩
  | .hbm, ⟨20, _⟩ => ⟨S1x4x1x4x1, .f32⟩
  | .hbm, ⟨21, _⟩ => ⟨S5x1x32x1x32, .f32⟩
  | .hbm, ⟨22, _⟩ => ⟨S5x4x32x4x32, .f32⟩
  | .hbm, ⟨23, _⟩ => ⟨S5x4x32x4x32, .f32⟩
  | .hbm, ⟨24, _⟩ => ⟨S5x4x32x4x32, .f32⟩
  | .hbm, ⟨25, _⟩ => ⟨S5x128x128, .f32⟩
  | .hbm, ⟨26, _⟩ => ⟨S4x4, .i32⟩
  | .hbm, ⟨27, _⟩ => ⟨S4x4, .i32⟩
  | .hbm, ⟨28, _⟩ => ⟨S_, .i32⟩
  | .hbm, ⟨29, _⟩ => ⟨S4x4, .i32⟩
  | .hbm, ⟨30, _⟩ => ⟨S4x4, .i32⟩
  | .hbm, ⟨31, _⟩ => ⟨S4x4, .i1⟩
  | .hbm, ⟨32, _⟩ => ⟨S4x4, .f32⟩
  | .hbm, ⟨33, _⟩ => ⟨S1x4x1x4x1, .f32⟩
  | .hbm, ⟨34, _⟩ => ⟨S5x1x16x1x32, .f32⟩
  | .hbm, ⟨35, _⟩ => ⟨S5x4x16x4x32, .f32⟩
  | .hbm, ⟨36, _⟩ => ⟨S5x4x16x4x32, .f32⟩
  | .hbm, ⟨37, _⟩ => ⟨S5x4x16x4x32, .f32⟩
  | .hbm, ⟨38, _⟩ => ⟨S5x64x128, .f32⟩
  | .hbm, ⟨39, _⟩ => ⟨S5x32x32, .f32⟩
  | .hbm, ⟨40, _⟩ => ⟨S4x4, .i32⟩
  | .hbm, ⟨41, _⟩ => ⟨S4x4, .i32⟩
  | .hbm, ⟨42, _⟩ => ⟨S_, .i32⟩
  | .hbm, ⟨43, _⟩ => ⟨S4x4, .i32⟩
  | .hbm, ⟨44, _⟩ => ⟨S4x4, .i32⟩
  | .hbm, ⟨45, _⟩ => ⟨S4x4, .i1⟩
  | .hbm, ⟨46, _⟩ => ⟨S4x4, .f32⟩
  | .hbm, ⟨47, _⟩ => ⟨S1x4x1x4x1, .f32⟩
  | .hbm, ⟨48, _⟩ => ⟨S5x1x32x1x32, .f32⟩
  | .hbm, ⟨49, _⟩ => ⟨S5x4x32x4x32, .f32⟩
  | .hbm, ⟨50, _⟩ => ⟨S5x4x32x4x32, .f32⟩
  | .hbm, ⟨51, _⟩ => ⟨S5x4x32x4x32, .f32⟩
  | .hbm, ⟨52, _⟩ => ⟨S5x128x128, .f32⟩
  | .hbm, ⟨53, _⟩ => ⟨S5x32x32, .f32⟩
  | .hbm, ⟨54, _⟩ => ⟨S4x4, .i32⟩
  | .hbm, ⟨55, _⟩ => ⟨S4x4, .i32⟩
  | .hbm, ⟨56, _⟩ => ⟨S_, .i32⟩
  | .hbm, ⟨57, _⟩ => ⟨S4x4, .i32⟩
  | .hbm, ⟨58, _⟩ => ⟨S4x4, .i32⟩
  | .hbm, ⟨59, _⟩ => ⟨S4x4, .i1⟩
  | .hbm, ⟨60, _⟩ => ⟨S4x4, .f32⟩
  | .hbm, ⟨61, _⟩ => ⟨S1x4x1x4x1, .f32⟩
  | .hbm, ⟨62, _⟩ => ⟨S5x1x32x1x32, .f32⟩
  | .hbm, ⟨63, _⟩ => ⟨S5x4x32x4x32, .f32⟩
  | .hbm, ⟨64, _⟩ => ⟨S5x4x32x4x32, .f32⟩
  | .hbm, ⟨65, _⟩ => ⟨S5x4x32x4x32, .f32⟩
  | .hbm, ⟨66, _⟩ => ⟨S5x128x128, .f32⟩
  | .hbm, ⟨67, _⟩ => ⟨S1x5x1x32, .f32⟩
  | .hbm, ⟨68, _⟩ => ⟨S1x5x4x32, .f32⟩
  | .hbm, ⟨69, _⟩ => ⟨S5x128, .f32⟩
  | .hbm, ⟨70, _⟩ => ⟨S5x1x128, .f32⟩
  | .hbm, ⟨71, _⟩ => ⟨S1x5x1x32, .f32⟩
  | .hbm, ⟨72, _⟩ => ⟨S1x5x4x32, .f32⟩
  | .hbm, ⟨73, _⟩ => ⟨S5x128, .f32⟩
  | .hbm, ⟨74, _⟩ => ⟨S5x1x128, .f32⟩
  | .hbm, ⟨75, _⟩ => ⟨S4x4, .i32⟩
  | .hbm, ⟨76, _⟩ => ⟨S4x4, .i32⟩
  | .hbm, ⟨77, _⟩ => ⟨S_, .i32⟩
  | .hbm, ⟨78, _⟩ => ⟨S4x4, .i32⟩
  | .hbm, ⟨79, _⟩ => ⟨S4x4, .i32⟩
  | .hbm, ⟨80, _⟩ => ⟨S4x4, .i1⟩
  | .hbm, ⟨81, _⟩ => ⟨S4x4, .f32⟩
  | .hbm, ⟨82, _⟩ => ⟨S_, .f32⟩
  | .hbm, ⟨83, _⟩ => ⟨S32x32, .f32⟩
  | .hbm, ⟨84, _⟩ => ⟨S4x1x4x1, .f32⟩
  | .hbm, ⟨85, _⟩ => ⟨S1x32x1x32, .f32⟩
  | .hbm, ⟨86, _⟩ => ⟨S4x32x4x32, .f32⟩
  | .hbm, ⟨87, _⟩ => ⟨S4x32x4x32, .f32⟩
  | .hbm, ⟨88, _⟩ => ⟨S4x32x4x32, .f32⟩
  | .hbm, ⟨89, _⟩ => ⟨S128x128, .f32⟩
  | .hbm, ⟨90, _⟩ => ⟨S54x1024x128, .f32⟩
  | .hbm, ⟨91, _⟩ => ⟨S54x4096x32, .f32⟩
  | .hbm, ⟨92, _⟩ => ⟨S4096x54x32, .f32⟩
  | .local _ .vmem, ⟨0, _⟩ => ⟨S54x128x128, .f32⟩
  | .local _ .vmem, ⟨1, _⟩ => ⟨S54x128x128, .f32⟩
  | .local _ .vmem, ⟨2, _⟩ => ⟨S72x128x64, .f32⟩
  | .local _ .vmem, ⟨3, _⟩ => ⟨S72x128x64, .f32⟩
  | .local _ .vmem, ⟨4, _⟩ => ⟨S5x128x128, .f32⟩
  | .local _ .vmem, ⟨5, _⟩ => ⟨S5x64x128, .f32⟩
  | .local _ .vmem, ⟨6, _⟩ => ⟨S5x128x128, .f32⟩
  | .local _ .vmem, ⟨7, _⟩ => ⟨S5x128x128, .f32⟩
  | .local _ .vmem, ⟨8, _⟩ => ⟨S5x1x128, .f32⟩
  | .local _ .vmem, ⟨9, _⟩ => ⟨S5x1x128, .f32⟩
  | .local _ .vmem, ⟨10, _⟩ => ⟨S128x128, .f32⟩
  | .local _ .vmem, ⟨11, _⟩ => ⟨S54x128x128, .f32⟩
  | .local _ .vmem, ⟨12, _⟩ => ⟨S54x128x128, .f32⟩
  | _, _ => ⟨S4096x54x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_2 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_c_3 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst : Ref sig .tc := ⟨.hbm, 82, rfl⟩
abbrev main_v71 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S54x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S72x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S54x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S4096x54x32_S54x4096x32_1_0_2 : S4096x54x32.Transposes [1, 0, 2] S54x4096x32
  shapeCasts_S54x4096x32_S54x1024x128 : S54x4096x32.ShapeCasts S54x1024x128
  shapeCasts_S4096x72x16_S1024x4x24x3x16 : S4096x72x16.ShapeCasts S1024x4x24x3x16
  transposes_S1024x4x24x3x16_S3x24x1024x4x16_3_2_0_1_4 : S1024x4x24x3x16.Transposes [3, 2, 0, 1, 4] S3x24x1024x4x16
  shapeCasts_S3x24x1024x4x16_S72x1024x64 : S3x24x1024x4x16.ShapeCasts S72x1024x64
  slices_S5x48x32_S5x32x32_0_0_0 : S5x48x32.Slices ![0, 0, 0] S5x32x32
  slices_S5x48x32_S5x16x32_0_32_0 : S5x48x32.Slices ![0, 32, 0] S5x16x32
  bcast_S_S4x4 : S_.BroadcastsInDim S4x4 (![] : Fin 0 → Fin S4x4.rank)
  bcast_S4x4_S1x4x1x4x1_1_3 : S4x4.BroadcastsInDim S1x4x1x4x1 (![1, 3] : Fin 2 → Fin S1x4x1x4x1.rank)
  bcast_S5x32x32_S5x1x32x1x32_0_2_4 : S5x32x32.BroadcastsInDim S5x1x32x1x32 (![0, 2, 4] : Fin 3 → Fin S5x1x32x1x32.rank)
  bcast_S1x4x1x4x1_S5x4x32x4x32_0_1_2_3_4 : S1x4x1x4x1.BroadcastsInDim S5x4x32x4x32 (![0, 1, 2, 3, 4] : Fin 5 → Fin S5x4x32x4x32.rank)
  bcast_S5x1x32x1x32_S5x4x32x4x32_0_1_2_3_4 : S5x1x32x1x32.BroadcastsInDim S5x4x32x4x32 (![0, 1, 2, 3, 4] : Fin 5 → Fin S5x4x32x4x32.rank)
  shapeCasts_S5x4x32x4x32_S5x128x128 : S5x4x32x4x32.ShapeCasts S5x128x128
  bcast_S5x16x32_S5x1x16x1x32_0_2_4 : S5x16x32.BroadcastsInDim S5x1x16x1x32 (![0, 2, 4] : Fin 3 → Fin S5x1x16x1x32.rank)
  bcast_S1x4x1x4x1_S5x4x16x4x32_0_1_2_3_4 : S1x4x1x4x1.BroadcastsInDim S5x4x16x4x32 (![0, 1, 2, 3, 4] : Fin 5 → Fin S5x4x16x4x32.rank)
  bcast_S5x1x16x1x32_S5x4x16x4x32_0_1_2_3_4 : S5x1x16x1x32.BroadcastsInDim S5x4x16x4x32 (![0, 1, 2, 3, 4] : Fin 5 → Fin S5x4x16x4x32.rank)
  shapeCasts_S5x4x16x4x32_S5x64x128 : S5x4x16x4x32.ShapeCasts S5x64x128
  slices_S5x64x32_S5x32x32_0_0_0 : S5x64x32.Slices ![0, 0, 0] S5x32x32
  slices_S5x64x32_S5x32x32_0_32_0 : S5x64x32.Slices ![0, 32, 0] S5x32x32
  shapeCasts_S5x32_S1x5x1x32 : S5x32.ShapeCasts S1x5x1x32
  bcast_S1x5x1x32_S1x5x4x32_0_1_2_3 : S1x5x1x32.BroadcastsInDim S1x5x4x32 (![0, 1, 2, 3] : Fin 4 → Fin S1x5x4x32.rank)
  shapeCasts_S1x5x4x32_S5x128 : S1x5x4x32.ShapeCasts S5x128
  shapeCasts_S5x128_S5x1x128 : S5x128.ShapeCasts S5x1x128
  bcast_S_S32x32 : S_.BroadcastsInDim S32x32 (![] : Fin 0 → Fin S32x32.rank)
  bcast_S4x4_S4x1x4x1_0_2 : S4x4.BroadcastsInDim S4x1x4x1 (![0, 2] : Fin 2 → Fin S4x1x4x1.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  inb_S54x128x128_S54x128x128_0_0_0 : ∀ a, (![0, 0, 0] : Fin 3 → Nat) a + S54x128x128.size a ≤ S54x128x128.size a
  h_S54x128x128 : 0 < S54x128x128.numel
  shapeCasts_S54x128x128_S54x128x128 : S54x128x128.ShapeCasts S54x128x128
  inb_S72x128x64_S72x128x64_0_0_0 : ∀ a, (![0, 0, 0] : Fin 3 → Nat) a + S72x128x64.size a ≤ S72x128x64.size a
  h_S72x128x64 : 0 < S72x128x64.numel
  shapeCasts_S72x128x64_S72x128x64 : S72x128x64.ShapeCasts S72x128x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  shapeCasts_S54x128x128_S6912x128 : S54x128x128.ShapeCasts S6912x128
  shapeCasts_S6912x128_S54x128x128 : S6912x128.ShapeCasts S54x128x128
  inb_S5x64x128_S1x64x128_0_0_0 : ∀ a, (![0, 0, 0] : Fin 3 → Nat) a + S1x64x128.size a ≤ S5x64x128.size a
  h_S1x64x128 : 0 < S1x64x128.numel
  shapeCasts_S1x64x128_S64x128 : S1x64x128.ShapeCasts S64x128
  shapeCasts_S72x128x64_S9216x64 : S72x128x64.ShapeCasts S9216x64
  shapeCasts_S9216x128_S72x128x128 : S9216x128.ShapeCasts S72x128x128
  slices_S54x128x128_o1_0_0_S53x128x128 : S54x128x128.Slices ![1, 0, 0] S53x128x128
  slices_S54x128x128_o0_0_0_S1x128x128 : S54x128x128.Slices ![0, 0, 0] S1x128x128
  concatenates_S53x128x128_S1x128x128_S54x128x128_d0 : Shape.Concatenates [S53x128x128, S1x128x128] S54x128x128 0
  slices_S72x128x128_o0_0_0_S24x128x128 : S72x128x128.Slices ![0, 0, 0] S24x128x128
  slices_S24x128x128_o0_0_0_S6x128x128 : S24x128x128.Slices ![0, 0, 0] S6x128x128
  concatenates_S24x128x128_S24x128x128_S6x128x128_S54x128x128_d0 : Shape.Concatenates [S24x128x128, S24x128x128, S6x128x128] S54x128x128 0
  slices_S54x128x128_o2_0_0_S52x128x128 : S54x128x128.Slices ![2, 0, 0] S52x128x128
  slices_S54x128x128_o0_0_0_S2x128x128 : S54x128x128.Slices ![0, 0, 0] S2x128x128
  concatenates_S52x128x128_S2x128x128_S54x128x128_d0 : Shape.Concatenates [S52x128x128, S2x128x128] S54x128x128 0
  slices_S72x128x128_o24_0_0_S24x128x128 : S72x128x128.Slices ![24, 0, 0] S24x128x128
  slices_S54x128x128_o3_0_0_S51x128x128 : S54x128x128.Slices ![3, 0, 0] S51x128x128
  slices_S54x128x128_o0_0_0_S3x128x128 : S54x128x128.Slices ![0, 0, 0] S3x128x128
  concatenates_S51x128x128_S3x128x128_S54x128x128_d0 : Shape.Concatenates [S51x128x128, S3x128x128] S54x128x128 0
  slices_S72x128x128_o48_0_0_S24x128x128 : S72x128x128.Slices ![48, 0, 0] S24x128x128
  inb_S5x1x128_S1x1x128_0_0_0 : ∀ a, (![0, 0, 0] : Fin 3 → Nat) a + S1x1x128.size a ≤ S5x1x128.size a
  h_S1x1x128 : 0 < S1x1x128.numel
  shapeCasts_S1x1x128_S1x128 : S1x1x128.ShapeCasts S1x128
  shapeCasts_S1x128_S1x1x128 : S1x128.ShapeCasts S1x1x128
  broadcasts_S1x1x128_S54x128x128 : S1x1x128.Broadcasts S54x128x128
  inb_S5x128x128_S1x128x128_1_0_0 : ∀ a, (![1, 0, 0] : Fin 3 → Nat) a + S1x128x128.size a ≤ S5x128x128.size a
  inb_S5x64x128_S1x64x128_1_0_0 : ∀ a, (![1, 0, 0] : Fin 3 → Nat) a + S1x64x128.size a ≤ S5x64x128.size a
  inb_S5x1x128_S1x1x128_1_0_0 : ∀ a, (![1, 0, 0] : Fin 3 → Nat) a + S1x1x128.size a ≤ S5x1x128.size a
  inb_S5x128x128_S1x128x128_2_0_0 : ∀ a, (![2, 0, 0] : Fin 3 → Nat) a + S1x128x128.size a ≤ S5x128x128.size a
  inb_S5x64x128_S1x64x128_2_0_0 : ∀ a, (![2, 0, 0] : Fin 3 → Nat) a + S1x64x128.size a ≤ S5x64x128.size a
  inb_S5x1x128_S1x1x128_2_0_0 : ∀ a, (![2, 0, 0] : Fin 3 → Nat) a + S1x1x128.size a ≤ S5x1x128.size a
  inb_S5x128x128_S1x128x128_3_0_0 : ∀ a, (![3, 0, 0] : Fin 3 → Nat) a + S1x128x128.size a ≤ S5x128x128.size a
  inb_S5x64x128_S1x64x128_3_0_0 : ∀ a, (![3, 0, 0] : Fin 3 → Nat) a + S1x64x128.size a ≤ S5x64x128.size a
  inb_S5x1x128_S1x1x128_3_0_0 : ∀ a, (![3, 0, 0] : Fin 3 → Nat) a + S1x1x128.size a ≤ S5x1x128.size a
  inb_S5x128x128_S1x128x128_4_0_0 : ∀ a, (![4, 0, 0] : Fin 3 → Nat) a + S1x128x128.size a ≤ S5x128x128.size a
  inb_S5x64x128_S1x64x128_4_0_0 : ∀ a, (![4, 0, 0] : Fin 3 → Nat) a + S1x64x128.size a ≤ S5x64x128.size a
  inb_S5x1x128_S1x1x128_4_0_0 : ∀ a, (![4, 0, 0] : Fin 3 → Nat) a + S1x1x128.size a ≤ S5x1x128.size a
  shapeCasts_S54x1024x128_S54x4096x32 : S54x1024x128.ShapeCasts S54x4096x32
  transposes_S54x4096x32_S4096x54x32_1_0_2 : S54x4096x32.Transposes [1, 0, 2] S4096x54x32
  dot_S6912x128_S128x128_S6912x128_1_0_0_1_n_n_wf : DotDims.WF S6912x128 S128x128 S6912x128 [1] [0] [0] [1] [] []
  dot_S9216x64_S64x128_S9216x128_1_0_0_1_n_n_wf : DotDims.WF S9216x64 S64x128 S9216x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S54x128x128.size a ≤ S54x1024x128.size a
  hwx0_0 : ∀ i : grid0.Coords, EltTy.bits .f32 = 32 ∨ (Rect.block (s := S54x1024x128) S54x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S72x128x64.size a ≤ S72x1024x64.size a
  hwx0_1 : ∀ i : grid0.Coords, EltTy.bits .f32 = 32 ∨ (Rect.block (s := S72x1024x64) S72x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x128x128.size a ≤ S5x128x128.size a
  hwx0_2 : ∀ i : grid0.Coords, EltTy.bits .f32 = 32 ∨ (Rect.block (s := S5x128x128) S5x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x64x128.size a ≤ S5x64x128.size a
  hwx0_3 : ∀ i : grid0.Coords, EltTy.bits .f32 = 32 ∨ (Rect.block (s := S5x64x128) S5x64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x128x128.size a ≤ S5x128x128.size a
  hwx0_4 : ∀ i : grid0.Coords, EltTy.bits .f32 = 32 ∨ (Rect.block (s := S5x128x128) S5x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128x128.size a ≤ S5x128x128.size a
  hwx0_5 : ∀ i : grid0.Coords, EltTy.bits .f32 = 32 ∨ (Rect.block (s := S5x128x128) S5x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x1x128.size a ≤ S5x1x128.size a
  hwx0_6 : ∀ i : grid0.Coords, EltTy.bits .f32 = 32 ∨ (Rect.block (s := S5x1x128) S5x1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x1x128.size a ≤ S5x1x128.size a
  hwx0_7 : ∀ i : grid0.Coords, EltTy.bits .f32 = 32 ∨ (Rect.block (s := S5x1x128) S5x1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S54x128x128.size a ≤ S54x1024x128.size a
  hwx0_9 : ∀ i : grid0.Coords, EltTy.bits .f32 = 32 ∨ (Rect.block (s := S54x1024x128) S54x128x128.size (cc0_transform_9 i) (hinb0_9 i)).WholeWords (EltTy.packing .f32)

variable [Facts₀]

def dot_S6912x128_S128x128_S6912x128_1_0_0_1_n_n : DotDims S6912x128 S128x128 S6912x128 where
  lhsContracting := [1]
  rhsContracting := [0]
  lhsNonContracting := [0]
  rhsNonContracting := [1]
  lhsBatch := []
  rhsBatch := []
  wf := dot_S6912x128_S128x128_S6912x128_1_0_0_1_n_n_wf
def dot_S9216x64_S64x128_S9216x128_1_0_0_1_n_n : DotDims S9216x64 S64x128 S9216x128 where
  lhsContracting := [1]
  rhsContracting := [0]
  lhsNonContracting := [0]
  rhsNonContracting := [1]
  lhsBatch := []
  rhsBatch := []
  wf := dot_S9216x64_S64x128_S9216x128_1_0_0_1_n_n_wf

abbrev win0_0 : Pipeline.Window sig grid0 :=
  Pipeline.Window.ofSpec (Memref.whole main_v1) S54x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S72x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5x64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S5x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S5x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S5x1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v64) S5x1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v72) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v73) S54x128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x54x32 : Shape := ⟨3, ![4096, 54, 32]⟩
abbrev S4096x72x16 : Shape := ⟨3, ![4096, 72, 16]⟩
abbrev S5x48x32 : Shape := ⟨3, ![5, 48, 32]⟩
abbrev S5x32 : Shape := ⟨2, ![5, 32]⟩
abbrev S5x64x32 : Shape := ⟨3, ![5, 64, 32]⟩
abbrev S54x3x2 : Shape := ⟨3, ![54, 3, 2]⟩
abbrev S54x3x1 : Shape := ⟨3, ![54, 3, 1]⟩
abbrev S54x3 : Shape := ⟨2, ![54, 3]⟩
abbrev S_ : Shape := ⟨0, ![]⟩
abbrev S4096x54x3x32 : Shape := ⟨4, ![4096, 54, 3, 32]⟩
abbrev S4096x54x3x16 : Shape := ⟨4, ![4096, 54, 3, 16]⟩
abbrev S4096x54x3x48 : Shape := ⟨4, ![4096, 54, 3, 48]⟩
abbrev S1x48x32 : Shape := ⟨3, ![1, 48, 32]⟩
abbrev S48x32 : Shape := ⟨2, ![48, 32]⟩
abbrev S1x32 : Shape := ⟨2, ![1, 32]⟩
abbrev S32 : Shape := ⟨1, ![32]⟩
abbrev S1x1x1x32 : Shape := ⟨4, ![1, 1, 1, 32]⟩
abbrev S4096x54x64 : Shape := ⟨3, ![4096, 54, 64]⟩
abbrev S1x64x32 : Shape := ⟨3, ![1, 64, 32]⟩
abbrev S64x32 : Shape := ⟨2, ![64, 32]⟩
abbrev S1x1x32 : Shape := ⟨3, ![1, 1, 32]⟩
abbrev S4096x54 : Shape := ⟨2, ![4096, 54]⟩
abbrev S4096x54x1 : Shape := ⟨3, ![4096, 54, 1]⟩

abbrev nBuf : Space → Nat
  | .hbm => 238
  | .vmem => 0
  | .smem => 0
  | _ => 0

abbrev hbmTy0_0 (i : Nat) : BufTy := match i % 128 with
  | 0 => ⟨S4096x54x32, .f32⟩
  | 1 => ⟨S4096x72x16, .f32⟩
  | 2 => ⟨S5x48x32, .f32⟩
  | 3 => ⟨S5x32, .f32⟩
  | 4 => ⟨S5x64x32, .f32⟩
  | 5 => ⟨S5x32, .f32⟩
  | 6 => ⟨S54x3x2, .i32⟩
  | 7 => ⟨S54x3x1, .i32⟩
  | 8 => ⟨S54x3, .i32⟩
  | 9 => ⟨S54x3x1, .i32⟩
  | 10 => ⟨S54x3, .i32⟩
  | 11 => ⟨S_, .i32⟩
  | 12 => ⟨S54x3, .i32⟩
  | 13 => ⟨S54x3, .i1⟩
  | 14 => ⟨S_, .i32⟩
  | 15 => ⟨S54x3, .i32⟩
  | 16 => ⟨S54x3, .i32⟩
  | 17 => ⟨S54x3, .i32⟩
  | 18 => ⟨S54x3x1, .i32⟩
  | 19 => ⟨S4096x54x3x32, .f32⟩
  | 20 => ⟨S_, .i32⟩
  | 21 => ⟨S54x3, .i32⟩
  | 22 => ⟨S54x3, .i1⟩
  | 23 => ⟨S_, .i32⟩
  | 24 => ⟨S54x3, .i32⟩
  | 25 => ⟨S54x3, .i32⟩
  | 26 => ⟨S54x3, .i32⟩
  | 27 => ⟨S54x3x1, .i32⟩
  | 28 => ⟨S4096x54x3x16, .f32⟩
  | 29 => ⟨S4096x54x3x48, .f32⟩
  | 30 => ⟨S1x48x32, .f32⟩
  | 31 => ⟨S48x32, .f32⟩
  | 32 => ⟨S4096x54x3x32, .f32⟩
  | 33 => ⟨S1x32, .f32⟩
  | 34 => ⟨S32, .f32⟩
  | 35 => ⟨S1x1x1x32, .f32⟩
  | 36 => ⟨S4096x54x3x32, .f32⟩
  | 37 => ⟨S4096x54x3x32, .f32⟩
  | 38 => ⟨S4096x54x3x32, .f32⟩
  | 39 => ⟨S_, .f32⟩
  | 40 => ⟨S4096x54x32, .f32⟩
  | 41 => ⟨S4096x54x64, .f32⟩
  | 42 => ⟨S1x64x32, .f32⟩
  | 43 => ⟨S64x32, .f32⟩
  | 44 => ⟨S4096x54x32, .f32⟩
  | 45 => ⟨S1x32, .f32⟩
  | 46 => ⟨S32, .f32⟩
  | 47 => ⟨S1x1x32, .f32⟩
  | 48 => ⟨S4096x54x32, .f32⟩
  | 49 => ⟨S4096x54x32, .f32⟩
  | 50 => ⟨S4096x54x32, .f32⟩
  | 51 => ⟨S4096x54x32, .f32⟩
  | 52 => ⟨S_, .f32⟩
  | 53 => ⟨S4096x54, .f32⟩
  | 54 => ⟨S4096x54x1, .f32⟩
  | 55 => ⟨S4096x54x1, .f32⟩
  | 56 => ⟨S4096x54x32, .f32⟩
  | 57 => ⟨S4096x54x32, .f32⟩
  | 58 => ⟨S_, .i32⟩
  | 59 => ⟨S54x3, .i32⟩
  | 60 => ⟨S54x3, .i1⟩
  | 61 => ⟨S_, .i32⟩
  | 62 => ⟨S54x3, .i32⟩
  | 63 => ⟨S54x3, .i32⟩
  | 64 => ⟨S54x3, .i32⟩
  | 65 => ⟨S54x3x1, .i32⟩
  | 66 => ⟨S4096x54x3x32, .f32⟩
  | 67 => ⟨S_, .i32⟩
  | 68 => ⟨S54x3, .i32⟩
  | 69 => ⟨S54x3, .i1⟩
  | 70 => ⟨S_, .i32⟩
  | 71 => ⟨S54x3, .i32⟩
  | 72 => ⟨S54x3, .i32⟩
  | 73 => ⟨S54x3, .i32⟩
  | 74 => ⟨S54x3x1, .i32⟩
  | 75 => ⟨S4096x54x3x16, .f32⟩
  | 76 => ⟨S4096x54x3x48, .f32⟩
  | 77 => ⟨S1x48x32, .f32⟩
  | 78 => ⟨S48x32, .f32⟩
  | 79 => ⟨S4096x54x3x32, .f32⟩
  | 80 => ⟨S1x32, .f32⟩
  | 81 => ⟨S32, .f32⟩
  | 82 => ⟨S1x1x1x32, .f32⟩
  | 83 => ⟨S4096x54x3x32, .f32⟩
  | 84 => ⟨S4096x54x3x32, .f32⟩
  | 85 => ⟨S4096x54x3x32, .f32⟩
  | 86 => ⟨S_, .f32⟩
  | 87 => ⟨S4096x54x32, .f32⟩
  | 88 => ⟨S4096x54x64, .f32⟩
  | 89 => ⟨S1x64x32, .f32⟩
  | 90 => ⟨S64x32, .f32⟩
  | 91 => ⟨S4096x54x32, .f32⟩
  | 92 => ⟨S1x32, .f32⟩
  | 93 => ⟨S32, .f32⟩
  | 94 => ⟨S1x1x32, .f32⟩
  | 95 => ⟨S4096x54x32, .f32⟩
  | 96 => ⟨S4096x54x32, .f32⟩
  | 97 => ⟨S4096x54x32, .f32⟩
  | 98 => ⟨S4096x54x32, .f32⟩
  | 99 => ⟨S_, .f32⟩
  | 100 => ⟨S4096x54, .f32⟩
  | 101 => ⟨S4096x54x1, .f32⟩
  | 102 => ⟨S4096x54x1, .f32⟩
  | 103 => ⟨S4096x54x32, .f32⟩
  | 104 => ⟨S4096x54x32, .f32⟩
  | 105 => ⟨S_, .i32⟩
  | 106 => ⟨S54x3, .i32⟩
  | 107 => ⟨S54x3, .i1⟩
  | 108 => ⟨S_, .i32⟩
  | 109 => ⟨S54x3, .i32⟩
  | 110 => ⟨S54x3, .i32⟩
  | 111 => ⟨S54x3, .i32⟩
  | 112 => ⟨S54x3x1, .i32⟩
  | 113 => ⟨S4096x54x3x32, .f32⟩
  | 114 => ⟨S_, .i32⟩
  | 115 => ⟨S54x3, .i32⟩
  | 116 => ⟨S54x3, .i1⟩
  | 117 => ⟨S_, .i32⟩
  | 118 => ⟨S54x3, .i32⟩
  | 119 => ⟨S54x3, .i32⟩
  | 120 => ⟨S54x3, .i32⟩
  | 121 => ⟨S54x3x1, .i32⟩
  | 122 => ⟨S4096x54x3x16, .f32⟩
  | 123 => ⟨S4096x54x3x48, .f32⟩
  | 124 => ⟨S1x48x32, .f32⟩
  | 125 => ⟨S48x32, .f32⟩
  | 126 => ⟨S4096x54x3x32, .f32⟩
  | 127 => ⟨S1x32, .f32⟩
  | _ => ⟨S4096x54x32, .f32⟩

abbrev hbmTy0_1 (i : Nat) : BufTy := match i % 128 with
  | 0 => ⟨S32, .f32⟩
  | 1 => ⟨S1x1x1x32, .f32⟩
  | 2 => ⟨S4096x54x3x32, .f32⟩
  | 3 => ⟨S4096x54x3x32, .f32⟩
  | 4 => ⟨S4096x54x3x32, .f32⟩
  | 5 => ⟨S_, .f32⟩
  | 6 => ⟨S4096x54x32, .f32⟩
  | 7 => ⟨S4096x54x64, .f32⟩
  | 8 => ⟨S1x64x32, .f32⟩
  | 9 => ⟨S64x32, .f32⟩
  | 10 => ⟨S4096x54x32, .f32⟩
  | 11 => ⟨S1x32, .f32⟩
  | 12 => ⟨S32, .f32⟩
  | 13 => ⟨S1x1x32, .f32⟩
  | 14 => ⟨S4096x54x32, .f32⟩
  | 15 => ⟨S4096x54x32, .f32⟩
  | 16 => ⟨S4096x54x32, .f32⟩
  | 17 => ⟨S4096x54x32, .f32⟩
  | 18 => ⟨S_, .f32⟩
  | 19 => ⟨S4096x54, .f32⟩
  | 20 => ⟨S4096x54x1, .f32⟩
  | 21 => ⟨S4096x54x1, .f32⟩
  | 22 => ⟨S4096x54x32, .f32⟩
  | 23 => ⟨S4096x54x32, .f32⟩
  | 24 => ⟨S_, .i32⟩
  | 25 => ⟨S54x3, .i32⟩
  | 26 => ⟨S54x3, .i1⟩
  | 27 => ⟨S_, .i32⟩
  | 28 => ⟨S54x3, .i32⟩
  | 29 => ⟨S54x3, .i32⟩
  | 30 => ⟨S54x3, .i32⟩
  | 31 => ⟨S54x3x1, .i32⟩
  | 32 => ⟨S4096x54x3x32, .f32⟩
  | 33 => ⟨S_, .i32⟩
  | 34 => ⟨S54x3, .i32⟩
  | 35 => ⟨S54x3, .i1⟩
  | 36 => ⟨S_, .i32⟩
  | 37 => ⟨S54x3, .i32⟩
  | 38 => ⟨S54x3, .i32⟩
  | 39 => ⟨S54x3, .i32⟩
  | 40 => ⟨S54x3x1, .i32⟩
  | 41 => ⟨S4096x54x3x16, .f32⟩
  | 42 => ⟨S4096x54x3x48, .f32⟩
  | 43 => ⟨S1x48x32, .f32⟩
  | 44 => ⟨S48x32, .f32⟩
  | 45 => ⟨S4096x54x3x32, .f32⟩
  | 46 => ⟨S1x32, .f32⟩
  | 47 => ⟨S32, .f32⟩
  | 48 => ⟨S1x1x1x32, .f32⟩
  | 49 => ⟨S4096x54x3x32, .f32⟩
  | 50 => ⟨S4096x54x3x32, .f32⟩
  | 51 => ⟨S4096x54x3x32, .f32⟩
  | 52 => ⟨S_, .f32⟩
  | 53 => ⟨S4096x54x32, .f32⟩
  | 54 => ⟨S4096x54x64, .f32⟩
  | 55 => ⟨S1x64x32, .f32⟩
  | 56 => ⟨S64x32, .f32⟩
  | 57 => ⟨S4096x54x32, .f32⟩
  | 58 => ⟨S1x32, .f32⟩
  | 59 => ⟨S32, .f32⟩
  | 60 => ⟨S1x1x32, .f32⟩
  | 61 => ⟨S4096x54x32, .f32⟩
  | 62 => ⟨S4096x54x32, .f32⟩
  | 63 => ⟨S4096x54x32, .f32⟩
  | 64 => ⟨S4096x54x32, .f32⟩
  | 65 => ⟨S_, .f32⟩
  | 66 => ⟨S4096x54, .f32⟩
  | 67 => ⟨S4096x54x1, .f32⟩
  | 68 => ⟨S4096x54x1, .f32⟩
  | 69 => ⟨S4096x54x32, .f32⟩
  | 70 => ⟨S4096x54x32, .f32⟩
  | 71 => ⟨S_, .i32⟩
  | 72 => ⟨S54x3, .i32⟩
  | 73 => ⟨S54x3, .i1⟩
  | 74 => ⟨S_, .i32⟩
  | 75 => ⟨S54x3, .i32⟩
  | 76 => ⟨S54x3, .i32⟩
  | 77 => ⟨S54x3, .i32⟩
  | 78 => ⟨S54x3x1, .i32⟩
  | 79 => ⟨S4096x54x3x32, .f32⟩
  | 80 => ⟨S_, .i32⟩
  | 81 => ⟨S54x3, .i32⟩
  | 82 => ⟨S54x3, .i1⟩
  | 83 => ⟨S_, .i32⟩
  | 84 => ⟨S54x3, .i32⟩
  | 85 => ⟨S54x3, .i32⟩
  | 86 => ⟨S54x3, .i32⟩
  | 87 => ⟨S54x3x1, .i32⟩
  | 88 => ⟨S4096x54x3x16, .f32⟩
  | 89 => ⟨S4096x54x3x48, .f32⟩
  | 90 => ⟨S1x48x32, .f32⟩
  | 91 => ⟨S48x32, .f32⟩
  | 92 => ⟨S4096x54x3x32, .f32⟩
  | 93 => ⟨S1x32, .f32⟩
  | 94 => ⟨S32, .f32⟩
  | 95 => ⟨S1x1x1x32, .f32⟩
  | 96 => ⟨S4096x54x3x32, .f32⟩
  | 97 => ⟨S4096x54x3x32, .f32⟩
  | 98 => ⟨S4096x54x3x32, .f32⟩
  | 99 => ⟨S_, .f32⟩
  | 100 => ⟨S4096x54x32, .f32⟩
  | 101 => ⟨S4096x54x64, .f32⟩
  | 102 => ⟨S1x64x32, .f32⟩
  | 103 => ⟨S64x32, .f32⟩
  | 104 => ⟨S4096x54x32, .f32⟩
  | 105 => ⟨S1x32, .f32⟩
  | 106 => ⟨S32, .f32⟩
  | 107 => ⟨S1x1x32, .f32⟩
  | 108 => ⟨S4096x54x32, .f32⟩
  | 109 => ⟨S4096x54x32, .f32⟩
  | _ => ⟨S4096x54x32, .f32⟩

abbrev hbmTy (i : Nat) : BufTy := match i / 128 with
  | 0 => hbmTy0_0 i
  | 1 => hbmTy0_1 i
  | _ => ⟨S4096x54x32, .f32⟩

abbrev bufTy : (tb : Table) → Fin (tcTables nBuf tb) → BufTy
  | .hbm, ⟨i, _⟩ => hbmTy i
  | _, _ => ⟨S4096x54x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_cst : Ref sig .tc := ⟨.hbm, 52, rfl⟩
abbrev main_call0_v1 : Ref sig .tc := ⟨.hbm, 53, rfl⟩
abbrev main_call0_v2 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_4 : Ref sig .tc := ⟨.hbm, 58, rfl⟩
abbrev main_v42 : Ref sig .tc := ⟨.hbm, 59, rfl⟩
abbrev main_v43 : Ref sig .tc := ⟨.hbm, 60, rfl⟩
abbrev main_c_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_6 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_call1_v0 : Ref sig .tc := ⟨.hbm, 98, rfl⟩
abbrev main_call1_cst : Ref sig .tc := ⟨.hbm, 99, rfl⟩
abbrev main_call1_v1 : Ref sig .tc := ⟨.hbm, 100, rfl⟩
abbrev main_call1_v2 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_9 : Ref sig .tc := ⟨.hbm, 105, rfl⟩
abbrev main_v80 : Ref sig .tc := ⟨.hbm, 106, rfl⟩
abbrev main_v81 : Ref sig .tc := ⟨.hbm, 107, rfl⟩
abbrev main_c_10 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_11 : Ref sig .tc := ⟨.hbm, 114, rfl⟩
abbrev main_v87 : Ref sig .tc := ⟨.hbm, 115, rfl⟩
abbrev main_v88 : Ref sig .tc := ⟨.hbm, 116, rfl⟩
abbrev main_c_12 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_13 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_call2_v0 : Ref sig .tc := ⟨.hbm, 145, rfl⟩
abbrev main_call2_cst : Ref sig .tc := ⟨.hbm, 146, rfl⟩
abbrev main_call2_v1 : Ref sig .tc := ⟨.hbm, 147, rfl⟩
abbrev main_call2_v2 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_c_14 : Ref sig .tc := ⟨.hbm, 152, rfl⟩
abbrev main_v118 : Ref sig .tc := ⟨.hbm, 153, rfl⟩
abbrev main_v119 : Ref sig .tc := ⟨.hbm, 154, rfl⟩
abbrev main_c_15 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_c_16 : Ref sig .tc := ⟨.hbm, 161, rfl⟩
abbrev main_v125 : Ref sig .tc := ⟨.hbm, 162, rfl⟩
abbrev main_v126 : Ref sig .tc := ⟨.hbm, 163, rfl⟩
abbrev main_c_17 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_18 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_call3_v0 : Ref sig .tc := ⟨.hbm, 192, rfl⟩
abbrev main_call3_cst : Ref sig .tc := ⟨.hbm, 193, rfl⟩
abbrev main_call3_v1 : Ref sig .tc := ⟨.hbm, 194, rfl⟩
abbrev main_call3_v2 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_c_19 : Ref sig .tc := ⟨.hbm, 199, rfl⟩
abbrev main_v156 : Ref sig .tc := ⟨.hbm, 200, rfl⟩
abbrev main_v157 : Ref sig .tc := ⟨.hbm, 201, rfl⟩
abbrev main_c_20 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_c_21 : Ref sig .tc := ⟨.hbm, 208, rfl⟩
abbrev main_v163 : Ref sig .tc := ⟨.hbm, 209, rfl⟩
abbrev main_v164 : Ref sig .tc := ⟨.hbm, 210, rfl⟩
abbrev main_c_22 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_23 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩

abbrev nD : Nat := 1
abbrev τ : Topo := Topo.v7x

variable {F : FTy → Type} [FloatOps F]

class Facts₀ : Prop where
  slices_S54x3x2_S54x3x1_0_0_0 : S54x3x2.Slices ![0, 0, 0] S54x3x1
  shapeCasts_S54x3x1_S54x3 : S54x3x1.ShapeCasts S54x3
  slices_S54x3x2_S54x3x1_0_0_1 : S54x3x2.Slices ![0, 0, 1] S54x3x1
  bcast_S_S54x3 : S_.BroadcastsInDim S54x3 (![] : Fin 0 → Fin S54x3.rank)
  bcast_S54x3_S54x3x1_0_1 : S54x3.BroadcastsInDim S54x3x1 (![0, 1] : Fin 2 → Fin S54x3x1.rank)
  concatenates_S4096x54x3x32_S4096x54x3x16_S4096x54x3x48_d3 : Shape.Concatenates [S4096x54x3x32, S4096x54x3x16] S4096x54x3x48 3
  slices_S5x48x32_S1x48x32_0_0_0 : S5x48x32.Slices ![0, 0, 0] S1x48x32
  shapeCasts_S1x48x32_S48x32 : S1x48x32.ShapeCasts S48x32
  slices_S5x32_S1x32_0_0 : S5x32.Slices ![0, 0] S1x32
  shapeCasts_S1x32_S32 : S1x32.ShapeCasts S32
  bcast_S32_S1x1x1x32_3 : S32.BroadcastsInDim S1x1x1x32 (![3] : Fin 1 → Fin S1x1x1x32.rank)
  bcast_S1x1x1x32_S4096x54x3x32_0_1_2_3 : S1x1x1x32.BroadcastsInDim S4096x54x3x32 (![0, 1, 2, 3] : Fin 4 → Fin S4096x54x3x32.rank)
  reducesTo_S4096x54x3x32_S4096x54x32_d2 : S4096x54x3x32.ReducesTo [2] S4096x54x32
  h_S_ : 0 < S_.numel
  concatenates_S4096x54x32_S4096x54x32_S4096x54x64_d2 : Shape.Concatenates [S4096x54x32, S4096x54x32] S4096x54x64 2
  slices_S5x64x32_S1x64x32_0_0_0 : S5x64x32.Slices ![0, 0, 0] S1x64x32
  shapeCasts_S1x64x32_S64x32 : S1x64x32.ShapeCasts S64x32
  bcast_S32_S1x1x32_2 : S32.BroadcastsInDim S1x1x32 (![2] : Fin 1 → Fin S1x1x32.rank)
  bcast_S1x1x32_S4096x54x32_0_1_2 : S1x1x32.BroadcastsInDim S4096x54x32 (![0, 1, 2] : Fin 3 → Fin S4096x54x32.rank)
  reducesTo_S4096x54x32_S4096x54_d2 : S4096x54x32.ReducesTo [2] S4096x54
  bcast_S4096x54_S4096x54x1_0_1 : S4096x54.BroadcastsInDim S4096x54x1 (![0, 1] : Fin 2 → Fin S4096x54x1.rank)
  bcast_S4096x54x1_S4096x54x32_0_1_2 : S4096x54x1.BroadcastsInDim S4096x54x32 (![0, 1, 2] : Fin 3 → Fin S4096x54x32.rank)
  slices_S5x48x32_S1x48x32_1_0_0 : S5x48x32.Slices ![1, 0, 0] S1x48x32
  slices_S5x32_S1x32_1_0 : S5x32.Slices ![1, 0] S1x32
  slices_S5x64x32_S1x64x32_1_0_0 : S5x64x32.Slices ![1, 0, 0] S1x64x32
  slices_S5x48x32_S1x48x32_2_0_0 : S5x48x32.Slices ![2, 0, 0] S1x48x32
  slices_S5x32_S1x32_2_0 : S5x32.Slices ![2, 0] S1x32
  slices_S5x64x32_S1x64x32_2_0_0 : S5x64x32.Slices ![2, 0, 0] S1x64x32
  slices_S5x48x32_S1x48x32_3_0_0 : S5x48x32.Slices ![3, 0, 0] S1x48x32
  slices_S5x32_S1x32_3_0 : S5x32.Slices ![3, 0] S1x32
  slices_S5x64x32_S1x64x32_3_0_0 : S5x64x32.Slices ![3, 0, 0] S1x64x32
  slices_S5x48x32_S1x48x32_4_0_0 : S5x48x32.Slices ![4, 0, 0] S1x48x32
  slices_S5x32_S1x32_4_0 : S5x32.Slices ![4, 0] S1x32
  slices_S5x64x32_S1x64x32_4_0_0 : S5x64x32.Slices ![4, 0, 0] S1x64x32
  gather_S4096x54x32_S54x3x1_S4096x54x3x32_03_1_n_n_1_2_4096132_wf : GatherDims.WF S4096x54x32 S54x3x1 S4096x54x3x32 [0, 3] [1] [] [1] [] 2 ![4096, 1, 32]
  gather_S4096x72x16_S54x3x1_S4096x54x3x16_03_1_n_n_1_2_4096116_wf : GatherDims.WF S4096x72x16 S54x3x1 S4096x54x3x16 [0, 3] [1] [] [1] [] 2 ![4096, 1, 16]
  dot_S4096x54x3x48_S48x32_S4096x54x3x32_3_0_012_1_n_n_wf : DotDims.WF S4096x54x3x48 S48x32 S4096x54x3x32 [3] [0] [0, 1, 2] [1] [] []
  dot_S4096x54x64_S64x32_S4096x54x32_2_0_01_1_n_n_wf : DotDims.WF S4096x54x64 S64x32 S4096x54x32 [2] [0] [0, 1] [1] [] []

variable [Facts₀]

def gather_S4096x54x32_S54x3x1_S4096x54x3x32_03_1_n_n_1_2_4096132 : GatherDims S4096x54x32 S54x3x1 S4096x54x3x32 where
  offsetDims := [0, 3]
  collapsedSliceDims := [1]
  operandBatchingDims := []
  startIndicesBatchingDims := []
  startIndexMap := [1]
  indexVectorDim := 2
  sliceSizes := ![4096, 1, 32]
  wf := gather_S4096x54x32_S54x3x1_S4096x54x3x32_03_1_n_n_1_2_4096132_wf
def gather_S4096x72x16_S54x3x1_S4096x54x3x16_03_1_n_n_1_2_4096116 : GatherDims S4096x72x16 S54x3x1 S4096x54x3x16 where
  offsetDims := [0, 3]
  collapsedSliceDims := [1]
  operandBatchingDims := []
  startIndicesBatchingDims := []
  startIndexMap := [1]
  indexVectorDim := 2
  sliceSizes := ![4096, 1, 16]
  wf := gather_S4096x72x16_S54x3x1_S4096x54x3x16_03_1_n_n_1_2_4096116_wf
def dot_S4096x54x3x48_S48x32_S4096x54x3x32_3_0_012_1_n_n : DotDims S4096x54x3x48 S48x32 S4096x54x3x32 where
  lhsContracting := [3]
  rhsContracting := [0]
  lhsNonContracting := [0, 1, 2]
  rhsNonContracting := [1]
  lhsBatch := []
  rhsBatch := []
  wf := dot_S4096x54x3x48_S48x32_S4096x54x3x32_3_0_012_1_n_n_wf
def dot_S4096x54x64_S64x32_S4096x54x32_2_0_01_1_n_n : DotDims S4096x54x64 S64x32 S4096x54x32 where
  lhsContracting := [2]
  rhsContracting := [0]
  lhsNonContracting := [0, 1]
  rhsNonContracting := [1]
  lhsBatch := []
  rhsBatch := []
  wf := dot_S4096x54x64_S64x32_S4096x54x32_2_0_01_1_n_n_wf

class Facts : Prop extends Facts₀ where

variable [Facts]
-- ==== Proof.Sage.lean ====
/-
  The specification both programs are read against: one GraphSAGE layer on extended reals, in the
  two arrangements the programs use, and the five-layer chains.

  A vertex-feature array is a function of (batch, vertex, feature); vertex `n`'s `j`-th neighbour is
  vertex `(n + j + 1) mod 54` through edge `(3 n + j) mod 72`.

  Reference arrangement: the neighbour's 32 vertex features and 16 edge features are concatenated and
  contracted with the 48-row weight at once; `tanh` is applied to each neighbour and the maximum taken
  afterwards; the layer's input and the aggregate are concatenated and contracted with the 64-row
  weight at once; the row is divided by the square root of its sum of squares.

  Kernel arrangement: the two contractions are each split in two sums; the maximum over neighbours is
  taken before the bias is added and `tanh` applied (tanh is monotone); the row is multiplied by the
  reciprocal square root of its sum of squares.

  The two agree where every sum of squares is nonzero (`Pos`); at a zero row the quotient `0 / 0` and the
  product `0 * rsqrt 0` differ.
-/
import Idealize.ShloMosaic.PureOps.Ideal
import Mathlib.Algebra.BigOperators.Fin
import Idealize.ShloMosaic.Lib.ValueIdx

noncomputable section

namespace Cert.Sage

open Idealize.ShloMosaic Idealize.ShloMosaic.ValueIdx

/-- Vertex features: (batch, vertex, feature). -/
abbrev VF := Fin 4096 → Fin 54 → Fin 32 → EReal
/-- Edge features: (batch, edge, feature). -/
abbrev EF := Fin 4096 → Fin 72 → Fin 16 → EReal

/-- The vertex at the other end of vertex `n`'s `j`-th edge. -/
def nbV (n : Fin 54) (j : Fin 3) : Fin 54 := ⟨(n.val + j.val + 1) % 54, Nat.mod_lt _ (by decide)⟩
/-- Vertex `n`'s `j`-th edge. -/
def nbE (n : Fin 54) (j : Fin 3) : Fin 72 := ⟨(3 * n.val + j.val) % 72, Nat.mod_lt _ (by decide)⟩

/-- The sum of squares of a row. -/
def sumsq (T : VF) (b : Fin 4096) (n : Fin 54) : EReal := ∑ o : Fin 32, T b n o * T b n o

/-- `tanh` entry by entry. -/
def tanhV (H : VF) : VF := fun b n o => Ideal.tanh (H b n o)

/-! ### The kernel's arrangement -/

/-- Neighbour `j`'s pre-activation without the bias: vertex part plus edge part. -/
def preK (X : VF) (E : EF) (W : Fin 48 → Fin 32 → EReal) (b : Fin 4096) (n : Fin 54) (j : Fin 3) (o : Fin 32) : EReal :=
  (∑ f : Fin 32, X b (nbV n j) f * W (Fin.castAdd 16 f) o) + (∑ d : Fin 16, E b (nbE n j) d * W (Fin.natAdd 32 d) o)

/-- The aggregate: `tanh` of the largest pre-activation plus the bias. -/
def aggK (X : VF) (E : EF) (W : Fin 48 → Fin 32 → EReal) (eb : Fin 32 → EReal) : VF := fun b n o =>
  Ideal.tanh (max (max (preK X E W b n 0 o) (preK X E W b n 1 o)) (preK X E W b n 2 o) + eb o)

/-- The layer's affine output: input part plus aggregate part plus bias. -/
def hidK (X : VF) (E : EF) (W : Fin 48 → Fin 32 → EReal) (eb : Fin 32 → EReal) (Wh : Fin 64 → Fin 32 → EReal) (hb : Fin 32 → EReal) : VF :=
  fun b n o => ((∑ f : Fin 32, X b n f * Wh (Fin.castAdd 32 f) o) + (∑ f : Fin 32, aggK X E W eb b n f * Wh (Fin.natAdd 32 f) o)) + hb o

/-- A row times the reciprocal square root of its sum of squares. -/
def normK (T : VF) : VF := fun b n o => T b n o * Ideal.rsqrt (sumsq T b n)

/-! ### The reference's arrangement -/

/-- Neighbour `j`'s embedding: `tanh` of the 48-term contraction plus the bias. -/
def embR (X : VF) (E : EF) (W : Fin 48 → Fin 32 → EReal) (eb : Fin 32 → EReal) (b : Fin 4096) (n : Fin 54) (j : Fin 3) (o : Fin 32) : EReal :=
  Ideal.tanh ((∑ k : Fin 48, (Fin.append (X b (nbV n j)) (E b (nbE n j)) : Fin (32 + 16) → EReal) k * W k o) + eb o)

/-- The aggregate: the largest of the three embeddings. -/
def aggR (X : VF) (E : EF) (W : Fin 48 → Fin 32 → EReal) (eb : Fin 32 → EReal) : VF := fun b n o =>
  max (max (embR X E W eb b n 0 o) (embR X E W eb b n 1 o)) (embR X E W eb b n 2 o)

/-- The layer's affine output: the 64-term contraction plus the bias. -/
def hidR (X : VF) (E : EF) (W : Fin 48 → Fin 32 → EReal) (eb : Fin 32 → EReal) (Wh : Fin 64 → Fin 32 → EReal) (hb : Fin 32 → EReal) : VF :=
  fun b n o => (∑ k : Fin 64, (Fin.append (X b n) (aggR X E W eb b n) : Fin (32 + 32) → EReal) k * Wh k o) + hb o

/-- A row divided by the square root of its sum of squares. -/
def normR (T : VF) : VF := fun b n o => Ideal.div (T b n o) (Ideal.sqrt (sumsq T b n))

/-! ### The five layers -/

/-- The inputs other than the vertex features. -/
structure Params where
  E : EF
  eW : Fin 5 → Fin 48 → Fin 32 → EReal
  eb : Fin 5 → Fin 32 → EReal
  hW : Fin 5 → Fin 64 → Fin 32 → EReal
  hb : Fin 5 → Fin 32 → EReal

/-- Layer `i`'s affine output, reference arrangement. -/
def layR (P : Params) (i : Fin 5) (X : VF) : VF := hidR X P.E (P.eW i) (P.eb i) (P.hW i) (P.hb i)
/-- Layer `i`'s affine output, kernel arrangement. -/
def layK (P : Params) (i : Fin 5) (X : VF) : VF := hidK X P.E (P.eW i) (P.eb i) (P.hW i) (P.hb i)

/-- The input of layer `k` in the reference's arrangement (`k ≤ 4`). -/
def xR (P : Params) (X0 : VF) : ℕ → VF
  | 0 => X0
  | k + 1 => normR (tanhV (layR P ⟨k % 5, Nat.mod_lt _ (by decide)⟩ (xR P X0 k)))

/-- The input of layer `k` in the kernel's arrangement (`k ≤ 4`). -/
def xK (P : Params) (X0 : VF) : ℕ → VF
  | 0 => X0
  | k + 1 => normK (tanhV (layK P ⟨k % 5, Nat.mod_lt _ (by decide)⟩ (xK P X0 k)))

/-- The reference's result. -/
def outR (P : Params) (X0 : VF) : VF := layR P 4 (xR P X0 4)
/-- The kernel's result. -/
def outK (P : Params) (X0 : VF) : VF := layK P 4 (xK P X0 4)

/-- The row of layer `k` (`k < 4`) that the reference normalises. -/
def rowR (P : Params) (X0 : VF) (k : ℕ) : VF := tanhV (layR P ⟨k % 5, Nat.mod_lt _ (by decide)⟩ (xR P X0 k))

/-- Every norm the reference divides by is positive. -/
def Pos (P : Params) (X0 : VF) : Prop :=
  ∀ k : ℕ, k < 4 → ∀ (b : Fin 4096) (n : Fin 54), 0 < Ideal.sqrt (sumsq (rowR P X0 k) b n)

/-! ### The argument arrays as the specification's inputs -/

/-- The vertex-feature argument array as a function of (batch, vertex, feature). -/
def vfOf (a : FVec Ideal ⟨3, ![4096, 54, 32]⟩ .f32) : VF := fun b n f => a (ix3 b n f)

/-- The other five argument arrays as the specification's parameters. -/
def paramsOf (a1 : FVec Ideal ⟨3, ![4096, 72, 16]⟩ .f32) (a2 : FVec Ideal ⟨3, ![5, 48, 32]⟩ .f32) (a3 : FVec Ideal ⟨2, ![5, 32]⟩ .f32)
    (a4 : FVec Ideal ⟨3, ![5, 64, 32]⟩ .f32) (a5 : FVec Ideal ⟨2, ![5, 32]⟩ .f32) : Params where
  E := fun b e d => a1 (ix3 b e d)
  eW := fun i k o => a2 (ix3 i k o)
  eb := fun i o => a3 (ix2 i o)
  hW := fun i k o => a4 (ix3 i k o)
  hb := fun i o => a5 (ix2 i o)

/-! ### The kernel's packed layout

  The kernel holds four consecutive batch elements side by side in the 128 lanes: lane `32 g + f` of packed row `c`
  is feature `f` of batch element `4 c + g`. Grid point `t` works on packed rows `128 t` … `128 t + 127`. -/

/-- Lane `32 g + f`. -/
def lane (g : Fin 4) (f : Fin 32) : Fin 128 := ⟨32 * g.val + f.val, by omega⟩
/-- Edge lane `16 g + d`. -/
def lane16 (g : Fin 4) (d : Fin 16) : Fin 64 := ⟨16 * g.val + d.val, by omega⟩
/-- The batch element in lane group `g` of row `r` of grid point `t`'s block. -/
def bat (t : Fin 8) (r : Fin 128) (g : Fin 4) : Fin 4096 := ⟨4 * (128 * t.val + r.val) + g.val, by omega⟩
/-- The packed row `128 t + r`. -/
def prow (t : Fin 8) (r : Fin 128) : Fin 1024 := ⟨128 * t.val + r.val, by omega⟩
/-- The batch element in lane group `g` of packed row `q`. -/
def bq (q : Fin 1024) (g : Fin 4) : Fin 4096 := ⟨4 * q.val + g.val, by omega⟩
theorem bat_eq_bq (t : Fin 8) (r : Fin 128) (g : Fin 4) : bat t r g = bq (prow t r) g := rfl
/-- Row `24 j + w` of the kernel's regrouped edge array is edge `3 w + j`. -/
def edgeOf (e : Fin 72) : Fin 72 := ⟨3 * (e.val % 24) + e.val / 24, by omega⟩

/-- What grid point `t`'s nine input blocks hold, in terms of the specification's inputs: the packed vertex and edge
    features, the four block-diagonal weights (one copy of the weight per lane group, zero elsewhere), the two biases
    repeated per lane group, and the block-diagonal matrix of ones. -/
structure PackedBlock (t : Fin 8) (P : Params) (X0 : VF)
    (x0 : FVec Ideal ⟨3, ![54, 128, 128]⟩ .f32) (x1 : FVec Ideal ⟨3, ![72, 128, 64]⟩ .f32)
    (x2 : FVec Ideal ⟨3, ![5, 128, 128]⟩ .f32) (x3 : FVec Ideal ⟨3, ![5, 64, 128]⟩ .f32)
    (x4 : FVec Ideal ⟨3, ![5, 128, 128]⟩ .f32) (x5 : FVec Ideal ⟨3, ![5, 128, 128]⟩ .f32)
    (x6 : FVec Ideal ⟨3, ![5, 1, 128]⟩ .f32) (x7 : FVec Ideal ⟨3, ![5, 1, 128]⟩ .f32)
    (x8 : FVec Ideal ⟨2, ![128, 128]⟩ .f32) : Prop where
  vert : ∀ (v : Fin 54) (r : Fin 128) (g : Fin 4) (f : Fin 32), x0 (ix3 v r (lane g f)) = X0 (bat t r g) v f
  edge : ∀ (e : Fin 72) (r : Fin 128) (g : Fin 4) (d : Fin 16), x1 (ix3 e r (lane16 g d)) = P.E (bat t r g) (edgeOf e) d
  wv : ∀ (i : Fin 5) (g' : Fin 4) (f : Fin 32) (g : Fin 4) (o : Fin 32),
    x2 (ix3 i (lane g' f) (lane g o)) = if g' = g then P.eW i (Fin.castAdd 16 f) o else 0
  we : ∀ (i : Fin 5) (g' : Fin 4) (d : Fin 16) (g : Fin 4) (o : Fin 32),
    x3 (ix3 i (lane16 g' d) (lane g o)) = if g' = g then P.eW i (Fin.natAdd 32 d) o else 0
  wh1 : ∀ (i : Fin 5) (g' : Fin 4) (f : Fin 32) (g : Fin 4) (o : Fin 32),
    x4 (ix3 i (lane g' f) (lane g o)) = if g' = g then P.hW i (Fin.castAdd 32 f) o else 0
  wh2 : ∀ (i : Fin 5) (g' : Fin 4) (f : Fin 32) (g : Fin 4) (o : Fin 32),
    x5 (ix3 i (lane g' f) (lane g o)) = if g' = g then P.hW i (Fin.natAdd 32 f) o else 0
  ebias : ∀ (i : Fin 5) (g : Fin 4) (o : Fin 32), x6 (ix3 i 0 (lane g o)) = P.eb i o
  hbias : ∀ (i : Fin 5) (g : Fin 4) (o : Fin 32), x7 (ix3 i 0 (lane g o)) = P.hb i o
  ones : ∀ (g' : Fin 4) (f : Fin 32) (g : Fin 4) (o : Fin 32), x8 (ix2 (lane g' f) (lane g o)) = if g' = g then 1 else 0

end Cert.Sage

end
-- ==== Proof.SageAlgebra.lean ====
/-
  The two arrangements of the GraphSAGE layer agree on extended reals.

  Three facts carry the argument.  A contraction over a concatenated index splits into the contraction over
  each part.  `tanh` and the addition of a constant are monotone on the extended reals, so they commute with
  the maximum.  Every entry of a `tanh` row is a real number, so its sum of squares is a nonnegative real, and
  where its square root is positive the quotient by the square root is the product with the reciprocal square root.
-/
import proofs.«100883_g78494822302262_cont_9to1_m_206_5_alg».proof.Proof.Sage
import Mathlib.Algebra.BigOperators.Fin
import Mathlib.Data.EReal.Basic
import Mathlib.Data.EReal.Operations
import Mathlib.Data.EReal.Inv
import Mathlib.Order.MinMax
import Mathlib.Analysis.SpecialFunctions.Artanh
import Mathlib.Analysis.SpecialFunctions.Sqrt

noncomputable section

namespace Cert.Sage

open Idealize.ShloMosaic

/-! ### A contraction over a concatenation splits -/

/-- The 48-term contraction of a concatenation of 32 and 16 entries is the sum of the two partial contractions. -/
theorem sum_append_48 (u : Fin 32 → EReal) (v : Fin 16 → EReal) (W : Fin 48 → Fin 32 → EReal) (o : Fin 32) :
    (∑ k : Fin 48, (Fin.append u v : Fin (32 + 16) → EReal) k * W k o)
      = (∑ f : Fin 32, u f * W (Fin.castAdd 16 f) o) + (∑ d : Fin 16, v d * W (Fin.natAdd 32 d) o) := by
  have h := Fin.sum_univ_add (fun k : Fin (32 + 16) => (Fin.append u v : Fin (32 + 16) → EReal) k * W k o)
  simp only [Fin.append_left, Fin.append_right] at h
  exact h

/-- The 64-term contraction of a concatenation of 32 and 32 entries is the sum of the two partial contractions. -/
theorem sum_append_64 (u : Fin 32 → EReal) (v : Fin 32 → EReal) (W : Fin 64 → Fin 32 → EReal) (o : Fin 32) :
    (∑ k : Fin 64, (Fin.append u v : Fin (32 + 32) → EReal) k * W k o)
      = (∑ f : Fin 32, u f * W (Fin.castAdd 32 f) o) + (∑ d : Fin 32, v d * W (Fin.natAdd 32 d) o) := by
  have h := Fin.sum_univ_add (fun k : Fin (32 + 32) => (Fin.append u v : Fin (32 + 32) → EReal) k * W k o)
  simp only [Fin.append_left, Fin.append_right] at h
  exact h

/-! ### `tanh` is monotone and real-valued -/

/-- The real `tanh` is monotone: its inverse on (-1, 1) is strictly monotone there. -/
theorem real_tanh_mono : Monotone Real.tanh := by
  intro x y h
  have hx : Real.tanh x ∈ Set.Ioo (-1 : ℝ) 1 := ⟨Real.neg_one_lt_tanh x, Real.tanh_lt_one x⟩
  have hy : Real.tanh y ∈ Set.Ioo (-1 : ℝ) 1 := ⟨Real.neg_one_lt_tanh y, Real.tanh_lt_one y⟩
  rw [← Real.artanh_le_artanh_iff hx hy, Real.artanh_tanh, Real.artanh_tanh]
  exact h

/-- Every value of `tanh` on the extended reals is a real number. -/
theorem tanh_eq_coe (x : EReal) : ∃ r : ℝ, Ideal.tanh x = (r : EReal) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

theorem neg_one_le_tanh (x : EReal) : (-1 : EReal) ≤ Ideal.tanh x := by
  induction x using EReal.rec with
  | bot => exact le_of_eq rfl
  | coe r =>
    rw [Ideal.tanh_coe]
    have h : ((-1 : ℝ) : EReal) ≤ (Real.tanh r : EReal) := EReal.coe_le_coe_iff.mpr (Real.neg_one_lt_tanh r).le
    rwa [EReal.coe_neg, EReal.coe_one] at h
  | top =>
    rw [Ideal.tanh_top]
    have h : ((-1 : ℝ) : EReal) ≤ ((1 : ℝ) : EReal) := EReal.coe_le_coe_iff.mpr (by norm_num)
    rwa [EReal.coe_neg, EReal.coe_one] at h

theorem tanh_le_one (x : EReal) : Ideal.tanh x ≤ (1 : EReal) := by
  induction x using EReal.rec with
  | bot =>
    rw [Ideal.tanh_bot]
    have h : ((-1 : ℝ) : EReal) ≤ ((1 : ℝ) : EReal) := EReal.coe_le_coe_iff.mpr (by norm_num)
    rwa [EReal.coe_neg, EReal.coe_one] at h
  | coe r =>
    rw [Ideal.tanh_coe]
    have h : (Real.tanh r : EReal) ≤ ((1 : ℝ) : EReal) := EReal.coe_le_coe_iff.mpr (Real.tanh_lt_one r).le
    rwa [EReal.coe_one] at h
  | top => exact le_of_eq rfl

/-- `tanh` is monotone on the extended reals: it is the monotone real `tanh` between its two limits. -/
theorem tanh_mono : Monotone Ideal.tanh := by
  intro x y h
  induction x using EReal.rec with
  | bot => rw [Ideal.tanh_bot]; exact neg_one_le_tanh y
  | top =>
    have hy : y = ⊤ := top_le_iff.mp h
    rw [hy]
  | coe r =>
    induction y using EReal.rec with
    | bot => exact absurd h (not_le.mpr (EReal.bot_lt_coe r))
    | top => rw [Ideal.tanh_top]; exact tanh_le_one _
    | coe s =>
      rw [Ideal.tanh_coe, Ideal.tanh_coe]
      exact EReal.coe_le_coe_iff.mpr (real_tanh_mono (EReal.coe_le_coe_iff.mp h))

/-- `tanh` after adding a constant commutes with the maximum of three. -/
theorem tanh_max3_add (p0 p1 p2 e : EReal) :
    Ideal.tanh (max (max p0 p1) p2 + e)
      = max (max (Ideal.tanh (p0 + e)) (Ideal.tanh (p1 + e))) (Ideal.tanh (p2 + e)) := by
  have hadd : Monotone (fun x : EReal => x + e) := fun a b hab => add_le_add_left hab e
  have hf : Monotone (fun x : EReal => Ideal.tanh (x + e)) := tanh_mono.comp hadd
  have h1 : Ideal.tanh (max (max p0 p1) p2 + e) = max (Ideal.tanh (max p0 p1 + e)) (Ideal.tanh (p2 + e)) :=
    hf.map_max
  have h2 : Ideal.tanh (max p0 p1 + e) = max (Ideal.tanh (p0 + e)) (Ideal.tanh (p1 + e)) := hf.map_max
  rw [h1, h2]

/-! ### The aggregate and the affine output -/

theorem aggR_eq_aggK (X : VF) (E : EF) (W : Fin 48 → Fin 32 → EReal) (eb : Fin 32 → EReal) :
    aggR X E W eb = aggK X E W eb := by
  funext b n o
  unfold aggR aggK embR preK
  rw [sum_append_48, sum_append_48, sum_append_48, tanh_max3_add]

theorem hidR_eq_hidK (X : VF) (E : EF) (W : Fin 48 → Fin 32 → EReal) (eb : Fin 32 → EReal)
    (Wh : Fin 64 → Fin 32 → EReal) (hb : Fin 32 → EReal) : hidR X E W eb Wh hb = hidK X E W eb Wh hb := by
  funext b n o
  unfold hidR hidK
  rw [sum_append_64, aggR_eq_aggK]

/-! ### The norm -/

/-- A finite sum of real numbers, read in the extended reals, is the real sum. -/
theorem coe_sum {ι : Type} (s : Finset ι) (f : ι → ℝ) :
    (∑ i ∈ s, (f i : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A `tanh` row is a row of real numbers, and its sum of squares is the real sum of squares. -/
theorem sumsq_tanhV (H : VF) (b : Fin 4096) (n : Fin 54) :
    ∃ t : Fin 32 → ℝ, (∀ o, tanhV H b n o = (t o : EReal))
      ∧ sumsq (tanhV H) b n = ((∑ o : Fin 32, t o * t o : ℝ) : EReal) := by
  choose t ht using fun o : Fin 32 => tanh_eq_coe (H b n o)
  refine ⟨t, ht, ?_⟩
  unfold sumsq
  rw [← coe_sum]
  refine Finset.sum_congr rfl fun o _ => ?_
  have hto : tanhV H b n o = (t o : EReal) := ht o
  rw [hto, EReal.coe_mul]

/-- Where the square root of the sum of squares is positive, the quotient by it is the product with the
    reciprocal square root: the sum of squares is a positive real `s`, and both sides are the entry times `(√s)⁻¹`. -/
theorem normR_eq_normK_of_pos (H : VF) (b : Fin 4096) (n : Fin 54)
    (h : 0 < Ideal.sqrt (sumsq (tanhV H) b n)) (o : Fin 32) :
    normR (tanhV H) b n o = normK (tanhV H) b n o := by
  obtain ⟨t, _, hs⟩ := sumsq_tanhV H b n
  unfold normR normK
  rw [hs] at h ⊢
  generalize (∑ o : Fin 32, t o * t o : ℝ) = s at h ⊢
  rw [Ideal.sqrt_coe] at h
  by_cases hneg : s < 0
  · rw [if_pos hneg] at h
    exact absurd h (not_lt.mpr bot_le)
  · rw [if_neg hneg] at h
    have hsq : 0 < Real.sqrt s := EReal.coe_pos.mp h
    have hpos : 0 < s := Real.sqrt_pos.mp hsq
    rw [Ideal.sqrt_coe, if_neg hneg, Ideal.div_coe hsq.ne', Ideal.rsqrt_coe, if_neg hneg, if_neg hpos.ne', one_div]

/-! ### The five layers -/

theorem layK_eq_layR (P : Params) (i : Fin 5) (X : VF) : layK P i X = layR P i X := by
  unfold layK layR
  exact (hidR_eq_hidK _ _ _ _ _ _).symm

/-- The two chains have the same layer inputs: by induction, one layer at a time. -/
theorem xK_eq_xR (P : Params) (X0 : VF) (h : Pos P X0) : ∀ k : ℕ, k ≤ 4 → xK P X0 k = xR P X0 k := by
  intro k
  induction k with
  | zero => intro _; rfl
  | succ k ih =>
    intro hk
    have hk4 : k < 4 := by omega
    have ih' : xK P X0 k = xR P X0 k := ih (by omega)
    show normK (tanhV (layK P ⟨k % 5, _⟩ (xK P X0 k))) = normR (tanhV (layR P ⟨k % 5, _⟩ (xR P X0 k)))
    rw [ih', layK_eq_layR]
    funext b n o
    exact (normR_eq_normK_of_pos _ b n (h k hk4 b n) o).symm

theorem outK_eq_outR (P : Params) (X0 : VF) (h : Pos P X0) : outK P X0 = outR P X0 := by
  unfold outK outR
  rw [xK_eq_xR P X0 h 4 le_rfl, layK_eq_layR]

end Cert.Sage

end
-- ==== Proof.RefStages.lean ====
/-
  The reference program's operations composed as pure functions of its argument arrays, at the ideal
  instance (a float an extended real): the two neighbour-index tables, the per-layer slices of the
  weights and biases, the neighbour aggregate, the layer's affine output, the row norm, and the chain
  of five layers.
-/
import proofs.«100883_g78494822302262_cont_9to1_m_206_5_alg».proof.ReferenceIdeal
import Idealize.ShloMosaic.PureOps.Ideal

noncomputable section

namespace Cert.RefSide

open Idealize.ShloMosaic Cert.ReferenceIdeal Cert.ReferenceIdeal.Facts₀ Cert.ReferenceIdeal.Facts

variable [Cert.ReferenceIdeal.Facts]

/-- The neighbour-vertex table: column 0 of the constant 54 × 3 × 2 table, a negative entry raised by 54,
    as a 54 × 3 × 1 array of start indices. -/
def idxV : IVec S54x3x1 32 :=
  broadcastInDim S54x3x1 ![0, 1] bcast_S54x3_S54x3x1_0_1
    (select
      (cmpi .slt
        (shapeCast S54x3 (extractStridedSlice S54x3x1 ![0, 0, 0] (fun i => lit0 (S54x3x2.rowMajor i)) slices_S54x3x2_S54x3x1_0_0_0) shapeCasts_S54x3x1_S54x3)
        (broadcastInDim S54x3 ![] bcast_S_S54x3 (constantI S_ 32 0#32)))
      (addi
        (shapeCast S54x3 (extractStridedSlice S54x3x1 ![0, 0, 0] (fun i => lit0 (S54x3x2.rowMajor i)) slices_S54x3x2_S54x3x1_0_0_0) shapeCasts_S54x3x1_S54x3)
        (broadcastInDim S54x3 ![] bcast_S_S54x3 (constantI S_ 32 54#32)))
      (shapeCast S54x3 (extractStridedSlice S54x3x1 ![0, 0, 0] (fun i => lit0 (S54x3x2.rowMajor i)) slices_S54x3x2_S54x3x1_0_0_0) shapeCasts_S54x3x1_S54x3))

/-- The neighbour-edge table: column 1 of the constant table, a negative entry raised by 72,
    as a 54 × 3 × 1 array of start indices. -/
def idxE : IVec S54x3x1 32 :=
  broadcastInDim S54x3x1 ![0, 1] bcast_S54x3_S54x3x1_0_1
    (select
      (cmpi .slt
        (shapeCast S54x3 (extractStridedSlice S54x3x1 ![0, 0, 1] (fun i => lit0 (S54x3x2.rowMajor i)) slices_S54x3x2_S54x3x1_0_0_1) shapeCasts_S54x3x1_S54x3)
        (broadcastInDim S54x3 ![] bcast_S_S54x3 (constantI S_ 32 0#32)))
      (addi
        (shapeCast S54x3 (extractStridedSlice S54x3x1 ![0, 0, 1] (fun i => lit0 (S54x3x2.rowMajor i)) slices_S54x3x2_S54x3x1_0_0_1) shapeCasts_S54x3x1_S54x3)
        (broadcastInDim S54x3 ![] bcast_S_S54x3 (constantI S_ 32 72#32)))
      (shapeCast S54x3 (extractStridedSlice S54x3x1 ![0, 0, 1] (fun i => lit0 (S54x3x2.rowMajor i)) slices_S54x3x2_S54x3x1_0_0_1) shapeCasts_S54x3x1_S54x3))

/-- Layer `i`'s 48-row weight: row block `i` of the stacked weights, as a 48 × 32 matrix. -/
def w48 (i : Fin 5) (a2 : FVec Ideal S5x48x32 .f32) : FVec Ideal S48x32 .f32 :=
  match i with
  | 0 => shapeCast S48x32 (extractStridedSlice S1x48x32 ![0, 0, 0] a2 slices_S5x48x32_S1x48x32_0_0_0) shapeCasts_S1x48x32_S48x32
  | 1 => shapeCast S48x32 (extractStridedSlice S1x48x32 ![1, 0, 0] a2 slices_S5x48x32_S1x48x32_1_0_0) shapeCasts_S1x48x32_S48x32
  | 2 => shapeCast S48x32 (extractStridedSlice S1x48x32 ![2, 0, 0] a2 slices_S5x48x32_S1x48x32_2_0_0) shapeCasts_S1x48x32_S48x32
  | 3 => shapeCast S48x32 (extractStridedSlice S1x48x32 ![3, 0, 0] a2 slices_S5x48x32_S1x48x32_3_0_0) shapeCasts_S1x48x32_S48x32
  | 4 => shapeCast S48x32 (extractStridedSlice S1x48x32 ![4, 0, 0] a2 slices_S5x48x32_S1x48x32_4_0_0) shapeCasts_S1x48x32_S48x32

/-- Layer `i`'s bias: row `i` of the stacked biases, as a vector of 32. -/
def b32 (i : Fin 5) (a : FVec Ideal S5x32 .f32) : FVec Ideal S32 .f32 :=
  match i with
  | 0 => shapeCast S32 (extractStridedSlice S1x32 ![0, 0] a slices_S5x32_S1x32_0_0) shapeCasts_S1x32_S32
  | 1 => shapeCast S32 (extractStridedSlice S1x32 ![1, 0] a slices_S5x32_S1x32_1_0) shapeCasts_S1x32_S32
  | 2 => shapeCast S32 (extractStridedSlice S1x32 ![2, 0] a slices_S5x32_S1x32_2_0) shapeCasts_S1x32_S32
  | 3 => shapeCast S32 (extractStridedSlice S1x32 ![3, 0] a slices_S5x32_S1x32_3_0) shapeCasts_S1x32_S32
  | 4 => shapeCast S32 (extractStridedSlice S1x32 ![4, 0] a slices_S5x32_S1x32_4_0) shapeCasts_S1x32_S32

/-- Layer `i`'s 64-row weight: row block `i` of the stacked weights, as a 64 × 32 matrix. -/
def w64 (i : Fin 5) (a4 : FVec Ideal S5x64x32 .f32) : FVec Ideal S64x32 .f32 :=
  match i with
  | 0 => shapeCast S64x32 (extractStridedSlice S1x64x32 ![0, 0, 0] a4 slices_S5x64x32_S1x64x32_0_0_0) shapeCasts_S1x64x32_S64x32
  | 1 => shapeCast S64x32 (extractStridedSlice S1x64x32 ![1, 0, 0] a4 slices_S5x64x32_S1x64x32_1_0_0) shapeCasts_S1x64x32_S64x32
  | 2 => shapeCast S64x32 (extractStridedSlice S1x64x32 ![2, 0, 0] a4 slices_S5x64x32_S1x64x32_2_0_0) shapeCasts_S1x64x32_S64x32
  | 3 => shapeCast S64x32 (extractStridedSlice S1x64x32 ![3, 0, 0] a4 slices_S5x64x32_S1x64x32_3_0_0) shapeCasts_S1x64x32_S64x32
  | 4 => shapeCast S64x32 (extractStridedSlice S1x64x32 ![4, 0, 0] a4 slices_S5x64x32_S1x64x32_4_0_0) shapeCasts_S1x64x32_S64x32

/-- The neighbour aggregate: for each vertex and each of its three neighbours, the neighbour's vertex features
    and the joining edge's features side by side, contracted with the 48-row weight, plus the bias, through
    `tanh`; then the maximum over the three neighbours, from `-∞`. -/
def agg (X : FVec Ideal S4096x54x32 .f32) (E : FVec Ideal S4096x72x16 .f32) (W : FVec Ideal S48x32 .f32)
    (eb : FVec Ideal S32 .f32) : FVec Ideal S4096x54x32 .f32 :=
  Host.reduce FloatOps.maximumf
    (Host.tanh
      (addf
        (Host.dotGeneral dot_S4096x54x3x48_S48x32_S4096x54x3x32_3_0_012_1_n_n none
          (concatenate S4096x54x3x48 3
            [⟨S4096x54x3x32, Host.gather gather_S4096x54x32_S54x3x1_S4096x54x3x32_03_1_n_n_1_2_4096132 X idxV⟩,
             ⟨S4096x54x3x16, Host.gather gather_S4096x72x16_S54x3x1_S4096x54x3x16_03_1_n_n_1_2_4096116 E idxE⟩]
            concatenates_S4096x54x3x32_S4096x54x3x16_S4096x54x3x48_d3)
          W)
        (broadcastInDim S4096x54x3x32 ![0, 1, 2, 3] bcast_S1x1x1x32_S4096x54x3x32_0_1_2_3
          (broadcastInDim S1x1x1x32 ![3] bcast_S32_S1x1x1x32_3 eb))))
    (constant (F := Ideal) S_ .f32 0xFF800000#32) reducesTo_S4096x54x3x32_S4096x54x32_d2 h_S_

/-- The layer's affine output from its input `X` and an aggregate `A`: the two side by side, contracted with
    the 64-row weight, plus the bias. -/
def hidOf (X A : FVec Ideal S4096x54x32 .f32) (Wh : FVec Ideal S64x32 .f32) (hb : FVec Ideal S32 .f32) :
    FVec Ideal S4096x54x32 .f32 :=
  addf
    (Host.dotGeneral dot_S4096x54x64_S64x32_S4096x54x32_2_0_01_1_n_n none
      (concatenate S4096x54x64 2 [⟨S4096x54x32, X⟩, ⟨S4096x54x32, A⟩] concatenates_S4096x54x32_S4096x54x32_S4096x54x64_d2)
      Wh)
    (broadcastInDim S4096x54x32 ![0, 1, 2] bcast_S1x1x32_S4096x54x32_0_1_2
      (broadcastInDim S1x1x32 ![2] bcast_S32_S1x1x32_2 hb))

/-- The layer's affine output from its input: the aggregate is the input's own. -/
def hid (X : FVec Ideal S4096x54x32 .f32) (E : FVec Ideal S4096x72x16 .f32) (W : FVec Ideal S48x32 .f32)
    (eb : FVec Ideal S32 .f32) (Wh : FVec Ideal S64x32 .f32) (hb : FVec Ideal S32 .f32) : FVec Ideal S4096x54x32 .f32 :=
  hidOf X (agg X E W eb) Wh hb

/-- The row norms: the square root of each row's sum of squares (summed from zero), one per (batch, vertex). -/
def nrmS (T : FVec Ideal S4096x54x32 .f32) : FVec Ideal S4096x54x1 .f32 :=
  Host.sqrt
    (broadcastInDim S4096x54x1 ![0, 1] bcast_S4096x54_S4096x54x1_0_1
      (Host.reduceAdd (mulf T T) (constant (F := Ideal) S_ .f32 0x00000000#32) reducesTo_S4096x54x32_S4096x54_d2 h_S_))

/-- Each row divided by its norm. -/
def nrm (T : FVec Ideal S4096x54x32 .f32) : FVec Ideal S4096x54x32 .f32 :=
  Host.divf T (broadcastInDim S4096x54x32 ![0, 1, 2] bcast_S4096x54x1_S4096x54x32_0_1_2 (nrmS T))

/-- Layer `k`'s affine output on the input `X`, with layer `k mod 5`'s weights and biases. -/
def lay (k : ℕ) (X : FVec Ideal S4096x54x32 .f32) (a1 : FVec Ideal S4096x72x16 .f32) (a2 : FVec Ideal S5x48x32 .f32)
    (a3 : FVec Ideal S5x32 .f32) (a4 : FVec Ideal S5x64x32 .f32) (a5 : FVec Ideal S5x32 .f32) : FVec Ideal S4096x54x32 .f32 :=
  hid X a1 (w48 ⟨k % 5, Nat.mod_lt _ (by decide)⟩ a2) (b32 ⟨k % 5, Nat.mod_lt _ (by decide)⟩ a3)
    (w64 ⟨k % 5, Nat.mod_lt _ (by decide)⟩ a4) (b32 ⟨k % 5, Nat.mod_lt _ (by decide)⟩ a5)

/-- The input of layer `k`: the vertex-feature argument, then each layer's `tanh` of its affine output, row-normalised. -/
def x (a0 : FVec Ideal S4096x54x32 .f32) (a1 : FVec Ideal S4096x72x16 .f32) (a2 : FVec Ideal S5x48x32 .f32)
    (a3 : FVec Ideal S5x32 .f32) (a4 : FVec Ideal S5x64x32 .f32) (a5 : FVec Ideal S5x32 .f32) : ℕ → FVec Ideal S4096x54x32 .f32
  | 0 => a0
  | k + 1 => nrm (Host.tanh (lay k (x a0 a1 a2 a3 a4 a5 k) a1 a2 a3 a4 a5))

/-- The array layer `k` normalises: `tanh` of its affine output. -/
def row (k : ℕ) (a0 : FVec Ideal S4096x54x32 .f32) (a1 : FVec Ideal S4096x72x16 .f32) (a2 : FVec Ideal S5x48x32 .f32)
    (a3 : FVec Ideal S5x32 .f32) (a4 : FVec Ideal S5x64x32 .f32) (a5 : FVec Ideal S5x32 .f32) : FVec Ideal S4096x54x32 .f32 :=
  Host.tanh (lay k (x a0 a1 a2 a3 a4 a5 k) a1 a2 a3 a4 a5)

/-- The program's result: the fifth layer's affine output. -/
def out (a0 : FVec Ideal S4096x54x32 .f32) (a1 : FVec Ideal S4096x72x16 .f32) (a2 : FVec Ideal S5x48x32 .f32)
    (a3 : FVec Ideal S5x32 .f32) (a4 : FVec Ideal S5x64x32 .f32) (a5 : FVec Ideal S5x32 .f32) : FVec Ideal S4096x54x32 .f32 :=
  lay 4 (x a0 a1 a2 a3 a4 a5 4) a1 a2 a3 a4 a5

end Cert.RefSide

end
-- ==== Proof.RefRun.lean ====
/-
  The reference program's run. Its 232 operations (the four printed windows, each call of the row-norm function
  as its five operations over that call's buffers) are listed in nineteen stages — per layer: the two neighbour
  gathers with their index tables; the aggregate (concatenate, 48-row contraction, bias, tanh, maximum over the
  three neighbours); the affine output (concatenate, 64-row contraction, bias); tanh and the row normalisation —
  and the program is that straight line. After each stage the buffers still to be read hold the stage functions'
  values of the argument arrays: the gathers of the layer's input, its aggregate, its affine output, the next
  layer's input; the two columns of the constant table and the six arguments are never rewritten. The result is
  the fifth layer's affine output.
-/
import proofs.«100883_g78494822302262_cont_9to1_m_206_5_alg».proof.ReferenceIdeal
import proofs.«100883_g78494822302262_cont_9to1_m_206_5_alg».proof.Proof.Gen.ReferenceIdeal
import proofs.«100883_g78494822302262_cont_9to1_m_206_5_alg».proof.Proof.RefStages
import Idealize.ShloMosaic.Lib.StableHlo.Run
import Idealize.ShloMosaic.Lib.Pipeline.Regions

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.Facts

variable [Cert.ReferenceIdeal.Facts]
section Ops
variable {F : FTy → Type} [FloatOps F]

/-- Stage A0: 23 operations. -/
abbrev opsA0 : List (HloOp τ sig (Elt F)) :=
  [ StableHlo.nullary main_c (fun i => lit0 (S54x3x2.rowMajor i)),
    StableHlo.unary main_c main_v0 ((extractStridedSlice S54x3x1 ![0, 0, 0] · slices_S54x3x2_S54x3x1_0_0_0) : (⟨S54x3x2, .i32⟩ : BufTy).Contents (Elt F) → (⟨S54x3x1, .i32⟩ : BufTy).Contents (Elt F)),
    StableHlo.reshape main_v0 main_v1 rfl shapeCasts_S54x3x1_S54x3,
    StableHlo.unary main_c main_v2 ((extractStridedSlice S54x3x1 ![0, 0, 1] · slices_S54x3x2_S54x3x1_0_0_1) : (⟨S54x3x2, .i32⟩ : BufTy).Contents (Elt F) → (⟨S54x3x1, .i32⟩ : BufTy).Contents (Elt F)),
    StableHlo.reshape main_v2 main_v3 rfl shapeCasts_S54x3x1_S54x3,
    StableHlo.nullary main_c_0 (constantI S_ 32 0#32),
    StableHlo.unary main_c_0 main_v4 (broadcastInDim S54x3 ![] bcast_S_S54x3 : (⟨S_, .i32⟩ : BufTy).Contents (Elt F) → (⟨S54x3, .i32⟩ : BufTy).Contents (Elt F)),
    StableHlo.binary main_v1 main_v4 main_v5 (cmpi .slt : (⟨S54x3, .i32⟩ : BufTy).Contents (Elt F) → (⟨S54x3, .i32⟩ : BufTy).Contents (Elt F) → (⟨S54x3, .i1⟩ : BufTy).Contents (Elt F)),
    StableHlo.nullary main_c_1 (constantI S_ 32 54#32),
    StableHlo.unary main_c_1 main_v6 (broadcastInDim S54x3 ![] bcast_S_S54x3 : (⟨S_, .i32⟩ : BufTy).Contents (Elt F) → (⟨S54x3, .i32⟩ : BufTy).Contents (Elt F)),
    StableHlo.binary main_v1 main_v6 main_v7 (addi : (⟨S54x3, .i32⟩ : BufTy).Contents (Elt F) → (⟨S54x3, .i32⟩ : BufTy).Contents (Elt F) → (⟨S54x3, .i32⟩ : BufTy).Contents (Elt F)),
    StableHlo.ternary main_v5 main_v7 main_v1 main_v8 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v8 main_v9 (broadcastInDim S54x3x1 ![0, 1] bcast_S54x3_S54x3x1_0_1 : (⟨S54x3, .i32⟩ : BufTy).Contents (Elt F) → (⟨S54x3x1, .i32⟩ : BufTy).Contents (Elt F)),
    StableHlo.binary main_arg0 main_v9 main_v10 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_2 (constantI S_ 32 0#32),
    StableHlo.unary main_c_2 main_v11 (broadcastInDim S54x3 ![] bcast_S_S54x3 : (⟨S_, .i32⟩ : BufTy).Contents (Elt F) → (⟨S54x3, .i32⟩ : BufTy).Contents (Elt F)),
    StableHlo.binary main_v3 main_v11 main_v12 (cmpi .slt : (⟨S54x3, .i32⟩ : BufTy).Contents (Elt F) → (⟨S54x3, .i32⟩ : BufTy).Contents (Elt F) → (⟨S54x3, .i1⟩ : BufTy).Contents (Elt F)),
    StableHlo.nullary main_c_3 (constantI S_ 32 72#32),
    StableHlo.unary main_c_3 main_v13 (broadcastInDim S54x3 ![] bcast_S_S54x3 : (⟨S_, .i32⟩ : BufTy).Contents (Elt F) → (⟨S54x3, .i32⟩ : BufTy).Contents (Elt F)),
    StableHlo.binary main_v3 main_v13 main_v14 (addi : (⟨S54x3, .i32⟩ : BufTy).Contents (Elt F) → (⟨S54x3, .i32⟩ : BufTy).Contents (Elt F) → (⟨S54x3, .i32⟩ : BufTy).Contents (Elt F)),
    StableHlo.ternary main_v12 main_v14 main_v3 main_v15 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v15 main_v16 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v16 main_v17 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)) ]

theorem opsA0_sub : (opsA0 : List (HloOp τ sig (Elt F))).Forall fun op => op.bufs ⊆ tcRefs τ sig :=
  ⟨nullary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsA0_fresh : (opsA0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev opsA0_W : List (Ref sig .tc) := [main_c, main_v0, main_v1, main_v2, main_v3, main_c_0, main_v4, main_v5, main_c_1, main_v6, main_v7, main_v8, main_v9, main_v10, main_c_2, main_v11, main_v12, main_c_3, main_v13, main_v14, main_v15, main_v16, main_v17]

/-- Stage B0: 12 operations. -/
abbrev opsB0 : List (HloOp τ sig (Elt F)) :=
  [ StableHlo.binary main_v10 main_v17 main_v18 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v19 ((extractStridedSlice S1x48x32 ![0, 0, 0] · slices_S5x48x32_S1x48x32_0_0_0) : (⟨S5x48x32, .f32⟩ : BufTy).Contents (Elt F) → (⟨S1x48x32, .f32⟩ : BufTy).Contents (Elt F)),
    StableHlo.reshape main_v19 main_v20 rfl shapeCasts_S1x48x32_S48x32,
    StableHlo.binary main_v18 main_v20 main_v21 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v22 ((extractStridedSlice S1x32 ![0, 0] · slices_S5x32_S1x32_0_0) : (⟨S5x32, .f32⟩ : BufTy).Contents (Elt F) → (⟨S1x32, .f32⟩ : BufTy).Contents (Elt F)),
    StableHlo.reshape main_v22 main_v23 rfl shapeCasts_S1x32_S32,
    StableHlo.unary main_v23 main_v24 (broadcastInDim S1x1x1x32 ![3] bcast_S32_S1x1x1x32_3 : (⟨S32, .f32⟩ : BufTy).Contents (Elt F) → (⟨S1x1x1x32, .f32⟩ : BufTy).Contents (Elt F)),
    StableHlo.unary main_v24 main_v25 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v21 main_v25 main_v26 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v26 main_v27 (Host.tanh : (⟨S4096x54x3x32, .f32⟩ : BufTy).Contents (Elt F) → (⟨S4096x54x3x32, .f32⟩ : BufTy).Contents (Elt F)),
    StableHlo.nullary main_cst (constant S_ .f32 0xFF800000#32),
    StableHlo.binary main_v27 main_cst main_v28 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)) ]

theorem opsB0_sub : (opsB0 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., nullary_bufs_sub .., binary_bufs_sub ..⟩

theorem opsB0_fresh : (opsB0 : List (HloOp τ sig (Elt F))).Forall fun op => op.fresh = ∅ :=
  ⟨rfl, rfl, rfl, rfl, rfl, rfl, rfl, rfl, rfl, rfl, rfl, rfl⟩

abbrev opsB0_W : List (Ref sig .tc) := [main_v18, main_v19, main_v20, main_v21, main_v22, main_v23, main_v24, main_v25, main_v26, main_v27, main_cst, main_v28]

/-- Stage C0: 9 operations. -/
abbrev opsC0 : List (HloOp τ sig (Elt F)) :=
  [ StableHlo.binary main_arg0 main_v28 main_v29 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v30 ((extractStridedSlice S1x64x32 ![0, 0, 0] · slices_S5x64x32_S1x64x32_0_0_0) : (⟨S5x64x32, .f32⟩ : BufTy).Contents (Elt F) → (⟨S1x64x32, .f32⟩ : BufTy).Contents (Elt F)),
    StableHlo.reshape main_v30 main_v31 rfl shapeCasts_S1x64x32_S64x32,
    StableHlo.binary main_v29 main_v31 main_v32 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v33 ((extractStridedSlice S1x32 ![0, 0] · slices_S5x32_S1x32_0_0) : (⟨S5x32, .f32⟩ : BufTy).Contents (Elt F) → (⟨S1x32, .f32⟩ : BufTy).Contents (Elt F)),
    StableHlo.reshape main_v33 main_v34 rfl shapeCasts_S1x32_S32,
    StableHlo.unary main_v34 main_v35 (broadcastInDim S1x1x32 ![2] bcast_S32_S1x1x32_2 : (⟨S32, .f32⟩ : BufTy).Contents (Elt F) → (⟨S1x1x32, .f32⟩ : BufTy).Contents (Elt F)),
    StableHlo.unary main_v35 main_v36 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v32 main_v36 main_v37 (addf : (⟨S4096x54x32, .f32⟩ : BufTy).Contents (Elt F) → (⟨S4096x54x32, .f32⟩ : BufTy).Contents (Elt F) → (⟨S4096x54x32, .f32⟩ : BufTy).Contents (Elt F)) ]

theorem opsC0_sub : (opsC0 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩

theorem opsC0_fresh : (opsC0 : List (HloOp τ sig (Elt F))).Forall fun op => op.fresh = ∅ :=
  ⟨rfl, rfl, rfl, rfl, rfl, rfl, rfl, rfl, rfl⟩

abbrev opsC0_W : List (Ref sig .tc) := [main_v29, main_v30, main_v31, main_v32, main_v33, main_v34, main_v35, main_v36, main_v37]

/-- Stage D0: 8 operations. -/
abbrev opsD0 : List (HloOp τ sig (Elt F)) :=
  [ StableHlo.unary main_v37 main_v38 (Host.tanh : (⟨S4096x54x32, .f32⟩ : BufTy).Contents (Elt F) → (⟨S4096x54x32, .f32⟩ : BufTy).Contents (Elt F)),
    StableHlo.TRef.binary (.of main_v38 : StableHlo.TRef sig ⟨S4096x54x32, .f32⟩) (.of main_v38 : StableHlo.TRef sig ⟨S4096x54x32, .f32⟩) (.of main_call0_v0 : StableHlo.TRef sig ⟨S4096x54x32, .f32⟩) mulf,
    StableHlo.TRef.nullary (.of main_call0_cst : StableHlo.TRef sig ⟨S_, .f32⟩) (constant S_ .f32 0x00000000#32),
    StableHlo.TRef.binary (.of main_call0_v0 : StableHlo.TRef sig ⟨S4096x54x32, .f32⟩) (.of main_call0_cst : StableHlo.TRef sig ⟨S_, .f32⟩) (.of main_call0_v1 : StableHlo.TRef sig ⟨S4096x54, .f32⟩) (fun x v => Host.reduceAdd x v reducesTo_S4096x54x32_S4096x54_d2 h_S_),
    StableHlo.TRef.unary (.of main_call0_v1 : StableHlo.TRef sig ⟨S4096x54, .f32⟩) (.of main_call0_v2 : StableHlo.TRef sig ⟨S4096x54x1, .f32⟩) (broadcastInDim S4096x54x1 ![0, 1] bcast_S4096x54_S4096x54x1_0_1),
    StableHlo.TRef.unary (.of main_call0_v2 : StableHlo.TRef sig ⟨S4096x54x1, .f32⟩) (.of main_v39 : StableHlo.TRef sig ⟨S4096x54x1, .f32⟩) Host.sqrt,
    StableHlo.unary main_v39 main_v40 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v38 main_v40 main_v41 (Host.divf : (⟨S4096x54x32, .f32⟩ : BufTy).Contents (Elt F) → (⟨S4096x54x32, .f32⟩ : BufTy).Contents (Elt F) → (⟨S4096x54x32, .f32⟩ : BufTy).Contents (Elt F)) ]

theorem opsD0_sub : (opsD0 : List (HloOp τ sig (Elt F))).Forall fun op => op.bufs ⊆ tcRefs τ sig :=
  ⟨unary_bufs_sub .., binary_bufs_sub .., nullary_bufs_sub .., binary_bufs_sub .., unary_bufs_sub .., unary_bufs_sub .., unary_bufs_sub .., binary_bufs_sub ..⟩

theorem opsD0_fresh : (opsD0 : List (HloOp τ sig (Elt F))).Forall fun op => op.fresh = ∅ :=
  ⟨rfl, rfl, rfl, rfl, rfl, rfl, rfl, rfl⟩

abbrev opsD0_W : List (Ref sig .tc) := [main_v38, main_call0_v0, main_call0_cst, main_call0_v1, main_call0_v2, main_v39, main_v40, main_v41]

/-- Stage A1: 18 operations. -/
abbrev opsA1 : List (HloOp τ sig (Elt F)) :=
  [ StableHlo.nullary main_c_4 (constantI S_ 32 0#32),
    StableHlo.unary main_c_4 main_v42 (broadcastInDim S54x3 ![] bcast_S_S54x3 : (⟨S_, .i32⟩ : BufTy).Contents (Elt F) → (⟨S54x3, .i32⟩ : BufTy).Contents (Elt F)),
    StableHlo.binary main_v1 main_v42 main_v43 (cmpi .slt : (⟨S54x3, .i32⟩ : BufTy).Contents (Elt F) → (⟨S54x3, .i32⟩ : BufTy).Contents (Elt F) → (⟨S54x3, .i1⟩ : BufTy).Contents (Elt F)),
    StableHlo.nullary main_c_5 (constantI S_ 32 54#32),
    StableHlo.unary main_c_5 main_v44 (broadcastInDim S54x3 ![] bcast_S_S54x3 : (⟨S_, .i32⟩ : BufTy).Contents (Elt F) → (⟨S54x3, .i32⟩ : BufTy).Contents (Elt F)),
    StableHlo.binary main_v1 main_v44 main_v45 (addi : (⟨S54x3, .i32⟩ : BufTy).Contents (Elt F) → (⟨S54x3, .i32⟩ : BufTy).Contents (Elt F) → (⟨S54x3, .i32⟩ : BufTy).Contents (Elt F)),
    StableHlo.ternary main_v43 main_v45 main_v1 main_v46 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v46 main_v47 (broadcastInDim S54x3x1 ![0, 1] bcast_S54x3_S54x3x1_0_1 : (⟨S54x3, .i32⟩ : BufTy).Contents (Elt F) → (⟨S54x3x1, .i32⟩ : BufTy).Contents (Elt F)),
    StableHlo.binary main_v41 main_v47 main_v48 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_6 (constantI S_ 32 0#32),
    StableHlo.unary main_c_6 main_v49 (broadcastInDim S54x3 ![] bcast_S_S54x3 : (⟨S_, .i32⟩ : BufTy).Contents (Elt F) → (⟨S54x3, .i32⟩ : BufTy).Contents (Elt F)),
    StableHlo.binary main_v3 main_v49 main_v50 (cmpi .slt : (⟨S54x3, .i32⟩ : BufTy).Contents (Elt F) → (⟨S54x3, .i32⟩ : BufTy).Contents (Elt F) → (⟨S54x3, .i1⟩ : BufTy).Contents (Elt F)),
    StableHlo.nullary main_c_7 (constantI S_ 32 72#32),
    StableHlo.unary main_c_7 main_v51 (broadcastInDim S54x3 ![] bcast_S_S54x3 : (⟨S_, .i32⟩ : BufTy).Contents (Elt F) → (⟨S54x3, .i32⟩ : BufTy).Contents (Elt F)),
    StableHlo.binary main_v3 main_v51 main_v52 (addi : (⟨S54x3, .i32⟩ : BufTy).Contents (Elt F) → (⟨S54x3, .i32⟩ : BufTy).Contents (Elt F) → (⟨S54x3, .i32⟩ : BufTy).Contents (Elt F)),
    StableHlo.ternary main_v50 main_v52 main_v3 main_v53 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v53 main_v54 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v54 main_v55 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)) ]

theorem opsA1_sub : (opsA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl⟩

abbrev opsA1_W : List (Ref sig .tc) := [main_c_4, main_v42, main_v43, main_c_5, main_v44, main_v45, main_v46, main_v47, main_v48, main_c_6, main_v49, main_v50, main_c_7, main_v51, main_v52, main_v53, main_v54, main_v55]

/-- Stage B1: 12 operations. -/
abbrev opsB1 : List (HloOp τ sig (Elt F)) :=
  [ StableHlo.binary main_v48 main_v55 main_v56 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v57 ((extractStridedSlice S1x48x32 ![1, 0, 0] · slices_S5x48x32_S1x48x32_1_0_0) : (⟨S5x48x32, .f32⟩ : BufTy).Contents (Elt F) → (⟨S1x48x32, .f32⟩ : BufTy).Contents (Elt F)),
    StableHlo.reshape main_v57 main_v58 rfl shapeCasts_S1x48x32_S48x32,
    StableHlo.binary main_v56 main_v58 main_v59 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v60 ((extractStridedSlice S1x32 ![1, 0] · slices_S5x32_S1x32_1_0) : (⟨S5x32, .f32⟩ : BufTy).Contents (Elt F) → (⟨S1x32, .f32⟩ : BufTy).Contents (Elt F)),
    StableHlo.reshape main_v60 main_v61 rfl shapeCasts_S1x32_S32,
    StableHlo.unary main_v61 main_v62 (broadcastInDim S1x1x1x32 ![3] bcast_S32_S1x1x1x32_3 : (⟨S32, .f32⟩ : BufTy).Contents (Elt F) → (⟨S1x1x1x32, .f32⟩ : BufTy).Contents (Elt F)),
    StableHlo.unary main_v62 main_v63 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v59 main_v63 main_v64 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v64 main_v65 (Host.tanh : (⟨S4096x54x3x32, .f32⟩ : BufTy).Contents (Elt F) → (⟨S4096x54x3x32, .f32⟩ : BufTy).Contents (Elt F)),
    StableHlo.nullary main_cst_8 (constant S_ .f32 0xFF800000#32),
    StableHlo.binary main_v65 main_cst_8 main_v66 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)) ]

theorem opsB1_sub : (opsB1 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., nullary_bufs_sub .., binary_bufs_sub ..⟩

theorem opsB1_fresh : (opsB1 : List (HloOp τ sig (Elt F))).Forall fun op => op.fresh = ∅ :=
  ⟨rfl, rfl, rfl, rfl, rfl, rfl, rfl, rfl, rfl, rfl, rfl, rfl⟩

abbrev opsB1_W : List (Ref sig .tc) := [main_v56, main_v57, main_v58, main_v59, main_v60, main_v61, main_v62, main_v63, main_v64, main_v65, main_cst_8, main_v66]

/-- Stage C1: 9 operations. -/
abbrev opsC1 : List (HloOp τ sig (Elt F)) :=
  [ StableHlo.binary main_v41 main_v66 main_v67 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v68 ((extractStridedSlice S1x64x32 ![1, 0, 0] · slices_S5x64x32_S1x64x32_1_0_0) : (⟨S5x64x32, .f32⟩ : BufTy).Contents (Elt F) → (⟨S1x64x32, .f32⟩ : BufTy).Contents (Elt F)),
    StableHlo.reshape main_v68 main_v69 rfl shapeCasts_S1x64x32_S64x32,
    StableHlo.binary main_v67 main_v69 main_v70 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v71 ((extractStridedSlice S1x32 ![1, 0] · slices_S5x32_S1x32_1_0) : (⟨S5x32, .f32⟩ : BufTy).Contents (Elt F) → (⟨S1x32, .f32⟩ : BufTy).Contents (Elt F)),
    StableHlo.reshape main_v71 main_v72 rfl shapeCasts_S1x32_S32,
    StableHlo.unary main_v72 main_v73 (broadcastInDim S1x1x32 ![2] bcast_S32_S1x1x32_2 : (⟨S32, .f32⟩ : BufTy).Contents (Elt F) → (⟨S1x1x32, .f32⟩ : BufTy).Contents (Elt F)),
    StableHlo.unary main_v73 main_v74 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v70 main_v74 main_v75 (addf : (⟨S4096x54x32, .f32⟩ : BufTy).Contents (Elt F) → (⟨S4096x54x32, .f32⟩ : BufTy).Contents (Elt F) → (⟨S4096x54x32, .f32⟩ : BufTy).Contents (Elt F)) ]

theorem opsC1_sub : (opsC1 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩

theorem opsC1_fresh : (opsC1 : List (HloOp τ sig (Elt F))).Forall fun op => op.fresh = ∅ :=
  ⟨rfl, rfl, rfl, rfl, rfl, rfl, rfl, rfl, rfl⟩

abbrev opsC1_W : List (Ref sig .tc) := [main_v67, main_v68, main_v69, main_v70, main_v71, main_v72, main_v73, main_v74, main_v75]

/-- Stage D1: 8 operations. -/
abbrev opsD1 : List (HloOp τ sig (Elt F)) :=
  [ StableHlo.unary main_v75 main_v76 (Host.tanh : (⟨S4096x54x32, .f32⟩ : BufTy).Contents (Elt F) → (⟨S4096x54x32, .f32⟩ : BufTy).Contents (Elt F)),
    StableHlo.TRef.binary (.of main_v76 : StableHlo.TRef sig ⟨S4096x54x32, .f32⟩) (.of main_v76 : StableHlo.TRef sig ⟨S4096x54x32, .f32⟩) (.of main_call1_v0 : StableHlo.TRef sig ⟨S4096x54x32, .f32⟩) mulf,
    StableHlo.TRef.nullary (.of main_call1_cst : StableHlo.TRef sig ⟨S_, .f32⟩) (constant S_ .f32 0x00000000#32),
    StableHlo.TRef.binary (.of main_call1_v0 : StableHlo.TRef sig ⟨S4096x54x32, .f32⟩) (.of main_call1_cst : StableHlo.TRef sig ⟨S_, .f32⟩) (.of main_call1_v1 : StableHlo.TRef sig ⟨S4096x54, .f32⟩) (fun x v => Host.reduceAdd x v reducesTo_S4096x54x32_S4096x54_d2 h_S_),
    StableHlo.TRef.unary (.of main_call1_v1 : StableHlo.TRef sig ⟨S4096x54, .f32⟩) (.of main_call1_v2 : StableHlo.TRef sig ⟨S4096x54x1, .f32⟩) (broadcastInDim S4096x54x1 ![0, 1] bcast_S4096x54_S4096x54x1_0_1),
    StableHlo.TRef.unary (.of main_call1_v2 : StableHlo.TRef sig ⟨S4096x54x1, .f32⟩) (.of main_v77 : StableHlo.TRef sig ⟨S4096x54x1, .f32⟩) Host.sqrt,
    StableHlo.unary main_v77 main_v78 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v76 main_v78 main_v79 (Host.divf : (⟨S4096x54x32, .f32⟩ : BufTy).Contents (Elt F) → (⟨S4096x54x32, .f32⟩ : BufTy).Contents (Elt F) → (⟨S4096x54x32, .f32⟩ : BufTy).Contents (Elt F)) ]

theorem opsD1_sub : (opsD1 : List (HloOp τ sig (Elt F))).Forall fun op => op.bufs ⊆ tcRefs τ sig :=
  ⟨unary_bufs_sub .., binary_bufs_sub .., nullary_bufs_sub .., binary_bufs_sub .., unary_bufs_sub .., unary_bufs_sub .., unary_bufs_sub .., binary_bufs_sub ..⟩

theorem opsD1_fresh : (opsD1 : List (HloOp τ sig (Elt F))).Forall fun op => op.fresh = ∅ :=
  ⟨rfl, rfl, rfl, rfl, rfl, rfl, rfl, rfl⟩

abbrev opsD1_W : List (Ref sig .tc) := [main_v76, main_call1_v0, main_call1_cst, main_call1_v1, main_call1_v2, main_v77, main_v78, main_v79]

/-- Stage A2: 18 operations. -/
abbrev opsA2 : List (HloOp τ sig (Elt F)) :=
  [ StableHlo.nullary main_c_9 (constantI S_ 32 0#32),
    StableHlo.unary main_c_9 main_v80 (broadcastInDim S54x3 ![] bcast_S_S54x3 : (⟨S_, .i32⟩ : BufTy).Contents (Elt F) → (⟨S54x3, .i32⟩ : BufTy).Contents (Elt F)),
    StableHlo.binary main_v1 main_v80 main_v81 (cmpi .slt : (⟨S54x3, .i32⟩ : BufTy).Contents (Elt F) → (⟨S54x3, .i32⟩ : BufTy).Contents (Elt F) → (⟨S54x3, .i1⟩ : BufTy).Contents (Elt F)),
    StableHlo.nullary main_c_10 (constantI S_ 32 54#32),
    StableHlo.unary main_c_10 main_v82 (broadcastInDim S54x3 ![] bcast_S_S54x3 : (⟨S_, .i32⟩ : BufTy).Contents (Elt F) → (⟨S54x3, .i32⟩ : BufTy).Contents (Elt F)),
    StableHlo.binary main_v1 main_v82 main_v83 (addi : (⟨S54x3, .i32⟩ : BufTy).Contents (Elt F) → (⟨S54x3, .i32⟩ : BufTy).Contents (Elt F) → (⟨S54x3, .i32⟩ : BufTy).Contents (Elt F)),
    StableHlo.ternary main_v81 main_v83 main_v1 main_v84 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v84 main_v85 (broadcastInDim S54x3x1 ![0, 1] bcast_S54x3_S54x3x1_0_1 : (⟨S54x3, .i32⟩ : BufTy).Contents (Elt F) → (⟨S54x3x1, .i32⟩ : BufTy).Contents (Elt F)),
    StableHlo.binary main_v79 main_v85 main_v86 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_11 (constantI S_ 32 0#32),
    StableHlo.unary main_c_11 main_v87 (broadcastInDim S54x3 ![] bcast_S_S54x3 : (⟨S_, .i32⟩ : BufTy).Contents (Elt F) → (⟨S54x3, .i32⟩ : BufTy).Contents (Elt F)),
    StableHlo.binary main_v3 main_v87 main_v88 (cmpi .slt : (⟨S54x3, .i32⟩ : BufTy).Contents (Elt F) → (⟨S54x3, .i32⟩ : BufTy).Contents (Elt F) → (⟨S54x3, .i1⟩ : BufTy).Contents (Elt F)),
    StableHlo.nullary main_c_12 (constantI S_ 32 72#32),
    StableHlo.unary main_c_12 main_v89 (broadcastInDim S54x3 ![] bcast_S_S54x3 : (⟨S_, .i32⟩ : BufTy).Contents (Elt F) → (⟨S54x3, .i32⟩ : BufTy).Contents (Elt F)),
    StableHlo.binary main_v3 main_v89 main_v90 (addi : (⟨S54x3, .i32⟩ : BufTy).Contents (Elt F) → (⟨S54x3, .i32⟩ : BufTy).Contents (Elt F) → (⟨S54x3, .i32⟩ : BufTy).Contents (Elt F)),
    StableHlo.ternary main_v88 main_v90 main_v3 main_v91 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v91 main_v92 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v92 main_v93 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)) ]

theorem opsA2_sub : (opsA2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsA2_fresh : (opsA2 : List (HloOp τ sig (Elt F))).Forall fun op => op.fresh = ∅ :=
  ⟨rfl, rfl, rfl, rfl, rfl, rfl, rfl, rfl, rfl, rfl, rfl, rfl, rfl, rfl, rfl, rfl, rfl, rfl⟩

abbrev opsA2_W : List (Ref sig .tc) := [main_c_9, main_v80, main_v81, main_c_10, main_v82, main_v83, main_v84, main_v85, main_v86, main_c_11, main_v87, main_v88, main_c_12, main_v89, main_v90, main_v91, main_v92, main_v93]

/-- Stage B2: 12 operations. -/
abbrev opsB2 : List (HloOp τ sig (Elt F)) :=
  [ StableHlo.binary main_v86 main_v93 main_v94 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v95 ((extractStridedSlice S1x48x32 ![2, 0, 0] · slices_S5x48x32_S1x48x32_2_0_0) : (⟨S5x48x32, .f32⟩ : BufTy).Contents (Elt F) → (⟨S1x48x32, .f32⟩ : BufTy).Contents (Elt F)),
    StableHlo.reshape main_v95 main_v96 rfl shapeCasts_S1x48x32_S48x32,
    StableHlo.binary main_v94 main_v96 main_v97 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v98 ((extractStridedSlice S1x32 ![2, 0] · slices_S5x32_S1x32_2_0) : (⟨S5x32, .f32⟩ : BufTy).Contents (Elt F) → (⟨S1x32, .f32⟩ : BufTy).Contents (Elt F)),
    StableHlo.reshape main_v98 main_v99 rfl shapeCasts_S1x32_S32,
    StableHlo.unary main_v99 main_v100 (broadcastInDim S1x1x1x32 ![3] bcast_S32_S1x1x1x32_3 : (⟨S32, .f32⟩ : BufTy).Contents (Elt F) → (⟨S1x1x1x32, .f32⟩ : BufTy).Contents (Elt F)),
    StableHlo.unary main_v100 main_v101 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v97 main_v101 main_v102 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v102 main_v103 (Host.tanh : (⟨S4096x54x3x32, .f32⟩ : BufTy).Contents (Elt F) → (⟨S4096x54x3x32, .f32⟩ : BufTy).Contents (Elt F)),
    StableHlo.nullary main_cst_13 (constant S_ .f32 0xFF800000#32),
    StableHlo.binary main_v103 main_cst_13 main_v104 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)) ]

theorem opsB2_sub : (opsB2 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., nullary_bufs_sub .., binary_bufs_sub ..⟩

theorem opsB2_fresh : (opsB2 : List (HloOp τ sig (Elt F))).Forall fun op => op.fresh = ∅ :=
  ⟨rfl, rfl, rfl, rfl, rfl, rfl, rfl, rfl, rfl, rfl, rfl, rfl⟩

abbrev opsB2_W : List (Ref sig .tc) := [main_v94, main_v95, main_v96, main_v97, main_v98, main_v99, main_v100, main_v101, main_v102, main_v103, main_cst_13, main_v104]

/-- Stage C2: 9 operations. -/
abbrev opsC2 : List (HloOp τ sig (Elt F)) :=
  [ StableHlo.binary main_v79 main_v104 main_v105 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v106 ((extractStridedSlice S1x64x32 ![2, 0, 0] · slices_S5x64x32_S1x64x32_2_0_0) : (⟨S5x64x32, .f32⟩ : BufTy).Contents (Elt F) → (⟨S1x64x32, .f32⟩ : BufTy).Contents (Elt F)),
    StableHlo.reshape main_v106 main_v107 rfl shapeCasts_S1x64x32_S64x32,
    StableHlo.binary main_v105 main_v107 main_v108 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v109 ((extractStridedSlice S1x32 ![2, 0] · slices_S5x32_S1x32_2_0) : (⟨S5x32, .f32⟩ : BufTy).Contents (Elt F) → (⟨S1x32, .f32⟩ : BufTy).Contents (Elt F)),
    StableHlo.reshape main_v109 main_v110 rfl shapeCasts_S1x32_S32,
    StableHlo.unary main_v110 main_v111 (broadcastInDim S1x1x32 ![2] bcast_S32_S1x1x32_2 : (⟨S32, .f32⟩ : BufTy).Contents (Elt F) → (⟨S1x1x32, .f32⟩ : BufTy).Contents (Elt F)),
    StableHlo.unary main_v111 main_v112 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v108 main_v112 main_v113 (addf : (⟨S4096x54x32, .f32⟩ : BufTy).Contents (Elt F) → (⟨S4096x54x32, .f32⟩ : BufTy).Contents (Elt F) → (⟨S4096x54x32, .f32⟩ : BufTy).Contents (Elt F)) ]

theorem opsC2_sub : (opsC2 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩

theorem opsC2_fresh : (opsC2 : List (HloOp τ sig (Elt F))).Forall fun op => op.fresh = ∅ :=
  ⟨rfl, rfl, rfl, rfl, rfl, rfl, rfl, rfl, rfl⟩

abbrev opsC2_W : List (Ref sig .tc) := [main_v105, main_v106, main_v107, main_v108, main_v109, main_v110, main_v111, main_v112, main_v113]

/-- Stage D2: 8 operations. -/
abbrev opsD2 : List (HloOp τ sig (Elt F)) :=
  [ StableHlo.unary main_v113 main_v114 (Host.tanh : (⟨S4096x54x32, .f32⟩ : BufTy).Contents (Elt F) → (⟨S4096x54x32, .f32⟩ : BufTy).Contents (Elt F)),
    StableHlo.TRef.binary (.of main_v114 : StableHlo.TRef sig ⟨S4096x54x32, .f32⟩) (.of main_v114 : StableHlo.TRef sig ⟨S4096x54x32, .f32⟩) (.of main_call2_v0 : StableHlo.TRef sig ⟨S4096x54x32, .f32⟩) mulf,
    StableHlo.TRef.nullary (.of main_call2_cst : StableHlo.TRef sig ⟨S_, .f32⟩) (constant S_ .f32 0x00000000#32),
    StableHlo.TRef.binary (.of main_call2_v0 : StableHlo.TRef sig ⟨S4096x54x32, .f32⟩) (.of main_call2_cst : StableHlo.TRef sig ⟨S_, .f32⟩) (.of main_call2_v1 : StableHlo.TRef sig ⟨S4096x54, .f32⟩) (fun x v => Host.reduceAdd x v reducesTo_S4096x54x32_S4096x54_d2 h_S_),
    StableHlo.TRef.unary (.of main_call2_v1 : StableHlo.TRef sig ⟨S4096x54, .f32⟩) (.of main_call2_v2 : StableHlo.TRef sig ⟨S4096x54x1, .f32⟩) (broadcastInDim S4096x54x1 ![0, 1] bcast_S4096x54_S4096x54x1_0_1),
    StableHlo.TRef.unary (.of main_call2_v2 : StableHlo.TRef sig ⟨S4096x54x1, .f32⟩) (.of main_v115 : StableHlo.TRef sig ⟨S4096x54x1, .f32⟩) Host.sqrt,
    StableHlo.unary main_v115 main_v116 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v114 main_v116 main_v117 (Host.divf : (⟨S4096x54x32, .f32⟩ : BufTy).Contents (Elt F) → (⟨S4096x54x32, .f32⟩ : BufTy).Contents (Elt F) → (⟨S4096x54x32, .f32⟩ : BufTy).Contents (Elt F)) ]

theorem opsD2_sub : (opsD2 : List (HloOp τ sig (Elt F))).Forall fun op => op.bufs ⊆ tcRefs τ sig :=
  ⟨unary_bufs_sub .., binary_bufs_sub .., nullary_bufs_sub .., binary_bufs_sub .., unary_bufs_sub .., unary_bufs_sub .., unary_bufs_sub .., binary_bufs_sub ..⟩

theorem opsD2_fresh : (opsD2 : List (HloOp τ sig (Elt F))).Forall fun op => op.fresh = ∅ :=
  ⟨rfl, rfl, rfl, rfl, rfl, rfl, rfl, rfl⟩

abbrev opsD2_W : List (Ref sig .tc) := [main_v114, main_call2_v0, main_call2_cst, main_call2_v1, main_call2_v2, main_v115, main_v116, main_v117]

/-- Stage A3: 18 operations. -/
abbrev opsA3 : List (HloOp τ sig (Elt F)) :=
  [ StableHlo.nullary main_c_14 (constantI S_ 32 0#32),
    StableHlo.unary main_c_14 main_v118 (broadcastInDim S54x3 ![] bcast_S_S54x3 : (⟨S_, .i32⟩ : BufTy).Contents (Elt F) → (⟨S54x3, .i32⟩ : BufTy).Contents (Elt F)),
    StableHlo.binary main_v1 main_v118 main_v119 (cmpi .slt : (⟨S54x3, .i32⟩ : BufTy).Contents (Elt F) → (⟨S54x3, .i32⟩ : BufTy).Contents (Elt F) → (⟨S54x3, .i1⟩ : BufTy).Contents (Elt F)),
    StableHlo.nullary main_c_15 (constantI S_ 32 54#32),
    StableHlo.unary main_c_15 main_v120 (broadcastInDim S54x3 ![] bcast_S_S54x3 : (⟨S_, .i32⟩ : BufTy).Contents (Elt F) → (⟨S54x3, .i32⟩ : BufTy).Contents (Elt F)),
    StableHlo.binary main_v1 main_v120 main_v121 (addi : (⟨S54x3, .i32⟩ : BufTy).Contents (Elt F) → (⟨S54x3, .i32⟩ : BufTy).Contents (Elt F) → (⟨S54x3, .i32⟩ : BufTy).Contents (Elt F)),
    StableHlo.ternary main_v119 main_v121 main_v1 main_v122 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v122 main_v123 (broadcastInDim S54x3x1 ![0, 1] bcast_S54x3_S54x3x1_0_1 : (⟨S54x3, .i32⟩ : BufTy).Contents (Elt F) → (⟨S54x3x1, .i32⟩ : BufTy).Contents (Elt F)),
    StableHlo.binary main_v117 main_v123 main_v124 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_16 (constantI S_ 32 0#32),
    StableHlo.unary main_c_16 main_v125 (broadcastInDim S54x3 ![] bcast_S_S54x3 : (⟨S_, .i32⟩ : BufTy).Contents (Elt F) → (⟨S54x3, .i32⟩ : BufTy).Contents (Elt F)),
    StableHlo.binary main_v3 main_v125 main_v126 (cmpi .slt : (⟨S54x3, .i32⟩ : BufTy).Contents (Elt F) → (⟨S54x3, .i32⟩ : BufTy).Contents (Elt F) → (⟨S54x3, .i1⟩ : BufTy).Contents (Elt F)),
    StableHlo.nullary main_c_17 (constantI S_ 32 72#32),
    StableHlo.unary main_c_17 main_v127 (broadcastInDim S54x3 ![] bcast_S_S54x3 : (⟨S_, .i32⟩ : BufTy).Contents (Elt F) → (⟨S54x3, .i32⟩ : BufTy).Contents (Elt F)),
    StableHlo.binary main_v3 main_v127 main_v128 (addi : (⟨S54x3, .i32⟩ : BufTy).Contents (Elt F) → (⟨S54x3, .i32⟩ : BufTy).Contents (Elt F) → (⟨S54x3, .i32⟩ : BufTy).Contents (Elt F)),
    StableHlo.ternary main_v126 main_v128 main_v3 main_v129 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v129 main_v130 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v130 main_v131 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)) ]

theorem opsA3_sub : (opsA3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsA3_fresh : (opsA3 : List (HloOp τ sig (Elt F))).Forall fun op => op.fresh = ∅ :=
  ⟨rfl, rfl, rfl, rfl, rfl, rfl, rfl, rfl, rfl, rfl, rfl, rfl, rfl, rfl, rfl, rfl, rfl, rfl⟩

abbrev opsA3_W : List (Ref sig .tc) := [main_c_14, main_v118, main_v119, main_c_15, main_v120, main_v121, main_v122, main_v123, main_v124, main_c_16, main_v125, main_v126, main_c_17, main_v127, main_v128, main_v129, main_v130, main_v131]

/-- Stage B3: 12 operations. -/
abbrev opsB3 : List (HloOp τ sig (Elt F)) :=
  [ StableHlo.binary main_v124 main_v131 main_v132 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v133 ((extractStridedSlice S1x48x32 ![3, 0, 0] · slices_S5x48x32_S1x48x32_3_0_0) : (⟨S5x48x32, .f32⟩ : BufTy).Contents (Elt F) → (⟨S1x48x32, .f32⟩ : BufTy).Contents (Elt F)),
    StableHlo.reshape main_v133 main_v134 rfl shapeCasts_S1x48x32_S48x32,
    StableHlo.binary main_v132 main_v134 main_v135 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v136 ((extractStridedSlice S1x32 ![3, 0] · slices_S5x32_S1x32_3_0) : (⟨S5x32, .f32⟩ : BufTy).Contents (Elt F) → (⟨S1x32, .f32⟩ : BufTy).Contents (Elt F)),
    StableHlo.reshape main_v136 main_v137 rfl shapeCasts_S1x32_S32,
    StableHlo.unary main_v137 main_v138 (broadcastInDim S1x1x1x32 ![3] bcast_S32_S1x1x1x32_3 : (⟨S32, .f32⟩ : BufTy).Contents (Elt F) → (⟨S1x1x1x32, .f32⟩ : BufTy).Contents (Elt F)),
    StableHlo.unary main_v138 main_v139 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v135 main_v139 main_v140 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v140 main_v141 (Host.tanh : (⟨S4096x54x3x32, .f32⟩ : BufTy).Contents (Elt F) → (⟨S4096x54x3x32, .f32⟩ : BufTy).Contents (Elt F)),
    StableHlo.nullary main_cst_18 (constant S_ .f32 0xFF800000#32),
    StableHlo.binary main_v141 main_cst_18 main_v142 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)) ]

theorem opsB3_sub : (opsB3 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., nullary_bufs_sub .., binary_bufs_sub ..⟩

theorem opsB3_fresh : (opsB3 : List (HloOp τ sig (Elt F))).Forall fun op => op.fresh = ∅ :=
  ⟨rfl, rfl, rfl, rfl, rfl, rfl, rfl, rfl, rfl, rfl, rfl, rfl⟩

abbrev opsB3_W : List (Ref sig .tc) := [main_v132, main_v133, main_v134, main_v135, main_v136, main_v137, main_v138, main_v139, main_v140, main_v141, main_cst_18, main_v142]

/-- Stage C3: 9 operations. -/
abbrev opsC3 : List (HloOp τ sig (Elt F)) :=
  [ StableHlo.binary main_v117 main_v142 main_v143 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v144 ((extractStridedSlice S1x64x32 ![3, 0, 0] · slices_S5x64x32_S1x64x32_3_0_0) : (⟨S5x64x32, .f32⟩ : BufTy).Contents (Elt F) → (⟨S1x64x32, .f32⟩ : BufTy).Contents (Elt F)),
    StableHlo.reshape main_v144 main_v145 rfl shapeCasts_S1x64x32_S64x32,
    StableHlo.binary main_v143 main_v145 main_v146 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v147 ((extractStridedSlice S1x32 ![3, 0] · slices_S5x32_S1x32_3_0) : (⟨S5x32, .f32⟩ : BufTy).Contents (Elt F) → (⟨S1x32, .f32⟩ : BufTy).Contents (Elt F)),
    StableHlo.reshape main_v147 main_v148 rfl shapeCasts_S1x32_S32,
    StableHlo.unary main_v148 main_v149 (broadcastInDim S1x1x32 ![2] bcast_S32_S1x1x32_2 : (⟨S32, .f32⟩ : BufTy).Contents (Elt F) → (⟨S1x1x32, .f32⟩ : BufTy).Contents (Elt F)),
    StableHlo.unary main_v149 main_v150 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v146 main_v150 main_v151 (addf : (⟨S4096x54x32, .f32⟩ : BufTy).Contents (Elt F) → (⟨S4096x54x32, .f32⟩ : BufTy).Contents (Elt F) → (⟨S4096x54x32, .f32⟩ : BufTy).Contents (Elt F)) ]

theorem opsC3_sub : (opsC3 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩

theorem opsC3_fresh : (opsC3 : List (HloOp τ sig (Elt F))).Forall fun op => op.fresh = ∅ :=
  ⟨rfl, rfl, rfl, rfl, rfl, rfl, rfl, rfl, rfl⟩

abbrev opsC3_W : List (Ref sig .tc) := [main_v143, main_v144, main_v145, main_v146, main_v147, main_v148, main_v149, main_v150, main_v151]

/-- Stage D3: 8 operations. -/
abbrev opsD3 : List (HloOp τ sig (Elt F)) :=
  [ StableHlo.unary main_v151 main_v152 (Host.tanh : (⟨S4096x54x32, .f32⟩ : BufTy).Contents (Elt F) → (⟨S4096x54x32, .f32⟩ : BufTy).Contents (Elt F)),
    StableHlo.TRef.binary (.of main_v152 : StableHlo.TRef sig ⟨S4096x54x32, .f32⟩) (.of main_v152 : StableHlo.TRef sig ⟨S4096x54x32, .f32⟩) (.of main_call3_v0 : StableHlo.TRef sig ⟨S4096x54x32, .f32⟩) mulf,
    StableHlo.TRef.nullary (.of main_call3_cst : StableHlo.TRef sig ⟨S_, .f32⟩) (constant S_ .f32 0x00000000#32),
    StableHlo.TRef.binary (.of main_call3_v0 : StableHlo.TRef sig ⟨S4096x54x32, .f32⟩) (.of main_call3_cst : StableHlo.TRef sig ⟨S_, .f32⟩) (.of main_call3_v1 : StableHlo.TRef sig ⟨S4096x54, .f32⟩) (fun x v => Host.reduceAdd x v reducesTo_S4096x54x32_S4096x54_d2 h_S_),
    StableHlo.TRef.unary (.of main_call3_v1 : StableHlo.TRef sig ⟨S4096x54, .f32⟩) (.of main_call3_v2 : StableHlo.TRef sig ⟨S4096x54x1, .f32⟩) (broadcastInDim S4096x54x1 ![0, 1] bcast_S4096x54_S4096x54x1_0_1),
    StableHlo.TRef.unary (.of main_call3_v2 : StableHlo.TRef sig ⟨S4096x54x1, .f32⟩) (.of main_v153 : StableHlo.TRef sig ⟨S4096x54x1, .f32⟩) Host.sqrt,
    StableHlo.unary main_v153 main_v154 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v152 main_v154 main_v155 (Host.divf : (⟨S4096x54x32, .f32⟩ : BufTy).Contents (Elt F) → (⟨S4096x54x32, .f32⟩ : BufTy).Contents (Elt F) → (⟨S4096x54x32, .f32⟩ : BufTy).Contents (Elt F)) ]

theorem opsD3_sub : (opsD3 : List (HloOp τ sig (Elt F))).Forall fun op => op.bufs ⊆ tcRefs τ sig :=
  ⟨unary_bufs_sub .., binary_bufs_sub .., nullary_bufs_sub .., binary_bufs_sub .., unary_bufs_sub .., unary_bufs_sub .., unary_bufs_sub .., binary_bufs_sub ..⟩

theorem opsD3_fresh : (opsD3 : List (HloOp τ sig (Elt F))).Forall fun op => op.fresh = ∅ :=
  ⟨rfl, rfl, rfl, rfl, rfl, rfl, rfl, rfl⟩

abbrev opsD3_W : List (Ref sig .tc) := [main_v152, main_call3_v0, main_call3_cst, main_call3_v1, main_call3_v2, main_v153, main_v154, main_v155]

/-- Stage A4: 18 operations. -/
abbrev opsA4 : List (HloOp τ sig (Elt F)) :=
  [ StableHlo.nullary main_c_19 (constantI S_ 32 0#32),
    StableHlo.unary main_c_19 main_v156 (broadcastInDim S54x3 ![] bcast_S_S54x3 : (⟨S_, .i32⟩ : BufTy).Contents (Elt F) → (⟨S54x3, .i32⟩ : BufTy).Contents (Elt F)),
    StableHlo.binary main_v1 main_v156 main_v157 (cmpi .slt : (⟨S54x3, .i32⟩ : BufTy).Contents (Elt F) → (⟨S54x3, .i32⟩ : BufTy).Contents (Elt F) → (⟨S54x3, .i1⟩ : BufTy).Contents (Elt F)),
    StableHlo.nullary main_c_20 (constantI S_ 32 54#32),
    StableHlo.unary main_c_20 main_v158 (broadcastInDim S54x3 ![] bcast_S_S54x3 : (⟨S_, .i32⟩ : BufTy).Contents (Elt F) → (⟨S54x3, .i32⟩ : BufTy).Contents (Elt F)),
    StableHlo.binary main_v1 main_v158 main_v159 (addi : (⟨S54x3, .i32⟩ : BufTy).Contents (Elt F) → (⟨S54x3, .i32⟩ : BufTy).Contents (Elt F) → (⟨S54x3, .i32⟩ : BufTy).Contents (Elt F)),
    StableHlo.ternary main_v157 main_v159 main_v1 main_v160 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v160 main_v161 (broadcastInDim S54x3x1 ![0, 1] bcast_S54x3_S54x3x1_0_1 : (⟨S54x3, .i32⟩ : BufTy).Contents (Elt F) → (⟨S54x3x1, .i32⟩ : BufTy).Contents (Elt F)),
    StableHlo.binary main_v155 main_v161 main_v162 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_21 (constantI S_ 32 0#32),
    StableHlo.unary main_c_21 main_v163 (broadcastInDim S54x3 ![] bcast_S_S54x3 : (⟨S_, .i32⟩ : BufTy).Contents (Elt F) → (⟨S54x3, .i32⟩ : BufTy).Contents (Elt F)),
    StableHlo.binary main_v3 main_v163 main_v164 (cmpi .slt : (⟨S54x3, .i32⟩ : BufTy).Contents (Elt F) → (⟨S54x3, .i32⟩ : BufTy).Contents (Elt F) → (⟨S54x3, .i1⟩ : BufTy).Contents (Elt F)),
    StableHlo.nullary main_c_22 (constantI S_ 32 72#32),
    StableHlo.unary main_c_22 main_v165 (broadcastInDim S54x3 ![] bcast_S_S54x3 : (⟨S_, .i32⟩ : BufTy).Contents (Elt F) → (⟨S54x3, .i32⟩ : BufTy).Contents (Elt F)),
    StableHlo.binary main_v3 main_v165 main_v166 (addi : (⟨S54x3, .i32⟩ : BufTy).Contents (Elt F) → (⟨S54x3, .i32⟩ : BufTy).Contents (Elt F) → (⟨S54x3, .i32⟩ : BufTy).Contents (Elt F)),
    StableHlo.ternary main_v164 main_v166 main_v3 main_v167 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v167 main_v168 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v168 main_v169 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)) ]

theorem opsA4_sub : (opsA4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsA4_fresh : (opsA4 : List (HloOp τ sig (Elt F))).Forall fun op => op.fresh = ∅ :=
  ⟨rfl, rfl, rfl, rfl, rfl, rfl, rfl, rfl, rfl, rfl, rfl, rfl, rfl, rfl, rfl, rfl, rfl, rfl⟩

abbrev opsA4_W : List (Ref sig .tc) := [main_c_19, main_v156, main_v157, main_c_20, main_v158, main_v159, main_v160, main_v161, main_v162, main_c_21, main_v163, main_v164, main_c_22, main_v165, main_v166, main_v167, main_v168, main_v169]

/-- Stage B4: 12 operations. -/
abbrev opsB4 : List (HloOp τ sig (Elt F)) :=
  [ StableHlo.binary main_v162 main_v169 main_v170 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v171 ((extractStridedSlice S1x48x32 ![4, 0, 0] · slices_S5x48x32_S1x48x32_4_0_0) : (⟨S5x48x32, .f32⟩ : BufTy).Contents (Elt F) → (⟨S1x48x32, .f32⟩ : BufTy).Contents (Elt F)),
    StableHlo.reshape main_v171 main_v172 rfl shapeCasts_S1x48x32_S48x32,
    StableHlo.binary main_v170 main_v172 main_v173 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v174 ((extractStridedSlice S1x32 ![4, 0] · slices_S5x32_S1x32_4_0) : (⟨S5x32, .f32⟩ : BufTy).Contents (Elt F) → (⟨S1x32, .f32⟩ : BufTy).Contents (Elt F)),
    StableHlo.reshape main_v174 main_v175 rfl shapeCasts_S1x32_S32,
    StableHlo.unary main_v175 main_v176 (broadcastInDim S1x1x1x32 ![3] bcast_S32_S1x1x1x32_3 : (⟨S32, .f32⟩ : BufTy).Contents (Elt F) → (⟨S1x1x1x32, .f32⟩ : BufTy).Contents (Elt F)),
    StableHlo.unary main_v176 main_v177 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v173 main_v177 main_v178 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v178 main_v179 (Host.tanh : (⟨S4096x54x3x32, .f32⟩ : BufTy).Contents (Elt F) → (⟨S4096x54x3x32, .f32⟩ : BufTy).Contents (Elt F)),
    StableHlo.nullary main_cst_23 (constant S_ .f32 0xFF800000#32),
    StableHlo.binary main_v179 main_cst_23 main_v180 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)) ]

theorem opsB4_sub : (opsB4 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., nullary_bufs_sub .., binary_bufs_sub ..⟩

theorem opsB4_fresh : (opsB4 : List (HloOp τ sig (Elt F))).Forall fun op => op.fresh = ∅ :=
  ⟨rfl, rfl, rfl, rfl, rfl, rfl, rfl, rfl, rfl, rfl, rfl, rfl⟩

abbrev opsB4_W : List (Ref sig .tc) := [main_v170, main_v171, main_v172, main_v173, main_v174, main_v175, main_v176, main_v177, main_v178, main_v179, main_cst_23, main_v180]

/-- Stage C4: 9 operations. -/
abbrev opsC4 : List (HloOp τ sig (Elt F)) :=
  [ StableHlo.binary main_v155 main_v180 main_v181 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v182 ((extractStridedSlice S1x64x32 ![4, 0, 0] · slices_S5x64x32_S1x64x32_4_0_0) : (⟨S5x64x32, .f32⟩ : BufTy).Contents (Elt F) → (⟨S1x64x32, .f32⟩ : BufTy).Contents (Elt F)),
    StableHlo.reshape main_v182 main_v183 rfl shapeCasts_S1x64x32_S64x32,
    StableHlo.binary main_v181 main_v183 main_v184 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v185 ((extractStridedSlice S1x32 ![4, 0] · slices_S5x32_S1x32_4_0) : (⟨S5x32, .f32⟩ : BufTy).Contents (Elt F) → (⟨S1x32, .f32⟩ : BufTy).Contents (Elt F)),
    StableHlo.reshape main_v185 main_v186 rfl shapeCasts_S1x32_S32,
    StableHlo.unary main_v186 main_v187 (broadcastInDim S1x1x32 ![2] bcast_S32_S1x1x32_2 : (⟨S32, .f32⟩ : BufTy).Contents (Elt F) → (⟨S1x1x32, .f32⟩ : BufTy).Contents (Elt F)),
    StableHlo.unary main_v187 main_v188 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v184 main_v188 main_v189 (addf : (⟨S4096x54x32, .f32⟩ : BufTy).Contents (Elt F) → (⟨S4096x54x32, .f32⟩ : BufTy).Contents (Elt F) → (⟨S4096x54x32, .f32⟩ : BufTy).Contents (Elt F)) ]

theorem opsC4_sub : (opsC4 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩

theorem opsC4_fresh : (opsC4 : List (HloOp τ sig (Elt F))).Forall fun op => op.fresh = ∅ :=
  ⟨rfl, rfl, rfl, rfl, rfl, rfl, rfl, rfl, rfl⟩

abbrev opsC4_W : List (Ref sig .tc) := [main_v181, main_v182, main_v183, main_v184, main_v185, main_v186, main_v187, main_v188, main_v189]

/-- The whole program: the nineteen stages in order. -/
abbrev allOps : List (HloOp τ sig (Elt F)) :=
  opsA0 ++ (opsB0 ++ (opsC0 ++ (opsD0 ++ (opsA1 ++ (opsB1 ++ (opsC1 ++ (opsD1 ++ (opsA2 ++ (opsB2 ++ (opsC2 ++ (opsD2 ++ (opsA3 ++ (opsB3 ++ (opsC3 ++ (opsD3 ++ (opsA4 ++ (opsB4 ++ (opsC4))))))))))))))))))

end Ops

section Struct
variable {F : FTy → Type} [FloatOps F]

set_option maxRecDepth 100000 in
set_option maxHeartbeats 4000000 in
/-- The printed program is the straight line of its operations: the four windows in order, each call of the
    row-norm function replaced by its five operations over that call's buffers. -/
theorem main_eq (c : Dev nD) : main (F := F) c = seq allOps := by chain_rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem allOps_sub : (allOps : List (HloOp τ sig (Elt F))).Forall fun op => op.bufs ⊆ tcRefs τ sig :=
  forall_app opsA0_sub (forall_app opsB0_sub (forall_app opsC0_sub (forall_app opsD0_sub (forall_app opsA1_sub (forall_app opsB1_sub (forall_app opsC1_sub (forall_app opsD1_sub (forall_app opsA2_sub (forall_app opsB2_sub (forall_app opsC2_sub (forall_app opsD2_sub (forall_app opsA3_sub (forall_app opsB3_sub (forall_app opsC3_sub (forall_app opsD3_sub (forall_app opsA4_sub (forall_app opsB4_sub (opsC4_sub))))))))))))))))))

theorem allOps_fresh : (allOps : List (HloOp τ sig (Elt F))).Forall fun op => op.fresh = ∅ :=
  forall_app opsA0_fresh (forall_app opsB0_fresh (forall_app opsC0_fresh (forall_app opsD0_fresh (forall_app opsA1_fresh (forall_app opsB1_fresh (forall_app opsC1_fresh (forall_app opsD1_fresh (forall_app opsA2_fresh (forall_app opsB2_fresh (forall_app opsC2_fresh (forall_app opsD2_fresh (forall_app opsA3_fresh (forall_app opsB3_fresh (forall_app opsC3_fresh (forall_app opsD3_fresh (forall_app opsA4_fresh (forall_app opsB4_fresh (opsC4_fresh))))))))))))))))))

/-- The contents after two lines in a row. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Struct

section Val

/-- A singleton of a listed reference lies in the listed references' device buffers. -/
theorem w_sub {W : List (Ref sig .tc)} (y : Ref sig .tc) (hy : y ∈ W) :
    ({Proc.devRef .tc y} : Finset (DevRef τ sig)) ⊆ (W.map (Proc.devRef (τ := τ) .tc)).toFinset :=
  Finset.singleton_subset_iff.2 (List.mem_toFinset.2 (List.mem_map_of_mem hy))

/-- Column 0 of the constant table as a 54 × 3 array: the neighbour vertices. -/
abbrev tV : IVec S54x3 32 :=
  shapeCast S54x3 (extractStridedSlice S54x3x1 ![0, 0, 0] (fun i => lit0 (S54x3x2.rowMajor i)) slices_S54x3x2_S54x3x1_0_0_0) shapeCasts_S54x3x1_S54x3
/-- Column 1 of the constant table as a 54 × 3 array: the joining edges. -/
abbrev tE : IVec S54x3 32 :=
  shapeCast S54x3 (extractStridedSlice S54x3x1 ![0, 0, 1] (fun i => lit0 (S54x3x2.rowMajor i)) slices_S54x3x2_S54x3x1_0_0_1) shapeCasts_S54x3x1_S54x3

variable (V0 : Valuation τ sig (Elt Ideal))

/-- The six argument arrays' contents. -/
abbrev ar0 : FVec Ideal S4096x54x32 .f32 := V0 (Proc.devRef .tc main_arg0)
abbrev ar1 : FVec Ideal S4096x72x16 .f32 := V0 (Proc.devRef .tc main_arg1)
abbrev ar2 : FVec Ideal S5x48x32 .f32 := V0 (Proc.devRef .tc main_arg2)
abbrev ar3 : FVec Ideal S5x32 .f32 := V0 (Proc.devRef .tc main_arg3)
abbrev ar4 : FVec Ideal S5x64x32 .f32 := V0 (Proc.devRef .tc main_arg4)
abbrev ar5 : FVec Ideal S5x32 .f32 := V0 (Proc.devRef .tc main_arg5)

/-- The buffers' contents after stage A0. -/
def valA0 : Valuation τ sig (Elt Ideal) := after opsA0 V0

theorem opsA0_writes : (opsA0 : List (HloOp τ sig (Elt Ideal))).Forall fun op => op.writes ⊆ (opsA0_W.map (Proc.devRef (τ := τ) .tc)).toFinset :=
  ⟨w_sub main_c (by decide), w_sub main_v0 (by decide), w_sub main_v1 (by decide), w_sub main_v2 (by decide), w_sub main_v3 (by decide), w_sub main_c_0 (by decide), w_sub main_v4 (by decide), w_sub main_v5 (by decide), w_sub main_c_1 (by decide), w_sub main_v6 (by decide), w_sub main_v7 (by decide), w_sub main_v8 (by decide), w_sub main_v9 (by decide), w_sub main_v10 (by decide), w_sub main_c_2 (by decide), w_sub main_v11 (by decide), w_sub main_v12 (by decide), w_sub main_c_3 (by decide), w_sub main_v13 (by decide), w_sub main_v14 (by decide), w_sub main_v15 (by decide), w_sub main_v16 (by decide), w_sub main_v17 (by decide)⟩

theorem valA0_keep (r : Ref sig .tc) (h : r ∉ opsA0_W) : valA0 V0 (Proc.devRef .tc r) = V0 (Proc.devRef .tc r) :=
  after_of_writes_sub opsA0 _ opsA0_writes h

theorem valA0_main_arg0 : valA0 V0 (Proc.devRef .tc main_arg0) = ar0 V0 :=
  valA0_keep V0 main_arg0 (by decide)

theorem valA0_main_arg1 : valA0 V0 (Proc.devRef .tc main_arg1) = ar1 V0 :=
  valA0_keep V0 main_arg1 (by decide)

theorem valA0_main_arg2 : valA0 V0 (Proc.devRef .tc main_arg2) = ar2 V0 :=
  valA0_keep V0 main_arg2 (by decide)

theorem valA0_main_arg3 : valA0 V0 (Proc.devRef .tc main_arg3) = ar3 V0 :=
  valA0_keep V0 main_arg3 (by decide)

theorem valA0_main_arg4 : valA0 V0 (Proc.devRef .tc main_arg4) = ar4 V0 :=
  valA0_keep V0 main_arg4 (by decide)

theorem valA0_main_arg5 : valA0 V0 (Proc.devRef .tc main_arg5) = ar5 V0 :=
  valA0_keep V0 main_arg5 (by decide)

set_option maxRecDepth 100000 in
set_option maxHeartbeats 4000000 in
theorem valA0_main_v1 : valA0 V0 (Proc.devRef .tc main_v1) = tV := by
  unfold valA0
  simp only [opsA0]
  after_results_simp
  rfl

set_option maxRecDepth 100000 in
set_option maxHeartbeats 4000000 in
theorem valA0_main_v3 : valA0 V0 (Proc.devRef .tc main_v3) = tE := by
  unfold valA0
  simp only [opsA0]
  after_results_simp
  rfl

set_option maxRecDepth 100000 in
set_option maxHeartbeats 4000000 in
theorem valA0_main_v10 : valA0 V0 (Proc.devRef .tc main_v10) = Host.gather gather_S4096x54x32_S54x3x1_S4096x54x3x32_03_1_n_n_1_2_4096132 (x (ar0 V0) (ar1 V0) (ar2 V0) (ar3 V0) (ar4 V0) (ar5 V0) 0) idxV := by
  unfold valA0
  simp only [opsA0]
  after_results_simp
  rfl

set_option maxRecDepth 100000 in
set_option maxHeartbeats 4000000 in
theorem valA0_main_v17 : valA0 V0 (Proc.devRef .tc main_v17) = Host.gather gather_S4096x72x16_S54x3x1_S4096x54x3x16_03_1_n_n_1_2_4096116 (ar1 V0) idxE := by
  unfold valA0
  simp only [opsA0]
  after_results_simp
  rfl

/-- The buffers' contents after stage B0. -/
def valB0 : Valuation τ sig (Elt Ideal) := after opsB0 (valA0 V0)

theorem opsB0_writes : (opsB0 : List (HloOp τ sig (Elt Ideal))).Forall fun op => op.writes ⊆ (opsB0_W.map (Proc.devRef (τ := τ) .tc)).toFinset :=
  ⟨w_sub main_v18 (by decide), w_sub main_v19 (by decide), w_sub main_v20 (by decide), w_sub main_v21 (by decide), w_sub main_v22 (by decide), w_sub main_v23 (by decide), w_sub main_v24 (by decide), w_sub main_v25 (by decide), w_sub main_v26 (by decide), w_sub main_v27 (by decide), w_sub main_cst (by decide), w_sub main_v28 (by decide)⟩

theorem valB0_keep (r : Ref sig .tc) (h : r ∉ opsB0_W) : valB0 V0 (Proc.devRef .tc r) = (valA0 V0) (Proc.devRef .tc r) :=
  after_of_writes_sub opsB0 _ opsB0_writes h

theorem valB0_main_arg0 : valB0 V0 (Proc.devRef .tc main_arg0) = ar0 V0 :=
  (valB0_keep V0 main_arg0 (by decide)).trans (valA0_main_arg0 V0)

theorem valB0_main_arg1 : valB0 V0 (Proc.devRef .tc main_arg1) = ar1 V0 :=
  (valB0_keep V0 main_arg1 (by decide)).trans (valA0_main_arg1 V0)

theorem valB0_main_arg2 : valB0 V0 (Proc.devRef .tc main_arg2) = ar2 V0 :=
  (valB0_keep V0 main_arg2 (by decide)).trans (valA0_main_arg2 V0)

theorem valB0_main_arg3 : valB0 V0 (Proc.devRef .tc main_arg3) = ar3 V0 :=
  (valB0_keep V0 main_arg3 (by decide)).trans (valA0_main_arg3 V0)

theorem valB0_main_arg4 : valB0 V0 (Proc.devRef .tc main_arg4) = ar4 V0 :=
  (valB0_keep V0 main_arg4 (by decide)).trans (valA0_main_arg4 V0)

theorem valB0_main_arg5 : valB0 V0 (Proc.devRef .tc main_arg5) = ar5 V0 :=
  (valB0_keep V0 main_arg5 (by decide)).trans (valA0_main_arg5 V0)

theorem valB0_main_v1 : valB0 V0 (Proc.devRef .tc main_v1) = tV :=
  (valB0_keep V0 main_v1 (by decide)).trans (valA0_main_v1 V0)

theorem valB0_main_v3 : valB0 V0 (Proc.devRef .tc main_v3) = tE :=
  (valB0_keep V0 main_v3 (by decide)).trans (valA0_main_v3 V0)

set_option maxRecDepth 100000 in
set_option maxHeartbeats 4000000 in
theorem valB0_main_v28 : valB0 V0 (Proc.devRef .tc main_v28) = agg (x (ar0 V0) (ar1 V0) (ar2 V0) (ar3 V0) (ar4 V0) (ar5 V0) 0) (ar1 V0) (w48 ⟨0 % 5, Nat.mod_lt _ (by decide)⟩ (ar2 V0)) (b32 ⟨0 % 5, Nat.mod_lt _ (by decide)⟩ (ar3 V0)) := by
  unfold valB0
  simp only [opsB0]
  after_results_simp
  rw [valA0_main_arg3, valA0_main_arg2, valA0_main_v17, valA0_main_v10]
  rfl

/-- The buffers' contents after stage C0. -/
def valC0 : Valuation τ sig (Elt Ideal) := after opsC0 (valB0 V0)

theorem opsC0_writes : (opsC0 : List (HloOp τ sig (Elt Ideal))).Forall fun op => op.writes ⊆ (opsC0_W.map (Proc.devRef (τ := τ) .tc)).toFinset :=
  ⟨w_sub main_v29 (by decide), w_sub main_v30 (by decide), w_sub main_v31 (by decide), w_sub main_v32 (by decide), w_sub main_v33 (by decide), w_sub main_v34 (by decide), w_sub main_v35 (by decide), w_sub main_v36 (by decide), w_sub main_v37 (by decide)⟩

theorem valC0_keep (r : Ref sig .tc) (h : r ∉ opsC0_W) : valC0 V0 (Proc.devRef .tc r) = (valB0 V0) (Proc.devRef .tc r) :=
  after_of_writes_sub opsC0 _ opsC0_writes h

theorem valC0_main_arg0 : valC0 V0 (Proc.devRef .tc main_arg0) = ar0 V0 :=
  (valC0_keep V0 main_arg0 (by decide)).trans (valB0_main_arg0 V0)

theorem valC0_main_arg1 : valC0 V0 (Proc.devRef .tc main_arg1) = ar1 V0 :=
  (valC0_keep V0 main_arg1 (by decide)).trans (valB0_main_arg1 V0)

theorem valC0_main_arg2 : valC0 V0 (Proc.devRef .tc main_arg2) = ar2 V0 :=
  (valC0_keep V0 main_arg2 (by decide)).trans (valB0_main_arg2 V0)

theorem valC0_main_arg3 : valC0 V0 (Proc.devRef .tc main_arg3) = ar3 V0 :=
  (valC0_keep V0 main_arg3 (by decide)).trans (valB0_main_arg3 V0)

theorem valC0_main_arg4 : valC0 V0 (Proc.devRef .tc main_arg4) = ar4 V0 :=
  (valC0_keep V0 main_arg4 (by decide)).trans (valB0_main_arg4 V0)

theorem valC0_main_arg5 : valC0 V0 (Proc.devRef .tc main_arg5) = ar5 V0 :=
  (valC0_keep V0 main_arg5 (by decide)).trans (valB0_main_arg5 V0)

theorem valC0_main_v1 : valC0 V0 (Proc.devRef .tc main_v1) = tV :=
  (valC0_keep V0 main_v1 (by decide)).trans (valB0_main_v1 V0)

theorem valC0_main_v3 : valC0 V0 (Proc.devRef .tc main_v3) = tE :=
  (valC0_keep V0 main_v3 (by decide)).trans (valB0_main_v3 V0)

set_option maxRecDepth 100000 in
set_option maxHeartbeats 4000000 in
theorem valC0_main_v37 : valC0 V0 (Proc.devRef .tc main_v37) = lay 0 (x (ar0 V0) (ar1 V0) (ar2 V0) (ar3 V0) (ar4 V0) (ar5 V0) 0) (ar1 V0) (ar2 V0) (ar3 V0) (ar4 V0) (ar5 V0) := by
  unfold valC0
  simp only [opsC0]
  after_results_simp
  rw [valB0_main_arg5, valB0_main_arg4, valB0_main_v28, valB0_main_arg0]
  rfl

/-- The buffers' contents after stage D0. -/
def valD0 : Valuation τ sig (Elt Ideal) := after opsD0 (valC0 V0)

theorem opsD0_writes : (opsD0 : List (HloOp τ sig (Elt Ideal))).Forall fun op => op.writes ⊆ (opsD0_W.map (Proc.devRef (τ := τ) .tc)).toFinset :=
  ⟨w_sub main_v38 (by decide), w_sub main_call0_v0 (by decide), w_sub main_call0_cst (by decide), w_sub main_call0_v1 (by decide), w_sub main_call0_v2 (by decide), w_sub main_v39 (by decide), w_sub main_v40 (by decide), w_sub main_v41 (by decide)⟩

theorem valD0_keep (r : Ref sig .tc) (h : r ∉ opsD0_W) : valD0 V0 (Proc.devRef .tc r) = (valC0 V0) (Proc.devRef .tc r) :=
  after_of_writes_sub opsD0 _ opsD0_writes h

theorem valD0_main_arg0 : valD0 V0 (Proc.devRef .tc main_arg0) = ar0 V0 :=
  (valD0_keep V0 main_arg0 (by decide)).trans (valC0_main_arg0 V0)

theorem valD0_main_arg1 : valD0 V0 (Proc.devRef .tc main_arg1) = ar1 V0 :=
  (valD0_keep V0 main_arg1 (by decide)).trans (valC0_main_arg1 V0)

theorem valD0_main_arg2 : valD0 V0 (Proc.devRef .tc main_arg2) = ar2 V0 :=
  (valD0_keep V0 main_arg2 (by decide)).trans (valC0_main_arg2 V0)

theorem valD0_main_arg3 : valD0 V0 (Proc.devRef .tc main_arg3) = ar3 V0 :=
  (valD0_keep V0 main_arg3 (by decide)).trans (valC0_main_arg3 V0)

theorem valD0_main_arg4 : valD0 V0 (Proc.devRef .tc main_arg4) = ar4 V0 :=
  (valD0_keep V0 main_arg4 (by decide)).trans (valC0_main_arg4 V0)

theorem valD0_main_arg5 : valD0 V0 (Proc.devRef .tc main_arg5) = ar5 V0 :=
  (valD0_keep V0 main_arg5 (by decide)).trans (valC0_main_arg5 V0)

theorem valD0_main_v1 : valD0 V0 (Proc.devRef .tc main_v1) = tV :=
  (valD0_keep V0 main_v1 (by decide)).trans (valC0_main_v1 V0)

theorem valD0_main_v3 : valD0 V0 (Proc.devRef .tc main_v3) = tE :=
  (valD0_keep V0 main_v3 (by decide)).trans (valC0_main_v3 V0)

set_option maxRecDepth 100000 in
set_option maxHeartbeats 4000000 in
theorem valD0_main_v41 : valD0 V0 (Proc.devRef .tc main_v41) = x (ar0 V0) (ar1 V0) (ar2 V0) (ar3 V0) (ar4 V0) (ar5 V0) 1 := by
  unfold valD0
  simp only [opsD0]
  after_results_simp
  simp only [TRef.ofBuf, TRef.toBuf, cast_eq]
  rw [valC0_main_v37]
  rfl

/-- The buffers' contents after stage A1. -/
def valA1 : Valuation τ sig (Elt Ideal) := after opsA1 (valD0 V0)

theorem opsA1_writes : (opsA1 : List (HloOp τ sig (Elt Ideal))).Forall fun op => op.writes ⊆ (opsA1_W.map (Proc.devRef (τ := τ) .tc)).toFinset :=
  ⟨w_sub main_c_4 (by decide), w_sub main_v42 (by decide), w_sub main_v43 (by decide), w_sub main_c_5 (by decide), w_sub main_v44 (by decide), w_sub main_v45 (by decide), w_sub main_v46 (by decide), w_sub main_v47 (by decide), w_sub main_v48 (by decide), w_sub main_c_6 (by decide), w_sub main_v49 (by decide), w_sub main_v50 (by decide), w_sub main_c_7 (by decide), w_sub main_v51 (by decide), w_sub main_v52 (by decide), w_sub main_v53 (by decide), w_sub main_v54 (by decide), w_sub main_v55 (by decide)⟩

theorem valA1_keep (r : Ref sig .tc) (h : r ∉ opsA1_W) : valA1 V0 (Proc.devRef .tc r) = (valD0 V0) (Proc.devRef .tc r) :=
  after_of_writes_sub opsA1 _ opsA1_writes h

theorem valA1_main_arg0 : valA1 V0 (Proc.devRef .tc main_arg0) = ar0 V0 :=
  (valA1_keep V0 main_arg0 (by decide)).trans (valD0_main_arg0 V0)

theorem valA1_main_arg1 : valA1 V0 (Proc.devRef .tc main_arg1) = ar1 V0 :=
  (valA1_keep V0 main_arg1 (by decide)).trans (valD0_main_arg1 V0)

theorem valA1_main_arg2 : valA1 V0 (Proc.devRef .tc main_arg2) = ar2 V0 :=
  (valA1_keep V0 main_arg2 (by decide)).trans (valD0_main_arg2 V0)

theorem valA1_main_arg3 : valA1 V0 (Proc.devRef .tc main_arg3) = ar3 V0 :=
  (valA1_keep V0 main_arg3 (by decide)).trans (valD0_main_arg3 V0)

theorem valA1_main_arg4 : valA1 V0 (Proc.devRef .tc main_arg4) = ar4 V0 :=
  (valA1_keep V0 main_arg4 (by decide)).trans (valD0_main_arg4 V0)

theorem valA1_main_arg5 : valA1 V0 (Proc.devRef .tc main_arg5) = ar5 V0 :=
  (valA1_keep V0 main_arg5 (by decide)).trans (valD0_main_arg5 V0)

theorem valA1_main_v1 : valA1 V0 (Proc.devRef .tc main_v1) = tV :=
  (valA1_keep V0 main_v1 (by decide)).trans (valD0_main_v1 V0)

theorem valA1_main_v3 : valA1 V0 (Proc.devRef .tc main_v3) = tE :=
  (valA1_keep V0 main_v3 (by decide)).trans (valD0_main_v3 V0)

theorem valA1_main_v41 : valA1 V0 (Proc.devRef .tc main_v41) = x (ar0 V0) (ar1 V0) (ar2 V0) (ar3 V0) (ar4 V0) (ar5 V0) 1 :=
  (valA1_keep V0 main_v41 (by decide)).trans (valD0_main_v41 V0)

set_option maxRecDepth 100000 in
set_option maxHeartbeats 4000000 in
theorem valA1_main_v48 : valA1 V0 (Proc.devRef .tc main_v48) = Host.gather gather_S4096x54x32_S54x3x1_S4096x54x3x32_03_1_n_n_1_2_4096132 (x (ar0 V0) (ar1 V0) (ar2 V0) (ar3 V0) (ar4 V0) (ar5 V0) 1) idxV := by
  unfold valA1
  simp only [opsA1]
  after_results_simp
  rw [valD0_main_v1, valD0_main_v41]
  rfl

set_option maxRecDepth 100000 in
set_option maxHeartbeats 4000000 in
theorem valA1_main_v55 : valA1 V0 (Proc.devRef .tc main_v55) = Host.gather gather_S4096x72x16_S54x3x1_S4096x54x3x16_03_1_n_n_1_2_4096116 (ar1 V0) idxE := by
  unfold valA1
  simp only [opsA1]
  after_results_simp
  rw [valD0_main_v3, valD0_main_arg1]
  rfl

/-- The buffers' contents after stage B1. -/
def valB1 : Valuation τ sig (Elt Ideal) := after opsB1 (valA1 V0)

theorem opsB1_writes : (opsB1 : List (HloOp τ sig (Elt Ideal))).Forall fun op => op.writes ⊆ (opsB1_W.map (Proc.devRef (τ := τ) .tc)).toFinset :=
  ⟨w_sub main_v56 (by decide), w_sub main_v57 (by decide), w_sub main_v58 (by decide), w_sub main_v59 (by decide), w_sub main_v60 (by decide), w_sub main_v61 (by decide), w_sub main_v62 (by decide), w_sub main_v63 (by decide), w_sub main_v64 (by decide), w_sub main_v65 (by decide), w_sub main_cst_8 (by decide), w_sub main_v66 (by decide)⟩

theorem valB1_keep (r : Ref sig .tc) (h : r ∉ opsB1_W) : valB1 V0 (Proc.devRef .tc r) = (valA1 V0) (Proc.devRef .tc r) :=
  after_of_writes_sub opsB1 _ opsB1_writes h

theorem valB1_main_arg0 : valB1 V0 (Proc.devRef .tc main_arg0) = ar0 V0 :=
  (valB1_keep V0 main_arg0 (by decide)).trans (valA1_main_arg0 V0)

theorem valB1_main_arg1 : valB1 V0 (Proc.devRef .tc main_arg1) = ar1 V0 :=
  (valB1_keep V0 main_arg1 (by decide)).trans (valA1_main_arg1 V0)

theorem valB1_main_arg2 : valB1 V0 (Proc.devRef .tc main_arg2) = ar2 V0 :=
  (valB1_keep V0 main_arg2 (by decide)).trans (valA1_main_arg2 V0)

theorem valB1_main_arg3 : valB1 V0 (Proc.devRef .tc main_arg3) = ar3 V0 :=
  (valB1_keep V0 main_arg3 (by decide)).trans (valA1_main_arg3 V0)

theorem valB1_main_arg4 : valB1 V0 (Proc.devRef .tc main_arg4) = ar4 V0 :=
  (valB1_keep V0 main_arg4 (by decide)).trans (valA1_main_arg4 V0)

theorem valB1_main_arg5 : valB1 V0 (Proc.devRef .tc main_arg5) = ar5 V0 :=
  (valB1_keep V0 main_arg5 (by decide)).trans (valA1_main_arg5 V0)

theorem valB1_main_v1 : valB1 V0 (Proc.devRef .tc main_v1) = tV :=
  (valB1_keep V0 main_v1 (by decide)).trans (valA1_main_v1 V0)

theorem valB1_main_v3 : valB1 V0 (Proc.devRef .tc main_v3) = tE :=
  (valB1_keep V0 main_v3 (by decide)).trans (valA1_main_v3 V0)

theorem valB1_main_v41 : valB1 V0 (Proc.devRef .tc main_v41) = x (ar0 V0) (ar1 V0) (ar2 V0) (ar3 V0) (ar4 V0) (ar5 V0) 1 :=
  (valB1_keep V0 main_v41 (by decide)).trans (valA1_main_v41 V0)

set_option maxRecDepth 100000 in
set_option maxHeartbeats 4000000 in
theorem valB1_main_v66 : valB1 V0 (Proc.devRef .tc main_v66) = agg (x (ar0 V0) (ar1 V0) (ar2 V0) (ar3 V0) (ar4 V0) (ar5 V0) 1) (ar1 V0) (w48 ⟨1 % 5, Nat.mod_lt _ (by decide)⟩ (ar2 V0)) (b32 ⟨1 % 5, Nat.mod_lt _ (by decide)⟩ (ar3 V0)) := by
  unfold valB1
  simp only [opsB1]
  after_results_simp
  rw [valA1_main_arg3, valA1_main_arg2, valA1_main_v55, valA1_main_v48]
  rfl

/-- The buffers' contents after stage C1. -/
def valC1 : Valuation τ sig (Elt Ideal) := after opsC1 (valB1 V0)

theorem opsC1_writes : (opsC1 : List (HloOp τ sig (Elt Ideal))).Forall fun op => op.writes ⊆ (opsC1_W.map (Proc.devRef (τ := τ) .tc)).toFinset :=
  ⟨w_sub main_v67 (by decide), w_sub main_v68 (by decide), w_sub main_v69 (by decide), w_sub main_v70 (by decide), w_sub main_v71 (by decide), w_sub main_v72 (by decide), w_sub main_v73 (by decide), w_sub main_v74 (by decide), w_sub main_v75 (by decide)⟩

theorem valC1_keep (r : Ref sig .tc) (h : r ∉ opsC1_W) : valC1 V0 (Proc.devRef .tc r) = (valB1 V0) (Proc.devRef .tc r) :=
  after_of_writes_sub opsC1 _ opsC1_writes h

theorem valC1_main_arg0 : valC1 V0 (Proc.devRef .tc main_arg0) = ar0 V0 :=
  (valC1_keep V0 main_arg0 (by decide)).trans (valB1_main_arg0 V0)

theorem valC1_main_arg1 : valC1 V0 (Proc.devRef .tc main_arg1) = ar1 V0 :=
  (valC1_keep V0 main_arg1 (by decide)).trans (valB1_main_arg1 V0)

theorem valC1_main_arg2 : valC1 V0 (Proc.devRef .tc main_arg2) = ar2 V0 :=
  (valC1_keep V0 main_arg2 (by decide)).trans (valB1_main_arg2 V0)

theorem valC1_main_arg3 : valC1 V0 (Proc.devRef .tc main_arg3) = ar3 V0 :=
  (valC1_keep V0 main_arg3 (by decide)).trans (valB1_main_arg3 V0)

theorem valC1_main_arg4 : valC1 V0 (Proc.devRef .tc main_arg4) = ar4 V0 :=
  (valC1_keep V0 main_arg4 (by decide)).trans (valB1_main_arg4 V0)

theorem valC1_main_arg5 : valC1 V0 (Proc.devRef .tc main_arg5) = ar5 V0 :=
  (valC1_keep V0 main_arg5 (by decide)).trans (valB1_main_arg5 V0)

theorem valC1_main_v1 : valC1 V0 (Proc.devRef .tc main_v1) = tV :=
  (valC1_keep V0 main_v1 (by decide)).trans (valB1_main_v1 V0)

theorem valC1_main_v3 : valC1 V0 (Proc.devRef .tc main_v3) = tE :=
  (valC1_keep V0 main_v3 (by decide)).trans (valB1_main_v3 V0)

set_option maxRecDepth 100000 in
set_option maxHeartbeats 4000000 in
theorem valC1_main_v75 : valC1 V0 (Proc.devRef .tc main_v75) = lay 1 (x (ar0 V0) (ar1 V0) (ar2 V0) (ar3 V0) (ar4 V0) (ar5 V0) 1) (ar1 V0) (ar2 V0) (ar3 V0) (ar4 V0) (ar5 V0) := by
  unfold valC1
  simp only [opsC1]
  after_results_simp
  rw [valB1_main_arg5, valB1_main_arg4, valB1_main_v66, valB1_main_v41]
  rfl

/-- The buffers' contents after stage D1. -/
def valD1 : Valuation τ sig (Elt Ideal) := after opsD1 (valC1 V0)

theorem opsD1_writes : (opsD1 : List (HloOp τ sig (Elt Ideal))).Forall fun op => op.writes ⊆ (opsD1_W.map (Proc.devRef (τ := τ) .tc)).toFinset :=
  ⟨w_sub main_v76 (by decide), w_sub main_call1_v0 (by decide), w_sub main_call1_cst (by decide), w_sub main_call1_v1 (by decide), w_sub main_call1_v2 (by decide), w_sub main_v77 (by decide), w_sub main_v78 (by decide), w_sub main_v79 (by decide)⟩

theorem valD1_keep (r : Ref sig .tc) (h : r ∉ opsD1_W) : valD1 V0 (Proc.devRef .tc r) = (valC1 V0) (Proc.devRef .tc r) :=
  after_of_writes_sub opsD1 _ opsD1_writes h

theorem valD1_main_arg0 : valD1 V0 (Proc.devRef .tc main_arg0) = ar0 V0 :=
  (valD1_keep V0 main_arg0 (by decide)).trans (valC1_main_arg0 V0)

theorem valD1_main_arg1 : valD1 V0 (Proc.devRef .tc main_arg1) = ar1 V0 :=
  (valD1_keep V0 main_arg1 (by decide)).trans (valC1_main_arg1 V0)

theorem valD1_main_arg2 : valD1 V0 (Proc.devRef .tc main_arg2) = ar2 V0 :=
  (valD1_keep V0 main_arg2 (by decide)).trans (valC1_main_arg2 V0)

theorem valD1_main_arg3 : valD1 V0 (Proc.devRef .tc main_arg3) = ar3 V0 :=
  (valD1_keep V0 main_arg3 (by decide)).trans (valC1_main_arg3 V0)

theorem valD1_main_arg4 : valD1 V0 (Proc.devRef .tc main_arg4) = ar4 V0 :=
  (valD1_keep V0 main_arg4 (by decide)).trans (valC1_main_arg4 V0)

theorem valD1_main_arg5 : valD1 V0 (Proc.devRef .tc main_arg5) = ar5 V0 :=
  (valD1_keep V0 main_arg5 (by decide)).trans (valC1_main_arg5 V0)

theorem valD1_main_v1 : valD1 V0 (Proc.devRef .tc main_v1) = tV :=
  (valD1_keep V0 main_v1 (by decide)).trans (valC1_main_v1 V0)

theorem valD1_main_v3 : valD1 V0 (Proc.devRef .tc main_v3) = tE :=
  (valD1_keep V0 main_v3 (by decide)).trans (valC1_main_v3 V0)

set_option maxRecDepth 100000 in
set_option maxHeartbeats 4000000 in
theorem valD1_main_v79 : valD1 V0 (Proc.devRef .tc main_v79) = x (ar0 V0) (ar1 V0) (ar2 V0) (ar3 V0) (ar4 V0) (ar5 V0) 2 := by
  unfold valD1
  simp only [opsD1]
  after_results_simp
  simp only [TRef.ofBuf, TRef.toBuf, cast_eq]
  rw [valC1_main_v75]
  rfl

/-- The buffers' contents after stage A2. -/
def valA2 : Valuation τ sig (Elt Ideal) := after opsA2 (valD1 V0)

theorem opsA2_writes : (opsA2 : List (HloOp τ sig (Elt Ideal))).Forall fun op => op.writes ⊆ (opsA2_W.map (Proc.devRef (τ := τ) .tc)).toFinset :=
  ⟨w_sub main_c_9 (by decide), w_sub main_v80 (by decide), w_sub main_v81 (by decide), w_sub main_c_10 (by decide), w_sub main_v82 (by decide), w_sub main_v83 (by decide), w_sub main_v84 (by decide), w_sub main_v85 (by decide), w_sub main_v86 (by decide), w_sub main_c_11 (by decide), w_sub main_v87 (by decide), w_sub main_v88 (by decide), w_sub main_c_12 (by decide), w_sub main_v89 (by decide), w_sub main_v90 (by decide), w_sub main_v91 (by decide), w_sub main_v92 (by decide), w_sub main_v93 (by decide)⟩

theorem valA2_keep (r : Ref sig .tc) (h : r ∉ opsA2_W) : valA2 V0 (Proc.devRef .tc r) = (valD1 V0) (Proc.devRef .tc r) :=
  after_of_writes_sub opsA2 _ opsA2_writes h

theorem valA2_main_arg0 : valA2 V0 (Proc.devRef .tc main_arg0) = ar0 V0 :=
  (valA2_keep V0 main_arg0 (by decide)).trans (valD1_main_arg0 V0)

theorem valA2_main_arg1 : valA2 V0 (Proc.devRef .tc main_arg1) = ar1 V0 :=
  (valA2_keep V0 main_arg1 (by decide)).trans (valD1_main_arg1 V0)

theorem valA2_main_arg2 : valA2 V0 (Proc.devRef .tc main_arg2) = ar2 V0 :=
  (valA2_keep V0 main_arg2 (by decide)).trans (valD1_main_arg2 V0)

theorem valA2_main_arg3 : valA2 V0 (Proc.devRef .tc main_arg3) = ar3 V0 :=
  (valA2_keep V0 main_arg3 (by decide)).trans (valD1_main_arg3 V0)

theorem valA2_main_arg4 : valA2 V0 (Proc.devRef .tc main_arg4) = ar4 V0 :=
  (valA2_keep V0 main_arg4 (by decide)).trans (valD1_main_arg4 V0)

theorem valA2_main_arg5 : valA2 V0 (Proc.devRef .tc main_arg5) = ar5 V0 :=
  (valA2_keep V0 main_arg5 (by decide)).trans (valD1_main_arg5 V0)

theorem valA2_main_v1 : valA2 V0 (Proc.devRef .tc main_v1) = tV :=
  (valA2_keep V0 main_v1 (by decide)).trans (valD1_main_v1 V0)

theorem valA2_main_v3 : valA2 V0 (Proc.devRef .tc main_v3) = tE :=
  (valA2_keep V0 main_v3 (by decide)).trans (valD1_main_v3 V0)

theorem valA2_main_v79 : valA2 V0 (Proc.devRef .tc main_v79) = x (ar0 V0) (ar1 V0) (ar2 V0) (ar3 V0) (ar4 V0) (ar5 V0) 2 :=
  (valA2_keep V0 main_v79 (by decide)).trans (valD1_main_v79 V0)

set_option maxRecDepth 100000 in
set_option maxHeartbeats 4000000 in
theorem valA2_main_v86 : valA2 V0 (Proc.devRef .tc main_v86) = Host.gather gather_S4096x54x32_S54x3x1_S4096x54x3x32_03_1_n_n_1_2_4096132 (x (ar0 V0) (ar1 V0) (ar2 V0) (ar3 V0) (ar4 V0) (ar5 V0) 2) idxV := by
  unfold valA2
  simp only [opsA2]
  after_results_simp
  rw [valD1_main_v1, valD1_main_v79]
  rfl

set_option maxRecDepth 100000 in
set_option maxHeartbeats 4000000 in
theorem valA2_main_v93 : valA2 V0 (Proc.devRef .tc main_v93) = Host.gather gather_S4096x72x16_S54x3x1_S4096x54x3x16_03_1_n_n_1_2_4096116 (ar1 V0) idxE := by
  unfold valA2
  simp only [opsA2]
  after_results_simp
  rw [valD1_main_v3, valD1_main_arg1]
  rfl

/-- The buffers' contents after stage B2. -/
def valB2 : Valuation τ sig (Elt Ideal) := after opsB2 (valA2 V0)

theorem opsB2_writes : (opsB2 : List (HloOp τ sig (Elt Ideal))).Forall fun op => op.writes ⊆ (opsB2_W.map (Proc.devRef (τ := τ) .tc)).toFinset :=
  ⟨w_sub main_v94 (by decide), w_sub main_v95 (by decide), w_sub main_v96 (by decide), w_sub main_v97 (by decide), w_sub main_v98 (by decide), w_sub main_v99 (by decide), w_sub main_v100 (by decide), w_sub main_v101 (by decide), w_sub main_v102 (by decide), w_sub main_v103 (by decide), w_sub main_cst_13 (by decide), w_sub main_v104 (by decide)⟩

theorem valB2_keep (r : Ref sig .tc) (h : r ∉ opsB2_W) : valB2 V0 (Proc.devRef .tc r) = (valA2 V0) (Proc.devRef .tc r) :=
  after_of_writes_sub opsB2 _ opsB2_writes h

theorem valB2_main_arg0 : valB2 V0 (Proc.devRef .tc main_arg0) = ar0 V0 :=
  (valB2_keep V0 main_arg0 (by decide)).trans (valA2_main_arg0 V0)

theorem valB2_main_arg1 : valB2 V0 (Proc.devRef .tc main_arg1) = ar1 V0 :=
  (valB2_keep V0 main_arg1 (by decide)).trans (valA2_main_arg1 V0)

theorem valB2_main_arg2 : valB2 V0 (Proc.devRef .tc main_arg2) = ar2 V0 :=
  (valB2_keep V0 main_arg2 (by decide)).trans (valA2_main_arg2 V0)

theorem valB2_main_arg3 : valB2 V0 (Proc.devRef .tc main_arg3) = ar3 V0 :=
  (valB2_keep V0 main_arg3 (by decide)).trans (valA2_main_arg3 V0)

theorem valB2_main_arg4 : valB2 V0 (Proc.devRef .tc main_arg4) = ar4 V0 :=
  (valB2_keep V0 main_arg4 (by decide)).trans (valA2_main_arg4 V0)

theorem valB2_main_arg5 : valB2 V0 (Proc.devRef .tc main_arg5) = ar5 V0 :=
  (valB2_keep V0 main_arg5 (by decide)).trans (valA2_main_arg5 V0)

theorem valB2_main_v1 : valB2 V0 (Proc.devRef .tc main_v1) = tV :=
  (valB2_keep V0 main_v1 (by decide)).trans (valA2_main_v1 V0)

theorem valB2_main_v3 : valB2 V0 (Proc.devRef .tc main_v3) = tE :=
  (valB2_keep V0 main_v3 (by decide)).trans (valA2_main_v3 V0)

theorem valB2_main_v79 : valB2 V0 (Proc.devRef .tc main_v79) = x (ar0 V0) (ar1 V0) (ar2 V0) (ar3 V0) (ar4 V0) (ar5 V0) 2 :=
  (valB2_keep V0 main_v79 (by decide)).trans (valA2_main_v79 V0)

set_option maxRecDepth 100000 in
set_option maxHeartbeats 4000000 in
theorem valB2_main_v104 : valB2 V0 (Proc.devRef .tc main_v104) = agg (x (ar0 V0) (ar1 V0) (ar2 V0) (ar3 V0) (ar4 V0) (ar5 V0) 2) (ar1 V0) (w48 ⟨2 % 5, Nat.mod_lt _ (by decide)⟩ (ar2 V0)) (b32 ⟨2 % 5, Nat.mod_lt _ (by decide)⟩ (ar3 V0)) := by
  unfold valB2
  simp only [opsB2]
  after_results_simp
  rw [valA2_main_arg3, valA2_main_arg2, valA2_main_v93, valA2_main_v86]
  rfl

/-- The buffers' contents after stage C2. -/
def valC2 : Valuation τ sig (Elt Ideal) := after opsC2 (valB2 V0)

theorem opsC2_writes : (opsC2 : List (HloOp τ sig (Elt Ideal))).Forall fun op => op.writes ⊆ (opsC2_W.map (Proc.devRef (τ := τ) .tc)).toFinset :=
  ⟨w_sub main_v105 (by decide), w_sub main_v106 (by decide), w_sub main_v107 (by decide), w_sub main_v108 (by decide), w_sub main_v109 (by decide), w_sub main_v110 (by decide), w_sub main_v111 (by decide), w_sub main_v112 (by decide), w_sub main_v113 (by decide)⟩

theorem valC2_keep (r : Ref sig .tc) (h : r ∉ opsC2_W) : valC2 V0 (Proc.devRef .tc r) = (valB2 V0) (Proc.devRef .tc r) :=
  after_of_writes_sub opsC2 _ opsC2_writes h

theorem valC2_main_arg0 : valC2 V0 (Proc.devRef .tc main_arg0) = ar0 V0 :=
  (valC2_keep V0 main_arg0 (by decide)).trans (valB2_main_arg0 V0)

theorem valC2_main_arg1 : valC2 V0 (Proc.devRef .tc main_arg1) = ar1 V0 :=
  (valC2_keep V0 main_arg1 (by decide)).trans (valB2_main_arg1 V0)

theorem valC2_main_arg2 : valC2 V0 (Proc.devRef .tc main_arg2) = ar2 V0 :=
  (valC2_keep V0 main_arg2 (by decide)).trans (valB2_main_arg2 V0)

theorem valC2_main_arg3 : valC2 V0 (Proc.devRef .tc main_arg3) = ar3 V0 :=
  (valC2_keep V0 main_arg3 (by decide)).trans (valB2_main_arg3 V0)

theorem valC2_main_arg4 : valC2 V0 (Proc.devRef .tc main_arg4) = ar4 V0 :=
  (valC2_keep V0 main_arg4 (by decide)).trans (valB2_main_arg4 V0)

theorem valC2_main_arg5 : valC2 V0 (Proc.devRef .tc main_arg5) = ar5 V0 :=
  (valC2_keep V0 main_arg5 (by decide)).trans (valB2_main_arg5 V0)

theorem valC2_main_v1 : valC2 V0 (Proc.devRef .tc main_v1) = tV :=
  (valC2_keep V0 main_v1 (by decide)).trans (valB2_main_v1 V0)

theorem valC2_main_v3 : valC2 V0 (Proc.devRef .tc main_v3) = tE :=
  (valC2_keep V0 main_v3 (by decide)).trans (valB2_main_v3 V0)

set_option maxRecDepth 100000 in
set_option maxHeartbeats 4000000 in
theorem valC2_main_v113 : valC2 V0 (Proc.devRef .tc main_v113) = lay 2 (x (ar0 V0) (ar1 V0) (ar2 V0) (ar3 V0) (ar4 V0) (ar5 V0) 2) (ar1 V0) (ar2 V0) (ar3 V0) (ar4 V0) (ar5 V0) := by
  unfold valC2
  simp only [opsC2]
  after_results_simp
  rw [valB2_main_arg5, valB2_main_arg4, valB2_main_v104, valB2_main_v79]
  rfl

/-- The buffers' contents after stage D2. -/
def valD2 : Valuation τ sig (Elt Ideal) := after opsD2 (valC2 V0)

theorem opsD2_writes : (opsD2 : List (HloOp τ sig (Elt Ideal))).Forall fun op => op.writes ⊆ (opsD2_W.map (Proc.devRef (τ := τ) .tc)).toFinset :=
  ⟨w_sub main_v114 (by decide), w_sub main_call2_v0 (by decide), w_sub main_call2_cst (by decide), w_sub main_call2_v1 (by decide), w_sub main_call2_v2 (by decide), w_sub main_v115 (by decide), w_sub main_v116 (by decide), w_sub main_v117 (by decide)⟩

theorem valD2_keep (r : Ref sig .tc) (h : r ∉ opsD2_W) : valD2 V0 (Proc.devRef .tc r) = (valC2 V0) (Proc.devRef .tc r) :=
  after_of_writes_sub opsD2 _ opsD2_writes h

theorem valD2_main_arg0 : valD2 V0 (Proc.devRef .tc main_arg0) = ar0 V0 :=
  (valD2_keep V0 main_arg0 (by decide)).trans (valC2_main_arg0 V0)

theorem valD2_main_arg1 : valD2 V0 (Proc.devRef .tc main_arg1) = ar1 V0 :=
  (valD2_keep V0 main_arg1 (by decide)).trans (valC2_main_arg1 V0)

theorem valD2_main_arg2 : valD2 V0 (Proc.devRef .tc main_arg2) = ar2 V0 :=
  (valD2_keep V0 main_arg2 (by decide)).trans (valC2_main_arg2 V0)

theorem valD2_main_arg3 : valD2 V0 (Proc.devRef .tc main_arg3) = ar3 V0 :=
  (valD2_keep V0 main_arg3 (by decide)).trans (valC2_main_arg3 V0)

theorem valD2_main_arg4 : valD2 V0 (Proc.devRef .tc main_arg4) = ar4 V0 :=
  (valD2_keep V0 main_arg4 (by decide)).trans (valC2_main_arg4 V0)

theorem valD2_main_arg5 : valD2 V0 (Proc.devRef .tc main_arg5) = ar5 V0 :=
  (valD2_keep V0 main_arg5 (by decide)).trans (valC2_main_arg5 V0)

theorem valD2_main_v1 : valD2 V0 (Proc.devRef .tc main_v1) = tV :=
  (valD2_keep V0 main_v1 (by decide)).trans (valC2_main_v1 V0)

theorem valD2_main_v3 : valD2 V0 (Proc.devRef .tc main_v3) = tE :=
  (valD2_keep V0 main_v3 (by decide)).trans (valC2_main_v3 V0)

set_option maxRecDepth 100000 in
set_option maxHeartbeats 4000000 in
theorem valD2_main_v117 : valD2 V0 (Proc.devRef .tc main_v117) = x (ar0 V0) (ar1 V0) (ar2 V0) (ar3 V0) (ar4 V0) (ar5 V0) 3 := by
  unfold valD2
  simp only [opsD2]
  after_results_simp
  simp only [TRef.ofBuf, TRef.toBuf, cast_eq]
  rw [valC2_main_v113]
  rfl

/-- The buffers' contents after stage A3. -/
def valA3 : Valuation τ sig (Elt Ideal) := after opsA3 (valD2 V0)

theorem opsA3_writes : (opsA3 : List (HloOp τ sig (Elt Ideal))).Forall fun op => op.writes ⊆ (opsA3_W.map (Proc.devRef (τ := τ) .tc)).toFinset :=
  ⟨w_sub main_c_14 (by decide), w_sub main_v118 (by decide), w_sub main_v119 (by decide), w_sub main_c_15 (by decide), w_sub main_v120 (by decide), w_sub main_v121 (by decide), w_sub main_v122 (by decide), w_sub main_v123 (by decide), w_sub main_v124 (by decide), w_sub main_c_16 (by decide), w_sub main_v125 (by decide), w_sub main_v126 (by decide), w_sub main_c_17 (by decide), w_sub main_v127 (by decide), w_sub main_v128 (by decide), w_sub main_v129 (by decide), w_sub main_v130 (by decide), w_sub main_v131 (by decide)⟩

theorem valA3_keep (r : Ref sig .tc) (h : r ∉ opsA3_W) : valA3 V0 (Proc.devRef .tc r) = (valD2 V0) (Proc.devRef .tc r) :=
  after_of_writes_sub opsA3 _ opsA3_writes h

theorem valA3_main_arg0 : valA3 V0 (Proc.devRef .tc main_arg0) = ar0 V0 :=
  (valA3_keep V0 main_arg0 (by decide)).trans (valD2_main_arg0 V0)

theorem valA3_main_arg1 : valA3 V0 (Proc.devRef .tc main_arg1) = ar1 V0 :=
  (valA3_keep V0 main_arg1 (by decide)).trans (valD2_main_arg1 V0)

theorem valA3_main_arg2 : valA3 V0 (Proc.devRef .tc main_arg2) = ar2 V0 :=
  (valA3_keep V0 main_arg2 (by decide)).trans (valD2_main_arg2 V0)

theorem valA3_main_arg3 : valA3 V0 (Proc.devRef .tc main_arg3) = ar3 V0 :=
  (valA3_keep V0 main_arg3 (by decide)).trans (valD2_main_arg3 V0)

theorem valA3_main_arg4 : valA3 V0 (Proc.devRef .tc main_arg4) = ar4 V0 :=
  (valA3_keep V0 main_arg4 (by decide)).trans (valD2_main_arg4 V0)

theorem valA3_main_arg5 : valA3 V0 (Proc.devRef .tc main_arg5) = ar5 V0 :=
  (valA3_keep V0 main_arg5 (by decide)).trans (valD2_main_arg5 V0)

theorem valA3_main_v1 : valA3 V0 (Proc.devRef .tc main_v1) = tV :=
  (valA3_keep V0 main_v1 (by decide)).trans (valD2_main_v1 V0)

theorem valA3_main_v3 : valA3 V0 (Proc.devRef .tc main_v3) = tE :=
  (valA3_keep V0 main_v3 (by decide)).trans (valD2_main_v3 V0)

theorem valA3_main_v117 : valA3 V0 (Proc.devRef .tc main_v117) = x (ar0 V0) (ar1 V0) (ar2 V0) (ar3 V0) (ar4 V0) (ar5 V0) 3 :=
  (valA3_keep V0 main_v117 (by decide)).trans (valD2_main_v117 V0)

set_option maxRecDepth 100000 in
set_option maxHeartbeats 4000000 in
theorem valA3_main_v124 : valA3 V0 (Proc.devRef .tc main_v124) = Host.gather gather_S4096x54x32_S54x3x1_S4096x54x3x32_03_1_n_n_1_2_4096132 (x (ar0 V0) (ar1 V0) (ar2 V0) (ar3 V0) (ar4 V0) (ar5 V0) 3) idxV := by
  unfold valA3
  simp only [opsA3]
  after_results_simp
  rw [valD2_main_v1, valD2_main_v117]
  rfl

set_option maxRecDepth 100000 in
set_option maxHeartbeats 4000000 in
theorem valA3_main_v131 : valA3 V0 (Proc.devRef .tc main_v131) = Host.gather gather_S4096x72x16_S54x3x1_S4096x54x3x16_03_1_n_n_1_2_4096116 (ar1 V0) idxE := by
  unfold valA3
  simp only [opsA3]
  after_results_simp
  rw [valD2_main_v3, valD2_main_arg1]
  rfl

/-- The buffers' contents after stage B3. -/
def valB3 : Valuation τ sig (Elt Ideal) := after opsB3 (valA3 V0)

theorem opsB3_writes : (opsB3 : List (HloOp τ sig (Elt Ideal))).Forall fun op => op.writes ⊆ (opsB3_W.map (Proc.devRef (τ := τ) .tc)).toFinset :=
  ⟨w_sub main_v132 (by decide), w_sub main_v133 (by decide), w_sub main_v134 (by decide), w_sub main_v135 (by decide), w_sub main_v136 (by decide), w_sub main_v137 (by decide), w_sub main_v138 (by decide), w_sub main_v139 (by decide), w_sub main_v140 (by decide), w_sub main_v141 (by decide), w_sub main_cst_18 (by decide), w_sub main_v142 (by decide)⟩

theorem valB3_keep (r : Ref sig .tc) (h : r ∉ opsB3_W) : valB3 V0 (Proc.devRef .tc r) = (valA3 V0) (Proc.devRef .tc r) :=
  after_of_writes_sub opsB3 _ opsB3_writes h

theorem valB3_main_arg0 : valB3 V0 (Proc.devRef .tc main_arg0) = ar0 V0 :=
  (valB3_keep V0 main_arg0 (by decide)).trans (valA3_main_arg0 V0)

theorem valB3_main_arg1 : valB3 V0 (Proc.devRef .tc main_arg1) = ar1 V0 :=
  (valB3_keep V0 main_arg1 (by decide)).trans (valA3_main_arg1 V0)

theorem valB3_main_arg2 : valB3 V0 (Proc.devRef .tc main_arg2) = ar2 V0 :=
  (valB3_keep V0 main_arg2 (by decide)).trans (valA3_main_arg2 V0)

theorem valB3_main_arg3 : valB3 V0 (Proc.devRef .tc main_arg3) = ar3 V0 :=
  (valB3_keep V0 main_arg3 (by decide)).trans (valA3_main_arg3 V0)

theorem valB3_main_arg4 : valB3 V0 (Proc.devRef .tc main_arg4) = ar4 V0 :=
  (valB3_keep V0 main_arg4 (by decide)).trans (valA3_main_arg4 V0)

theorem valB3_main_arg5 : valB3 V0 (Proc.devRef .tc main_arg5) = ar5 V0 :=
  (valB3_keep V0 main_arg5 (by decide)).trans (valA3_main_arg5 V0)

theorem valB3_main_v1 : valB3 V0 (Proc.devRef .tc main_v1) = tV :=
  (valB3_keep V0 main_v1 (by decide)).trans (valA3_main_v1 V0)

theorem valB3_main_v3 : valB3 V0 (Proc.devRef .tc main_v3) = tE :=
  (valB3_keep V0 main_v3 (by decide)).trans (valA3_main_v3 V0)

theorem valB3_main_v117 : valB3 V0 (Proc.devRef .tc main_v117) = x (ar0 V0) (ar1 V0) (ar2 V0) (ar3 V0) (ar4 V0) (ar5 V0) 3 :=
  (valB3_keep V0 main_v117 (by decide)).trans (valA3_main_v117 V0)

set_option maxRecDepth 100000 in
set_option maxHeartbeats 4000000 in
theorem valB3_main_v142 : valB3 V0 (Proc.devRef .tc main_v142) = agg (x (ar0 V0) (ar1 V0) (ar2 V0) (ar3 V0) (ar4 V0) (ar5 V0) 3) (ar1 V0) (w48 ⟨3 % 5, Nat.mod_lt _ (by decide)⟩ (ar2 V0)) (b32 ⟨3 % 5, Nat.mod_lt _ (by decide)⟩ (ar3 V0)) := by
  unfold valB3
  simp only [opsB3]
  after_results_simp
  rw [valA3_main_arg3, valA3_main_arg2, valA3_main_v131, valA3_main_v124]
  rfl

/-- The buffers' contents after stage C3. -/
def valC3 : Valuation τ sig (Elt Ideal) := after opsC3 (valB3 V0)

theorem opsC3_writes : (opsC3 : List (HloOp τ sig (Elt Ideal))).Forall fun op => op.writes ⊆ (opsC3_W.map (Proc.devRef (τ := τ) .tc)).toFinset :=
  ⟨w_sub main_v143 (by decide), w_sub main_v144 (by decide), w_sub main_v145 (by decide), w_sub main_v146 (by decide), w_sub main_v147 (by decide), w_sub main_v148 (by decide), w_sub main_v149 (by decide), w_sub main_v150 (by decide), w_sub main_v151 (by decide)⟩

theorem valC3_keep (r : Ref sig .tc) (h : r ∉ opsC3_W) : valC3 V0 (Proc.devRef .tc r) = (valB3 V0) (Proc.devRef .tc r) :=
  after_of_writes_sub opsC3 _ opsC3_writes h

theorem valC3_main_arg0 : valC3 V0 (Proc.devRef .tc main_arg0) = ar0 V0 :=
  (valC3_keep V0 main_arg0 (by decide)).trans (valB3_main_arg0 V0)

theorem valC3_main_arg1 : valC3 V0 (Proc.devRef .tc main_arg1) = ar1 V0 :=
  (valC3_keep V0 main_arg1 (by decide)).trans (valB3_main_arg1 V0)

theorem valC3_main_arg2 : valC3 V0 (Proc.devRef .tc main_arg2) = ar2 V0 :=
  (valC3_keep V0 main_arg2 (by decide)).trans (valB3_main_arg2 V0)

theorem valC3_main_arg3 : valC3 V0 (Proc.devRef .tc main_arg3) = ar3 V0 :=
  (valC3_keep V0 main_arg3 (by decide)).trans (valB3_main_arg3 V0)

theorem valC3_main_arg4 : valC3 V0 (Proc.devRef .tc main_arg4) = ar4 V0 :=
  (valC3_keep V0 main_arg4 (by decide)).trans (valB3_main_arg4 V0)

theorem valC3_main_arg5 : valC3 V0 (Proc.devRef .tc main_arg5) = ar5 V0 :=
  (valC3_keep V0 main_arg5 (by decide)).trans (valB3_main_arg5 V0)

theorem valC3_main_v1 : valC3 V0 (Proc.devRef .tc main_v1) = tV :=
  (valC3_keep V0 main_v1 (by decide)).trans (valB3_main_v1 V0)

theorem valC3_main_v3 : valC3 V0 (Proc.devRef .tc main_v3) = tE :=
  (valC3_keep V0 main_v3 (by decide)).trans (valB3_main_v3 V0)

set_option maxRecDepth 100000 in
set_option maxHeartbeats 4000000 in
theorem valC3_main_v151 : valC3 V0 (Proc.devRef .tc main_v151) = lay 3 (x (ar0 V0) (ar1 V0) (ar2 V0) (ar3 V0) (ar4 V0) (ar5 V0) 3) (ar1 V0) (ar2 V0) (ar3 V0) (ar4 V0) (ar5 V0) := by
  unfold valC3
  simp only [opsC3]
  after_results_simp
  rw [valB3_main_arg5, valB3_main_arg4, valB3_main_v142, valB3_main_v117]
  rfl

/-- The buffers' contents after stage D3. -/
def valD3 : Valuation τ sig (Elt Ideal) := after opsD3 (valC3 V0)

theorem opsD3_writes : (opsD3 : List (HloOp τ sig (Elt Ideal))).Forall fun op => op.writes ⊆ (opsD3_W.map (Proc.devRef (τ := τ) .tc)).toFinset :=
  ⟨w_sub main_v152 (by decide), w_sub main_call3_v0 (by decide), w_sub main_call3_cst (by decide), w_sub main_call3_v1 (by decide), w_sub main_call3_v2 (by decide), w_sub main_v153 (by decide), w_sub main_v154 (by decide), w_sub main_v155 (by decide)⟩

theorem valD3_keep (r : Ref sig .tc) (h : r ∉ opsD3_W) : valD3 V0 (Proc.devRef .tc r) = (valC3 V0) (Proc.devRef .tc r) :=
  after_of_writes_sub opsD3 _ opsD3_writes h

theorem valD3_main_arg0 : valD3 V0 (Proc.devRef .tc main_arg0) = ar0 V0 :=
  (valD3_keep V0 main_arg0 (by decide)).trans (valC3_main_arg0 V0)

theorem valD3_main_arg1 : valD3 V0 (Proc.devRef .tc main_arg1) = ar1 V0 :=
  (valD3_keep V0 main_arg1 (by decide)).trans (valC3_main_arg1 V0)

theorem valD3_main_arg2 : valD3 V0 (Proc.devRef .tc main_arg2) = ar2 V0 :=
  (valD3_keep V0 main_arg2 (by decide)).trans (valC3_main_arg2 V0)

theorem valD3_main_arg3 : valD3 V0 (Proc.devRef .tc main_arg3) = ar3 V0 :=
  (valD3_keep V0 main_arg3 (by decide)).trans (valC3_main_arg3 V0)

theorem valD3_main_arg4 : valD3 V0 (Proc.devRef .tc main_arg4) = ar4 V0 :=
  (valD3_keep V0 main_arg4 (by decide)).trans (valC3_main_arg4 V0)

theorem valD3_main_arg5 : valD3 V0 (Proc.devRef .tc main_arg5) = ar5 V0 :=
  (valD3_keep V0 main_arg5 (by decide)).trans (valC3_main_arg5 V0)

theorem valD3_main_v1 : valD3 V0 (Proc.devRef .tc main_v1) = tV :=
  (valD3_keep V0 main_v1 (by decide)).trans (valC3_main_v1 V0)

theorem valD3_main_v3 : valD3 V0 (Proc.devRef .tc main_v3) = tE :=
  (valD3_keep V0 main_v3 (by decide)).trans (valC3_main_v3 V0)

set_option maxRecDepth 100000 in
set_option maxHeartbeats 4000000 in
theorem valD3_main_v155 : valD3 V0 (Proc.devRef .tc main_v155) = x (ar0 V0) (ar1 V0) (ar2 V0) (ar3 V0) (ar4 V0) (ar5 V0) 4 := by
  unfold valD3
  simp only [opsD3]
  after_results_simp
  simp only [TRef.ofBuf, TRef.toBuf, cast_eq]
  rw [valC3_main_v151]
  rfl

/-- The buffers' contents after stage A4. -/
def valA4 : Valuation τ sig (Elt Ideal) := after opsA4 (valD3 V0)

theorem opsA4_writes : (opsA4 : List (HloOp τ sig (Elt Ideal))).Forall fun op => op.writes ⊆ (opsA4_W.map (Proc.devRef (τ := τ) .tc)).toFinset :=
  ⟨w_sub main_c_19 (by decide), w_sub main_v156 (by decide), w_sub main_v157 (by decide), w_sub main_c_20 (by decide), w_sub main_v158 (by decide), w_sub main_v159 (by decide), w_sub main_v160 (by decide), w_sub main_v161 (by decide), w_sub main_v162 (by decide), w_sub main_c_21 (by decide), w_sub main_v163 (by decide), w_sub main_v164 (by decide), w_sub main_c_22 (by decide), w_sub main_v165 (by decide), w_sub main_v166 (by decide), w_sub main_v167 (by decide), w_sub main_v168 (by decide), w_sub main_v169 (by decide)⟩

theorem valA4_keep (r : Ref sig .tc) (h : r ∉ opsA4_W) : valA4 V0 (Proc.devRef .tc r) = (valD3 V0) (Proc.devRef .tc r) :=
  after_of_writes_sub opsA4 _ opsA4_writes h

theorem valA4_main_arg0 : valA4 V0 (Proc.devRef .tc main_arg0) = ar0 V0 :=
  (valA4_keep V0 main_arg0 (by decide)).trans (valD3_main_arg0 V0)

theorem valA4_main_arg1 : valA4 V0 (Proc.devRef .tc main_arg1) = ar1 V0 :=
  (valA4_keep V0 main_arg1 (by decide)).trans (valD3_main_arg1 V0)

theorem valA4_main_arg2 : valA4 V0 (Proc.devRef .tc main_arg2) = ar2 V0 :=
  (valA4_keep V0 main_arg2 (by decide)).trans (valD3_main_arg2 V0)

theorem valA4_main_arg3 : valA4 V0 (Proc.devRef .tc main_arg3) = ar3 V0 :=
  (valA4_keep V0 main_arg3 (by decide)).trans (valD3_main_arg3 V0)

theorem valA4_main_arg4 : valA4 V0 (Proc.devRef .tc main_arg4) = ar4 V0 :=
  (valA4_keep V0 main_arg4 (by decide)).trans (valD3_main_arg4 V0)

theorem valA4_main_arg5 : valA4 V0 (Proc.devRef .tc main_arg5) = ar5 V0 :=
  (valA4_keep V0 main_arg5 (by decide)).trans (valD3_main_arg5 V0)

theorem valA4_main_v155 : valA4 V0 (Proc.devRef .tc main_v155) = x (ar0 V0) (ar1 V0) (ar2 V0) (ar3 V0) (ar4 V0) (ar5 V0) 4 :=
  (valA4_keep V0 main_v155 (by decide)).trans (valD3_main_v155 V0)

set_option maxRecDepth 100000 in
set_option maxHeartbeats 4000000 in
theorem valA4_main_v162 : valA4 V0 (Proc.devRef .tc main_v162) = Host.gather gather_S4096x54x32_S54x3x1_S4096x54x3x32_03_1_n_n_1_2_4096132 (x (ar0 V0) (ar1 V0) (ar2 V0) (ar3 V0) (ar4 V0) (ar5 V0) 4) idxV := by
  unfold valA4
  simp only [opsA4]
  after_results_simp
  rw [valD3_main_v1, valD3_main_v155]
  rfl

set_option maxRecDepth 100000 in
set_option maxHeartbeats 4000000 in
theorem valA4_main_v169 : valA4 V0 (Proc.devRef .tc main_v169) = Host.gather gather_S4096x72x16_S54x3x1_S4096x54x3x16_03_1_n_n_1_2_4096116 (ar1 V0) idxE := by
  unfold valA4
  simp only [opsA4]
  after_results_simp
  rw [valD3_main_v3, valD3_main_arg1]
  rfl

/-- The buffers' contents after stage B4. -/
def valB4 : Valuation τ sig (Elt Ideal) := after opsB4 (valA4 V0)

theorem opsB4_writes : (opsB4 : List (HloOp τ sig (Elt Ideal))).Forall fun op => op.writes ⊆ (opsB4_W.map (Proc.devRef (τ := τ) .tc)).toFinset :=
  ⟨w_sub main_v170 (by decide), w_sub main_v171 (by decide), w_sub main_v172 (by decide), w_sub main_v173 (by decide), w_sub main_v174 (by decide), w_sub main_v175 (by decide), w_sub main_v176 (by decide), w_sub main_v177 (by decide), w_sub main_v178 (by decide), w_sub main_v179 (by decide), w_sub main_cst_23 (by decide), w_sub main_v180 (by decide)⟩

theorem valB4_keep (r : Ref sig .tc) (h : r ∉ opsB4_W) : valB4 V0 (Proc.devRef .tc r) = (valA4 V0) (Proc.devRef .tc r) :=
  after_of_writes_sub opsB4 _ opsB4_writes h

theorem valB4_main_arg0 : valB4 V0 (Proc.devRef .tc main_arg0) = ar0 V0 :=
  (valB4_keep V0 main_arg0 (by decide)).trans (valA4_main_arg0 V0)

theorem valB4_main_arg1 : valB4 V0 (Proc.devRef .tc main_arg1) = ar1 V0 :=
  (valB4_keep V0 main_arg1 (by decide)).trans (valA4_main_arg1 V0)

theorem valB4_main_arg2 : valB4 V0 (Proc.devRef .tc main_arg2) = ar2 V0 :=
  (valB4_keep V0 main_arg2 (by decide)).trans (valA4_main_arg2 V0)

theorem valB4_main_arg3 : valB4 V0 (Proc.devRef .tc main_arg3) = ar3 V0 :=
  (valB4_keep V0 main_arg3 (by decide)).trans (valA4_main_arg3 V0)

theorem valB4_main_arg4 : valB4 V0 (Proc.devRef .tc main_arg4) = ar4 V0 :=
  (valB4_keep V0 main_arg4 (by decide)).trans (valA4_main_arg4 V0)

theorem valB4_main_arg5 : valB4 V0 (Proc.devRef .tc main_arg5) = ar5 V0 :=
  (valB4_keep V0 main_arg5 (by decide)).trans (valA4_main_arg5 V0)

theorem valB4_main_v155 : valB4 V0 (Proc.devRef .tc main_v155) = x (ar0 V0) (ar1 V0) (ar2 V0) (ar3 V0) (ar4 V0) (ar5 V0) 4 :=
  (valB4_keep V0 main_v155 (by decide)).trans (valA4_main_v155 V0)

set_option maxRecDepth 100000 in
set_option maxHeartbeats 4000000 in
theorem valB4_main_v180 : valB4 V0 (Proc.devRef .tc main_v180) = agg (x (ar0 V0) (ar1 V0) (ar2 V0) (ar3 V0) (ar4 V0) (ar5 V0) 4) (ar1 V0) (w48 ⟨4 % 5, Nat.mod_lt _ (by decide)⟩ (ar2 V0)) (b32 ⟨4 % 5, Nat.mod_lt _ (by decide)⟩ (ar3 V0)) := by
  unfold valB4
  simp only [opsB4]
  after_results_simp
  rw [valA4_main_arg3, valA4_main_arg2, valA4_main_v169, valA4_main_v162]
  rfl

/-- The buffers' contents after stage C4. -/
def valC4 : Valuation τ sig (Elt Ideal) := after opsC4 (valB4 V0)

theorem opsC4_writes : (opsC4 : List (HloOp τ sig (Elt Ideal))).Forall fun op => op.writes ⊆ (opsC4_W.map (Proc.devRef (τ := τ) .tc)).toFinset :=
  ⟨w_sub main_v181 (by decide), w_sub main_v182 (by decide), w_sub main_v183 (by decide), w_sub main_v184 (by decide), w_sub main_v185 (by decide), w_sub main_v186 (by decide), w_sub main_v187 (by decide), w_sub main_v188 (by decide), w_sub main_v189 (by decide)⟩

theorem valC4_keep (r : Ref sig .tc) (h : r ∉ opsC4_W) : valC4 V0 (Proc.devRef .tc r) = (valB4 V0) (Proc.devRef .tc r) :=
  after_of_writes_sub opsC4 _ opsC4_writes h

theorem valC4_main_arg0 : valC4 V0 (Proc.devRef .tc main_arg0) = ar0 V0 :=
  (valC4_keep V0 main_arg0 (by decide)).trans (valB4_main_arg0 V0)

theorem valC4_main_arg1 : valC4 V0 (Proc.devRef .tc main_arg1) = ar1 V0 :=
  (valC4_keep V0 main_arg1 (by decide)).trans (valB4_main_arg1 V0)

theorem valC4_main_arg2 : valC4 V0 (Proc.devRef .tc main_arg2) = ar2 V0 :=
  (valC4_keep V0 main_arg2 (by decide)).trans (valB4_main_arg2 V0)

theorem valC4_main_arg3 : valC4 V0 (Proc.devRef .tc main_arg3) = ar3 V0 :=
  (valC4_keep V0 main_arg3 (by decide)).trans (valB4_main_arg3 V0)

theorem valC4_main_arg4 : valC4 V0 (Proc.devRef .tc main_arg4) = ar4 V0 :=
  (valC4_keep V0 main_arg4 (by decide)).trans (valB4_main_arg4 V0)

theorem valC4_main_arg5 : valC4 V0 (Proc.devRef .tc main_arg5) = ar5 V0 :=
  (valC4_keep V0 main_arg5 (by decide)).trans (valB4_main_arg5 V0)

set_option maxRecDepth 100000 in
set_option maxHeartbeats 4000000 in
theorem valC4_main_v189 : valC4 V0 (Proc.devRef .tc main_v189) = lay 4 (x (ar0 V0) (ar1 V0) (ar2 V0) (ar3 V0) (ar4 V0) (ar5 V0) 4) (ar1 V0) (ar2 V0) (ar3 V0) (ar4 V0) (ar5 V0) := by
  unfold valC4
  simp only [opsC4]
  after_results_simp
  rw [valB4_main_arg5, valB4_main_arg4, valB4_main_v180, valB4_main_v155]
  rfl

/-- The contents after the whole program are the contents after the last stage. -/
theorem after_all : after (allOps (F := Ideal)) V0 = valC4 V0 := by
  simp only [allOps, after_app]
  rfl

end Val

/-- From any memory with zero counters, every weakly fair execution of the reference terminates with its result
    the five-layer chain of the stage functions applied to the six argument arrays' launch contents, and the
    arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v189) = Cert.RefSide.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run defs _ _).mono (fun _ h c => ⟨(h c main_v189).trans (by rw [after_all]; exact valC4_main_v189 _),
      (h c main_arg0).trans (by rw [after_all]; exact valC4_main_arg0 _),
      (h c main_arg1).trans (by rw [after_all]; exact valC4_main_arg1 _),
      (h c main_arg2).trans (by rw [after_all]; exact valC4_main_arg2 _),
      (h c main_arg3).trans (by rw [after_all]; exact valC4_main_arg3 _),
      (h c main_arg4).trans (by rw [after_all]; exact valC4_main_arg4 _),
      (h c main_arg5).trans (by rw [after_all]; exact valC4_main_arg5 _)⟩)
    (run_seq scopedRefs_eq scopedSems_eq defs main (fun _ => allOps) main_eq (fun _ => allOps_sub) m ρ
      (fun _ => List.forall_iff_forall_mem.1 allOps_fresh))

end Cert.RefSide

end
-- ==== Proof.RefHid.lean ====
/-
  The reference's affine layer output and its row normalisation, read entry by entry.

  The affine output at (batch, vertex, feature `o`) is the 64-term sum over the contraction coordinate `k` of the
  layer input's row and the aggregate's row laid end to end, times the weight's entry (k, o), plus the bias at `o`:
  the concatenation on the feature axis is the two rows appended, the contraction has one contracted axis, and the
  bias broadcast over batch and vertex reads the bias at the feature coordinate.

  The row norm at (batch, vertex) is the square root of the row's sum of squares (the sum taken from zero), and the
  normalised entry is the entry divided by that norm.
-/
import proofs.«100883_g78494822302262_cont_9to1_m_206_5_alg».proof.Proof.RefStages
import proofs.«100883_g78494822302262_cont_9to1_m_206_5_alg».proof.Proof.Sage
import Idealize.ShloMosaic.Lib.ValueIdx
import Idealize.ShloMosaic.Lib.IdealHost
import Idealize.ShloMosaic.Lib.Pipeline.Value
import Idealize.ShloMosaic.PureOps.Ideal.Laws

noncomputable section

namespace Cert.RefSide

open Idealize.ShloMosaic Idealize.ShloMosaic.ValueIdx Cert.ReferenceIdeal Cert.ReferenceIdeal.Facts₀ Cert.ReferenceIdeal.Facts

variable [Cert.ReferenceIdeal.Facts]

/-! ### The bias -/

/-- The bias broadcast twice reads the bias at the feature coordinate. -/
theorem bias_apply (hb : FVec Ideal S32 .f32) (b : Fin 4096) (n : Fin 54) (o : Fin 32) :
    broadcastInDim S4096x54x32 ![0, 1, 2] bcast_S1x1x32_S4096x54x32_0_1_2 (broadcastInDim S1x1x32 ![2] bcast_S32_S1x1x32_2 hb) (ix3 b n o)
      = hb (ix1 o) := by
  rw [broadcastInDim_apply _ _ _ _ (ix3 (0 : Fin 1) (0 : Fin 1) o) (fun a => by
    match a with
    | ⟨0, _⟩ => rfl
    | ⟨1, _⟩ => rfl
    | ⟨2, _⟩ => rfl)]
  rw [broadcastInDim_apply _ _ _ _ (ix1 o) (fun a => by
    match a with
    | ⟨0, _⟩ => rfl)]

/-! ### The 64-term contraction

  The operands' indices at an output index (batch, vertex, feature) and a contraction coordinate: the left operand is
  read at (batch, vertex, coordinate), the right operand at (coordinate, feature). -/

theorem lhs_0 (j : S4096x54x32.Idx) (k : dot_S4096x54x64_S64x32_S4096x54x32_2_0_01_1_n_n.contr.Idx) :
    (dot_S4096x54x64_S64x32_S4096x54x32_2_0_01_1_n_n.lhsIdx j k 0).val = (j 0).val := by
  unfold DotDims.lhsIdx
  rw [dif_neg (show ¬ (0 : Fin S4096x54x64.rank) ∈ dot_S4096x54x64_S64x32_S4096x54x32_2_0_01_1_n_n.lhsBatch from List.not_mem_nil),
    dif_pos (show (0 : Fin S4096x54x64.rank) ∈ dot_S4096x54x64_S64x32_S4096x54x32_2_0_01_1_n_n.lhsNonContracting from
      (by decide : (0 : Fin 3) ∈ ([0, 1] : List (Fin 3))))]
  rfl

theorem lhs_1 (j : S4096x54x32.Idx) (k : dot_S4096x54x64_S64x32_S4096x54x32_2_0_01_1_n_n.contr.Idx) :
    (dot_S4096x54x64_S64x32_S4096x54x32_2_0_01_1_n_n.lhsIdx j k 1).val = (j 1).val := by
  unfold DotDims.lhsIdx
  rw [dif_neg (show ¬ (1 : Fin S4096x54x64.rank) ∈ dot_S4096x54x64_S64x32_S4096x54x32_2_0_01_1_n_n.lhsBatch from List.not_mem_nil),
    dif_pos (show (1 : Fin S4096x54x64.rank) ∈ dot_S4096x54x64_S64x32_S4096x54x32_2_0_01_1_n_n.lhsNonContracting from
      (by decide : (1 : Fin 3) ∈ ([0, 1] : List (Fin 3))))]
  rfl

theorem lhs_2 (j : S4096x54x32.Idx) (k : dot_S4096x54x64_S64x32_S4096x54x32_2_0_01_1_n_n.contr.Idx) :
    (dot_S4096x54x64_S64x32_S4096x54x32_2_0_01_1_n_n.lhsIdx j k 2).val = (k ⟨0, (Nat.one_pos : 0 < 1)⟩).val :=
  dot_S4096x54x64_S64x32_S4096x54x32_2_0_01_1_n_n.lhsIdx_val_of_single rfl j k

theorem rhs_0 (j : S4096x54x32.Idx) (k : dot_S4096x54x64_S64x32_S4096x54x32_2_0_01_1_n_n.contr.Idx) :
    (dot_S4096x54x64_S64x32_S4096x54x32_2_0_01_1_n_n.rhsIdx j k 0).val = (k ⟨0, (Nat.one_pos : 0 < 1)⟩).val :=
  dot_S4096x54x64_S64x32_S4096x54x32_2_0_01_1_n_n.rhsIdx_val_of_single rfl j k

theorem rhs_1 (j : S4096x54x32.Idx) (k : dot_S4096x54x64_S64x32_S4096x54x32_2_0_01_1_n_n.contr.Idx) :
    (dot_S4096x54x64_S64x32_S4096x54x32_2_0_01_1_n_n.rhsIdx j k 1).val = (j 2).val := by
  unfold DotDims.rhsIdx
  rw [dif_neg (show ¬ (1 : Fin S64x32.rank) ∈ dot_S4096x54x64_S64x32_S4096x54x32_2_0_01_1_n_n.rhsBatch from List.not_mem_nil),
    dif_pos (show (1 : Fin S64x32.rank) ∈ dot_S4096x54x64_S64x32_S4096x54x32_2_0_01_1_n_n.rhsNonContracting from
      (by decide : (1 : Fin 2) ∈ ([1] : List (Fin 2))))]
  rfl

/-- Two rows of 32 appended, read below 32: the first row. -/
theorem append_lt {α : Type} (u v : Fin 32 → α) (k : Fin 64) (hk : k.val < 32) :
    (Fin.append u v : Fin (32 + 32) → α) k = u ⟨k.val, hk⟩ :=
  (congrArg (Fin.append u v : Fin (32 + 32) → α) (Fin.ext rfl : k = Fin.castAdd 32 (⟨k.val, hk⟩ : Fin 32))).trans
    (Fin.append_left u v _)

/-- Two rows of 32 appended, read from 32 on: the second row, 32 less. -/
theorem append_ge {α : Type} (u v : Fin 32 → α) (k : Fin 64) (hk : ¬ k.val < 32) :
    (Fin.append u v : Fin (32 + 32) → α) k = v ⟨k.val - 32, by omega⟩ :=
  (congrArg (Fin.append u v : Fin (32 + 32) → α)
    (Fin.ext (by show k.val = 32 + (k.val - 32); omega) : k = Fin.natAdd 32 (⟨k.val - 32, by omega⟩ : Fin 32))).trans
    (Fin.append_right u v _)

/-- The concatenation on the last axis, read at coordinate `k`, is the two rows appended. -/
theorem cat_apply (X A : FVec Ideal S4096x54x32 .f32) (b : Fin 4096) (n : Fin 54) (k : Fin 64) :
    concatenate S4096x54x64 2 [⟨S4096x54x32, X⟩, ⟨S4096x54x32, A⟩] concatenates_S4096x54x32_S4096x54x32_S4096x54x64_d2 (ix3 b n k)
      = (Fin.append (fun f : Fin 32 => X (ix3 b n f)) (fun f : Fin 32 => A (ix3 b n f)) : Fin (32 + 32) → EReal) k := by
  by_cases hk : k.val < 32
  · rw [append_lt _ _ k hk]
    exact concatenate_pair_apply_left (t := S4096x54x64) (s₁ := S4096x54x32) (s₂ := S4096x54x32) 2 X A concatenates_S4096x54x32_S4096x54x32_S4096x54x64_d2
      (ix3 b n k) rfl (ix3 b n (⟨k.val, hk⟩ : Fin 32)) (fun c => by
        match c with
        | ⟨0, _⟩ => rfl
        | ⟨1, _⟩ => rfl
        | ⟨2, _⟩ => rfl)
  · rw [append_ge _ _ k hk]
    exact concatenate_pair_apply_right (t := S4096x54x64) (s₁ := S4096x54x32) (s₂ := S4096x54x32) 2 X A concatenates_S4096x54x32_S4096x54x32_S4096x54x64_d2
      (ix3 b n k) rfl rfl (ix3 b n (⟨k.val - 32, by omega⟩ : Fin 32)) (fun c hc => by
        match c, hc with
        | ⟨0, _⟩, _ => rfl
        | ⟨1, _⟩, _ => rfl
        | ⟨2, _⟩, hc => exact absurd rfl hc) (by show (k.val - 32) + 32 = k.val; omega)

/-- The affine output entry: the 64-term sum of the appended rows against the weight's column, plus the bias. -/
theorem hidOf_apply (X A : FVec Ideal S4096x54x32 .f32) (Wh : FVec Ideal S64x32 .f32) (hb : FVec Ideal S32 .f32)
    (b : Fin 4096) (n : Fin 54) (o : Fin 32) :
    hidOf X A Wh hb (ix3 b n o)
      = (∑ k : Fin 64, (Fin.append (fun f : Fin 32 => X (ix3 b n f)) (fun f : Fin 32 => A (ix3 b n f)) : Fin (32 + 32) → EReal) k
            * Wh (ix2 k o)) + hb (ix1 o) := by
  unfold hidOf
  rw [addf_apply, bias_apply]
  refine congrArg (· + hb (ix1 o)) ?_
  simp only [Host.dotGeneral]
  rw [Ideal.dotGeneral_apply, ← Equiv.sum_comp (contrEquiv1 dot_S4096x54x64_S64x32_S4096x54x32_2_0_01_1_n_n 64 rfl rfl).symm]
  refine Finset.sum_congr rfl fun k _ => ?_
  have hl : dot_S4096x54x64_S64x32_S4096x54x32_2_0_01_1_n_n.lhsIdx (ix3 b n o) ((contrEquiv1 dot_S4096x54x64_S64x32_S4096x54x32_2_0_01_1_n_n 64 rfl rfl).symm k) = ix3 b n k := by
    funext a; apply Fin.ext
    match a with
    | ⟨0, _⟩ => exact lhs_0 _ _
    | ⟨1, _⟩ => exact lhs_1 _ _
    | ⟨2, _⟩ => exact (lhs_2 _ _).trans (contrEquiv1_symm_val dot_S4096x54x64_S64x32_S4096x54x32_2_0_01_1_n_n 64 rfl rfl k)
  have hr : dot_S4096x54x64_S64x32_S4096x54x32_2_0_01_1_n_n.rhsIdx (ix3 b n o) ((contrEquiv1 dot_S4096x54x64_S64x32_S4096x54x32_2_0_01_1_n_n 64 rfl rfl).symm k) = ix2 k o := by
    funext a; apply Fin.ext
    match a with
    | ⟨0, _⟩ => exact (rhs_0 _ _).trans (contrEquiv1_symm_val dot_S4096x54x64_S64x32_S4096x54x32_2_0_01_1_n_n 64 rfl rfl k)
    | ⟨1, _⟩ => exact rhs_1 _ _
  rw [hl, hr, cat_apply]

/-! ### The row norm -/

/-- The index over (batch, vertex) with the summed feature axis put back at coordinate `k`. -/
theorem lift_last (h : S4096x54x32.Reduces [2] S4096x54) (b : Fin 4096) (n : Fin 54) (k : Fin 32) :
    h.lift (ix2 b n) k = ix3 b n k := by
  funext c
  match c with
  | ⟨0, _⟩ => rfl
  | ⟨1, _⟩ => rfl
  | ⟨2, _⟩ => rfl

/-- The row norm is the square root of the row's sum of squares. -/
theorem nrmS_apply (T : FVec Ideal S4096x54x32 .f32) (b : Fin 4096) (n : Fin 54) :
    nrmS T (ix3 b n 0) = Ideal.sqrt (Cert.Sage.sumsq (fun b n f => T (ix3 b n f)) b n) := by
  have h : S4096x54x32.Reduces [2] S4096x54 := by decide
  unfold nrmS Host.sqrt
  rw [Ideal.hostUnary_sqrt_def]
  rw [broadcastInDim_apply _ _ _ _ (ix2 b n) (fun a => by
    match a with
    | ⟨0, _⟩ => rfl
    | ⟨1, _⟩ => rfl)]
  rw [hostReduceAdd_apply, Ideal.hostReduceAdd_single _ h, constant_apply, Ideal.ofBits_zero_f32, zero_add]
  unfold Cert.Sage.sumsq
  refine congrArg Ideal.sqrt (Finset.sum_congr rfl fun k _ => ?_)
  rw [lift_last h b n k, mulf_apply]

/-- The normalised entry is the entry divided by its row's norm. -/
theorem nrm_apply (T : FVec Ideal S4096x54x32 .f32) (b : Fin 4096) (n : Fin 54) (o : Fin 32) :
    nrm T (ix3 b n o) = Cert.Sage.normR (fun b n f => T (ix3 b n f)) b n o := by
  unfold nrm
  rw [hostDivf_apply]
  rw [broadcastInDim_apply _ _ _ _ (ix3 b n (0 : Fin 1)) (fun a => by
    match a with
    | ⟨0, _⟩ => rfl
    | ⟨1, _⟩ => rfl
    | ⟨2, _⟩ => rfl)]
  rw [nrmS_apply]
  rfl

end Cert.RefSide

end
-- ==== Proof.RefSlices.lean ====
/-
  Layer `i`'s weights and biases are row block `i` of the stacked arrays: a unit-stride slice at offset `i` on the
  leading axis, with the leading unit axis then dropped, reads the stacked array at leading coordinate `i`.
-/
import proofs.«100883_g78494822302262_cont_9to1_m_206_5_alg».proof.Proof.RefStages
import Idealize.ShloMosaic.Lib.ValueIdx
import Idealize.ShloMosaic.Lib.ValueLayout
import Idealize.ShloMosaic.Lib.Pipeline.Value

noncomputable section

namespace Cert.RefSide

open Idealize.ShloMosaic Idealize.ShloMosaic.ValueIdx Cert.ReferenceIdeal Cert.ReferenceIdeal.Facts₀ Cert.ReferenceIdeal.Facts

/-- Row block `c` of a stack of five `K × 32` matrices, as a matrix, at (k, o): the stack at (c, k, o). -/
theorem block_apply {K : ℕ} (c : ℕ) (hc : c < 5) (x : FVec Ideal ⟨3, ![5, K, 32]⟩ .f32)
    (hs : (⟨3, ![5, K, 32]⟩ : Shape).Slices ![c, 0, 0] ⟨3, ![1, K, 32]⟩)
    (hr : (⟨3, ![1, K, 32]⟩ : Shape).ShapeCasts ⟨2, ![K, 32]⟩) (k : Fin K) (o : Fin 32) :
    shapeCast ⟨2, ![K, 32]⟩ (extractStridedSlice ⟨3, ![1, K, 32]⟩ ![c, 0, 0] x hs) hr (ix2 k o) = x (ix3 (⟨c, hc⟩ : Fin 5) k o) := by
  rw [shapeCast_1ab_ab_apply]
  exact extractStridedSlice_apply _ x hs _ _ (fun a => by
    match a with
    | ⟨0, _⟩ => rfl
    | ⟨1, _⟩ => exact (Nat.zero_add _).symm
    | ⟨2, _⟩ => exact (Nat.zero_add _).symm)

/-- Row `c` of a stack of five vectors of 32, as a vector, at `o`: the stack at (c, o). -/
theorem row_block_apply (c : ℕ) (hc : c < 5) (x : FVec Ideal ⟨2, ![5, 32]⟩ .f32)
    (hs : (⟨2, ![5, 32]⟩ : Shape).Slices ![c, 0] ⟨2, ![1, 32]⟩)
    (hr : (⟨2, ![1, 32]⟩ : Shape).ShapeCasts ⟨1, ![32]⟩) (o : Fin 32) :
    shapeCast ⟨1, ![32]⟩ (extractStridedSlice ⟨2, ![1, 32]⟩ ![c, 0] x hs) hr (ix1 o) = x (ix2 (⟨c, hc⟩ : Fin 5) o) := by
  rw [shapeCast_1a_a_apply]
  exact extractStridedSlice_apply _ x hs _ _ (fun a => by
    match a with
    | ⟨0, _⟩ => rfl
    | ⟨1, _⟩ => exact (Nat.zero_add _).symm)

variable [Cert.ReferenceIdeal.Facts]

/-- Layer `i`'s 48-row weight at (k, o) is the stacked weight at (i, k, o). -/
theorem w48_apply (i : Fin 5) (a2 : FVec Ideal S5x48x32 .f32) (k : Fin 48) (o : Fin 32) : w48 i a2 (ix2 k o) = a2 (ix3 i k o) := by
  match i with
  | 0 => exact block_apply 0 (by decide) a2 _ _ k o
  | 1 => exact block_apply 1 (by decide) a2 _ _ k o
  | 2 => exact block_apply 2 (by decide) a2 _ _ k o
  | 3 => exact block_apply 3 (by decide) a2 _ _ k o
  | 4 => exact block_apply 4 (by decide) a2 _ _ k o

/-- Layer `i`'s bias at `o` is the stacked bias at (i, o). -/
theorem b32_apply (i : Fin 5) (a : FVec Ideal S5x32 .f32) (o : Fin 32) : b32 i a (ix1 o) = a (ix2 i o) := by
  match i with
  | 0 => exact row_block_apply 0 (by decide) a _ _ o
  | 1 => exact row_block_apply 1 (by decide) a _ _ o
  | 2 => exact row_block_apply 2 (by decide) a _ _ o
  | 3 => exact row_block_apply 3 (by decide) a _ _ o
  | 4 => exact row_block_apply 4 (by decide) a _ _ o

/-- Layer `i`'s 64-row weight at (k, o) is the stacked weight at (i, k, o). -/
theorem w64_apply (i : Fin 5) (a4 : FVec Ideal S5x64x32 .f32) (k : Fin 64) (o : Fin 32) : w64 i a4 (ix2 k o) = a4 (ix3 i k o) := by
  match i with
  | 0 => exact block_apply 0 (by decide) a4 _ _ k o
  | 1 => exact block_apply 1 (by decide) a4 _ _ k o
  | 2 => exact block_apply 2 (by decide) a4 _ _ k o
  | 3 => exact block_apply 3 (by decide) a4 _ _ k o
  | 4 => exact block_apply 4 (by decide) a4 _ _ k o

end Cert.RefSide

end
-- ==== Proof.RefAgg.lean ====
/-
  The reference's neighbour aggregate read at an index: the two gathers through the constant neighbour tables
  (vertex `(n + j + 1) mod 54`, edge `(3 n + j) mod 72`, each of the 162 table entries checked), their
  concatenation, the 48-term contraction, the bias, `tanh`, and the maximum over the three neighbours from `-∞`.
-/
import proofs.«100883_g78494822302262_cont_9to1_m_206_5_alg».proof.Proof.RefStages
import proofs.«100883_g78494822302262_cont_9to1_m_206_5_alg».proof.Proof.Sage
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.RefSide

open Idealize.ShloMosaic Idealize.ShloMosaic.ValueIdx Cert.ReferenceIdeal Cert.ReferenceIdeal.Facts₀ Cert.ReferenceIdeal.Facts

variable [Cert.ReferenceIdeal.Facts]

/-- The vertex gather's dimension numbers. -/
abbrev gV : GatherDims S4096x54x32 S54x3x1 S4096x54x3x32 := gather_S4096x54x32_S54x3x1_S4096x54x3x32_03_1_n_n_1_2_4096132

theorem gV_mem (a : Fin 3) : (a ∈ gV.startIndexMap ↔ a = 1) ∧ (a ∈ gV.sKept ↔ a ≠ 1) ∧ a ∉ gV.operandBatchingDims := by
  show (a ∈ ([1] : List (Fin 3)) ↔ a = 1) ∧ (a ∈ ([0, 2] : List (Fin 3)) ↔ a ≠ 1) ∧ a ∉ ([] : List (Fin 3))
  revert a; decide

theorem gV_idx0 (idx : IVec S54x3x1 32) (b : Fin 4096) (n : Fin 54) (jn : Fin 3) (f : Fin 32) :
    (gV.operandIdx (ix4 b n jn f) idx 0).val = b.val := by
  show gV.start _ idx 0 + gV.batchCoord _ 0 + gV.offCoord _ 0 = _
  rw [GatherDims.batchCoord_eq_zero _ _ _ (gV_mem 0).2.2]
  unfold GatherDims.start GatherDims.offCoord
  rw [dif_neg (fun h => absurd ((gV_mem 0).1.1 h) (by decide)), dif_pos ((gV_mem 0).2.1.2 (by decide))]
  simp only [Nat.zero_add]
  rfl

theorem gV_idx2 (idx : IVec S54x3x1 32) (b : Fin 4096) (n : Fin 54) (jn : Fin 3) (f : Fin 32) :
    (gV.operandIdx (ix4 b n jn f) idx 2).val = f.val := by
  show gV.start _ idx 2 + gV.batchCoord _ 2 + gV.offCoord _ 2 = _
  rw [GatherDims.batchCoord_eq_zero _ _ _ (gV_mem 2).2.2]
  unfold GatherDims.start GatherDims.offCoord
  rw [dif_neg (fun h => absurd ((gV_mem 2).1.1 h) (by decide)), dif_pos ((gV_mem 2).2.1.2 (by decide))]
  simp only [Nat.zero_add]
  rfl

theorem gV_idx1 (idx : IVec S54x3x1 32) (b : Fin 4096) (n : Fin 54) (jn : Fin 3) (f : Fin 32) :
    (gV.operandIdx (ix4 b n jn f) idx 1).val = min (idx (ix3 n jn (0 : Fin 1))).toInt.toNat (54 - 1) := by
  show gV.start _ idx 1 + gV.batchCoord _ 1 + gV.offCoord _ 1 = _
  rw [GatherDims.batchCoord_eq_zero _ _ _ (gV_mem 1).2.2,
    GatherDims.offCoord_eq_zero _ _ _ (fun h => absurd rfl ((gV_mem 1).2.1.1 h))]
  unfold GatherDims.start
  rw [dif_pos ((gV_mem 1).1.2 rfl)]
  have hsi : gV.siIdx (ix4 b n jn f) ⟨List.idxOf (1 : Fin 3) gV.startIndexMap,
      List.idxOf_lt_length_iff.2 ((gV_mem 1).1.2 rfl)⟩ = ix3 n jn (0 : Fin 1) := by
    funext c; refine Fin.ext ?_
    match c with
    | ⟨0, _⟩ => rfl
    | ⟨1, _⟩ => rfl
    | ⟨2, _⟩ => rfl
  rw [hsi]
  rfl

/-- The vertex gather read at (batch, vertex, neighbour, feature): the operand's row at the start index the table
    holds at (vertex, neighbour), read signed and clamped into the 54 rows. -/
theorem gatherV_apply {α : Type} (X : S4096x54x32.Idx → α) (idx : IVec S54x3x1 32) (b : Fin 4096) (n : Fin 54) (jn : Fin 3) (f : Fin 32) :
    Host.gather gV X idx (ix4 b n jn f)
      = X (ix3 b ⟨min (idx (ix3 n jn (0 : Fin 1))).toInt.toNat (54 - 1), by omega⟩ f) := by
  unfold Host.gather
  refine congrArg X (funext fun a => Fin.ext ?_)
  match a with
  | ⟨0, _⟩ => exact gV_idx0 idx b n jn f
  | ⟨1, _⟩ => exact gV_idx1 idx b n jn f
  | ⟨2, _⟩ => exact gV_idx2 idx b n jn f

/-- The edge gather's dimension numbers. -/
abbrev gE : GatherDims S4096x72x16 S54x3x1 S4096x54x3x16 := gather_S4096x72x16_S54x3x1_S4096x54x3x16_03_1_n_n_1_2_4096116

theorem gE_mem (a : Fin 3) : (a ∈ gE.startIndexMap ↔ a = 1) ∧ (a ∈ gE.sKept ↔ a ≠ 1) ∧ a ∉ gE.operandBatchingDims := by
  show (a ∈ ([1] : List (Fin 3)) ↔ a = 1) ∧ (a ∈ ([0, 2] : List (Fin 3)) ↔ a ≠ 1) ∧ a ∉ ([] : List (Fin 3))
  revert a; decide

theorem gE_idx0 (idx : IVec S54x3x1 32) (b : Fin 4096) (n : Fin 54) (jn : Fin 3) (f : Fin 16) :
    (gE.operandIdx (ix4 b n jn f) idx 0).val = b.val := by
  show gE.start _ idx 0 + gE.batchCoord _ 0 + gE.offCoord _ 0 = _
  rw [GatherDims.batchCoord_eq_zero _ _ _ (gE_mem 0).2.2]
  unfold GatherDims.start GatherDims.offCoord
  rw [dif_neg (fun h => absurd ((gE_mem 0).1.1 h) (by decide)), dif_pos ((gE_mem 0).2.1.2 (by decide))]
  simp only [Nat.zero_add]
  rfl

theorem gE_idx2 (idx : IVec S54x3x1 32) (b : Fin 4096) (n : Fin 54) (jn : Fin 3) (f : Fin 16) :
    (gE.operandIdx (ix4 b n jn f) idx 2).val = f.val := by
  show gE.start _ idx 2 + gE.batchCoord _ 2 + gE.offCoord _ 2 = _
  rw [GatherDims.batchCoord_eq_zero _ _ _ (gE_mem 2).2.2]
  unfold GatherDims.start GatherDims.offCoord
  rw [dif_neg (fun h => absurd ((gE_mem 2).1.1 h) (by decide)), dif_pos ((gE_mem 2).2.1.2 (by decide))]
  simp only [Nat.zero_add]
  rfl

theorem gE_idx1 (idx : IVec S54x3x1 32) (b : Fin 4096) (n : Fin 54) (jn : Fin 3) (f : Fin 16) :
    (gE.operandIdx (ix4 b n jn f) idx 1).val = min (idx (ix3 n jn (0 : Fin 1))).toInt.toNat (72 - 1) := by
  show gE.start _ idx 1 + gE.batchCoord _ 1 + gE.offCoord _ 1 = _
  rw [GatherDims.batchCoord_eq_zero _ _ _ (gE_mem 1).2.2,
    GatherDims.offCoord_eq_zero _ _ _ (fun h => absurd rfl ((gE_mem 1).2.1.1 h))]
  unfold GatherDims.start
  rw [dif_pos ((gE_mem 1).1.2 rfl)]
  have hsi : gE.siIdx (ix4 b n jn f) ⟨List.idxOf (1 : Fin 3) gE.startIndexMap,
      List.idxOf_lt_length_iff.2 ((gE_mem 1).1.2 rfl)⟩ = ix3 n jn (0 : Fin 1) := by
    funext c; refine Fin.ext ?_
    match c with
    | ⟨0, _⟩ => rfl
    | ⟨1, _⟩ => rfl
    | ⟨2, _⟩ => rfl
  rw [hsi]
  rfl

/-- The edge gather read at (batch, vertex, neighbour, feature): the operand's row at the start index the table
    holds at (vertex, neighbour), read signed and clamped into the 72 rows. -/
theorem gatherE_apply {α : Type} (X : S4096x72x16.Idx → α) (idx : IVec S54x3x1 32) (b : Fin 4096) (n : Fin 54) (jn : Fin 3) (f : Fin 16) :
    Host.gather gE X idx (ix4 b n jn f)
      = X (ix3 b ⟨min (idx (ix3 n jn (0 : Fin 1))).toInt.toNat (72 - 1), by omega⟩ f) := by
  unfold Host.gather
  refine congrArg X (funext fun a => Fin.ext ?_)
  match a with
  | ⟨0, _⟩ => exact gE_idx0 idx b n jn f
  | ⟨1, _⟩ => exact gE_idx1 idx b n jn f
  | ⟨2, _⟩ => exact gE_idx2 idx b n jn f

/-- The aggregate contraction's dimension numbers. -/
abbrev dA : DotDims S4096x54x3x48 S48x32 S4096x54x3x32 := dot_S4096x54x3x48_S48x32_S4096x54x3x32_3_0_012_1_n_n

theorem dA_mem (a : Fin 4) : a ∉ dA.lhsBatch ∧ (a ∈ dA.lhsNonContracting ↔ a ≠ 3) := by
  show a ∉ ([] : List (Fin 4)) ∧ (a ∈ ([0, 1, 2] : List (Fin 4)) ↔ a ≠ 3)
  revert a; decide

theorem dA_memR (a : Fin 2) : a ∉ dA.rhsBatch ∧ (a ∈ dA.rhsNonContracting ↔ a = 1) := by
  show a ∉ ([] : List (Fin 2)) ∧ (a ∈ ([1] : List (Fin 2)) ↔ a = 1)
  revert a; decide

theorem dA_lhs0 (j : S4096x54x3x32.Idx) (k : dA.contr.Idx) : (dA.lhsIdx j k 0).val = (j 0).val := by
  unfold DotDims.lhsIdx
  rw [dif_neg (dA_mem 0).1, dif_pos ((dA_mem 0).2.2 (by decide))]
  rfl

theorem dA_lhs1 (j : S4096x54x3x32.Idx) (k : dA.contr.Idx) : (dA.lhsIdx j k 1).val = (j 1).val := by
  unfold DotDims.lhsIdx
  rw [dif_neg (dA_mem 1).1, dif_pos ((dA_mem 1).2.2 (by decide))]
  rfl

theorem dA_lhs2 (j : S4096x54x3x32.Idx) (k : dA.contr.Idx) : (dA.lhsIdx j k 2).val = (j 2).val := by
  unfold DotDims.lhsIdx
  rw [dif_neg (dA_mem 2).1, dif_pos ((dA_mem 2).2.2 (by decide))]
  rfl

theorem dA_lhs3 (j : S4096x54x3x32.Idx) (k : dA.contr.Idx) : (dA.lhsIdx j k 3).val = (k ⟨0, Nat.one_pos⟩).val :=
  dA.lhsIdx_val_of_single (cl := 3) rfl j k

theorem dA_rhs0 (j : S4096x54x3x32.Idx) (k : dA.contr.Idx) : (dA.rhsIdx j k 0).val = (k ⟨0, Nat.one_pos⟩).val :=
  dA.rhsIdx_val_of_single (cr := 0) rfl j k

theorem dA_rhs1 (j : S4096x54x3x32.Idx) (k : dA.contr.Idx) : (dA.rhsIdx j k 1).val = (j 3).val := by
  unfold DotDims.rhsIdx
  rw [dif_neg (dA_memR 1).1, dif_pos ((dA_memR 1).2.2 rfl)]
  rfl

/-- The aggregate contraction read at (batch, vertex, neighbour, output): the 48-term sum. -/
theorem dotA_apply (L : FVec Ideal S4096x54x3x48 .f32) (W : FVec Ideal S48x32 .f32) (b : Fin 4096) (n : Fin 54) (jn : Fin 3) (o : Fin 32) :
    Host.dotGeneral dA none L W (ix4 b n jn o) = ∑ k : Fin 48, L (ix4 b n jn k) * W (ix2 k o) := by
  show FloatOps.dotGeneral dA none .single L W (ix4 b n jn o) = _
  rw [Ideal.dotGeneral_apply, ← Equiv.sum_comp (contrEquiv1 dA 48 rfl rfl).symm]
  refine Finset.sum_congr rfl fun k _ => ?_
  have hl : dA.lhsIdx (ix4 b n jn o) ((contrEquiv1 dA 48 rfl rfl).symm k) = ix4 b n jn k := by
    funext a; refine Fin.ext ?_
    match a with
    | ⟨0, _⟩ => exact dA_lhs0 _ _
    | ⟨1, _⟩ => exact dA_lhs1 _ _
    | ⟨2, _⟩ => exact dA_lhs2 _ _
    | ⟨3, _⟩ => exact (dA_lhs3 _ _).trans (contrEquiv1_symm_val dA 48 rfl rfl k)
  have hr : dA.rhsIdx (ix4 b n jn o) ((contrEquiv1 dA 48 rfl rfl).symm k) = ix2 k o := by
    funext a; refine Fin.ext ?_
    match a with
    | ⟨0, _⟩ => exact (dA_rhs0 _ _).trans (contrEquiv1_symm_val dA 48 rfl rfl k)
    | ⟨1, _⟩ => exact dA_rhs1 _ _
  rw [hl, hr]

/-- The two gathers side by side, read in the vertex part. -/
theorem catA_left (A : FVec Ideal S4096x54x3x32 .f32) (B : FVec Ideal S4096x54x3x16 .f32) (b : Fin 4096) (n : Fin 54) (jn : Fin 3)
    (k : Fin 48) (hk : k.val < 32) :
    concatenate S4096x54x3x48 3 [⟨S4096x54x3x32, A⟩, ⟨S4096x54x3x16, B⟩] concatenates_S4096x54x3x32_S4096x54x3x16_S4096x54x3x48_d3 (ix4 b n jn k)
      = A (ix4 b n jn (⟨k.val, hk⟩ : Fin 32)) := by
  refine concatenate_pair_apply_left (t := S4096x54x3x48) (s₁ := S4096x54x3x32) (s₂ := S4096x54x3x16) (3 : Fin 4) A B
    concatenates_S4096x54x3x32_S4096x54x3x16_S4096x54x3x48_d3 (ix4 b n jn k) rfl (ix4 b n jn (⟨k.val, hk⟩ : Fin 32)) ?_
  intro c
  match c with
  | ⟨0, _⟩ => rfl
  | ⟨1, _⟩ => rfl
  | ⟨2, _⟩ => rfl
  | ⟨3, _⟩ => rfl

/-- The two gathers side by side, read in the edge part. -/
theorem catA_right (A : FVec Ideal S4096x54x3x32 .f32) (B : FVec Ideal S4096x54x3x16 .f32) (b : Fin 4096) (n : Fin 54) (jn : Fin 3)
    (k : Fin 48) (hk : 32 ≤ k.val) :
    concatenate S4096x54x3x48 3 [⟨S4096x54x3x32, A⟩, ⟨S4096x54x3x16, B⟩] concatenates_S4096x54x3x32_S4096x54x3x16_S4096x54x3x48_d3 (ix4 b n jn k)
      = B (ix4 b n jn (⟨k.val - 32, by omega⟩ : Fin 16)) := by
  refine concatenate_pair_apply_right (t := S4096x54x3x48) (s₁ := S4096x54x3x32) (s₂ := S4096x54x3x16) (3 : Fin 4) A B
    concatenates_S4096x54x3x32_S4096x54x3x16_S4096x54x3x48_d3 (ix4 b n jn k) rfl rfl (ix4 b n jn (⟨k.val - 32, by omega⟩ : Fin 16)) ?_ ?_
  · intro c hc
    match c with
    | ⟨0, _⟩ => rfl
    | ⟨1, _⟩ => rfl
    | ⟨2, _⟩ => rfl
    | ⟨3, _⟩ => exact absurd rfl hc
  · show (k.val - 32) + 32 = k.val
    omega

/-- The two gathers side by side, read at (batch, vertex, neighbour, k): the vertex part for `k < 32`, the edge part after. -/
theorem catA_apply (A : FVec Ideal S4096x54x3x32 .f32) (B : FVec Ideal S4096x54x3x16 .f32) (b : Fin 4096) (n : Fin 54) (jn : Fin 3) (k : Fin 48) :
    concatenate S4096x54x3x48 3 [⟨S4096x54x3x32, A⟩, ⟨S4096x54x3x16, B⟩] concatenates_S4096x54x3x32_S4096x54x3x16_S4096x54x3x48_d3 (ix4 b n jn k)
      = (Fin.append (fun f : Fin 32 => A (ix4 b n jn f)) (fun d : Fin 16 => B (ix4 b n jn d)) : Fin (32 + 16) → EReal) k := by
  by_cases hk : k.val < 32
  · rw [catA_left A B b n jn k hk]
    exact ((Fin.append_left (fun f : Fin 32 => A (ix4 b n jn f)) (fun d : Fin 16 => B (ix4 b n jn d)) ⟨k.val, hk⟩).symm.trans
      (congrArg _ (Fin.ext rfl)))
  · rw [catA_right A B b n jn k (by omega)]
    exact ((Fin.append_right (fun f : Fin 32 => A (ix4 b n jn f)) (fun d : Fin 16 => B (ix4 b n jn d)) ⟨k.val - 32, by omega⟩).symm.trans
      (congrArg _ (Fin.ext (by show 32 + (k.val - 32) = k.val; omega))))

/-- The bias broadcast along the batch, vertex and neighbour axes reads the bias at the output coordinate. -/
theorem biasA_apply (eb : FVec Ideal S32 .f32) (b : Fin 4096) (n : Fin 54) (jn : Fin 3) (o : Fin 32) :
    broadcastInDim S4096x54x3x32 ![0, 1, 2, 3] bcast_S1x1x1x32_S4096x54x3x32_0_1_2_3
      (broadcastInDim S1x1x1x32 ![3] bcast_S32_S1x1x1x32_3 eb) (ix4 b n jn o) = eb (ix1 o) := by
  rw [broadcastInDim_apply _ _ _ _ (ix4 (0 : Fin 1) (0 : Fin 1) (0 : Fin 1) o) (fun a => by
    match a with
    | ⟨0, _⟩ => rfl
    | ⟨1, _⟩ => rfl
    | ⟨2, _⟩ => rfl
    | ⟨3, _⟩ => rfl)]
  exact broadcastInDim_apply _ _ _ _ (ix1 o) (fun a => by
    match a with
    | ⟨0, _⟩ => rfl)

theorem ofBits_neg_inf : Ideal.ofBits .f32 0xFF800000#32 = (⊥ : EReal) := by
  simp [Ideal.ofBits, Ideal.ieee]

/-- The maximum over the three neighbours, from `-∞`. -/
theorem maxA_apply (T : FVec Ideal S4096x54x3x32 .f32) (b : Fin 4096) (n : Fin 54) (o : Fin 32) :
    Host.reduce FloatOps.maximumf T (constant (F := Ideal) S_ .f32 0xFF800000#32) reducesTo_S4096x54x3x32_S4096x54x32_d2 h_S_ (ix3 b n o)
      = max (max (T (ix4 b n (0 : Fin 3) o)) (T (ix4 b n (1 : Fin 3) o))) (T (ix4 b n (2 : Fin 3) o)) := by
  have h : S4096x54x3x32.Reduces [2] S4096x54x32 := by decide
  rw [Host.reduce_eq_fold_single FloatOps.maximumf T _ reducesTo_S4096x54x3x32_S4096x54x32_d2 h h_S_]
  have hl : ∀ k : Fin 3, h.lift (ix3 b n o) k = ix4 b n k o := fun k => by
    funext c; refine Fin.ext ?_
    match c with
    | ⟨0, _⟩ => rfl
    | ⟨1, _⟩ => rfl
    | ⟨2, _⟩ => rfl
    | ⟨3, _⟩ => rfl
  have hf : (T ∘ h.lift (ix3 b n o)) = fun k : Fin 3 => T (ix4 b n k o) := funext fun k => congrArg T (hl k)
  rw [hf]
  show Finset.fold max (Ideal.ofBits .f32 0xFF800000#32) (fun k : Fin 3 => T (ix4 b n k o)) (Finset.univ : Finset (Fin 3)) = _
  have hu : (Finset.univ : Finset (Fin 3)) = insert 0 (insert 1 {2}) := by decide
  rw [hu, Finset.fold_insert (by decide), Finset.fold_insert (by decide), Finset.fold_singleton, ofBits_neg_inf,
    max_bot_right, max_assoc]

/-- The constant table read at (vertex, neighbour, column): its row-major entry. -/
theorem tbl_apply (n : Fin 54) (j : Fin 3) (c : Fin 2) :
    (fun i => lit0 (S54x3x2.rowMajor i)) (ix3 n j c) = lit0 ⟨(n.val * 3 + j.val) * 2 + c.val, by omega⟩ :=
  congrArg lit0 (Fin.ext (Shape.rowMajor_val_three _))

/-- Column `c` of the table as a 54 × 3 array, read at (vertex, neighbour). -/
theorem col_apply (c : Nat) (hc : c < 2) (h : S54x3x2.Slices ![0, 0, c] S54x3x1) (n : Fin 54) (j : Fin 3) :
    shapeCast S54x3 (extractStridedSlice S54x3x1 ![0, 0, c] (fun i => lit0 (S54x3x2.rowMajor i)) h) shapeCasts_S54x3x1_S54x3 (ix2 n j)
      = lit0 ⟨(n.val * 3 + j.val) * 2 + c, by omega⟩ := by
  rw [shapeCast_apply _ _ (ix2 n j) (ix3 n j (0 : Fin 1)) (by
    rw [Shape.rowMajor_val_three, Shape.rowMajor_val_two]
    show (n.val * 3 + j.val) * 1 + 0 = n.val * 3 + j.val
    omega)]
  rw [extractStridedSlice_apply _ _ h (ix3 n j (0 : Fin 1)) (ix3 n j (⟨c, hc⟩ : Fin 2)) (fun a => by
    match a with
    | ⟨0, _⟩ => exact (Nat.zero_add _).symm
    | ⟨1, _⟩ => exact (Nat.zero_add _).symm
    | ⟨2, _⟩ => rfl)]
  exact tbl_apply n j ⟨c, hc⟩

/-- The negative-index normalisation of one start index: a negative word raised by `m`. -/
def normW (m w : BitVec 32) : BitVec 32 := Scalar.select (IntOp.cmpi .slt w 0#32) (IntOp.addi w m) w

/-- The vertex table at (vertex, neighbour): the normalised column-0 entry. -/
theorem idxV_apply (n : Fin 54) (j : Fin 3) :
    idxV (ix3 n j (0 : Fin 1)) = normW 54#32 (lit0 ⟨(n.val * 3 + j.val) * 2 + 0, by omega⟩) := by
  unfold idxV
  rw [broadcastInDim_apply _ _ _ (ix3 n j (0 : Fin 1)) (ix2 n j) (fun a => by
    match a with
    | ⟨0, _⟩ => rfl
    | ⟨1, _⟩ => rfl)]
  rw [select_apply]
  show Scalar.select (IntOp.cmpi .slt (shapeCast S54x3 _ _ (ix2 n j)) 0#32) (IntOp.addi (shapeCast S54x3 _ _ (ix2 n j)) 54#32) (shapeCast S54x3 _ _ (ix2 n j)) = _
  rw [col_apply 0 (by decide) slices_S54x3x2_S54x3x1_0_0_0 n j]
  rfl

/-- The edge table at (vertex, neighbour): the normalised column-1 entry. -/
theorem idxE_apply (n : Fin 54) (j : Fin 3) :
    idxE (ix3 n j (0 : Fin 1)) = normW 72#32 (lit0 ⟨(n.val * 3 + j.val) * 2 + 1, by omega⟩) := by
  unfold idxE
  rw [broadcastInDim_apply _ _ _ (ix3 n j (0 : Fin 1)) (ix2 n j) (fun a => by
    match a with
    | ⟨0, _⟩ => rfl
    | ⟨1, _⟩ => rfl)]
  rw [select_apply]
  show Scalar.select (IntOp.cmpi .slt (shapeCast S54x3 _ _ (ix2 n j)) 0#32) (IntOp.addi (shapeCast S54x3 _ _ (ix2 n j)) 72#32) (shapeCast S54x3 _ _ (ix2 n j)) = _
  rw [col_apply 1 (by decide) slices_S54x3x2_S54x3x1_0_0_1 n j]
  rfl

/-- The table's column 0 names vertex `(n + j + 1) mod 54`: all 162 entries. -/
theorem tblV : ∀ (n : Fin 54) (j : Fin 3),
    min (normW 54#32 (lit0 ⟨(n.val * 3 + j.val) * 2 + 0, by omega⟩)).toInt.toNat (54 - 1) = (n.val + j.val + 1) % 54 := by
  decide +kernel

/-- The table's column 1 names edge `(3 n + j) mod 72`: all 162 entries. -/
theorem tblE : ∀ (n : Fin 54) (j : Fin 3),
    min (normW 72#32 (lit0 ⟨(n.val * 3 + j.val) * 2 + 1, by omega⟩)).toInt.toNat (72 - 1) = (3 * n.val + j.val) % 72 := by
  decide +kernel

/-- `tanh` applied entry by entry, read at an index. -/
theorem hostTanh_apply {s : Shape} (T : FVec Ideal s .f32) (i : s.Idx) : Host.tanh T i = Ideal.tanh (T i) := rfl

/-- The vertex gather through the vertex table reads the neighbour vertex's row. -/
theorem gatherV_idxV {α : Type} (X : S4096x54x32.Idx → α) (b : Fin 4096) (n : Fin 54) (jn : Fin 3) (f : Fin 32) :
    Host.gather gV X idxV (ix4 b n jn f) = X (ix3 b (Cert.Sage.nbV n jn) f) := by
  rw [gatherV_apply]
  refine congrArg (fun v => X (ix3 b v f)) (Fin.ext ?_)
  show min (idxV (ix3 n jn (0 : Fin 1))).toInt.toNat (54 - 1) = (n.val + jn.val + 1) % 54
  rw [idxV_apply]
  exact tblV n jn

/-- The edge gather through the edge table reads the joining edge's row. -/
theorem gatherE_idxE {α : Type} (E : S4096x72x16.Idx → α) (b : Fin 4096) (n : Fin 54) (jn : Fin 3) (d : Fin 16) :
    Host.gather gE E idxE (ix4 b n jn d) = E (ix3 b (Cert.Sage.nbE n jn) d) := by
  rw [gatherE_apply]
  refine congrArg (fun v => E (ix3 b v d)) (Fin.ext ?_)
  show min (idxE (ix3 n jn (0 : Fin 1))).toInt.toNat (72 - 1) = (3 * n.val + jn.val) % 72
  rw [idxE_apply]
  exact tblE n jn

/-- One neighbour's embedding: `tanh` of the 48-term contraction of the neighbour's vertex features and the edge's
    features with the weight, plus the bias. -/
theorem embA_apply (X : FVec Ideal S4096x54x32 .f32) (E : FVec Ideal S4096x72x16 .f32) (W : FVec Ideal S48x32 .f32)
    (eb : FVec Ideal S32 .f32) (b : Fin 4096) (n : Fin 54) (jn : Fin 3) (o : Fin 32) :
    Host.tanh
      (addf
        (Host.dotGeneral dA none
          (concatenate S4096x54x3x48 3
            [⟨S4096x54x3x32, Host.gather gV X idxV⟩, ⟨S4096x54x3x16, Host.gather gE E idxE⟩]
            concatenates_S4096x54x3x32_S4096x54x3x16_S4096x54x3x48_d3)
          W)
        (broadcastInDim S4096x54x3x32 ![0, 1, 2, 3] bcast_S1x1x1x32_S4096x54x3x32_0_1_2_3
          (broadcastInDim S1x1x1x32 ![3] bcast_S32_S1x1x1x32_3 eb))) (ix4 b n jn o)
      = Cert.Sage.embR (fun b n f => X (ix3 b n f)) (fun b e d => E (ix3 b e d)) (fun k o => W (ix2 k o)) (fun o => eb (ix1 o)) b n jn o := by
  rw [hostTanh_apply, addf_apply, dotA_apply, biasA_apply]
  unfold Cert.Sage.embR
  refine congrArg (fun s => Ideal.tanh (s + eb (ix1 o))) (Finset.sum_congr rfl fun k _ => ?_)
  rw [catA_apply]
  have h1 : (fun f : Fin 32 => Host.gather gV X idxV (ix4 b n jn f)) = fun f : Fin 32 => X (ix3 b (Cert.Sage.nbV n jn) f) :=
    funext fun f => gatherV_idxV X b n jn f
  have h2 : (fun d : Fin 16 => Host.gather gE E idxE (ix4 b n jn d)) = fun d : Fin 16 => E (ix3 b (Cert.Sage.nbE n jn) d) :=
    funext fun d => gatherE_idxE E b n jn d
  rw [h1, h2]

/-- The neighbour aggregate at (batch, vertex, output): the largest of the three neighbours' embeddings. -/
theorem agg_apply (X : FVec Ideal S4096x54x32 .f32) (E : FVec Ideal S4096x72x16 .f32) (W : FVec Ideal S48x32 .f32)
    (eb : FVec Ideal S32 .f32) (b : Fin 4096) (n : Fin 54) (o : Fin 32) :
    agg X E W eb (ix3 b n o)
      = Cert.Sage.aggR (fun b n f => X (ix3 b n f)) (fun b e d => E (ix3 b e d)) (fun k o => W (ix2 k o)) (fun o => eb (ix1 o)) b n o := by
  unfold agg
  rw [maxA_apply, embA_apply, embA_apply, embA_apply]
  rfl

end Cert.RefSide

end
-- ==== Proof.RefChain.lean ====
/-
  The reference's five layers, read entry by entry.

  One layer's affine output on an input array is the specification's layer on that array read as a function of
  (batch, vertex, feature), with the layer's slices of the stacked weights and biases; `tanh` acts entry by entry;
  the row normalisation is the specification's. By induction over the layers, the input of every layer, the array
  every layer normalises, and the program's result are the specification's.
-/
import proofs.«100883_g78494822302262_cont_9to1_m_206_5_alg».proof.Proof.RefStages
import proofs.«100883_g78494822302262_cont_9to1_m_206_5_alg».proof.Proof.RefHid
import proofs.«100883_g78494822302262_cont_9to1_m_206_5_alg».proof.Proof.RefSlices
import proofs.«100883_g78494822302262_cont_9to1_m_206_5_alg».proof.Proof.RefAgg
import proofs.«100883_g78494822302262_cont_9to1_m_206_5_alg».proof.Proof.Sage
import Idealize.ShloMosaic.Lib.ValueIdx
import Idealize.ShloMosaic.PureOps.Ideal

noncomputable section

namespace Cert.RefSide

open Idealize.ShloMosaic Idealize.ShloMosaic.ValueIdx Cert.ReferenceIdeal Cert.ReferenceIdeal.Facts₀ Cert.ReferenceIdeal.Facts

variable [Cert.ReferenceIdeal.Facts]

/-- The affine output with layer `i`'s slices of the stacked weights and biases, entry by entry: the specification's
    layer `i` on the input read as a function of (batch, vertex, feature). -/
theorem hid_slices_apply (i : Fin 5) (X : FVec Ideal S4096x54x32 .f32) (a1 : FVec Ideal S4096x72x16 .f32) (a2 : FVec Ideal S5x48x32 .f32)
    (a3 : FVec Ideal S5x32 .f32) (a4 : FVec Ideal S5x64x32 .f32) (a5 : FVec Ideal S5x32 .f32)
    (b : Fin 4096) (n : Fin 54) (o : Fin 32) :
    hid X a1 (w48 i a2) (b32 i a3) (w64 i a4) (b32 i a5) (ix3 b n o)
      = Cert.Sage.layR (Cert.Sage.paramsOf a1 a2 a3 a4 a5) i (fun b n f => X (ix3 b n f)) b n o := by
  unfold hid
  rw [hidOf_apply, b32_apply]
  have hA : (fun f : Fin 32 => agg X a1 (w48 i a2) (b32 i a3) (ix3 b n f))
      = Cert.Sage.aggR (fun b n f => X (ix3 b n f)) (fun b e d => a1 (ix3 b e d)) (fun q p => a2 (ix3 i q p))
          (fun p => a3 (ix2 i p)) b n := by
    funext f
    rw [agg_apply]
    simp only [w48_apply, b32_apply]
  rw [hA]
  simp only [w64_apply]
  rfl

/-- Layer `k`'s affine output, entry by entry. -/
theorem lay_apply (k : ℕ) (X : FVec Ideal S4096x54x32 .f32) (a1 : FVec Ideal S4096x72x16 .f32) (a2 : FVec Ideal S5x48x32 .f32)
    (a3 : FVec Ideal S5x32 .f32) (a4 : FVec Ideal S5x64x32 .f32) (a5 : FVec Ideal S5x32 .f32)
    (b : Fin 4096) (n : Fin 54) (o : Fin 32) :
    lay k X a1 a2 a3 a4 a5 (ix3 b n o)
      = Cert.Sage.layR (Cert.Sage.paramsOf a1 a2 a3 a4 a5) ⟨k % 5, Nat.mod_lt _ (by decide)⟩ (fun b n f => X (ix3 b n f)) b n o := by
  unfold lay
  exact hid_slices_apply _ X a1 a2 a3 a4 a5 b n o

/-- `tanh` of an array, entry by entry. -/
theorem tanh_apply (T : FVec Ideal S4096x54x32 .f32) (i : S4096x54x32.Idx) : Host.tanh T i = Ideal.tanh (T i) := rfl

/-- What layer `k` normalises, entry by entry, given the layer's input entry by entry. -/
theorem tanh_lay_eq (k : ℕ) (X : FVec Ideal S4096x54x32 .f32) (X' : Cert.Sage.VF) (hX : ∀ b n f, X (ix3 b n f) = X' b n f)
    (a1 : FVec Ideal S4096x72x16 .f32) (a2 : FVec Ideal S5x48x32 .f32)
    (a3 : FVec Ideal S5x32 .f32) (a4 : FVec Ideal S5x64x32 .f32) (a5 : FVec Ideal S5x32 .f32) :
    (fun b n f => Host.tanh (lay k X a1 a2 a3 a4 a5) (ix3 b n f))
      = Cert.Sage.tanhV (Cert.Sage.layR (Cert.Sage.paramsOf a1 a2 a3 a4 a5) ⟨k % 5, Nat.mod_lt _ (by decide)⟩ X') := by
  funext b n f
  rw [tanh_apply, lay_apply]
  have e : (fun b n f => X (ix3 b n f)) = X' := funext fun b => funext fun n => funext fun f => hX b n f
  rw [e]
  rfl

/-- The input of layer `k` is the specification's. -/
theorem x_apply (a0 : FVec Ideal S4096x54x32 .f32) (a1 : FVec Ideal S4096x72x16 .f32) (a2 : FVec Ideal S5x48x32 .f32)
    (a3 : FVec Ideal S5x32 .f32) (a4 : FVec Ideal S5x64x32 .f32) (a5 : FVec Ideal S5x32 .f32) (k : ℕ) (hk : k ≤ 4)
    (b : Fin 4096) (n : Fin 54) (f : Fin 32) :
    x a0 a1 a2 a3 a4 a5 k (ix3 b n f) = Cert.Sage.xR (Cert.Sage.paramsOf a1 a2 a3 a4 a5) (Cert.Sage.vfOf a0) k b n f := by
  induction k generalizing b n f with
  | zero => rfl
  | succ k ih =>
    rw [x, nrm_apply, tanh_lay_eq k _ _ (fun b n f => ih (by omega) b n f)]
    rfl

/-- The array layer `k` normalises is the specification's. -/
theorem row_apply (a0 : FVec Ideal S4096x54x32 .f32) (a1 : FVec Ideal S4096x72x16 .f32) (a2 : FVec Ideal S5x48x32 .f32)
    (a3 : FVec Ideal S5x32 .f32) (a4 : FVec Ideal S5x64x32 .f32) (a5 : FVec Ideal S5x32 .f32) (k : ℕ) (hk : k < 4)
    (b : Fin 4096) (n : Fin 54) (o : Fin 32) :
    row k a0 a1 a2 a3 a4 a5 (ix3 b n o) = Cert.Sage.rowR (Cert.Sage.paramsOf a1 a2 a3 a4 a5) (Cert.Sage.vfOf a0) k b n o := by
  unfold row Cert.Sage.rowR
  exact congrFun (congrFun (congrFun (tanh_lay_eq k _ _ (fun b n f => x_apply a0 a1 a2 a3 a4 a5 k (by omega) b n f) a1 a2 a3 a4 a5) b) n) o

/-- The program's result is the specification's. -/
theorem out_apply (a0 : FVec Ideal S4096x54x32 .f32) (a1 : FVec Ideal S4096x72x16 .f32) (a2 : FVec Ideal S5x48x32 .f32)
    (a3 : FVec Ideal S5x32 .f32) (a4 : FVec Ideal S5x64x32 .f32) (a5 : FVec Ideal S5x32 .f32)
    (b : Fin 4096) (n : Fin 54) (o : Fin 32) :
    out a0 a1 a2 a3 a4 a5 (ix3 b n o) = Cert.Sage.outR (Cert.Sage.paramsOf a1 a2 a3 a4 a5) (Cert.Sage.vfOf a0) b n o := by
  unfold out Cert.Sage.outR
  rw [lay_apply]
  have e : (fun b n f => x a0 a1 a2 a3 a4 a5 4 (ix3 b n f)) = Cert.Sage.xR (Cert.Sage.paramsOf a1 a2 a3 a4 a5) (Cert.Sage.vfOf a0) 4 :=
    funext fun b => funext fun n => funext fun f => x_apply a0 a1 a2 a3 a4 a5 4 (le_refl 4) b n f
  rw [e]
  rfl

end Cert.RefSide

end
-- ==== Proof.PreNorms.lean ====
/-
  The precondition's four tests "every norm the reference divides by exceeds zero", read back: the precondition
  computes the norms of the reference's first four layers by the reference's own operations (gather of the three
  neighbours' vertex and edge features, the 48-row contraction plus bias through `tanh`, the maximum over the
  neighbours, the 64-row contraction plus bias through `tanh`, the square root of each row's sum of squares, the
  quotient by it), compares each norm array with zero entry by entry and takes the conjunction. So the precondition
  true gives: each of the four norm arrays is positive at every (batch, vertex), which is `Cert.Sage.Pos`.
-/
import proofs.«100883_g78494822302262_cont_9to1_m_206_5_alg».proof.Pre_finite_inputs
import proofs.«100883_g78494822302262_cont_9to1_m_206_5_alg».proof.Proof.RefStages
import proofs.«100883_g78494822302262_cont_9to1_m_206_5_alg».proof.Proof.Sage
import proofs.«100883_g78494822302262_cont_9to1_m_206_5_alg».proof.Proof.RefHid
import proofs.«100883_g78494822302262_cont_9to1_m_206_5_alg».proof.Proof.RefChain
import Idealize.ShloMosaic.Lib.ReduceAll
import Idealize.ShloMosaic.Lib.ValueIdx
import Idealize.ShloMosaic.PureOps.Ideal
import Idealize.ShloMosaic.PureOps.Ideal.Laws
import Mathlib.Tactic.IntervalCases
import Mathlib.Tactic.FinCases

noncomputable section

namespace Cert.PreSide

open Idealize.ShloMosaic Idealize.ShloMosaic.ValueIdx
open Cert.Pre_finite_inputs Cert.Pre_finite_inputs.Facts

variable [Cert.Pre_finite_inputs.Facts]

local instance : Subsingleton S_.Idx := ⟨fun a b => funext fun d => d.elim0⟩

/-! ### The precondition's operations composed as pure functions -/

/-- Column 0 of the constant 54 × 3 × 2 table, as a 54 × 3 array. -/
def tabV : IVec S54x3 32 :=
  shapeCast S54x3 (extractStridedSlice S54x3x1 ![0, 0, 0] (fun i => lit0 (S54x3x2.rowMajor i)) slices_S54x3x2_S54x3x1_0_0_0) shapeCasts_S54x3x1_S54x3

/-- Column 1 of the constant table, as a 54 × 3 array. -/
def tabE : IVec S54x3 32 :=
  shapeCast S54x3 (extractStridedSlice S54x3x1 ![0, 0, 1] (fun i => lit0 (S54x3x2.rowMajor i)) slices_S54x3x2_S54x3x1_0_0_1) shapeCasts_S54x3x1_S54x3

/-- A table of start indices, a negative entry raised by `c`, as a 54 × 3 × 1 array. -/
def startIdx (t : IVec S54x3 32) (c : BitVec 32) : IVec S54x3x1 32 :=
  broadcastInDim S54x3x1 ![0, 1] bcast_S54x3_S54x3x1_0_1
    (select (cmpi .slt t (broadcastInDim S54x3 ![] bcast_S_S54x3 (constantI S_ 32 0#32)))
      (addi t (broadcastInDim S54x3 ![] bcast_S_S54x3 (constantI S_ 32 c))) t)

/-- Each vertex's three neighbours' vertex features and joining edges' features, side by side. -/
def cat (v1 v3 : IVec S54x3 32) (X : FVec Ideal S4096x54x32 .f32) (E : FVec Ideal S4096x72x16 .f32) : FVec Ideal S4096x54x3x48 .f32 :=
  concatenate S4096x54x3x48 3
    [⟨S4096x54x3x32, Host.gather gather_S4096x54x32_S54x3x1_S4096x54x3x32_03_1_n_n_1_2_4096132 X (startIdx v1 54#32)⟩,
     ⟨S4096x54x3x16, Host.gather gather_S4096x72x16_S54x3x1_S4096x54x3x16_03_1_n_n_1_2_4096116 E (startIdx v3 72#32)⟩]
    concatenates_S4096x54x3x32_S4096x54x3x16_S4096x54x3x48_d3

/-- The contraction with the 48-row weight. -/
def dot48 (C : FVec Ideal S4096x54x3x48 .f32) (W : FVec Ideal S48x32 .f32) : FVec Ideal S4096x54x3x32 .f32 :=
  Host.dotGeneral dot_S4096x54x3x48_S48x32_S4096x54x3x32_3_0_012_1_n_n none C W

/-- The aggregate from the contraction: plus the bias, through `tanh`, the maximum over the three neighbours from `-∞`. -/
def aggD (D : FVec Ideal S4096x54x3x32 .f32) (eb : FVec Ideal S32 .f32) : FVec Ideal S4096x54x32 .f32 :=
  Host.reduce FloatOps.maximumf
    (Host.tanh
      (addf D
        (broadcastInDim S4096x54x3x32 ![0, 1, 2, 3] bcast_S1x1x1x32_S4096x54x3x32_0_1_2_3
          (broadcastInDim S1x1x1x32 ![3] bcast_S32_S1x1x1x32_3 eb))))
    (constant (F := Ideal) S_ .f32 0xFF800000#32) reducesTo_S4096x54x3x32_S4096x54x32_d2 h_S_

/-- The layer's affine output from its input and an aggregate. -/
def hidOf (X A : FVec Ideal S4096x54x32 .f32) (Wh : FVec Ideal S64x32 .f32) (hb : FVec Ideal S32 .f32) : FVec Ideal S4096x54x32 .f32 :=
  addf
    (Host.dotGeneral dot_S4096x54x64_S64x32_S4096x54x32_2_0_01_1_n_n none
      (concatenate S4096x54x64 2 [⟨S4096x54x32, X⟩, ⟨S4096x54x32, A⟩] concatenates_S4096x54x32_S4096x54x32_S4096x54x64_d2)
      Wh)
    (broadcastInDim S4096x54x32 ![0, 1, 2] bcast_S1x1x32_S4096x54x32_0_1_2
      (broadcastInDim S1x1x32 ![2] bcast_S32_S1x1x32_2 hb))

/-- Each row's sum of squares, summed from zero. -/
def sq (T : FVec Ideal S4096x54x32 .f32) : FVec Ideal S4096x54 .f32 :=
  Host.reduceAdd (mulf T T) (constant (F := Ideal) S_ .f32 0x00000000#32) reducesTo_S4096x54x32_S4096x54_d2 h_S_

/-- A (batch, vertex) array with a last axis of one entry. -/
def keep (q : FVec Ideal S4096x54 .f32) : FVec Ideal S4096x54x1 .f32 :=
  broadcastInDim S4096x54x1 ![0, 1] bcast_S4096x54_S4096x54x1_0_1 q

/-- The row norms. -/
def nrmS (T : FVec Ideal S4096x54x32 .f32) : FVec Ideal S4096x54x1 .f32 := Host.sqrt (keep (sq T))

/-- Each row divided by a per-row number. -/
def quot (T : FVec Ideal S4096x54x32 .f32) (N : FVec Ideal S4096x54x1 .f32) : FVec Ideal S4096x54x32 .f32 :=
  Host.divf T (broadcastInDim S4096x54x32 ![0, 1, 2] bcast_S4096x54x1_S4096x54x32_0_1_2 N)

/-- Layer `i`'s 48-row weight. -/
def w48 (i : Fin 4) (a2 : FVec Ideal S5x48x32 .f32) : FVec Ideal S48x32 .f32 :=
  match i with
  | 0 => shapeCast S48x32 (extractStridedSlice S1x48x32 ![0, 0, 0] a2 slices_S5x48x32_S1x48x32_0_0_0) shapeCasts_S1x48x32_S48x32
  | 1 => shapeCast S48x32 (extractStridedSlice S1x48x32 ![1, 0, 0] a2 slices_S5x48x32_S1x48x32_1_0_0) shapeCasts_S1x48x32_S48x32
  | 2 => shapeCast S48x32 (extractStridedSlice S1x48x32 ![2, 0, 0] a2 slices_S5x48x32_S1x48x32_2_0_0) shapeCasts_S1x48x32_S48x32
  | 3 => shapeCast S48x32 (extractStridedSlice S1x48x32 ![3, 0, 0] a2 slices_S5x48x32_S1x48x32_3_0_0) shapeCasts_S1x48x32_S48x32

/-- Layer `i`'s bias. -/
def b32 (i : Fin 4) (a : FVec Ideal S5x32 .f32) : FVec Ideal S32 .f32 :=
  match i with
  | 0 => shapeCast S32 (extractStridedSlice S1x32 ![0, 0] a slices_S5x32_S1x32_0_0) shapeCasts_S1x32_S32
  | 1 => shapeCast S32 (extractStridedSlice S1x32 ![1, 0] a slices_S5x32_S1x32_1_0) shapeCasts_S1x32_S32
  | 2 => shapeCast S32 (extractStridedSlice S1x32 ![2, 0] a slices_S5x32_S1x32_2_0) shapeCasts_S1x32_S32
  | 3 => shapeCast S32 (extractStridedSlice S1x32 ![3, 0] a slices_S5x32_S1x32_3_0) shapeCasts_S1x32_S32

/-- Layer `i`'s 64-row weight. -/
def w64 (i : Fin 4) (a4 : FVec Ideal S5x64x32 .f32) : FVec Ideal S64x32 .f32 :=
  match i with
  | 0 => shapeCast S64x32 (extractStridedSlice S1x64x32 ![0, 0, 0] a4 slices_S5x64x32_S1x64x32_0_0_0) shapeCasts_S1x64x32_S64x32
  | 1 => shapeCast S64x32 (extractStridedSlice S1x64x32 ![1, 0, 0] a4 slices_S5x64x32_S1x64x32_1_0_0) shapeCasts_S1x64x32_S64x32
  | 2 => shapeCast S64x32 (extractStridedSlice S1x64x32 ![2, 0, 0] a4 slices_S5x64x32_S1x64x32_2_0_0) shapeCasts_S1x64x32_S64x32
  | 3 => shapeCast S64x32 (extractStridedSlice S1x64x32 ![3, 0, 0] a4 slices_S5x64x32_S1x64x32_3_0_0) shapeCasts_S1x64x32_S64x32

/-- The array layer `i` normalises, from the 48-row contraction `D` and the layer's input `X`. -/
def rowD (i : Fin 4) (D : FVec Ideal S4096x54x3x32 .f32) (X : FVec Ideal S4096x54x32 .f32) (a3 : FVec Ideal S5x32 .f32) (a4 : FVec Ideal S5x64x32 .f32) (a5 : FVec Ideal S5x32 .f32) : FVec Ideal S4096x54x32 .f32 :=
  Host.tanh (hidOf X (aggD D (b32 i a3)) (w64 i a4) (b32 i a5))

/-- The same from the neighbours' features side by side and the 48-row weight. -/
def rowC (i : Fin 4) (C : FVec Ideal S4096x54x3x48 .f32) (W : FVec Ideal S48x32 .f32) (X : FVec Ideal S4096x54x32 .f32) (a3 : FVec Ideal S5x32 .f32) (a4 : FVec Ideal S5x64x32 .f32) (a5 : FVec Ideal S5x32 .f32) : FVec Ideal S4096x54x32 .f32 :=
  rowD i (dot48 C W) X a3 a4 a5

/-- The array layer `i` normalises, from the layer's input. -/
def rowOf (i : Fin 4) (v1 v3 : IVec S54x3 32) (X : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) : FVec Ideal S4096x54x32 .f32 :=
  rowC i (cat v1 v3 X a1) (w48 i a2) X a3 a4 a5

/-- The next layer's input: the row divided by its norm. -/
def next (i : Fin 4) (v1 v3 : IVec S54x3 32) (X : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) : FVec Ideal S4096x54x32 .f32 :=
  quot (rowOf i v1 v3 X a1 a2 a3 a4 a5) (nrmS (rowOf i v1 v3 X a1 a2 a3 a4 a5))

/-- Every entry is positive. -/
def Pos1 (v : FVec Ideal S4096x54x1 .f32) : Prop := ∀ i, (0 : EReal) < v i

/-- The norms of layer 3 on the input `X` are positive. -/
def T3 (v1 v3 : IVec S54x3 32) (a1 : FVec Ideal S4096x72x16 .f32) (a2 : FVec Ideal S5x48x32 .f32) (a3 : FVec Ideal S5x32 .f32) (a4 : FVec Ideal S5x64x32 .f32) (a5 : FVec Ideal S5x32 .f32) (X : FVec Ideal S4096x54x32 .f32) : Prop := Pos1 (nrmS (rowOf 3 v1 v3 X a1 a2 a3 a4 a5))
/-- The norms of layers 2 and 3, layer 2 on the input `X`, are positive. -/
def T2 (v1 v3 : IVec S54x3 32) (a1 : FVec Ideal S4096x72x16 .f32) (a2 : FVec Ideal S5x48x32 .f32) (a3 : FVec Ideal S5x32 .f32) (a4 : FVec Ideal S5x64x32 .f32) (a5 : FVec Ideal S5x32 .f32) (X : FVec Ideal S4096x54x32 .f32) : Prop :=
  Pos1 (nrmS (rowOf 2 v1 v3 X a1 a2 a3 a4 a5)) ∧ T3 v1 v3 a1 a2 a3 a4 a5 (next 2 v1 v3 X a1 a2 a3 a4 a5)
/-- The norms of layers 1 to 3, layer 1 on the input `X`, are positive. -/
def T1 (v1 v3 : IVec S54x3 32) (a1 : FVec Ideal S4096x72x16 .f32) (a2 : FVec Ideal S5x48x32 .f32) (a3 : FVec Ideal S5x32 .f32) (a4 : FVec Ideal S5x64x32 .f32) (a5 : FVec Ideal S5x32 .f32) (X : FVec Ideal S4096x54x32 .f32) : Prop :=
  Pos1 (nrmS (rowOf 1 v1 v3 X a1 a2 a3 a4 a5)) ∧ T2 v1 v3 a1 a2 a3 a4 a5 (next 1 v1 v3 X a1 a2 a3 a4 a5)
/-- The norms of layers 0 to 3, layer 0 on the input `X`, are positive. -/
def T0 (v1 v3 : IVec S54x3 32) (a1 : FVec Ideal S4096x72x16 .f32) (a2 : FVec Ideal S5x48x32 .f32) (a3 : FVec Ideal S5x32 .f32) (a4 : FVec Ideal S5x64x32 .f32) (a5 : FVec Ideal S5x32 .f32) (X : FVec Ideal S4096x54x32 .f32) : Prop :=
  Pos1 (nrmS (rowOf 0 v1 v3 X a1 a2 a3 a4 a5)) ∧ T1 v1 v3 a1 a2 a3 a4 a5 (next 0 v1 v3 X a1 a2 a3 a4 a5)

/-! ### The tests, read back part by part -/

/-- A test "every entry exceeds zero" that came out true: every entry is positive. -/
theorem pos_of_all (v : FVec Ideal S4096x54x1 .f32) (i0 : S_.Idx)
    (h : Host.reduce IntOp.andi (cmpf .ogt v (broadcastInDim S4096x54x1 ![] bcast_S_S4096x54x1 (constant (F := Ideal) S_ .f32 0x00000000#32)))
      (constantI S_ 1 1#1) reducesTo_S4096x54x1_S_d0_1_2 h_S_ i0 = 1#1) : Pos1 v := by
  intro i
  have e := Host.reduce_andi_all _ _ _ _ _ h i
  rw [cmpf_apply] at e
  have z : (broadcastInDim S4096x54x1 ![] bcast_S_S4096x54x1 (constant (F := Ideal) S_ .f32 0x00000000#32)) i = (0 : EReal) :=
    Ideal.ofBits_zero_f32
  rw [z] at e
  change BitVec.ofBool (decide ((0 : EReal) < v i)) = 1#1 at e
  by_contra hn
  rw [decide_eq_false hn] at e
  exact absurd e (by decide)

/-- The last three positivity tests. -/
theorem part10 (v83 v124 v165 : FVec Ideal S4096x54x1 .f32) (v200 : IVec S_ 1)
    (h : fn_part10 (F := Ideal) v83 v124 v165 v200 = fun _ => 1#1) :
    v200 ix0 = 1#1 ∧ Pos1 v83 ∧ Pos1 v124 ∧ Pos1 v165 := by
  have h0 := congrFun h ix0
  unfold fn_part10 at h0
  dsimp only at h0
  obtain ⟨h1, h165⟩ := IntOp.andi_eq_one.1 h0
  obtain ⟨h2, h124⟩ := IntOp.andi_eq_one.1 h1
  obtain ⟨h3, h83⟩ := IntOp.andi_eq_one.1 h2
  exact ⟨h3, pos_of_all _ _ h83, pos_of_all _ _ h124, pos_of_all _ _ h165⟩

/-- The first positivity test, after the finiteness tests. -/
theorem part9 (a4 : FVec Ideal S5x64x32 .f32) (a5 : FVec Ideal S5x32 .f32) (v42 v83 v124 v165 : FVec Ideal S4096x54x1 .f32) (v181 : IVec S_ 1)
    (v182 v183 : FVec Ideal S5x32 .f32)
    (h : fn_part9 (F := Ideal) a4 a5 v42 v83 v124 v165 v181 v182 v183 = fun _ => 1#1) :
    Pos1 v42 ∧ Pos1 v83 ∧ Pos1 v124 ∧ Pos1 v165 := by
  unfold fn_part9 at h
  dsimp only at h
  obtain ⟨h200, p83, p124, p165⟩ := part10 _ _ _ _ h
  have h199 := (IntOp.andi_eq_one.1 (show IntOp.andi _ _ = 1#1 from h200)).2
  exact ⟨pos_of_all _ _ h199, p83, p124, p165⟩

theorem part8 (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) (v42 v83 v124 : FVec Ideal S4096x54x1 .f32) (v161 : FVec Ideal S4096x54x32 .f32) (v165 : FVec Ideal S4096x54x1 .f32) (v166 : FVec Ideal S4096x54x32 .f32)
    (h : fn_part8 (F := Ideal) a0 a1 a2 a3 a4 a5 v42 v83 v124 v161 v165 v166 = fun _ => 1#1) :
    Pos1 v42 ∧ Pos1 v83 ∧ Pos1 v124 ∧ Pos1 v165 := by
  unfold fn_part8 at h
  exact part9 _ _ _ _ _ _ _ _ _ h

/-- Layer 3 from its 48-row contraction on. -/
theorem part7 (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) (v42 v83 v124 : FVec Ideal S4096x54x1 .f32) (v126 : FVec Ideal S4096x54x32 .f32) (v144 : FVec Ideal S4096x54x3x32 .f32)
    (h : fn_part7 (F := Ideal) a0 a1 a2 a3 a4 a5 v42 v83 v124 v126 v144 = fun _ => 1#1) :
    Pos1 v42 ∧ Pos1 v83 ∧ Pos1 v124 ∧ Pos1 (nrmS (rowD 3 v144 v126 a3 a4 a5)) := by
  unfold fn_part7 at h
  exact part8 _ _ _ _ _ _ _ _ _ _ _ _ h

/-- Layer 2's quotient and layer 3 up to its 48-row contraction. -/
theorem part6 (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) (v1 v3 : IVec S54x3 32) (v42 v83 : FVec Ideal S4096x54x1 .f32) (v120 : FVec Ideal S4096x54x32 .f32) (v124 : FVec Ideal S4096x54x1 .f32)
    (h : fn_part6 (F := Ideal) a0 a1 a2 a3 a4 a5 v1 v3 v42 v83 v120 v124 = fun _ => 1#1) :
    Pos1 v42 ∧ Pos1 v83 ∧ Pos1 v124 ∧ T3 v1 v3 a1 a2 a3 a4 a5 (quot v120 v124) := by
  unfold fn_part6 at h
  exact part7 _ _ _ _ _ _ _ _ _ _ _ h

/-- Layer 2 from its 48-row contraction on. -/
theorem part5 (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) (v1 v3 : IVec S54x3 32) (v42 v83 : FVec Ideal S4096x54x1 .f32) (v85 : FVec Ideal S4096x54x32 .f32) (v100 : FVec Ideal S4096x54x3x48 .f32) (v102 : FVec Ideal S48x32 .f32)
    (h : fn_part5 (F := Ideal) a0 a1 a2 a3 a4 a5 v1 v3 v42 v83 v85 v100 v102 = fun _ => 1#1) :
    Pos1 v42 ∧ Pos1 v83 ∧ Pos1 (nrmS (rowC 2 v100 v102 v85 a3 a4 a5)) ∧
      T3 v1 v3 a1 a2 a3 a4 a5 (quot (rowC 2 v100 v102 v85 a3 a4 a5) (nrmS (rowC 2 v100 v102 v85 a3 a4 a5))) := by
  unfold fn_part5 at h
  exact part6 _ _ _ _ _ _ _ _ _ _ _ _ h

/-- Layer 1's quotient and layer 2 up to its 48-row contraction. -/
theorem part4 (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) (v1 v3 : IVec S54x3 32) (v42 : FVec Ideal S4096x54x1 .f32) (v79 : FVec Ideal S4096x54x32 .f32) (v82 : FVec Ideal S4096x54x1 .f32)
    (h : fn_part4 (F := Ideal) a0 a1 a2 a3 a4 a5 v1 v3 v42 v79 v82 = fun _ => 1#1) :
    Pos1 v42 ∧ Pos1 (Host.sqrt v82) ∧ T2 v1 v3 a1 a2 a3 a4 a5 (quot v79 (Host.sqrt v82)) := by
  unfold fn_part4 at h
  exact part5 _ _ _ _ _ _ _ _ _ _ _ _ _ h

/-- Layer 1 from its 48-row contraction on. -/
theorem part3 (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) (v1 v3 : IVec S54x3 32) (v42 : FVec Ideal S4096x54x1 .f32) (v44 : FVec Ideal S4096x54x32 .f32) (v59 : FVec Ideal S4096x54x3x48 .f32) (v60 : FVec Ideal S1x48x32 .f32)
    (h : fn_part3 (F := Ideal) a0 a1 a2 a3 a4 a5 v1 v3 v42 v44 v59 v60 = fun _ => 1#1) :
    Pos1 v42 ∧ Pos1 (nrmS (rowC 1 v59 (shapeCast S48x32 v60 shapeCasts_S1x48x32_S48x32) v44 a3 a4 a5)) ∧
      T2 v1 v3 a1 a2 a3 a4 a5 (quot (rowC 1 v59 (shapeCast S48x32 v60 shapeCasts_S1x48x32_S48x32) v44 a3 a4 a5)
        (nrmS (rowC 1 v59 (shapeCast S48x32 v60 shapeCasts_S1x48x32_S48x32) v44 a3 a4 a5))) := by
  unfold fn_part3 at h
  exact part4 _ _ _ _ _ _ _ _ _ _ _ h

/-- Layer 0's quotient and layer 1 up to its 48-row contraction. -/
theorem part2 (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) (v1 v3 : IVec S54x3 32) (v38 : FVec Ideal S4096x54x32 .f32) (v40 : FVec Ideal S4096x54 .f32)
    (h : fn_part2 (F := Ideal) a0 a1 a2 a3 a4 a5 v1 v3 v38 v40 = fun _ => 1#1) :
    Pos1 (Host.sqrt (keep v40)) ∧ T1 v1 v3 a1 a2 a3 a4 a5 (quot v38 (Host.sqrt (keep v40))) := by
  unfold fn_part2 at h
  exact part3 _ _ _ _ _ _ _ _ _ _ _ _ h

/-- Layer 0 from its 48-row contraction on. -/
theorem part1 (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) (v1 v3 : IVec S54x3 32) (v18 : FVec Ideal S4096x54x3x48 .f32)
    (h : fn_part1 (F := Ideal) a0 a1 a2 a3 a4 a5 v1 v3 v18 = fun _ => 1#1) :
    Pos1 (nrmS (rowC 0 v18 (w48 0 a2) a0 a3 a4 a5)) ∧
      T1 v1 v3 a1 a2 a3 a4 a5 (quot (rowC 0 v18 (w48 0 a2) a0 a3 a4 a5) (nrmS (rowC 0 v18 (w48 0 a2) a0 a3 a4 a5))) := by
  unfold fn_part1 at h
  exact part2 _ _ _ _ _ _ _ _ _ _ h

/-- The precondition true: the norms of layers 0 to 3 are positive. -/
theorem pre_pos (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) (h : fn (F := Ideal) a0 a1 a2 a3 a4 a5 = fun _ => 1#1) :
    T0 tabV tabE a1 a2 a3 a4 a5 a0 := by
  unfold fn at h
  exact part1 _ _ _ _ _ _ _ _ _ h

end Cert.PreSide

namespace Cert.PreSide

open Idealize.ShloMosaic Idealize.ShloMosaic.ValueIdx
open Cert.Pre_finite_inputs

variable [Cert.Pre_finite_inputs.Facts] [Cert.ReferenceIdeal.Facts]

/-! ### The same operations as the reference's stage functions -/

theorem idxV_eq : startIdx tabV 54#32 = Cert.RefSide.idxV := rfl

theorem idxE_eq : startIdx tabE 72#32 = Cert.RefSide.idxE := rfl

theorem nrmS_eq (T : FVec Ideal S4096x54x32 .f32) : nrmS T = Cert.RefSide.nrmS T := rfl

theorem quot_eq (T : FVec Ideal S4096x54x32 .f32) : quot T (nrmS T) = Cert.RefSide.nrm T := rfl

theorem rowOf_eq (i : Fin 4) (X : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) :
    rowOf i tabV tabE X a1 a2 a3 a4 a5 = Host.tanh (Cert.RefSide.lay i.val X a1 a2 a3 a4 a5) := by
  unfold rowOf rowC rowD cat
  rw [idxV_eq, idxE_eq]
  fin_cases i <;> rfl

/-- The precondition true: the four norms the reference divides by are positive. -/
theorem pos_nrm (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32) (h : fn (F := Ideal) a0 a1 a2 a3 a4 a5 = fun _ => 1#1) (k : ℕ) (hk : k < 4) :
    Pos1 (Cert.RefSide.nrmS (Cert.RefSide.row k a0 a1 a2 a3 a4 a5)) := by
  obtain ⟨p0, p1, p2, p3⟩ := pre_pos a0 a1 a2 a3 a4 a5 h
  have r0 : Cert.RefSide.row 0 a0 a1 a2 a3 a4 a5 = rowOf 0 tabV tabE a0 a1 a2 a3 a4 a5 :=
    (rowOf_eq 0 a0 a1 a2 a3 a4 a5).symm
  have x1 : Cert.RefSide.x a0 a1 a2 a3 a4 a5 1 = next 0 tabV tabE a0 a1 a2 a3 a4 a5 := by
    show Cert.RefSide.nrm (Cert.RefSide.row 0 a0 a1 a2 a3 a4 a5) = _
    rw [r0]; exact (quot_eq _).symm
  have r1 : Cert.RefSide.row 1 a0 a1 a2 a3 a4 a5 = rowOf 1 tabV tabE (next 0 tabV tabE a0 a1 a2 a3 a4 a5) a1 a2 a3 a4 a5 := by
    show Host.tanh (Cert.RefSide.lay 1 (Cert.RefSide.x a0 a1 a2 a3 a4 a5 1) a1 a2 a3 a4 a5) = _
    rw [x1]; exact (rowOf_eq 1 _ a1 a2 a3 a4 a5).symm
  have x2 : Cert.RefSide.x a0 a1 a2 a3 a4 a5 2 = next 1 tabV tabE (next 0 tabV tabE a0 a1 a2 a3 a4 a5) a1 a2 a3 a4 a5 := by
    show Cert.RefSide.nrm (Cert.RefSide.row 1 a0 a1 a2 a3 a4 a5) = _
    rw [r1]; exact (quot_eq _).symm
  have r2 : Cert.RefSide.row 2 a0 a1 a2 a3 a4 a5 =
      rowOf 2 tabV tabE (next 1 tabV tabE (next 0 tabV tabE a0 a1 a2 a3 a4 a5) a1 a2 a3 a4 a5) a1 a2 a3 a4 a5 := by
    show Host.tanh (Cert.RefSide.lay 2 (Cert.RefSide.x a0 a1 a2 a3 a4 a5 2) a1 a2 a3 a4 a5) = _
    rw [x2]; exact (rowOf_eq 2 _ a1 a2 a3 a4 a5).symm
  have x3 : Cert.RefSide.x a0 a1 a2 a3 a4 a5 3 =
      next 2 tabV tabE (next 1 tabV tabE (next 0 tabV tabE a0 a1 a2 a3 a4 a5) a1 a2 a3 a4 a5) a1 a2 a3 a4 a5 := by
    show Cert.RefSide.nrm (Cert.RefSide.row 2 a0 a1 a2 a3 a4 a5) = _
    rw [r2]; exact (quot_eq _).symm
  have r3 : Cert.RefSide.row 3 a0 a1 a2 a3 a4 a5 =
      rowOf 3 tabV tabE (next 2 tabV tabE (next 1 tabV tabE (next 0 tabV tabE a0 a1 a2 a3 a4 a5) a1 a2 a3 a4 a5) a1 a2 a3 a4 a5)
        a1 a2 a3 a4 a5 := by
    show Host.tanh (Cert.RefSide.lay 3 (Cert.RefSide.x a0 a1 a2 a3 a4 a5 3) a1 a2 a3 a4 a5) = _
    rw [x3]; exact (rowOf_eq 3 _ a1 a2 a3 a4 a5).symm
  interval_cases k
  · rw [r0, ← nrmS_eq]; exact p0
  · rw [r1, ← nrmS_eq]; exact p1
  · rw [r2, ← nrmS_eq]; exact p2
  · rw [r3, ← nrmS_eq]; exact p3

/-- The precondition true: every norm the reference divides by is positive, given the reference's rows and norms at an index. -/
theorem pos_of_pre_of (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32)
    (row_apply : ∀ (k : ℕ), k < 4 → ∀ (b : Fin 4096) (n : Fin 54) (o : Fin 32), Cert.RefSide.row k a0 a1 a2 a3 a4 a5 (ix3 b n o) =
      Cert.Sage.rowR (Cert.Sage.paramsOf a1 a2 a3 a4 a5) (Cert.Sage.vfOf a0) k b n o)
    (nrmS_apply : ∀ (T : FVec Ideal S4096x54x32 .f32) (b : Fin 4096) (n : Fin 54), Cert.RefSide.nrmS T (ix3 b n 0) =
      Ideal.sqrt (Cert.Sage.sumsq (fun b n f => T (ix3 b n f)) b n))
    (h : fn (F := Ideal) a0 a1 a2 a3 a4 a5 = fun _ => 1#1) :
    Cert.Sage.Pos (Cert.Sage.paramsOf a1 a2 a3 a4 a5) (Cert.Sage.vfOf a0) := by
  intro k hk b n
  have e := pos_nrm a0 a1 a2 a3 a4 a5 h k hk (ix3 b n 0)
  rw [nrmS_apply] at e
  have hr : (fun b n f => Cert.RefSide.row k a0 a1 a2 a3 a4 a5 (ix3 b n f)) =
      Cert.Sage.rowR (Cert.Sage.paramsOf a1 a2 a3 a4 a5) (Cert.Sage.vfOf a0) k := by
    funext b n f; exact row_apply k hk b n f
  rw [hr] at e
  exact e

/-- The precondition true: every norm the reference divides by is positive. -/
theorem pos_of_pre (a0 : FVec Ideal S4096x54x32 .f32) (a1 : FVec Ideal S4096x72x16 .f32) (a2 : FVec Ideal S5x48x32 .f32) (a3 : FVec Ideal S5x32 .f32) (a4 : FVec Ideal S5x64x32 .f32) (a5 : FVec Ideal S5x32 .f32)
    (h : fn (F := Ideal) a0 a1 a2 a3 a4 a5 = fun _ => 1#1) :
    Cert.Sage.Pos (Cert.Sage.paramsOf a1 a2 a3 a4 a5) (Cert.Sage.vfOf a0) :=
  pos_of_pre_of a0 a1 a2 a3 a4 a5 (fun k hk b n o => Cert.RefSide.row_apply a0 a1 a2 a3 a4 a5 k hk b n o)
    (fun T b n => Cert.RefSide.nrmS_apply T b n) h

end Cert.PreSide

end
-- ==== Proof.KerRun.lean ====
/-
  The kernel program's run with its result named.

  The program regroups its six argument arrays into nine operand arrays, runs one pipelined region over a grid of
  eight points, and after the region regroups the region's output. Each grid point works on 128 packed rows: row
  `128 t + r` of the packed arrays is row `r` of point `t`'s blocks, and a packed row holds four consecutive
  batch elements side by side in its 128 lanes.

  * `res` is the result array: the two operations after the region applied to the region's output array.
  * `run`: every execution ends with the result buffer at `res` and the six arguments as launched.
  * `res_apply`: entry (batch `4 (128 t + r) + g`, vertex `v`, feature `o`) of the result is entry
    (vertex `v`, row `r`, lane `32 g + o`) of what the region's body computes from point `t`'s nine input blocks.
  * `iblkK_apply`: each input block at point `t` read off its operand array as the region finds it.
-/
import proofs.«100883_g78494822302262_cont_9to1_m_206_5_alg».proof.Proof.Gen.KernelIdeal.Frame
import proofs.«100883_g78494822302262_cont_9to1_m_206_5_alg».proof.Proof.Sage
import Idealize.ShloMosaic.Lib.Pipeline.Value
import Idealize.ShloMosaic.Lib.ValueIdx
import Idealize.ShloMosaic.Lib.StableHlo.Run

noncomputable section

namespace Cert.KerSide

open Cert.KernelIdeal Cert.KernelIdeal.Gen Cert.Sage Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Grid point `t` of the eight, as a point of the pipeline's grid (the grid has `8` points: `N_0`). -/
abbrev pt (t : Fin 8) : Fin cfg0.N := Fin.cast N_0.symm t

/-- The result array: the two operations after the region (the regrouping of the 128 lanes into four batch elements of
    32 features, then the exchange of the vertex and batch axes) applied to the arrays the region leaves. -/
def res (c : Dev nD) : Buf (Elt Ideal) ((c.tc : Thread nD τ).loc main_v75) :=
  Pipeline.afterTail₀ cfgs (dats m) 0 (V0 m) [hostOps1] c main_v75

/-- The run: the result buffer ends at `res`, the six argument arrays as launched. A buffer the region does not stage
    ends at what the operations after the region leave in it, and those two operations write neither an argument nor an
    array the region stages. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v75) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v75 (Pipeline.mem_restRefs_of main_v75 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩) (run_main m ρ)

/-- The printed index maps over the grid: the two moving inputs and the output are at block `(0, t, 0)` at point `t`. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_9.index t (0 : Fin 3) = 0 ∧ win0_9.index t (1 : Fin 3) = t.val ∧ win0_9.index t (2 : Fin 3) = 0 :=
  (by decide +kernel : ∀ t : Fin grid0.N, _)

/-- The seven whole-array inputs are at block zero at every point. -/
theorem idx_facts_whole : ∀ t : Fin cfg0.N,
    (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0) :=
  (by decide +kernel : ∀ t : Fin grid0.N, _)

/-! ## The input blocks at a grid point

  An element of a block sits in its array, on each axis, at the block index times the block's size plus its own
  coordinate: packed row `r` of point `t`'s block of a moving input is packed row `128 t + r` of the array, and a
  whole-array input is read where it stands. -/

theorem iblk0_apply (c : Dev nD) (t : Fin 8) (v : Fin 54) (r : Fin 128) (l : Fin 128) :
    iblk m c 0 (pt t) (ix3 v r l) = V m c main_v1 (ix3 v (prow t r) l) := by
  obtain ⟨e0, e1, e2, -⟩ := idx_facts (pt t)
  show V m c main_v1 (((cfg0.win 0).blk (pt t)).view.emb (ix3 v r l)) = V m c main_v1 (ix3 v (prow t r) l)
  refine congrArg (V m c main_v1) (funext fun a => Fin.ext ?_)
  match a with
  | ⟨0, _⟩ => show win0_0.index (pt t) (0 : Fin 3) * 54 + 1 * v.val = v.val; omega
  | ⟨1, _⟩ => show win0_0.index (pt t) (1 : Fin 3) * 128 + 1 * r.val = 128 * t.val + r.val; rw [e1]; show t.val * 128 + 1 * r.val = _; omega
  | ⟨2, _⟩ => show win0_0.index (pt t) (2 : Fin 3) * 128 + 1 * l.val = l.val; omega

theorem iblk1_apply (c : Dev nD) (t : Fin 8) (e : Fin 72) (r : Fin 128) (l : Fin 64) :
    iblk m c 1 (pt t) (ix3 e r l) = V m c main_v4 (ix3 e (prow t r) l) := by
  obtain ⟨-, -, -, e0, e1, e2, -⟩ := idx_facts (pt t)
  show V m c main_v4 (((cfg0.win 1).blk (pt t)).view.emb (ix3 e r l)) = V m c main_v4 (ix3 e (prow t r) l)
  refine congrArg (V m c main_v4) (funext fun a => Fin.ext ?_)
  match a with
  | ⟨0, _⟩ => show win0_1.index (pt t) (0 : Fin 3) * 72 + 1 * e.val = e.val; omega
  | ⟨1, _⟩ => show win0_1.index (pt t) (1 : Fin 3) * 128 + 1 * r.val = 128 * t.val + r.val; rw [e1]; show t.val * 128 + 1 * r.val = _; omega
  | ⟨2, _⟩ => show win0_1.index (pt t) (2 : Fin 3) * 64 + 1 * l.val = l.val; omega

theorem iblk2_apply (c : Dev nD) (t : Fin 8) (i : Fin 5) (k l : Fin 128) :
    iblk m c 2 (pt t) (ix3 i k l) = V m c main_v18 (ix3 i k l) := by
  obtain ⟨⟨e0, e1, e2⟩, -⟩ := idx_facts_whole (pt t)
  show V m c main_v18 (((cfg0.win 2).blk (pt t)).view.emb (ix3 i k l)) = V m c main_v18 (ix3 i k l)
  refine congrArg (V m c main_v18) (funext fun a => Fin.ext ?_)
  match a with
  | ⟨0, _⟩ => show win0_2.index (pt t) (0 : Fin 3) * 5 + 1 * i.val = i.val; omega
  | ⟨1, _⟩ => show win0_2.index (pt t) (1 : Fin 3) * 128 + 1 * k.val = k.val; omega
  | ⟨2, _⟩ => show win0_2.index (pt t) (2 : Fin 3) * 128 + 1 * l.val = l.val; omega

theorem iblk3_apply (c : Dev nD) (t : Fin 8) (i : Fin 5) (k : Fin 64) (l : Fin 128) :
    iblk m c 3 (pt t) (ix3 i k l) = V m c main_v30 (ix3 i k l) := by
  obtain ⟨-, ⟨e0, e1, e2⟩, -⟩ := idx_facts_whole (pt t)
  show V m c main_v30 (((cfg0.win 3).blk (pt t)).view.emb (ix3 i k l)) = V m c main_v30 (ix3 i k l)
  refine congrArg (V m c main_v30) (funext fun a => Fin.ext ?_)
  match a with
  | ⟨0, _⟩ => show win0_3.index (pt t) (0 : Fin 3) * 5 + 1 * i.val = i.val; omega
  | ⟨1, _⟩ => show win0_3.index (pt t) (1 : Fin 3) * 64 + 1 * k.val = k.val; omega
  | ⟨2, _⟩ => show win0_3.index (pt t) (2 : Fin 3) * 128 + 1 * l.val = l.val; omega

theorem iblk4_apply (c : Dev nD) (t : Fin 8) (i : Fin 5) (k l : Fin 128) :
    iblk m c 4 (pt t) (ix3 i k l) = V m c main_v43 (ix3 i k l) := by
  obtain ⟨-, -, ⟨e0, e1, e2⟩, -⟩ := idx_facts_whole (pt t)
  show V m c main_v43 (((cfg0.win 4).blk (pt t)).view.emb (ix3 i k l)) = V m c main_v43 (ix3 i k l)
  refine congrArg (V m c main_v43) (funext fun a => Fin.ext ?_)
  match a with
  | ⟨0, _⟩ => show win0_4.index (pt t) (0 : Fin 3) * 5 + 1 * i.val = i.val; omega
  | ⟨1, _⟩ => show win0_4.index (pt t) (1 : Fin 3) * 128 + 1 * k.val = k.val; omega
  | ⟨2, _⟩ => show win0_4.index (pt t) (2 : Fin 3) * 128 + 1 * l.val = l.val; omega

theorem iblk5_apply (c : Dev nD) (t : Fin 8) (i : Fin 5) (k l : Fin 128) :
    iblk m c 5 (pt t) (ix3 i k l) = V m c main_v56 (ix3 i k l) := by
  obtain ⟨-, -, -, ⟨e0, e1, e2⟩, -⟩ := idx_facts_whole (pt t)
  show V m c main_v56 (((cfg0.win 5).blk (pt t)).view.emb (ix3 i k l)) = V m c main_v56 (ix3 i k l)
  refine congrArg (V m c main_v56) (funext fun a => Fin.ext ?_)
  match a with
  | ⟨0, _⟩ => show win0_5.index (pt t) (0 : Fin 3) * 5 + 1 * i.val = i.val; omega
  | ⟨1, _⟩ => show win0_5.index (pt t) (1 : Fin 3) * 128 + 1 * k.val = k.val; omega
  | ⟨2, _⟩ => show win0_5.index (pt t) (2 : Fin 3) * 128 + 1 * l.val = l.val; omega

theorem iblk6_apply (c : Dev nD) (t : Fin 8) (i : Fin 5) (l : Fin 128) :
    iblk m c 6 (pt t) (ix3 i 0 l) = V m c main_v60 (ix3 i 0 l) := by
  obtain ⟨-, -, -, -, ⟨e0, e1, e2⟩, -⟩ := idx_facts_whole (pt t)
  show V m c main_v60 (((cfg0.win 6).blk (pt t)).view.emb (ix3 i (0 : Fin 1) l)) = V m c main_v60 (ix3 i (0 : Fin 1) l)
  refine congrArg (V m c main_v60) (funext fun a => Fin.ext ?_)
  match a with
  | ⟨0, _⟩ => show win0_6.index (pt t) (0 : Fin 3) * 5 + 1 * i.val = i.val; omega
  | ⟨1, _⟩ => show win0_6.index (pt t) (1 : Fin 3) * 1 + 1 * (0 : Fin 1).val = (0 : Fin 1).val; omega
  | ⟨2, _⟩ => show win0_6.index (pt t) (2 : Fin 3) * 128 + 1 * l.val = l.val; omega

theorem iblk7_apply (c : Dev nD) (t : Fin 8) (i : Fin 5) (l : Fin 128) :
    iblk m c 7 (pt t) (ix3 i 0 l) = V m c main_v64 (ix3 i 0 l) := by
  obtain ⟨-, -, -, -, -, ⟨e0, e1, e2⟩, -⟩ := idx_facts_whole (pt t)
  show V m c main_v64 (((cfg0.win 7).blk (pt t)).view.emb (ix3 i (0 : Fin 1) l)) = V m c main_v64 (ix3 i (0 : Fin 1) l)
  refine congrArg (V m c main_v64) (funext fun a => Fin.ext ?_)
  match a with
  | ⟨0, _⟩ => show win0_7.index (pt t) (0 : Fin 3) * 5 + 1 * i.val = i.val; omega
  | ⟨1, _⟩ => show win0_7.index (pt t) (1 : Fin 3) * 1 + 1 * (0 : Fin 1).val = (0 : Fin 1).val; omega
  | ⟨2, _⟩ => show win0_7.index (pt t) (2 : Fin 3) * 128 + 1 * l.val = l.val; omega

theorem iblk8_apply (c : Dev nD) (t : Fin 8) (k l : Fin 128) :
    iblk m c 8 (pt t) (ix2 k l) = V m c main_v72 (ix2 k l) := by
  obtain ⟨-, -, -, -, -, -, e0, e1⟩ := idx_facts_whole (pt t)
  show V m c main_v72 (((cfg0.win 8).blk (pt t)).view.emb (ix2 k l)) = V m c main_v72 (ix2 k l)
  refine congrArg (V m c main_v72) (funext fun a => Fin.ext ?_)
  match a with
  | ⟨0, _⟩ => show win0_8.index (pt t) (0 : Fin 2) * 128 + 1 * k.val = k.val; omega
  | ⟨1, _⟩ => show win0_8.index (pt t) (1 : Fin 2) * 128 + 1 * l.val = l.val; omega

/-! ## The result at an index -/

/-- The tail at an index: result row `4 q + g`, vertex `v`, feature `o` is the output array at vertex `v`, packed row
    `q`, lane `32 g + o`: the exchange of the first two axes reads (vertex, batch, feature), and the regrouping keeps
    the row-major position, `(1024 v + q) · 128 + 32 g + o = (4096 v + 4 q + g) · 32 + o`. -/
theorem res_eq_arr (c : Dev nD) (q : Fin 1024) (g : Fin 4) (v : Fin 54) (o : Fin 32) :
    res m c (ix3 (bq q g) v o) = (dats m 0 c).arrAt 9 cfg0.N (ix3 v q (lane g o)) := by
  unfold res Pipeline.afterTail₀
  show StableHlo.after hostOps1 _ (Proc.devRef .tc main_v75) _ = _
  after_results
  refine (transpose_apply _ _ _ (ix3 (bq q g) v o) (ix3 v (⟨4 * q.val + g.val, by omega⟩ : Fin 4096) o)
    (fun b => match b with | ⟨0, _⟩ => rfl | ⟨1, _⟩ => rfl | ⟨2, _⟩ => rfl)).trans ?_
  show shapeCast S54x4096x32 (Pipeline.withArrays (cfgs 0).spec c (V0 m c) (fun w => (dats m 0 c).arrAt w (cfgs 0).N) (Proc.tc.devRef main_v73))
    shapeCasts_S54x1024x128_S54x4096x32 (ix3 v (⟨4 * q.val + g.val, by omega⟩ : Fin 4096) o) = _
  refine (shapeCast_apply _ _ (ix3 v (⟨4 * q.val + g.val, by omega⟩ : Fin 4096) o) (ix3 v q (lane g o)) ?_).trans ?_
  · rw [Shape.rowMajor_val_three, Shape.rowMajor_val_three]
    show (v.val * 1024 + q.val) * 128 + (32 * g.val + o.val) = (v.val * 4096 + (4 * q.val + g.val)) * 32 + o.val
    omega
  · exact congrFun (Pipeline.withArrays_arr spec0 launch0.win.arr_inj c _ _ 9) (ix3 v q (lane g o))

/-- Distinct grid points write distinct blocks of the output array. -/
theorem out_idx_inj : ∀ t t' : Fin cfg0.N, win0_9.index t = win0_9.index t' → t = t' :=
  (by decide +kernel : ∀ t t' : Fin grid0.N, win0_9.index t = win0_9.index t' → t = t')

/-- So two points' output blocks share no index of the array. -/
theorem out_disjoint : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (out_idx_inj t t' h)

/-- Packed row `128 t + r` of the output array after the run is row `r` of what point `t` left in its staging buffer:
    the row lies under point `t`'s block, and no other point writes there. -/
theorem arr_eq_after (c : Dev nD) (t : Fin 8) (v : Fin 54) (r : Fin 128) (l : Fin 128) :
    (dats m 0 c).arrAt 9 cfg0.N (ix3 v (prow t r) l) = (dats m 0 c).after 9 (pt t) (ix3 v r l) := by
  obtain ⟨-, -, -, -, -, -, e0, e1, e2⟩ := idx_facts (pt t)
  have hemb : ((cfg0.win 9).blk (pt t)).view.emb (ix3 v r l) = ix3 v (prow t r) l := by
    refine funext fun a => Fin.ext ?_
    match a with
    | ⟨0, _⟩ => show win0_9.index (pt t) (0 : Fin 3) * 54 + 1 * v.val = v.val; omega
    | ⟨1, _⟩ => show win0_9.index (pt t) (1 : Fin 3) * 128 + 1 * r.val = 128 * t.val + r.val; rw [e1]; show t.val * 128 + 1 * r.val = _; omega
    | ⟨2, _⟩ => show win0_9.index (pt t) (2 : Fin 3) * 128 + 1 * l.val = l.val; omega
  rw [← hemb, Dat.arrAt_emb_eq_flushed _ 9 out_disjoint (pt t) (flush0_9 (pt t)) (ix3 v r l)]
  exact cast_eq _ _

/-- Every batch element is some lane group of some row of some grid point's block. -/
theorem bat_surj (b : Fin 4096) : ∃ (t : Fin 8) (r : Fin 128) (g : Fin 4), bat t r g = b :=
  ⟨⟨b.val / 512, by omega⟩, ⟨b.val / 4 % 128, by omega⟩, ⟨b.val % 4, by omega⟩,
    Fin.ext (by show 4 * (128 * (b.val / 512) + b.val / 4 % 128) + b.val % 4 = b.val; omega)⟩

/-- THE RESULT AT AN INDEX: batch element `4 (128 t + r) + g`, vertex `v`, feature `o` is what the body computes from
    point `t`'s input blocks, at vertex `v`, row `r`, lane `32 g + o`. -/
theorem res_apply (c : Dev nD) (t : Fin 8) (r : Fin 128) (g : Fin 4) (v : Fin 54) (o : Fin 32) :
    res m c (ix3 (bat t r g) v o) = out0_9 (F := Ideal) (iblk m c 0 (pt t)) (iblk m c 1 (pt t)) (iblk m c 2 (pt t)) (iblk m c 3 (pt t))
      (iblk m c 4 (pt t)) (iblk m c 5 (pt t)) (iblk m c 6 (pt t)) (iblk m c 7 (pt t)) (iblk m c 8 (pt t)) (ix3 v r (lane g o)) := by
  rw [bat_eq_bq, res_eq_arr, arr_eq_after, after0_9]

end Cert.KerSide

end
-- ==== Proof.KerStages.lean ====
import proofs.«100883_g78494822302262_cont_9to1_m_206_5_alg».proof.Proof.Gen.KernelIdeal.Frame
import Idealize.ShloMosaic.PureOps.Ideal

/-!
  The kernel body as pure functions of its nine input blocks.

  The body is five unrolled layers. Each layer contracts the layer's input with a block-diagonal weight
  (vertex part) and the regrouped edge block with another (edge part), adds to the vertex part rolled by
  one, two and three rows the matching third of the edge part, takes the largest of the three sums, adds a
  bias and applies `tanh`; the layer's input and that aggregate are each contracted with a block-diagonal
  weight, summed, and a second bias added. Between layers the result goes through `tanh` and each row is
  multiplied by the reciprocal square root of its sum of squares, the sum being a contraction with the
  block-diagonal matrix of ones. The last layer's affine result is what the body stores.

  The definitions below are those operations, in the printed order, as functions of the values they read.
-/

set_option synthInstance.maxSize 4096

noncomputable section

namespace Cert.KerSide

open Idealize.ShloMosaic Cert.KernelIdeal Cert.KernelIdeal.Facts Cert.KernelIdeal.Gen

variable [Cert.KernelIdeal.Facts]

/-- Slice `i` of a stack of five 128×128 matrices, as a matrix. -/
def wsl (i : Fin 5) (x : Vec Ideal S5x128x128 .f32) : FVec Ideal S128x128 .f32 :=
  match i with
  | ⟨0, _⟩ => shapeCast S128x128 (View.ld x r0_3) shapeCasts_S1x128x128_S128x128
  | ⟨1, _⟩ => shapeCast S128x128 (View.ld x r0_6) shapeCasts_S1x128x128_S128x128
  | ⟨2, _⟩ => shapeCast S128x128 (View.ld x r0_9) shapeCasts_S1x128x128_S128x128
  | ⟨3, _⟩ => shapeCast S128x128 (View.ld x r0_12) shapeCasts_S1x128x128_S128x128
  | ⟨4, _⟩ => shapeCast S128x128 (View.ld x r0_15) shapeCasts_S1x128x128_S128x128

/-- Slice `i` of a stack of five 64×128 matrices, as a matrix. -/
def wsl64 (i : Fin 5) (x : Vec Ideal S5x64x128 .f32) : FVec Ideal S64x128 .f32 :=
  match i with
  | ⟨0, _⟩ => shapeCast S64x128 (View.ld x r0_4) shapeCasts_S1x64x128_S64x128
  | ⟨1, _⟩ => shapeCast S64x128 (View.ld x r0_7) shapeCasts_S1x64x128_S64x128
  | ⟨2, _⟩ => shapeCast S64x128 (View.ld x r0_10) shapeCasts_S1x64x128_S64x128
  | ⟨3, _⟩ => shapeCast S64x128 (View.ld x r0_13) shapeCasts_S1x64x128_S64x128
  | ⟨4, _⟩ => shapeCast S64x128 (View.ld x r0_16) shapeCasts_S1x64x128_S64x128

/-- Row `i` of a stack of five bias rows, kept as a 1×1×128 block. -/
def bsl (i : Fin 5) (x : Vec Ideal S5x1x128 .f32) : Vec Ideal S1x1x128 .f32 :=
  match i with
  | ⟨0, _⟩ => View.ld x r0_5
  | ⟨1, _⟩ => View.ld x r0_8
  | ⟨2, _⟩ => View.ld x r0_11
  | ⟨3, _⟩ => View.ld x r0_14
  | ⟨4, _⟩ => View.ld x r0_17

/-- The largest of the three neighbour pre-activations, without the bias: the layer's input contracted with the
    vertex weight and the edge block contracted with the edge weight; for each of the three neighbours the
    vertex part rolled by one, two, three rows plus that neighbour's third of the edge part repeated down
    the 54 rows; then the two maxima. -/
def pre (vf : FVec Ideal S54x128x128 .f32) (ep : FVec Ideal S72x128x64 .f32) (wp : FVec Ideal S128x128 .f32) (we : FVec Ideal S64x128 .f32) : FVec Ideal S54x128x128 .f32 :=
  have v8 : FVec Ideal S6912x128 .f32 := shapeCast S6912x128 vf shapeCasts_S54x128x128_S6912x128
  have cst : FVec Ideal S6912x128 .f32 := constant S6912x128 .f32 0x00000000#32
  have v9 : FVec Ideal S6912x128 .f32 := matmul dot_S6912x128_S128x128_S6912x128_1_0_0_1_n_n none v8 wp cst
  have v10 : FVec Ideal S54x128x128 .f32 := shapeCast S54x128x128 v9 shapeCasts_S6912x128_S54x128x128
  have v13 : FVec Ideal S9216x64 .f32 := shapeCast S9216x64 ep shapeCasts_S72x128x64_S9216x64
  have cst_13 : FVec Ideal S9216x128 .f32 := constant S9216x128 .f32 0x00000000#32
  have v14 : FVec Ideal S9216x128 .f32 := matmul dot_S9216x64_S64x128_S9216x128_1_0_0_1_n_n none v13 we cst_13
  have v15 : FVec Ideal S72x128x128 .f32 := shapeCast S72x128x128 v14 shapeCasts_S9216x128_S72x128x128
  have v16 : FVec Ideal S53x128x128 .f32 := extractStridedSlice S53x128x128 ![1, 0, 0] v10 slices_S54x128x128_o1_0_0_S53x128x128
  have v17 : FVec Ideal S1x128x128 .f32 := extractStridedSlice S1x128x128 ![0, 0, 0] v10 slices_S54x128x128_o0_0_0_S1x128x128
  have v18 : FVec Ideal S54x128x128 .f32 := concatenate S54x128x128 0 [⟨S53x128x128, v16⟩, ⟨S1x128x128, v17⟩] concatenates_S53x128x128_S1x128x128_S54x128x128_d0
  have v19 : FVec Ideal S24x128x128 .f32 := extractStridedSlice S24x128x128 ![0, 0, 0] v15 slices_S72x128x128_o0_0_0_S24x128x128
  have v20 : FVec Ideal S6x128x128 .f32 := extractStridedSlice S6x128x128 ![0, 0, 0] v19 slices_S24x128x128_o0_0_0_S6x128x128
  have v21 : FVec Ideal S54x128x128 .f32 := concatenate S54x128x128 0 [⟨S24x128x128, v19⟩, ⟨S24x128x128, v19⟩, ⟨S6x128x128, v20⟩] concatenates_S24x128x128_S24x128x128_S6x128x128_S54x128x128_d0
  have v22 : FVec Ideal S54x128x128 .f32 := addf v18 v21
  have v23 : FVec Ideal S52x128x128 .f32 := extractStridedSlice S52x128x128 ![2, 0, 0] v10 slices_S54x128x128_o2_0_0_S52x128x128
  have v24 : FVec Ideal S2x128x128 .f32 := extractStridedSlice S2x128x128 ![0, 0, 0] v10 slices_S54x128x128_o0_0_0_S2x128x128
  have v25 : FVec Ideal S54x128x128 .f32 := concatenate S54x128x128 0 [⟨S52x128x128, v23⟩, ⟨S2x128x128, v24⟩] concatenates_S52x128x128_S2x128x128_S54x128x128_d0
  have v26 : FVec Ideal S24x128x128 .f32 := extractStridedSlice S24x128x128 ![24, 0, 0] v15 slices_S72x128x128_o24_0_0_S24x128x128
  have v27 : FVec Ideal S6x128x128 .f32 := extractStridedSlice S6x128x128 ![0, 0, 0] v26 slices_S24x128x128_o0_0_0_S6x128x128
  have v28 : FVec Ideal S54x128x128 .f32 := concatenate S54x128x128 0 [⟨S24x128x128, v26⟩, ⟨S24x128x128, v26⟩, ⟨S6x128x128, v27⟩] concatenates_S24x128x128_S24x128x128_S6x128x128_S54x128x128_d0
  have v29 : FVec Ideal S54x128x128 .f32 := addf v25 v28
  have v30 : FVec Ideal S54x128x128 .f32 := maximumf v22 v29
  have v31 : FVec Ideal S51x128x128 .f32 := extractStridedSlice S51x128x128 ![3, 0, 0] v10 slices_S54x128x128_o3_0_0_S51x128x128
  have v32 : FVec Ideal S3x128x128 .f32 := extractStridedSlice S3x128x128 ![0, 0, 0] v10 slices_S54x128x128_o0_0_0_S3x128x128
  have v33 : FVec Ideal S54x128x128 .f32 := concatenate S54x128x128 0 [⟨S51x128x128, v31⟩, ⟨S3x128x128, v32⟩] concatenates_S51x128x128_S3x128x128_S54x128x128_d0
  have v34 : FVec Ideal S24x128x128 .f32 := extractStridedSlice S24x128x128 ![48, 0, 0] v15 slices_S72x128x128_o48_0_0_S24x128x128
  have v35 : FVec Ideal S6x128x128 .f32 := extractStridedSlice S6x128x128 ![0, 0, 0] v34 slices_S24x128x128_o0_0_0_S6x128x128
  have v36 : FVec Ideal S54x128x128 .f32 := concatenate S54x128x128 0 [⟨S24x128x128, v34⟩, ⟨S24x128x128, v34⟩, ⟨S6x128x128, v35⟩] concatenates_S24x128x128_S24x128x128_S6x128x128_S54x128x128_d0
  have v37 : FVec Ideal S54x128x128 .f32 := addf v33 v36
  have v38 : FVec Ideal S54x128x128 .f32 := maximumf v30 v37
  v38

/-- The layer's affine result: the aggregate is `tanh` of the largest pre-activation plus the first bias (the
    bias row repeated over all rows); the layer's input and the aggregate are each contracted with their weight,
    the two products summed, and the second bias added. -/
def hidOf (vf pr : FVec Ideal S54x128x128 .f32) (eb : Vec Ideal S1x1x128 .f32) (wh1 wh2 : FVec Ideal S128x128 .f32) (hb : Vec Ideal S1x1x128 .f32) : FVec Ideal S54x128x128 .f32 :=
  have v40 : FVec Ideal S1x128 .f32 := shapeCast S1x128 eb shapeCasts_S1x1x128_S1x128
  have v41 : FVec Ideal S1x1x128 .f32 := shapeCast S1x1x128 v40 shapeCasts_S1x128_S1x1x128
  have v42 : FVec Ideal S54x128x128 .f32 := broadcastTo S54x128x128 v41 broadcasts_S1x1x128_S54x128x128
  have v43 : FVec Ideal S54x128x128 .f32 := addf pr v42
  have v44 : FVec Ideal S54x128x128 .f32 := tanh v43
  have v47 : FVec Ideal S6912x128 .f32 := shapeCast S6912x128 vf shapeCasts_S54x128x128_S6912x128
  have cst_20 : FVec Ideal S6912x128 .f32 := constant S6912x128 .f32 0x00000000#32
  have v48 : FVec Ideal S6912x128 .f32 := matmul dot_S6912x128_S128x128_S6912x128_1_0_0_1_n_n none v47 wh1 cst_20
  have v49 : FVec Ideal S54x128x128 .f32 := shapeCast S54x128x128 v48 shapeCasts_S6912x128_S54x128x128
  have v52 : FVec Ideal S6912x128 .f32 := shapeCast S6912x128 v44 shapeCasts_S54x128x128_S6912x128
  have cst_24 : FVec Ideal S6912x128 .f32 := constant S6912x128 .f32 0x00000000#32
  have v53 : FVec Ideal S6912x128 .f32 := matmul dot_S6912x128_S128x128_S6912x128_1_0_0_1_n_n none v52 wh2 cst_24
  have v54 : FVec Ideal S54x128x128 .f32 := shapeCast S54x128x128 v53 shapeCasts_S6912x128_S54x128x128
  have v55 : FVec Ideal S54x128x128 .f32 := addf v49 v54
  have v57 : FVec Ideal S1x128 .f32 := shapeCast S1x128 hb shapeCasts_S1x1x128_S1x128
  have v58 : FVec Ideal S1x1x128 .f32 := shapeCast S1x1x128 v57 shapeCasts_S1x128_S1x1x128
  have v59 : FVec Ideal S54x128x128 .f32 := broadcastTo S54x128x128 v58 broadcasts_S1x1x128_S54x128x128
  have v60 : FVec Ideal S54x128x128 .f32 := addf v55 v59
  v60

/-- Between layers: `tanh` entry by entry, then each entry times the reciprocal square root of the contraction of
    the squared row with the matrix of ones. -/
def nrm (h : FVec Ideal S54x128x128 .f32) (ones : FVec Ideal S128x128 .f32) : FVec Ideal S54x128x128 .f32 :=
  have v61 : FVec Ideal S54x128x128 .f32 := tanh h
  have v62 : FVec Ideal S54x128x128 .f32 := mulf v61 v61
  have v63 : FVec Ideal S6912x128 .f32 := shapeCast S6912x128 v62 shapeCasts_S54x128x128_S6912x128
  have cst_28 : FVec Ideal S6912x128 .f32 := constant S6912x128 .f32 0x00000000#32
  have v64 : FVec Ideal S6912x128 .f32 := matmul dot_S6912x128_S128x128_S6912x128_1_0_0_1_n_n none v63 ones cst_28
  have v65 : FVec Ideal S54x128x128 .f32 := shapeCast S54x128x128 v64 shapeCasts_S6912x128_S54x128x128
  have v66 : FVec Ideal S54x128x128 .f32 := rsqrt v65
  have v67 : FVec Ideal S54x128x128 .f32 := mulf v61 v66
  v67

/-- Layer `k`'s affine result from its input `vf`: the weights and biases are slice `k mod 5` of their stacks. -/
def lay (k : ℕ) (vf : FVec Ideal S54x128x128 .f32) (x1 : Vec Ideal S72x128x64 .f32) (x2 : Vec Ideal S5x128x128 .f32) (x3 : Vec Ideal S5x64x128 .f32) (x4 x5 : Vec Ideal S5x128x128 .f32) (x6 x7 : Vec Ideal S5x1x128 .f32) : FVec Ideal S54x128x128 .f32 :=
  hidOf vf
    (pre vf (shapeCast S72x128x64 (View.ld x1 r0_1) shapeCasts_S72x128x64_S72x128x64)
      (wsl ⟨k % 5, Nat.mod_lt _ (by decide)⟩ x2) (wsl64 ⟨k % 5, Nat.mod_lt _ (by decide)⟩ x3))
    (bsl ⟨k % 5, Nat.mod_lt _ (by decide)⟩ x6) (wsl ⟨k % 5, Nat.mod_lt _ (by decide)⟩ x4)
    (wsl ⟨k % 5, Nat.mod_lt _ (by decide)⟩ x5) (bsl ⟨k % 5, Nat.mod_lt _ (by decide)⟩ x7)

/-- The input of layer `k`: the vertex block itself, then each layer's result through `tanh` and the row scaling. -/
def x (x0 : Vec Ideal S54x128x128 .f32) (x1 : Vec Ideal S72x128x64 .f32) (x2 : Vec Ideal S5x128x128 .f32) (x3 : Vec Ideal S5x64x128 .f32) (x4 x5 : Vec Ideal S5x128x128 .f32) (x6 x7 : Vec Ideal S5x1x128 .f32) (x8 : Vec Ideal S128x128 .f32) : ℕ → FVec Ideal S54x128x128 .f32
  | 0 => shapeCast S54x128x128 (View.ld x0 r0_0) shapeCasts_S54x128x128_S54x128x128
  | k + 1 => nrm (lay k (x x0 x1 x2 x3 x4 x5 x6 x7 x8 k) x1 x2 x3 x4 x5 x6 x7)
      (shapeCast S128x128 (View.ld x8 r0_2) shapeCasts_S128x128_S128x128)

/-- What the body stores: the fifth layer's affine result (no `tanh`, no row scaling after it). -/
def out (x0 : Vec Ideal S54x128x128 .f32) (x1 : Vec Ideal S72x128x64 .f32) (x2 : Vec Ideal S5x128x128 .f32) (x3 : Vec Ideal S5x64x128 .f32) (x4 x5 : Vec Ideal S5x128x128 .f32) (x6 x7 : Vec Ideal S5x1x128 .f32) (x8 : Vec Ideal S128x128 .f32) : FVec Ideal S54x128x128 .f32 :=
  lay 4 (x x0 x1 x2 x3 x4 x5 x6 x7 x8 4) x1 x2 x3 x4 x5 x6 x7

end Cert.KerSide

end
-- ==== Proof.KerBody.lean ====
import proofs.«100883_g78494822302262_cont_9to1_m_206_5_alg».proof.Proof.KerStages
import proofs.«100883_g78494822302262_cont_9to1_m_206_5_alg».proof.Proof.Sage
import Idealize.ShloMosaic.Lib.ValueIdx
import Idealize.ShloMosaic.Lib.Pipeline.Value

/-!
  The kernel-side stage functions against the printed body.

  First, a slice of a stack read at an index: slice `i` of a stack of five matrices (or bias rows) at
  `(k, l)` is the stack at `(i, k, l)`: the load reads the unit-stride rectangle at offset `(i, 0, 0)`, and
  dropping the leading unit axis keeps the row-major position.

  Second, the block the body leaves in its output window is the composition of the stage functions: its one
  store covers the whole window, so the window holds that store's payload, and the payload is the same
  composition of operations as `out`.
-/

set_option synthInstance.maxSize 4096

noncomputable section

namespace Cert.KerSide

open Idealize.ShloMosaic Idealize.ShloMosaic.ValueIdx Cert.KernelIdeal Cert.KernelIdeal.Facts Cert.KernelIdeal.Gen

variable [Cert.KernelIdeal.Facts]

/-- The zero offsets of a rank-3 whole-buffer rectangle, as the constant function. -/
theorem hz3 : (![0, 0, 0] : Fin 3 → Nat) = fun _ => 0 := funext fun a => by fin_cases a <;> rfl

/-- Slice `i` of a stack of five 128×128 matrices at `(k, l)` is the stack at `(i, k, l)`. -/
theorem wsl_apply (i : Fin 5) (x : Vec Ideal S5x128x128 .f32) (k : Fin 128) (l : Fin 128) :
    wsl i x (ix2 k l) = x (ix3 i k l) := by
  match i with
  | ⟨0, _⟩ =>
    show shapeCast S128x128 (View.ld x r0_3) _ (ix2 k l) = _
    rw [shapeCast_apply (View.ld x r0_3) _ (ix2 k l) (ix3 (0 : Fin 1) k l)
      (by
        show ((⟨3, ![1, 128, 128]⟩ : Shape).rowMajor (ix3 (0 : Fin 1) k l)).val = ((⟨2, ![128, 128]⟩ : Shape).rowMajor (ix2 k l)).val
        rw [Shape.rowMajor_val_three, Shape.rowMajor_val_two]
        show ((0 : Fin 1).val * 128 + k.val) * 128 + l.val = k.val * 128 + l.val
        simp)]
    refine congrArg x (funext fun a => Fin.ext ?_)
    match a with
    | ⟨0, _⟩ => rfl
    | ⟨1, _⟩ => show 0 + 1 * k.val = k.val; omega
    | ⟨2, _⟩ => show 0 + 1 * l.val = l.val; omega
  | ⟨1, _⟩ =>
    show shapeCast S128x128 (View.ld x r0_6) _ (ix2 k l) = _
    rw [shapeCast_apply (View.ld x r0_6) _ (ix2 k l) (ix3 (0 : Fin 1) k l)
      (by
        show ((⟨3, ![1, 128, 128]⟩ : Shape).rowMajor (ix3 (0 : Fin 1) k l)).val = ((⟨2, ![128, 128]⟩ : Shape).rowMajor (ix2 k l)).val
        rw [Shape.rowMajor_val_three, Shape.rowMajor_val_two]
        show ((0 : Fin 1).val * 128 + k.val) * 128 + l.val = k.val * 128 + l.val
        simp)]
    refine congrArg x (funext fun a => Fin.ext ?_)
    match a with
    | ⟨0, _⟩ => rfl
    | ⟨1, _⟩ => show 0 + 1 * k.val = k.val; omega
    | ⟨2, _⟩ => show 0 + 1 * l.val = l.val; omega
  | ⟨2, _⟩ =>
    show shapeCast S128x128 (View.ld x r0_9) _ (ix2 k l) = _
    rw [shapeCast_apply (View.ld x r0_9) _ (ix2 k l) (ix3 (0 : Fin 1) k l)
      (by
        show ((⟨3, ![1, 128, 128]⟩ : Shape).rowMajor (ix3 (0 : Fin 1) k l)).val = ((⟨2, ![128, 128]⟩ : Shape).rowMajor (ix2 k l)).val
        rw [Shape.rowMajor_val_three, Shape.rowMajor_val_two]
        show ((0 : Fin 1).val * 128 + k.val) * 128 + l.val = k.val * 128 + l.val
        simp)]
    refine congrArg x (funext fun a => Fin.ext ?_)
    match a with
    | ⟨0, _⟩ => rfl
    | ⟨1, _⟩ => show 0 + 1 * k.val = k.val; omega
    | ⟨2, _⟩ => show 0 + 1 * l.val = l.val; omega
  | ⟨3, _⟩ =>
    show shapeCast S128x128 (View.ld x r0_12) _ (ix2 k l) = _
    rw [shapeCast_apply (View.ld x r0_12) _ (ix2 k l) (ix3 (0 : Fin 1) k l)
      (by
        show ((⟨3, ![1, 128, 128]⟩ : Shape).rowMajor (ix3 (0 : Fin 1) k l)).val = ((⟨2, ![128, 128]⟩ : Shape).rowMajor (ix2 k l)).val
        rw [Shape.rowMajor_val_three, Shape.rowMajor_val_two]
        show ((0 : Fin 1).val * 128 + k.val) * 128 + l.val = k.val * 128 + l.val
        simp)]
    refine congrArg x (funext fun a => Fin.ext ?_)
    match a with
    | ⟨0, _⟩ => rfl
    | ⟨1, _⟩ => show 0 + 1 * k.val = k.val; omega
    | ⟨2, _⟩ => show 0 + 1 * l.val = l.val; omega
  | ⟨4, _⟩ =>
    show shapeCast S128x128 (View.ld x r0_15) _ (ix2 k l) = _
    rw [shapeCast_apply (View.ld x r0_15) _ (ix2 k l) (ix3 (0 : Fin 1) k l)
      (by
        show ((⟨3, ![1, 128, 128]⟩ : Shape).rowMajor (ix3 (0 : Fin 1) k l)).val = ((⟨2, ![128, 128]⟩ : Shape).rowMajor (ix2 k l)).val
        rw [Shape.rowMajor_val_three, Shape.rowMajor_val_two]
        show ((0 : Fin 1).val * 128 + k.val) * 128 + l.val = k.val * 128 + l.val
        simp)]
    refine congrArg x (funext fun a => Fin.ext ?_)
    match a with
    | ⟨0, _⟩ => rfl
    | ⟨1, _⟩ => show 0 + 1 * k.val = k.val; omega
    | ⟨2, _⟩ => show 0 + 1 * l.val = l.val; omega

/-- Slice `i` of a stack of five 64×128 matrices at `(k, l)` is the stack at `(i, k, l)`. -/
theorem wsl64_apply (i : Fin 5) (x : Vec Ideal S5x64x128 .f32) (k : Fin 64) (l : Fin 128) :
    wsl64 i x (ix2 k l) = x (ix3 i k l) := by
  match i with
  | ⟨0, _⟩ =>
    show shapeCast S64x128 (View.ld x r0_4) _ (ix2 k l) = _
    rw [shapeCast_apply (View.ld x r0_4) _ (ix2 k l) (ix3 (0 : Fin 1) k l)
      (by
        show ((⟨3, ![1, 64, 128]⟩ : Shape).rowMajor (ix3 (0 : Fin 1) k l)).val = ((⟨2, ![64, 128]⟩ : Shape).rowMajor (ix2 k l)).val
        rw [Shape.rowMajor_val_three, Shape.rowMajor_val_two]
        show ((0 : Fin 1).val * 64 + k.val) * 128 + l.val = k.val * 128 + l.val
        simp)]
    refine congrArg x (funext fun a => Fin.ext ?_)
    match a with
    | ⟨0, _⟩ => rfl
    | ⟨1, _⟩ => show 0 + 1 * k.val = k.val; omega
    | ⟨2, _⟩ => show 0 + 1 * l.val = l.val; omega
  | ⟨1, _⟩ =>
    show shapeCast S64x128 (View.ld x r0_7) _ (ix2 k l) = _
    rw [shapeCast_apply (View.ld x r0_7) _ (ix2 k l) (ix3 (0 : Fin 1) k l)
      (by
        show ((⟨3, ![1, 64, 128]⟩ : Shape).rowMajor (ix3 (0 : Fin 1) k l)).val = ((⟨2, ![64, 128]⟩ : Shape).rowMajor (ix2 k l)).val
        rw [Shape.rowMajor_val_three, Shape.rowMajor_val_two]
        show ((0 : Fin 1).val * 64 + k.val) * 128 + l.val = k.val * 128 + l.val
        simp)]
    refine congrArg x (funext fun a => Fin.ext ?_)
    match a with
    | ⟨0, _⟩ => rfl
    | ⟨1, _⟩ => show 0 + 1 * k.val = k.val; omega
    | ⟨2, _⟩ => show 0 + 1 * l.val = l.val; omega
  | ⟨2, _⟩ =>
    show shapeCast S64x128 (View.ld x r0_10) _ (ix2 k l) = _
    rw [shapeCast_apply (View.ld x r0_10) _ (ix2 k l) (ix3 (0 : Fin 1) k l)
      (by
        show ((⟨3, ![1, 64, 128]⟩ : Shape).rowMajor (ix3 (0 : Fin 1) k l)).val = ((⟨2, ![64, 128]⟩ : Shape).rowMajor (ix2 k l)).val
        rw [Shape.rowMajor_val_three, Shape.rowMajor_val_two]
        show ((0 : Fin 1).val * 64 + k.val) * 128 + l.val = k.val * 128 + l.val
        simp)]
    refine congrArg x (funext fun a => Fin.ext ?_)
    match a with
    | ⟨0, _⟩ => rfl
    | ⟨1, _⟩ => show 0 + 1 * k.val = k.val; omega
    | ⟨2, _⟩ => show 0 + 1 * l.val = l.val; omega
  | ⟨3, _⟩ =>
    show shapeCast S64x128 (View.ld x r0_13) _ (ix2 k l) = _
    rw [shapeCast_apply (View.ld x r0_13) _ (ix2 k l) (ix3 (0 : Fin 1) k l)
      (by
        show ((⟨3, ![1, 64, 128]⟩ : Shape).rowMajor (ix3 (0 : Fin 1) k l)).val = ((⟨2, ![64, 128]⟩ : Shape).rowMajor (ix2 k l)).val
        rw [Shape.rowMajor_val_three, Shape.rowMajor_val_two]
        show ((0 : Fin 1).val * 64 + k.val) * 128 + l.val = k.val * 128 + l.val
        simp)]
    refine congrArg x (funext fun a => Fin.ext ?_)
    match a with
    | ⟨0, _⟩ => rfl
    | ⟨1, _⟩ => show 0 + 1 * k.val = k.val; omega
    | ⟨2, _⟩ => show 0 + 1 * l.val = l.val; omega
  | ⟨4, _⟩ =>
    show shapeCast S64x128 (View.ld x r0_16) _ (ix2 k l) = _
    rw [shapeCast_apply (View.ld x r0_16) _ (ix2 k l) (ix3 (0 : Fin 1) k l)
      (by
        show ((⟨3, ![1, 64, 128]⟩ : Shape).rowMajor (ix3 (0 : Fin 1) k l)).val = ((⟨2, ![64, 128]⟩ : Shape).rowMajor (ix2 k l)).val
        rw [Shape.rowMajor_val_three, Shape.rowMajor_val_two]
        show ((0 : Fin 1).val * 64 + k.val) * 128 + l.val = k.val * 128 + l.val
        simp)]
    refine congrArg x (funext fun a => Fin.ext ?_)
    match a with
    | ⟨0, _⟩ => rfl
    | ⟨1, _⟩ => show 0 + 1 * k.val = k.val; omega
    | ⟨2, _⟩ => show 0 + 1 * l.val = l.val; omega

/-- Bias row `i` at lane `l` is the stack at `(i, 0, l)`. -/
theorem bsl_apply (i : Fin 5) (x : Vec Ideal S5x1x128 .f32) (l : Fin 128) :
    bsl i x (ix3 0 0 l) = x (ix3 i 0 l) := by
  match i with
  | ⟨0, _⟩ =>
    show x (LoadRect.idx (r0_5 : Rect S5x1x128).toLoadRect (ix3 (0 : Fin 1) (0 : Fin 1) l)) = _
    refine congrArg x (funext fun a => Fin.ext ?_)
    match a with
    | ⟨0, _⟩ => rfl
    | ⟨1, _⟩ => rfl
    | ⟨2, _⟩ => show 0 + 1 * l.val = l.val; omega
  | ⟨1, _⟩ =>
    show x (LoadRect.idx (r0_8 : Rect S5x1x128).toLoadRect (ix3 (0 : Fin 1) (0 : Fin 1) l)) = _
    refine congrArg x (funext fun a => Fin.ext ?_)
    match a with
    | ⟨0, _⟩ => rfl
    | ⟨1, _⟩ => rfl
    | ⟨2, _⟩ => show 0 + 1 * l.val = l.val; omega
  | ⟨2, _⟩ =>
    show x (LoadRect.idx (r0_11 : Rect S5x1x128).toLoadRect (ix3 (0 : Fin 1) (0 : Fin 1) l)) = _
    refine congrArg x (funext fun a => Fin.ext ?_)
    match a with
    | ⟨0, _⟩ => rfl
    | ⟨1, _⟩ => rfl
    | ⟨2, _⟩ => show 0 + 1 * l.val = l.val; omega
  | ⟨3, _⟩ =>
    show x (LoadRect.idx (r0_14 : Rect S5x1x128).toLoadRect (ix3 (0 : Fin 1) (0 : Fin 1) l)) = _
    refine congrArg x (funext fun a => Fin.ext ?_)
    match a with
    | ⟨0, _⟩ => rfl
    | ⟨1, _⟩ => rfl
    | ⟨2, _⟩ => show 0 + 1 * l.val = l.val; omega
  | ⟨4, _⟩ =>
    show x (LoadRect.idx (r0_17 : Rect S5x1x128).toLoadRect (ix3 (0 : Fin 1) (0 : Fin 1) l)) = _
    refine congrArg x (funext fun a => Fin.ext ?_)
    match a with
    | ⟨0, _⟩ => rfl
    | ⟨1, _⟩ => rfl
    | ⟨2, _⟩ => show 0 + 1 * l.val = l.val; omega

end Cert.KerSide

end
-- ==== Proof.KerMatmul.lean ====
/-
  A product of a packed row with a matrix, read at an index, and the contraction with a block-diagonal matrix.

  The arrays [54,128,128] and [72,128,64] are reshaped to [6912,128] and [9216,64] (row 128 v + r, same lane), multiplied
  by a [128,128] or [64,128] matrix into a zero accumulator, and reshaped back: at (v, r, l) the result is the sum over
  the lanes k of x (v, r, k) * w (k, l).

  When the matrix is block diagonal (the same 32-row or 16-row weight in each of the four diagonal blocks, zero
  elsewhere), the lanes split as k = 32 g' + f (or 16 g' + d); the terms with g' ≠ g are x * 0 = 0, and the terms with
  g' = g are the contraction of lane group g's features with the weight.
-/
import proofs.«100883_g78494822302262_cont_9to1_m_206_5_alg».proof.KernelIdeal
import proofs.«100883_g78494822302262_cont_9to1_m_206_5_alg».proof.Proof.Sage
import Idealize.ShloMosaic.PureOps.Ideal.Laws
import Idealize.ShloMosaic.Lib.ValueIdx
import Idealize.ShloMosaic.Lib.Pipeline.Value
import Mathlib.Algebra.BigOperators.Fin
import Mathlib.Algebra.BigOperators.Group.Finset.Sigma

noncomputable section

namespace Cert.KerSide

open Idealize.ShloMosaic Idealize.ShloMosaic.ValueIdx Cert.KernelIdeal Cert.KernelIdeal.Facts₀ Cert.KernelIdeal.Facts
open Cert.Sage (lane lane16)

/-! ### The lanes as (group, feature) pairs -/

/-- Lane `32 g + f` as a pair. -/
def laneEquiv : Fin 4 × Fin 32 ≃ Fin 128 where
  toFun p := lane p.1 p.2
  invFun k := (⟨k.val / 32, by omega⟩, ⟨k.val % 32, by omega⟩)
  left_inv p := by
    obtain ⟨g, f⟩ := p
    refine Prod.ext (Fin.ext ?_) (Fin.ext ?_)
    · show (32 * g.val + f.val) / 32 = g.val
      omega
    · show (32 * g.val + f.val) % 32 = f.val
      omega
  right_inv k := Fin.ext (by
    show 32 * (k.val / 32) + k.val % 32 = k.val
    omega)

/-- Edge lane `16 g + d` as a pair. -/
def lane16Equiv : Fin 4 × Fin 16 ≃ Fin 64 where
  toFun p := lane16 p.1 p.2
  invFun k := (⟨k.val / 16, by omega⟩, ⟨k.val % 16, by omega⟩)
  left_inv p := by
    obtain ⟨g, d⟩ := p
    refine Prod.ext (Fin.ext ?_) (Fin.ext ?_)
    · show (16 * g.val + d.val) / 16 = g.val
      omega
    · show (16 * g.val + d.val) % 16 = d.val
      omega
  right_inv k := Fin.ext (by
    show 16 * (k.val / 16) + k.val % 16 = k.val
    omega)

/-- A sum over the 128 lanes against a column that is `W` in lane group `g` and zero in the other groups is the
    32-term contraction of group `g`'s entries with `W`. -/
theorem sum_lane_blockdiag (a b : Fin 128 → EReal) (W : Fin 32 → EReal) (g : Fin 4)
    (hb : ∀ (g' : Fin 4) (f : Fin 32), b (lane g' f) = if g' = g then W f else 0) :
    ∑ k : Fin 128, a k * b k = ∑ f : Fin 32, a (lane g f) * W f := by
  rw [← Equiv.sum_comp laneEquiv, Fintype.sum_prod_type]
  rw [Finset.sum_eq_single g]
  · refine Finset.sum_congr rfl fun f _ => ?_
    show a (lane g f) * b (lane g f) = _
    rw [hb g f, if_pos rfl]
  · intro g' _ hne
    refine Finset.sum_eq_zero fun f _ => ?_
    show a (lane g' f) * b (lane g' f) = 0
    rw [hb g' f, if_neg hne, mul_zero]
  · intro h
    exact absurd (Finset.mem_univ g) h

/-- The same over the 64 edge lanes: the 16-term contraction of group `g`'s entries with `W`. -/
theorem sum_lane16_blockdiag (a b : Fin 64 → EReal) (W : Fin 16 → EReal) (g : Fin 4)
    (hb : ∀ (g' : Fin 4) (d : Fin 16), b (lane16 g' d) = if g' = g then W d else 0) :
    ∑ k : Fin 64, a k * b k = ∑ d : Fin 16, a (lane16 g d) * W d := by
  rw [← Equiv.sum_comp lane16Equiv, Fintype.sum_prod_type]
  rw [Finset.sum_eq_single g]
  · refine Finset.sum_congr rfl fun d _ => ?_
    show a (lane16 g d) * b (lane16 g d) = _
    rw [hb g d, if_pos rfl]
  · intro g' _ hne
    refine Finset.sum_eq_zero fun d _ => ?_
    show a (lane16 g' d) * b (lane16 g' d) = 0
    rw [hb g' d, if_neg hne, mul_zero]
  · intro h
    exact absurd (Finset.mem_univ g) h

variable [Cert.KernelIdeal.Facts]

/-! ### The operand indices of the two products -/

theorem lhs_mm128_0 (i : S6912x128.Idx) (q : dot_S6912x128_S128x128_S6912x128_1_0_0_1_n_n.contr.Idx) :
    (dot_S6912x128_S128x128_S6912x128_1_0_0_1_n_n.lhsIdx i q 0).val = (i 0).val := by
  unfold DotDims.lhsIdx
  rw [dif_neg (show ¬(0 : Fin S6912x128.rank) ∈ dot_S6912x128_S128x128_S6912x128_1_0_0_1_n_n.lhsBatch from List.not_mem_nil),
    dif_pos (show (0 : Fin S6912x128.rank) ∈ dot_S6912x128_S128x128_S6912x128_1_0_0_1_n_n.lhsNonContracting from List.mem_singleton.mpr rfl)]
  rfl
theorem lhs_mm128_1 (i : S6912x128.Idx) (q : dot_S6912x128_S128x128_S6912x128_1_0_0_1_n_n.contr.Idx) :
    (dot_S6912x128_S128x128_S6912x128_1_0_0_1_n_n.lhsIdx i q 1).val = (q ⟨0, Nat.one_pos⟩).val :=
  dot_S6912x128_S128x128_S6912x128_1_0_0_1_n_n.lhsIdx_val_of_single rfl i q
theorem rhs_mm128_0 (i : S6912x128.Idx) (q : dot_S6912x128_S128x128_S6912x128_1_0_0_1_n_n.contr.Idx) :
    (dot_S6912x128_S128x128_S6912x128_1_0_0_1_n_n.rhsIdx i q 0).val = (q ⟨0, Nat.one_pos⟩).val :=
  dot_S6912x128_S128x128_S6912x128_1_0_0_1_n_n.rhsIdx_val_of_single rfl i q
theorem rhs_mm128_1 (i : S6912x128.Idx) (q : dot_S6912x128_S128x128_S6912x128_1_0_0_1_n_n.contr.Idx) :
    (dot_S6912x128_S128x128_S6912x128_1_0_0_1_n_n.rhsIdx i q 1).val = (i 1).val := by
  unfold DotDims.rhsIdx
  rw [dif_neg (show ¬(1 : Fin S128x128.rank) ∈ dot_S6912x128_S128x128_S6912x128_1_0_0_1_n_n.rhsBatch from List.not_mem_nil),
    dif_pos (show (1 : Fin S128x128.rank) ∈ dot_S6912x128_S128x128_S6912x128_1_0_0_1_n_n.rhsNonContracting from List.mem_singleton.mpr rfl)]
  rfl

theorem lhs_mm64_0 (i : S9216x128.Idx) (q : dot_S9216x64_S64x128_S9216x128_1_0_0_1_n_n.contr.Idx) :
    (dot_S9216x64_S64x128_S9216x128_1_0_0_1_n_n.lhsIdx i q 0).val = (i 0).val := by
  unfold DotDims.lhsIdx
  rw [dif_neg (show ¬(0 : Fin S9216x64.rank) ∈ dot_S9216x64_S64x128_S9216x128_1_0_0_1_n_n.lhsBatch from List.not_mem_nil),
    dif_pos (show (0 : Fin S9216x64.rank) ∈ dot_S9216x64_S64x128_S9216x128_1_0_0_1_n_n.lhsNonContracting from List.mem_singleton.mpr rfl)]
  rfl
theorem lhs_mm64_1 (i : S9216x128.Idx) (q : dot_S9216x64_S64x128_S9216x128_1_0_0_1_n_n.contr.Idx) :
    (dot_S9216x64_S64x128_S9216x128_1_0_0_1_n_n.lhsIdx i q 1).val = (q ⟨0, Nat.one_pos⟩).val :=
  dot_S9216x64_S64x128_S9216x128_1_0_0_1_n_n.lhsIdx_val_of_single rfl i q
theorem rhs_mm64_0 (i : S9216x128.Idx) (q : dot_S9216x64_S64x128_S9216x128_1_0_0_1_n_n.contr.Idx) :
    (dot_S9216x64_S64x128_S9216x128_1_0_0_1_n_n.rhsIdx i q 0).val = (q ⟨0, Nat.one_pos⟩).val :=
  dot_S9216x64_S64x128_S9216x128_1_0_0_1_n_n.rhsIdx_val_of_single rfl i q
theorem rhs_mm64_1 (i : S9216x128.Idx) (q : dot_S9216x64_S64x128_S9216x128_1_0_0_1_n_n.contr.Idx) :
    (dot_S9216x64_S64x128_S9216x128_1_0_0_1_n_n.rhsIdx i q 1).val = (i 1).val := by
  unfold DotDims.rhsIdx
  rw [dif_neg (show ¬(1 : Fin S64x128.rank) ∈ dot_S9216x64_S64x128_S9216x128_1_0_0_1_n_n.rhsBatch from List.not_mem_nil),
    dif_pos (show (1 : Fin S64x128.rank) ∈ dot_S9216x64_S64x128_S9216x128_1_0_0_1_n_n.rhsNonContracting from List.mem_singleton.mpr rfl)]
  rfl

/-! ### The two products at an index -/

/-- The [6912,128] × [128,128] product into zero at (p, l): the sum over the lanes. -/
theorem mm128_flat_apply (y : FVec Ideal S6912x128 .f32) (w : FVec Ideal S128x128 .f32) (p : Fin 6912) (l : Fin 128) :
    matmul dot_S6912x128_S128x128_S6912x128_1_0_0_1_n_n none y w (constant (F := Ideal) S6912x128 .f32 0x00000000#32) (ix2 p l)
      = ∑ k : Fin 128, y (ix2 p k) * w (ix2 k l) := by
  simp only [matmul]
  rw [Ideal.matmul_constant_zero_apply,
    ← Equiv.sum_comp (contrEquiv1 dot_S6912x128_S128x128_S6912x128_1_0_0_1_n_n 128 rfl rfl).symm]
  refine Finset.sum_congr rfl fun k _ => ?_
  have hk := contrEquiv1_symm_val dot_S6912x128_S128x128_S6912x128_1_0_0_1_n_n 128 rfl rfl k
  have el : dot_S6912x128_S128x128_S6912x128_1_0_0_1_n_n.lhsIdx (ix2 p l)
      ((contrEquiv1 dot_S6912x128_S128x128_S6912x128_1_0_0_1_n_n 128 rfl rfl).symm k) = ix2 p k :=
    funext fun a => Fin.ext (by
      match a with
      | ⟨0, _⟩ => exact lhs_mm128_0 _ _
      | ⟨1, _⟩ => exact (lhs_mm128_1 _ _).trans hk)
  have er : dot_S6912x128_S128x128_S6912x128_1_0_0_1_n_n.rhsIdx (ix2 p l)
      ((contrEquiv1 dot_S6912x128_S128x128_S6912x128_1_0_0_1_n_n 128 rfl rfl).symm k) = ix2 k l :=
    funext fun a => Fin.ext (by
      match a with
      | ⟨0, _⟩ => exact (rhs_mm128_0 _ _).trans hk
      | ⟨1, _⟩ => exact rhs_mm128_1 _ _)
  rw [el, er]

/-- The [9216,64] × [64,128] product into zero at (p, l): the sum over the edge lanes. -/
theorem mm64_flat_apply (y : FVec Ideal S9216x64 .f32) (w : FVec Ideal S64x128 .f32) (p : Fin 9216) (l : Fin 128) :
    matmul dot_S9216x64_S64x128_S9216x128_1_0_0_1_n_n none y w (constant (F := Ideal) S9216x128 .f32 0x00000000#32) (ix2 p l)
      = ∑ k : Fin 64, y (ix2 p k) * w (ix2 k l) := by
  simp only [matmul]
  rw [Ideal.matmul_constant_zero_apply,
    ← Equiv.sum_comp (contrEquiv1 dot_S9216x64_S64x128_S9216x128_1_0_0_1_n_n 64 rfl rfl).symm]
  refine Finset.sum_congr rfl fun k _ => ?_
  have hk := contrEquiv1_symm_val dot_S9216x64_S64x128_S9216x128_1_0_0_1_n_n 64 rfl rfl k
  have el : dot_S9216x64_S64x128_S9216x128_1_0_0_1_n_n.lhsIdx (ix2 p l)
      ((contrEquiv1 dot_S9216x64_S64x128_S9216x128_1_0_0_1_n_n 64 rfl rfl).symm k) = ix2 p k :=
    funext fun a => Fin.ext (by
      match a with
      | ⟨0, _⟩ => exact lhs_mm64_0 _ _
      | ⟨1, _⟩ => exact (lhs_mm64_1 _ _).trans hk)
  have er : dot_S9216x64_S64x128_S9216x128_1_0_0_1_n_n.rhsIdx (ix2 p l)
      ((contrEquiv1 dot_S9216x64_S64x128_S9216x128_1_0_0_1_n_n 64 rfl rfl).symm k) = ix2 k l :=
    funext fun a => Fin.ext (by
      match a with
      | ⟨0, _⟩ => exact (rhs_mm64_0 _ _).trans hk
      | ⟨1, _⟩ => exact rhs_mm64_1 _ _)
  rw [el, er]

/-- Reshape [54,128,128] → [6912,128], multiply by a [128,128] matrix into zero, reshape back: at (v, r, l) the sum
    over the lanes k of x (v, r, k) * w (k, l). -/
theorem mm_apply (x : FVec Ideal S54x128x128 .f32) (w : FVec Ideal S128x128 .f32) (v : Fin 54) (r l : Fin 128) :
    shapeCast S54x128x128
        (matmul dot_S6912x128_S128x128_S6912x128_1_0_0_1_n_n none (shapeCast S6912x128 x shapeCasts_S54x128x128_S6912x128) w
          (constant (F := Ideal) S6912x128 .f32 0x00000000#32))
        shapeCasts_S6912x128_S54x128x128 (ix3 v r l)
      = ∑ k : Fin 128, x (ix3 v r k) * w (ix2 k l) := by
  have hp : 128 * v.val + r.val < 6912 := by omega
  rw [shapeCast_apply _ shapeCasts_S6912x128_S54x128x128 (ix3 v r l) (ix2 (⟨128 * v.val + r.val, hp⟩ : Fin 6912) l)
    (by rw [Shape.rowMajor_val_two, Shape.rowMajor_val_three]
        show (128 * v.val + r.val) * 128 + l.val = (v.val * 128 + r.val) * 128 + l.val
        omega)]
  rw [mm128_flat_apply]
  refine Finset.sum_congr rfl fun k _ => ?_
  rw [shapeCast_apply x shapeCasts_S54x128x128_S6912x128 (ix2 (⟨128 * v.val + r.val, hp⟩ : Fin 6912) k) (ix3 v r k)
    (by rw [Shape.rowMajor_val_two, Shape.rowMajor_val_three]
        show (v.val * 128 + r.val) * 128 + k.val = (128 * v.val + r.val) * 128 + k.val
        omega)]

/-- Reshape [72,128,64] → [9216,64], multiply by a [64,128] matrix into zero, reshape to [72,128,128]: at (e, r, l) the
    sum over the edge lanes k of x (e, r, k) * w (k, l). -/
theorem mm64_apply (x : FVec Ideal S72x128x64 .f32) (w : FVec Ideal S64x128 .f32) (e : Fin 72) (r l : Fin 128) :
    shapeCast S72x128x128
        (matmul dot_S9216x64_S64x128_S9216x128_1_0_0_1_n_n none (shapeCast S9216x64 x shapeCasts_S72x128x64_S9216x64) w
          (constant (F := Ideal) S9216x128 .f32 0x00000000#32))
        shapeCasts_S9216x128_S72x128x128 (ix3 e r l)
      = ∑ k : Fin 64, x (ix3 e r k) * w (ix2 k l) := by
  have hp : 128 * e.val + r.val < 9216 := by omega
  rw [shapeCast_apply _ shapeCasts_S9216x128_S72x128x128 (ix3 e r l) (ix2 (⟨128 * e.val + r.val, hp⟩ : Fin 9216) l)
    (by rw [Shape.rowMajor_val_two, Shape.rowMajor_val_three]
        show (128 * e.val + r.val) * 128 + l.val = (e.val * 128 + r.val) * 128 + l.val
        omega)]
  rw [mm64_flat_apply]
  refine Finset.sum_congr rfl fun k _ => ?_
  rw [shapeCast_apply x shapeCasts_S72x128x64_S9216x64 (ix2 (⟨128 * e.val + r.val, hp⟩ : Fin 9216) k) (ix3 e r k)
    (by rw [Shape.rowMajor_val_two, Shape.rowMajor_val_three]
        show (e.val * 128 + r.val) * 64 + k.val = (128 * e.val + r.val) * 64 + k.val
        omega)]

/-- The product with a block-diagonal [128,128] matrix at lane `32 g + o`: the 32-term contraction of lane group `g`'s
    features with the weight. -/
theorem blockdiag_sum (x : FVec Ideal S54x128x128 .f32) (w : FVec Ideal S128x128 .f32) (W : Fin 32 → Fin 32 → EReal)
    (hw : ∀ (g' : Fin 4) (f : Fin 32) (g : Fin 4) (o : Fin 32), w (ix2 (lane g' f) (lane g o)) = if g' = g then W f o else 0)
    (v : Fin 54) (r : Fin 128) (g : Fin 4) (o : Fin 32) :
    ∑ k : Fin 128, x (ix3 v r k) * w (ix2 k (lane g o)) = ∑ f : Fin 32, x (ix3 v r (lane g f)) * W f o :=
  sum_lane_blockdiag (fun k => x (ix3 v r k)) (fun k => w (ix2 k (lane g o))) (fun f => W f o) g
    (fun g' f => hw g' f g o)

/-- The product with a block-diagonal [64,128] matrix at lane `32 g + o`: the 16-term contraction of lane group `g`'s
    edge features with the weight. -/
theorem blockdiag16_sum (x : FVec Ideal S72x128x64 .f32) (w : FVec Ideal S64x128 .f32) (W : Fin 16 → Fin 32 → EReal)
    (hw : ∀ (g' : Fin 4) (d : Fin 16) (g : Fin 4) (o : Fin 32), w (ix2 (lane16 g' d) (lane g o)) = if g' = g then W d o else 0)
    (e : Fin 72) (r : Fin 128) (g : Fin 4) (o : Fin 32) :
    ∑ k : Fin 64, x (ix3 e r k) * w (ix2 k (lane g o)) = ∑ d : Fin 16, x (ix3 e r (lane16 g d)) * W d o :=
  sum_lane16_blockdiag (fun k => x (ix3 e r k)) (fun k => w (ix2 k (lane g o))) (fun d => W d o) g
    (fun g' d => hw g' d g o)

end Cert.KerSide

end
-- ==== Proof.KerPre.lean ====
/-
  The first stage of a layer in the packed layout: the largest of the three neighbour pre-activations.

  The layer's input [54,128,128] is contracted with the block-diagonal vertex weight and the regrouped edge block
  [72,128,64] with the block-diagonal edge weight. For neighbour j = 0, 1, 2 the vertex product is rolled along the vertex
  axis by j + 1 (rows j + 1 … 53, then rows 0 … j), so that row v holds vertex (v + j + 1) mod 54; rows 24 j … 24 j + 23 of
  the edge product are laid down the 54 rows (the 24 rows, the same 24 rows, their first 6), so that row v holds row
  24 j + v mod 24, which is edge 3 (v mod 24) + j = (3 v + j) mod 72. The two are added and the largest of the three sums
  taken. In lane group g each product is the contraction of that batch element's features with the weight.
-/
import proofs.«100883_g78494822302262_cont_9to1_m_206_5_alg».proof.Proof.KerStages
import proofs.«100883_g78494822302262_cont_9to1_m_206_5_alg».proof.Proof.KerMatmul
import proofs.«100883_g78494822302262_cont_9to1_m_206_5_alg».proof.Proof.Sage
import Idealize.ShloMosaic.Lib.ValueIdx
import Idealize.ShloMosaic.Lib.Pipeline.Value

noncomputable section

namespace Cert.KerSide

open Idealize.ShloMosaic Idealize.ShloMosaic.ValueIdx Cert.KernelIdeal Cert.KernelIdeal.Facts₀ Cert.KernelIdeal.Facts
open Cert.Sage (VF EF lane lane16 bat edgeOf preK nbV nbE)

/-! ### Cutting and joining along the vertex axis -/

/-- A rank-3 array cut along axis 0 from `o` reads, at `(j, b, e)`, the source at `(k, b, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Rows `m2` … 53 of a [54,128,128] array followed by its rows 0 … `m2 - 1`: row `v` of the result is row
    `(v + m2) mod 54` of the array. -/
theorem roll_apply {α : Type} {m1 m2 : Nat} (y : (⟨3, ![54, 128, 128]⟩ : Shape).Idx → α)
    (h1 : (⟨3, ![54, 128, 128]⟩ : Shape).Slices ![m2, 0, 0] ⟨3, ![m1, 128, 128]⟩)
    (h2 : (⟨3, ![54, 128, 128]⟩ : Shape).Slices ![0, 0, 0] ⟨3, ![m2, 128, 128]⟩)
    (hc : Shape.Concatenates [⟨3, ![m1, 128, 128]⟩, ⟨3, ![m2, 128, 128]⟩] ⟨3, ![54, 128, 128]⟩ 0)
    (hm : m1 + m2 = 54) (v : Fin 54) (r l : Fin 128) :
    concatenate ⟨3, ![54, 128, 128]⟩ 0
        [⟨⟨3, ![m1, 128, 128]⟩, extractStridedSlice ⟨3, ![m1, 128, 128]⟩ ![m2, 0, 0] y h1⟩,
         ⟨⟨3, ![m2, 128, 128]⟩, extractStridedSlice ⟨3, ![m2, 128, 128]⟩ ![0, 0, 0] y h2⟩] hc (ix3 v r l)
      = y (ix3 (⟨(v.val + m2) % 54, Nat.mod_lt _ (by decide)⟩ : Fin 54) r l) := by
  by_cases hv : v.val < m1
  · rw [concatenate_pair_apply_left (t := ⟨3, ![54, 128, 128]⟩) (s₁ := ⟨3, ![m1, 128, 128]⟩) (s₂ := ⟨3, ![m2, 128, 128]⟩)
      (0 : Fin 3) _ _ hc (ix3 v r l) rfl (ix3 (⟨v.val, hv⟩ : Fin m1) r l)
      (fun b => by match b with | ⟨0, _⟩ => rfl | ⟨1, _⟩ => rfl | ⟨2, _⟩ => rfl)]
    exact slice3_axis0_apply m2 y h1 _ r l _ (by show (v.val + m2) % 54 = m2 + v.val; omega)
  · have hv2 : v.val - m1 < m2 := by omega
    rw [concatenate_pair_apply_right (t := ⟨3, ![54, 128, 128]⟩) (s₁ := ⟨3, ![m1, 128, 128]⟩) (s₂ := ⟨3, ![m2, 128, 128]⟩)
      (0 : Fin 3) _ _ hc (ix3 v r l) rfl rfl (ix3 (⟨v.val - m1, hv2⟩ : Fin m2) r l)
      (fun b hb => by
        match b with
        | ⟨0, _⟩ => exact absurd rfl hb
        | ⟨1, _⟩ => rfl
        | ⟨2, _⟩ => rfl)
      (by show v.val - m1 + m1 = v.val; omega)]
    exact slice3_axis0_apply 0 y h2 _ r l _ (by show (v.val + m2) % 54 = 0 + (v.val - m1); omega)

/-- Rows `o` … `o + 23` of a [72,128,128] array, the same 24 rows again, and their first 6: row `v` of the result is
    row `o + v mod 24` of the array. -/
theorem tile_apply {α : Type} (o : Nat) (z : (⟨3, ![72, 128, 128]⟩ : Shape).Idx → α)
    (h1 : (⟨3, ![72, 128, 128]⟩ : Shape).Slices ![o, 0, 0] ⟨3, ![24, 128, 128]⟩)
    (h2 : (⟨3, ![24, 128, 128]⟩ : Shape).Slices ![0, 0, 0] ⟨3, ![6, 128, 128]⟩)
    (hc : Shape.Concatenates [⟨3, ![24, 128, 128]⟩, ⟨3, ![24, 128, 128]⟩, ⟨3, ![6, 128, 128]⟩] ⟨3, ![54, 128, 128]⟩ 0)
    (ho : o + 24 ≤ 72) (v : Fin 54) (r l : Fin 128) :
    concatenate ⟨3, ![54, 128, 128]⟩ 0
        [⟨⟨3, ![24, 128, 128]⟩, extractStridedSlice ⟨3, ![24, 128, 128]⟩ ![o, 0, 0] z h1⟩,
         ⟨⟨3, ![24, 128, 128]⟩, extractStridedSlice ⟨3, ![24, 128, 128]⟩ ![o, 0, 0] z h1⟩,
         ⟨⟨3, ![6, 128, 128]⟩, extractStridedSlice ⟨3, ![6, 128, 128]⟩ ![0, 0, 0]
            (extractStridedSlice ⟨3, ![24, 128, 128]⟩ ![o, 0, 0] z h1) h2⟩] hc (ix3 v r l)
      = z (ix3 (⟨o + v.val % 24, by omega⟩ : Fin 72) r l) := by
  have hvlt := v.isLt
  by_cases hv1 : v.val < 24
  · rw [concatenate_apply_piece (t := ⟨3, ![54, 128, 128]⟩) (0 : Fin 3)
        [⟨⟨3, ![24, 128, 128]⟩, extractStridedSlice ⟨3, ![24, 128, 128]⟩ ![o, 0, 0] z h1⟩,
         ⟨⟨3, ![24, 128, 128]⟩, extractStridedSlice ⟨3, ![24, 128, 128]⟩ ![o, 0, 0] z h1⟩,
         ⟨⟨3, ![6, 128, 128]⟩, extractStridedSlice ⟨3, ![6, 128, 128]⟩ ![0, 0, 0]
            (extractStridedSlice ⟨3, ![24, 128, 128]⟩ ![o, 0, 0] z h1) h2⟩]
        hc (ix3 v r l) 0 (show 0 < 3 by omega) ⟨3, ![24, 128, 128]⟩ _ rfl rfl 0 rfl
      (ix3 (⟨v.val, hv1⟩ : Fin 24) r l)
      (fun b hb => by
        match b with
        | ⟨0, _⟩ => exact absurd rfl hb
        | ⟨1, _⟩ => rfl
        | ⟨2, _⟩ => rfl)
      (by show 0 + v.val = v.val; omega)]
    exact slice3_axis0_apply o z h1 _ r l _ (by show o + v.val % 24 = o + v.val; omega)
  · by_cases hv2 : v.val < 48
    · have hw : v.val - 24 < 24 := by omega
      rw [concatenate_apply_piece (t := ⟨3, ![54, 128, 128]⟩) (0 : Fin 3)
        [⟨⟨3, ![24, 128, 128]⟩, extractStridedSlice ⟨3, ![24, 128, 128]⟩ ![o, 0, 0] z h1⟩,
         ⟨⟨3, ![24, 128, 128]⟩, extractStridedSlice ⟨3, ![24, 128, 128]⟩ ![o, 0, 0] z h1⟩,
         ⟨⟨3, ![6, 128, 128]⟩, extractStridedSlice ⟨3, ![6, 128, 128]⟩ ![0, 0, 0]
            (extractStridedSlice ⟨3, ![24, 128, 128]⟩ ![o, 0, 0] z h1) h2⟩]
        hc (ix3 v r l) 1 (show 1 < 3 by omega) ⟨3, ![24, 128, 128]⟩ _ rfl rfl 24 rfl
        (ix3 (⟨v.val - 24, hw⟩ : Fin 24) r l)
        (fun b hb => by
          match b with
          | ⟨0, _⟩ => exact absurd rfl hb
          | ⟨1, _⟩ => rfl
          | ⟨2, _⟩ => rfl)
        (by show 24 + (v.val - 24) = v.val; omega)]
      exact slice3_axis0_apply o z h1 _ r l _ (by show o + v.val % 24 = o + (v.val - 24); omega)
    · have hw : v.val - 48 < 6 := by omega
      have hw' : v.val - 48 < 24 := by omega
      rw [concatenate_apply_piece (t := ⟨3, ![54, 128, 128]⟩) (0 : Fin 3)
        [⟨⟨3, ![24, 128, 128]⟩, extractStridedSlice ⟨3, ![24, 128, 128]⟩ ![o, 0, 0] z h1⟩,
         ⟨⟨3, ![24, 128, 128]⟩, extractStridedSlice ⟨3, ![24, 128, 128]⟩ ![o, 0, 0] z h1⟩,
         ⟨⟨3, ![6, 128, 128]⟩, extractStridedSlice ⟨3, ![6, 128, 128]⟩ ![0, 0, 0]
            (extractStridedSlice ⟨3, ![24, 128, 128]⟩ ![o, 0, 0] z h1) h2⟩]
        hc (ix3 v r l) 2 (show 2 < 3 by omega) ⟨3, ![6, 128, 128]⟩ _ rfl rfl 48 rfl
        (ix3 (⟨v.val - 48, hw⟩ : Fin 6) r l)
        (fun b hb => by
          match b with
          | ⟨0, _⟩ => exact absurd rfl hb
          | ⟨1, _⟩ => rfl
          | ⟨2, _⟩ => rfl)
        (by show 48 + (v.val - 48) = v.val; omega)]
      rw [slice3_axis0_apply 0 _ h2 _ r l (⟨v.val - 48, hw'⟩ : Fin 24) (by show v.val - 48 = 0 + (v.val - 48); omega)]
      exact slice3_axis0_apply o z h1 _ r l _ (by show o + v.val % 24 = o + (v.val - 48); omega)

/-! ### The two products of a layer's first stage -/

variable [Cert.KernelIdeal.Facts]

/-- The layer's input contracted with the vertex weight, as a [54,128,128] array. -/
def vprod (vf : FVec Ideal S54x128x128 .f32) (wp : FVec Ideal S128x128 .f32) : FVec Ideal S54x128x128 .f32 :=
  shapeCast S54x128x128
    (matmul dot_S6912x128_S128x128_S6912x128_1_0_0_1_n_n none (shapeCast S6912x128 vf shapeCasts_S54x128x128_S6912x128) wp
      (constant (F := Ideal) S6912x128 .f32 0x00000000#32))
    shapeCasts_S6912x128_S54x128x128

/-- The regrouped edge block contracted with the edge weight, as a [72,128,128] array. -/
def eprod (ep : FVec Ideal S72x128x64 .f32) (we : FVec Ideal S64x128 .f32) : FVec Ideal S72x128x128 .f32 :=
  shapeCast S72x128x128
    (matmul dot_S9216x64_S64x128_S9216x128_1_0_0_1_n_n none (shapeCast S9216x64 ep shapeCasts_S72x128x64_S9216x64) we
      (constant (F := Ideal) S9216x128 .f32 0x00000000#32))
    shapeCasts_S9216x128_S72x128x128

/-- Row `v` of the first stage: for the three neighbours, the vertex product at row `(v + 1) mod 54`, `(v + 2) mod 54`,
    `(v + 3) mod 54` plus the edge product at row `v mod 24`, `24 + v mod 24`, `48 + v mod 24`; the largest of the three. -/
theorem pre_rows (vf : FVec Ideal S54x128x128 .f32) (ep : FVec Ideal S72x128x64 .f32) (wp : FVec Ideal S128x128 .f32)
    (we : FVec Ideal S64x128 .f32) (v : Fin 54) (r l : Fin 128) :
    pre vf ep wp we (ix3 v r l)
      = max (max (vprod vf wp (ix3 (⟨(v.val + 1) % 54, Nat.mod_lt _ (by decide)⟩ : Fin 54) r l)
                    + eprod ep we (ix3 (⟨0 + v.val % 24, by omega⟩ : Fin 72) r l))
                 (vprod vf wp (ix3 (⟨(v.val + 2) % 54, Nat.mod_lt _ (by decide)⟩ : Fin 54) r l)
                    + eprod ep we (ix3 (⟨24 + v.val % 24, by omega⟩ : Fin 72) r l)))
            (vprod vf wp (ix3 (⟨(v.val + 3) % 54, Nat.mod_lt _ (by decide)⟩ : Fin 54) r l)
              + eprod ep we (ix3 (⟨48 + v.val % 24, by omega⟩ : Fin 72) r l)) := by
  simp only [pre, maximumf_apply, addf_apply]
  refine congrArg₂ max (congrArg₂ max (congrArg₂ (· + ·) ?_ ?_) (congrArg₂ (· + ·) ?_ ?_)) (congrArg₂ (· + ·) ?_ ?_)
  · exact roll_apply (m1 := 53) (m2 := 1) (vprod vf wp) slices_S54x128x128_o1_0_0_S53x128x128
      slices_S54x128x128_o0_0_0_S1x128x128 concatenates_S53x128x128_S1x128x128_S54x128x128_d0 rfl v r l
  · exact tile_apply 0 (eprod ep we) slices_S72x128x128_o0_0_0_S24x128x128 slices_S24x128x128_o0_0_0_S6x128x128
      concatenates_S24x128x128_S24x128x128_S6x128x128_S54x128x128_d0 (by decide) v r l
  · exact roll_apply (m1 := 52) (m2 := 2) (vprod vf wp) slices_S54x128x128_o2_0_0_S52x128x128
      slices_S54x128x128_o0_0_0_S2x128x128 concatenates_S52x128x128_S2x128x128_S54x128x128_d0 rfl v r l
  · exact tile_apply 24 (eprod ep we) slices_S72x128x128_o24_0_0_S24x128x128 slices_S24x128x128_o0_0_0_S6x128x128
      concatenates_S24x128x128_S24x128x128_S6x128x128_S54x128x128_d0 (by decide) v r l
  · exact roll_apply (m1 := 51) (m2 := 3) (vprod vf wp) slices_S54x128x128_o3_0_0_S51x128x128
      slices_S54x128x128_o0_0_0_S3x128x128 concatenates_S51x128x128_S3x128x128_S54x128x128_d0 rfl v r l
  · exact tile_apply 48 (eprod ep we) slices_S72x128x128_o48_0_0_S24x128x128 slices_S24x128x128_o0_0_0_S6x128x128
      concatenates_S24x128x128_S24x128x128_S6x128x128_S54x128x128_d0 (by decide) v r l

/-- The vertex product at lane `32 g + o` of row `(w, r)`: the 32-term contraction of that batch element's features at
    vertex `w` with the vertex rows of the weight. -/
theorem vprod_apply (t : Fin 8) (X : VF) (W : Fin 48 → Fin 32 → EReal)
    (vf : FVec Ideal S54x128x128 .f32) (wp : FVec Ideal S128x128 .f32)
    (hv : ∀ (v : Fin 54) (r : Fin 128) (g : Fin 4) (f : Fin 32), vf (ix3 v r (lane g f)) = X (bat t r g) v f)
    (hwp : ∀ (g' : Fin 4) (f : Fin 32) (g : Fin 4) (o : Fin 32),
      wp (ix2 (lane g' f) (lane g o)) = if g' = g then W (Fin.castAdd 16 f) o else 0)
    (w : Fin 54) (r : Fin 128) (g : Fin 4) (o : Fin 32) :
    vprod vf wp (ix3 w r (lane g o)) = ∑ f : Fin 32, X (bat t r g) w f * W (Fin.castAdd 16 f) o := by
  unfold vprod
  rw [mm_apply, blockdiag_sum vf wp (fun f o => W (Fin.castAdd 16 f) o) hwp w r g o]
  exact Finset.sum_congr rfl fun f _ => by rw [hv]

/-- The edge product at lane `32 g + o` of row `(e, r)`: the 16-term contraction of that batch element's features on
    edge `edgeOf e` with the edge rows of the weight. -/
theorem eprod_apply (t : Fin 8) (E : EF) (W : Fin 48 → Fin 32 → EReal)
    (ep : FVec Ideal S72x128x64 .f32) (we : FVec Ideal S64x128 .f32)
    (he : ∀ (e : Fin 72) (r : Fin 128) (g : Fin 4) (d : Fin 16), ep (ix3 e r (lane16 g d)) = E (bat t r g) (edgeOf e) d)
    (hwe : ∀ (g' : Fin 4) (d : Fin 16) (g : Fin 4) (o : Fin 32),
      we (ix2 (lane16 g' d) (lane g o)) = if g' = g then W (Fin.natAdd 32 d) o else 0)
    (e : Fin 72) (r : Fin 128) (g : Fin 4) (o : Fin 32) :
    eprod ep we (ix3 e r (lane g o)) = ∑ d : Fin 16, E (bat t r g) (edgeOf e) d * W (Fin.natAdd 32 d) o := by
  unfold eprod
  rw [mm64_apply, blockdiag16_sum ep we (fun d o => W (Fin.natAdd 32 d) o) hwe e r g o]
  exact Finset.sum_congr rfl fun d _ => by rw [he]

/-- The first stage in the packed layout is the largest of the three neighbour pre-activations: row `(v + j + 1) mod 54` of
    the vertex product is neighbour `j`'s vertex part, and row `24 j + v mod 24` of the edge product holds edge
    `3 (v mod 24) + j = (3 v + j) mod 72`, neighbour `j`'s edge. -/
theorem pre_apply (t : Fin 8) (X : VF) (E : EF) (W : Fin 48 → Fin 32 → EReal)
    (vf : FVec Ideal S54x128x128 .f32) (ep : FVec Ideal S72x128x64 .f32) (wp : FVec Ideal S128x128 .f32)
    (we : FVec Ideal S64x128 .f32)
    (hv : ∀ (v : Fin 54) (r : Fin 128) (g : Fin 4) (f : Fin 32), vf (ix3 v r (lane g f)) = X (bat t r g) v f)
    (he : ∀ (e : Fin 72) (r : Fin 128) (g : Fin 4) (d : Fin 16), ep (ix3 e r (lane16 g d)) = E (bat t r g) (edgeOf e) d)
    (hwp : ∀ (g' : Fin 4) (f : Fin 32) (g : Fin 4) (o : Fin 32),
      wp (ix2 (lane g' f) (lane g o)) = if g' = g then W (Fin.castAdd 16 f) o else 0)
    (hwe : ∀ (g' : Fin 4) (d : Fin 16) (g : Fin 4) (o : Fin 32),
      we (ix2 (lane16 g' d) (lane g o)) = if g' = g then W (Fin.natAdd 32 d) o else 0)
    (v : Fin 54) (r : Fin 128) (g : Fin 4) (o : Fin 32) :
    pre vf ep wp we (ix3 v r (lane g o))
      = max (max (preK X E W (bat t r g) v 0 o) (preK X E W (bat t r g) v 1 o)) (preK X E W (bat t r g) v 2 o) := by
  have hV0 : (⟨(v.val + 1) % 54, Nat.mod_lt _ (by decide)⟩ : Fin 54) = nbV v 0 :=
    Fin.ext (by show (v.val + 1) % 54 = (v.val + 0 + 1) % 54; rfl)
  have hV1 : (⟨(v.val + 2) % 54, Nat.mod_lt _ (by decide)⟩ : Fin 54) = nbV v 1 :=
    Fin.ext (by show (v.val + 2) % 54 = (v.val + 1 + 1) % 54; rfl)
  have hV2 : (⟨(v.val + 3) % 54, Nat.mod_lt _ (by decide)⟩ : Fin 54) = nbV v 2 :=
    Fin.ext (by show (v.val + 3) % 54 = (v.val + 2 + 1) % 54; rfl)
  have hE0 : edgeOf (⟨0 + v.val % 24, by omega⟩ : Fin 72) = nbE v 0 :=
    Fin.ext (by show 3 * ((0 + v.val % 24) % 24) + (0 + v.val % 24) / 24 = (3 * v.val + 0) % 72; omega)
  have hE1 : edgeOf (⟨24 + v.val % 24, by omega⟩ : Fin 72) = nbE v 1 :=
    Fin.ext (by show 3 * ((24 + v.val % 24) % 24) + (24 + v.val % 24) / 24 = (3 * v.val + 1) % 72; omega)
  have hE2 : edgeOf (⟨48 + v.val % 24, by omega⟩ : Fin 72) = nbE v 2 :=
    Fin.ext (by show 3 * ((48 + v.val % 24) % 24) + (48 + v.val % 24) / 24 = (3 * v.val + 2) % 72; omega)
  rw [pre_rows]
  simp only [vprod_apply t X W vf wp hv hwp, eprod_apply t E W ep we he hwe]
  rw [hV0, hV1, hV2, hE0, hE1, hE2]
  rfl

end Cert.KerSide

end
-- ==== Proof.KerHid.lean ====
import proofs.«100883_g78494822302262_cont_9to1_m_206_5_alg».proof.Proof.KerStages
import proofs.«100883_g78494822302262_cont_9to1_m_206_5_alg».proof.Proof.KerMatmul
import proofs.«100883_g78494822302262_cont_9to1_m_206_5_alg».proof.Proof.Sage
import Idealize.ShloMosaic.PureOps.Ideal
import Idealize.ShloMosaic.Lib.ValueIdx
import Idealize.ShloMosaic.Lib.Pipeline.Value

/-!
  The affine half of a layer and the row scaling between layers, read at a packed position.

  A packed row holds four batch elements side by side, 32 lanes each. A contraction of a packed row with a
  block-diagonal matrix (one copy of a 32-row weight in each diagonal block, zero elsewhere) is, in lane group
  `g`, the 32-term contraction of that group's own entries with the weight: the terms of the other groups are
  products with zero.

  The affine half: the layer's input and `tanh` of the aggregate plus its bias are each contracted with such a
  matrix; the two results are added and a second bias, repeated over the rows, is added. In lane `(g, o)` this is
  the input part plus the aggregate part plus the bias, all of batch element `g` of the row.

  The row scaling: `tanh` entry by entry, squared, contracted with the block-diagonal matrix of ones — which puts
  the sum of the 32 squares of group `g` in every lane of group `g` —, the reciprocal square root of that, times
  the entry.
-/

noncomputable section

namespace Cert.KerSide

open Idealize.ShloMosaic Idealize.ShloMosaic.ValueIdx Cert.KernelIdeal Cert.KernelIdeal.Facts₀ Cert.KernelIdeal.Facts
open Cert.Sage (VF lane bat)

variable [Cert.KernelIdeal.Facts]

/-- A bias row [1,1,128] viewed [1,128], viewed [1,1,128] again and repeated over [54,128,128] reads, at lane `l` of
    any row, the row's entry at lane `l`. -/
theorem bias_apply (b : Vec Ideal S1x1x128 .f32) (v : Fin 54) (r l : Fin 128) :
    broadcastTo S54x128x128 (shapeCast S1x1x128 (shapeCast S1x128 b shapeCasts_S1x1x128_S1x128) shapeCasts_S1x128_S1x1x128)
      broadcasts_S1x1x128_S54x128x128 (ix3 v r l) = b (ix3 0 0 l) := by
  rw [shapeCast_shapeCast]
  refine broadcastTo_apply b _ (ix3 v r l) (ix3 0 0 l) fun ax => ?_
  match ax with
  | ⟨0, _⟩ => rfl
  | ⟨1, _⟩ => rfl
  | ⟨2, _⟩ => rfl

/-- The layer's affine result in lane `(g, o)` of row `r` of vertex `v`: the input part, the aggregate part
    (`tanh` of the aggregate plus its bias, contracted with the second weight) and the second bias, all of batch
    element `g` of the row. -/
theorem hidOf_apply (t : Fin 8) (X M : VF) (Wh : Fin 64 → Fin 32 → EReal) (ebv hbv : Fin 32 → EReal)
    (vf pr : FVec Ideal S54x128x128 .f32) (eb : Vec Ideal S1x1x128 .f32) (wh1 wh2 : FVec Ideal S128x128 .f32) (hb : Vec Ideal S1x1x128 .f32)
    (hv : ∀ (v : Fin 54) (r : Fin 128) (g : Fin 4) (f : Fin 32), vf (ix3 v r (lane g f)) = X (bat t r g) v f)
    (hp : ∀ (v : Fin 54) (r : Fin 128) (g : Fin 4) (o : Fin 32), pr (ix3 v r (lane g o)) = M (bat t r g) v o)
    (heb : ∀ (g : Fin 4) (o : Fin 32), eb (ix3 0 0 (lane g o)) = ebv o) (hhb : ∀ (g : Fin 4) (o : Fin 32), hb (ix3 0 0 (lane g o)) = hbv o)
    (hw1 : ∀ (g' : Fin 4) (f : Fin 32) (g : Fin 4) (o : Fin 32), wh1 (ix2 (lane g' f) (lane g o)) = if g' = g then Wh (Fin.castAdd 32 f) o else 0)
    (hw2 : ∀ (g' : Fin 4) (f : Fin 32) (g : Fin 4) (o : Fin 32), wh2 (ix2 (lane g' f) (lane g o)) = if g' = g then Wh (Fin.natAdd 32 f) o else 0)
    (v : Fin 54) (r : Fin 128) (g : Fin 4) (o : Fin 32) :
    hidOf vf pr eb wh1 wh2 hb (ix3 v r (lane g o))
      = ((∑ f : Fin 32, X (bat t r g) v f * Wh (Fin.castAdd 32 f) o) + (∑ f : Fin 32, Ideal.tanh (M (bat t r g) v f + ebv f) * Wh (Fin.natAdd 32 f) o)) + hbv o := by
  unfold hidOf
  rw [addf_apply, addf_apply, bias_apply, hhb, mm_apply, mm_apply,
    blockdiag_sum vf wh1 (fun f o => Wh (Fin.castAdd 32 f) o) hw1,
    blockdiag_sum _ wh2 (fun f o => Wh (Fin.natAdd 32 f) o) hw2]
  refine congrArg (· + hbv o) (congrArg₂ (· + ·) (Finset.sum_congr rfl fun f _ => ?_) (Finset.sum_congr rfl fun f _ => ?_))
  · rw [hv]
  · show Ideal.tanh (pr (ix3 v r (lane g f)) + _) * _ = _
    rw [bias_apply, hp, heb]

/-- The row scaling in lane `(g, o)`: `tanh` of the entry times the reciprocal square root of the sum of the squares
    of `tanh` over batch element `g`'s 32 entries of the row. -/
theorem nrm_apply (t : Fin 8) (H : VF) (h : FVec Ideal S54x128x128 .f32) (ones : FVec Ideal S128x128 .f32)
    (hh : ∀ (v : Fin 54) (r : Fin 128) (g : Fin 4) (o : Fin 32), h (ix3 v r (lane g o)) = H (bat t r g) v o)
    (hones : ∀ (g' : Fin 4) (f : Fin 32) (g : Fin 4) (o : Fin 32), ones (ix2 (lane g' f) (lane g o)) = if g' = g then 1 else 0)
    (v : Fin 54) (r : Fin 128) (g : Fin 4) (o : Fin 32) :
    nrm h ones (ix3 v r (lane g o)) = Cert.Sage.normK (Cert.Sage.tanhV H) (bat t r g) v o := by
  unfold nrm
  rw [mulf_apply]
  show Ideal.tanh (h (ix3 v r (lane g o))) * Ideal.rsqrt (shapeCast S54x128x128 _ _ (ix3 v r (lane g o))) = _
  rw [mm_apply, blockdiag_sum _ ones (fun _ _ => 1) hones, hh]
  unfold Cert.Sage.normK Cert.Sage.sumsq Cert.Sage.tanhV
  refine congrArg (fun s => Ideal.tanh (H (bat t r g) v o) * Ideal.rsqrt s) (Finset.sum_congr rfl fun f _ => ?_)
  show Ideal.tanh (h (ix3 v r (lane g f))) * Ideal.tanh (h (ix3 v r (lane g f))) * 1 = _
  rw [mul_one, hh]

end Cert.KerSide

end
-- ==== Proof.KerChain.lean ====
/-
  The five layers in the packed layout.

  Grid point t's blocks hold four consecutive batch elements side by side in the 128 lanes. If a layer's input holds, in
  lane 32 g + f of row (v, r), feature f of vertex v of batch element 4 (128 t + r) + g, then so does the layer's result:
  the first stage is the largest neighbour pre-activation, the second the affine result, and between layers tanh and the
  row scaling act on each batch element's 32 lanes alone. By induction the input of layer k is the specification's, and
  the stored block is the fifth layer's affine result.
-/
import proofs.«100883_g78494822302262_cont_9to1_m_206_5_alg».proof.Proof.KerStages
import proofs.«100883_g78494822302262_cont_9to1_m_206_5_alg».proof.Proof.KerBody
import proofs.«100883_g78494822302262_cont_9to1_m_206_5_alg».proof.Proof.KerPre
import proofs.«100883_g78494822302262_cont_9to1_m_206_5_alg».proof.Proof.KerHid
import proofs.«100883_g78494822302262_cont_9to1_m_206_5_alg».proof.Proof.Sage
import Idealize.ShloMosaic.Lib.ValueIdx
import Idealize.ShloMosaic.Lib.Pipeline.Value

set_option synthInstance.maxSize 4096

noncomputable section

namespace Cert.KerSide

open Idealize.ShloMosaic Idealize.ShloMosaic.ValueIdx Cert.KernelIdeal Cert.KernelIdeal.Facts Cert.KernelIdeal.Gen
open Cert.Sage (VF EF lane lane16 bat edgeOf preK)

variable [Cert.KernelIdeal.Facts]

/-- The zero offsets of a rank-2 whole-buffer rectangle, as the constant function. -/
theorem hz2 : (![0, 0] : Fin 2 → Nat) = fun _ => 0 := funext fun a => by fin_cases a <;> rfl

/-- The whole vertex block, loaded and cast to its own shape, is the block. -/
theorem ld_vert (x0 : Vec Ideal S54x128x128 .f32) :
    shapeCast S54x128x128 (View.ld x0 r0_0) shapeCasts_S54x128x128_S54x128x128 = x0 := by
  exact (shapeCast_self (s := S54x128x128) (View.ld x0 r0_0) _).trans (View.ld_unit_zero (S := S54x128x128) hz3 _ x0)

/-- The whole edge block, loaded and cast to its own shape, is the block. -/
theorem ld_edge (x1 : Vec Ideal S72x128x64 .f32) :
    shapeCast S72x128x64 (View.ld x1 r0_1) shapeCasts_S72x128x64_S72x128x64 = x1 := by
  exact (shapeCast_self (s := S72x128x64) (View.ld x1 r0_1) _).trans (View.ld_unit_zero (S := S72x128x64) hz3 _ x1)

/-- The whole matrix of ones, loaded and cast to its own shape, is the matrix. -/
theorem ld_ones (x8 : Vec Ideal S128x128 .f32) :
    shapeCast S128x128 (View.ld x8 r0_2) shapeCasts_S128x128_S128x128 = x8 := by
  exact (shapeCast_self (s := S128x128) (View.ld x8 r0_2) _).trans (View.ld_unit_zero (S := S128x128) hz2 _ x8)

/-- One layer in the packed layout: if the input block holds `X`, the layer's affine result holds the specification's
    layer `k mod 5` of `X`. -/
theorem lay_apply (t : Fin 8) (P : Cert.Sage.Params) (X0 : VF)
    (x0 : Vec Ideal S54x128x128 .f32) (x1 : Vec Ideal S72x128x64 .f32) (x2 : Vec Ideal S5x128x128 .f32)
    (x3 : Vec Ideal S5x64x128 .f32) (x4 x5 : Vec Ideal S5x128x128 .f32) (x6 x7 : Vec Ideal S5x1x128 .f32)
    (x8 : Vec Ideal S128x128 .f32)
    (hp : Cert.Sage.PackedBlock t P X0 x0 x1 x2 x3 x4 x5 x6 x7 x8)
    (k : ℕ) (vf : FVec Ideal S54x128x128 .f32) (X : VF)
    (hv : ∀ (v : Fin 54) (r : Fin 128) (g : Fin 4) (f : Fin 32), vf (ix3 v r (lane g f)) = X (bat t r g) v f)
    (v : Fin 54) (r : Fin 128) (g : Fin 4) (o : Fin 32) :
    lay k vf x1 x2 x3 x4 x5 x6 x7 (ix3 v r (lane g o))
      = Cert.Sage.layK P ⟨k % 5, Nat.mod_lt _ (by decide)⟩ X (bat t r g) v o := by
  unfold lay
  rw [ld_edge]
  rw [hidOf_apply t X
    (fun b n o => max (max (preK X P.E (P.eW ⟨k % 5, Nat.mod_lt _ (by decide)⟩) b n 0 o)
      (preK X P.E (P.eW ⟨k % 5, Nat.mod_lt _ (by decide)⟩) b n 1 o))
      (preK X P.E (P.eW ⟨k % 5, Nat.mod_lt _ (by decide)⟩) b n 2 o))
    (P.hW ⟨k % 5, Nat.mod_lt _ (by decide)⟩) (P.eb ⟨k % 5, Nat.mod_lt _ (by decide)⟩)
    (P.hb ⟨k % 5, Nat.mod_lt _ (by decide)⟩) vf _ _ _ _ _ hv
    (fun v r g o => pre_apply t X P.E (P.eW ⟨k % 5, Nat.mod_lt _ (by decide)⟩) vf x1 _ _ hv
      (fun e r g d => hp.edge e r g d)
      (fun g' f g o => by rw [wsl_apply]; exact hp.wv _ g' f g o)
      (fun g' d g o => by rw [wsl64_apply]; exact hp.we _ g' d g o) v r g o)
    (fun g o => by rw [bsl_apply]; exact hp.ebias _ g o)
    (fun g o => by rw [bsl_apply]; exact hp.hbias _ g o)
    (fun g' f g o => by rw [wsl_apply]; exact hp.wh1 _ g' f g o)
    (fun g' f g o => by rw [wsl_apply]; exact hp.wh2 _ g' f g o) v r g o]
  rfl

/-- The input of layer `k` in the packed layout is the specification's. -/
theorem x_apply (t : Fin 8) (P : Cert.Sage.Params) (X0 : VF)
    (x0 : Vec Ideal S54x128x128 .f32) (x1 : Vec Ideal S72x128x64 .f32) (x2 : Vec Ideal S5x128x128 .f32)
    (x3 : Vec Ideal S5x64x128 .f32) (x4 x5 : Vec Ideal S5x128x128 .f32) (x6 x7 : Vec Ideal S5x1x128 .f32)
    (x8 : Vec Ideal S128x128 .f32)
    (hp : Cert.Sage.PackedBlock t P X0 x0 x1 x2 x3 x4 x5 x6 x7 x8) :
    ∀ (k : ℕ) (v : Fin 54) (r : Fin 128) (g : Fin 4) (f : Fin 32),
      x x0 x1 x2 x3 x4 x5 x6 x7 x8 k (ix3 v r (lane g f)) = Cert.Sage.xK P X0 k (bat t r g) v f := by
  intro k
  induction k with
  | zero =>
    intro v r g f
    show shapeCast S54x128x128 (View.ld x0 r0_0) shapeCasts_S54x128x128_S54x128x128 (ix3 v r (lane g f)) = X0 (bat t r g) v f
    rw [ld_vert]
    exact hp.vert v r g f
  | succ k ih =>
    intro v r g f
    show nrm (lay k (x x0 x1 x2 x3 x4 x5 x6 x7 x8 k) x1 x2 x3 x4 x5 x6 x7)
        (shapeCast S128x128 (View.ld x8 r0_2) shapeCasts_S128x128_S128x128) (ix3 v r (lane g f))
      = Cert.Sage.normK (Cert.Sage.tanhV (Cert.Sage.layK P ⟨k % 5, Nat.mod_lt _ (by decide)⟩ (Cert.Sage.xK P X0 k)))
          (bat t r g) v f
    rw [ld_ones]
    exact nrm_apply t (Cert.Sage.layK P ⟨k % 5, Nat.mod_lt _ (by decide)⟩ (Cert.Sage.xK P X0 k)) _ x8
      (fun v r g o => lay_apply t P X0 x0 x1 x2 x3 x4 x5 x6 x7 x8 hp k _ _ ih v r g o)
      (fun g' f g o => hp.ones g' f g o) v r g f

/-- The stored block in the packed layout is the specification's result: the fifth layer's affine result of the fifth
    layer's input. -/
theorem out_apply (t : Fin 8) (P : Cert.Sage.Params) (X0 : VF)
    (x0 : Vec Ideal S54x128x128 .f32) (x1 : Vec Ideal S72x128x64 .f32) (x2 : Vec Ideal S5x128x128 .f32)
    (x3 : Vec Ideal S5x64x128 .f32) (x4 x5 : Vec Ideal S5x128x128 .f32) (x6 x7 : Vec Ideal S5x1x128 .f32)
    (x8 : Vec Ideal S128x128 .f32)
    (hp : Cert.Sage.PackedBlock t P X0 x0 x1 x2 x3 x4 x5 x6 x7 x8)
    (v : Fin 54) (r : Fin 128) (g : Fin 4) (o : Fin 32) :
    out x0 x1 x2 x3 x4 x5 x6 x7 x8 (ix3 v r (lane g o)) = Cert.Sage.outK P X0 (bat t r g) v o := by
  unfold out
  exact lay_apply t P X0 x0 x1 x2 x3 x4 x5 x6 x7 x8 hp 4 _ _
    (x_apply t P X0 x0 x1 x2 x3 x4 x5 x6 x7 x8 hp 4) v r g o

end Cert.KerSide

end
-- ==== Proof.KerPayload.lean ====
import proofs.«100883_g78494822302262_cont_9to1_m_206_5_alg».proof.Proof.KerStages
import proofs.«100883_g78494822302262_cont_9to1_m_206_5_alg».proof.Proof.KerBody

/-!
  The block the body leaves in its output window, as the composition of the stage functions.

  The body stores once, through the rectangle that is the whole window, so the window afterwards holds that
  store's payload. The payload is the printed operations of the five layers nested in the order the body runs
  them; `out` nests the same operations on the same loaded blocks, grouped by stage instead of by position in the
  body. The two are therefore the same term once every name is unfolded.
-/

set_option synthInstance.maxSize 4096

noncomputable section

namespace Cert.KerSide

open Idealize.ShloMosaic Cert.KernelIdeal Cert.KernelIdeal.Facts Cert.KernelIdeal.Gen

variable [Cert.KernelIdeal.Facts]

/-- The block the body leaves in its output window is `out` of the nine input blocks: the body's one store covers
    the whole window, so the window holds that store's payload, and the payload is, operation for operation, the
    five layers composed as `out` composes them. -/
theorem out0_9_eq (x0 : Vec Ideal S54x128x128 .f32) (x1 : Vec Ideal S72x128x64 .f32) (x2 : Vec Ideal S5x128x128 .f32) (x3 : Vec Ideal S5x64x128 .f32) (x4 x5 : Vec Ideal S5x128x128 .f32) (x6 x7 : Vec Ideal S5x1x128 .f32) (x8 : Vec Ideal S128x128 .f32) :
    Cert.KernelIdeal.Gen.out0_9 (F := Ideal) x0 x1 x2 x3 x4 x5 x6 x7 x8 = out x0 x1 x2 x3 x4 x5 x6 x7 x8 := by
  unfold Cert.KernelIdeal.Gen.out0_9
  rw [View.canon_unit_zero hz3]
  rfl

end Cert.KerSide

end
-- ==== Proof.KerHostLayout.lean ====
/-
  The operand arrays the kernel program's host side builds before its one launch, read at an index.

  The vertex array is transposed to (vertex, batch, feature) and reshaped row-major so that four consecutive batch
  elements lie side by side in the 128 lanes: entry (v, q, 32 g + f) is feature f of vertex v of batch element 4 q + g.
  The edge array is split (batch, edge) → (q, g, w, j) with batch = 4 q + g and edge = 3 w + j, transposed to
  (j, w, q, g, d) and flattened to (24 j + w, q, 16 g + d).  Each bias is repeated once per lane group.
-/
import proofs.«100883_g78494822302262_cont_9to1_m_206_5_alg».proof.Proof.Gen.KernelIdeal.Frame
import proofs.«100883_g78494822302262_cont_9to1_m_206_5_alg».proof.Proof.Sage
import Idealize.ShloMosaic.Lib.ValueIdx
import Idealize.ShloMosaic.Lib.Pipeline.Value
import Idealize.ShloMosaic.Lib.StableHlo.Run

noncomputable section

namespace Cert.KerSide

open Idealize.ShloMosaic Idealize.ShloMosaic.TcCoe Idealize.ShloMosaic.ValueIdx Cert.KernelIdeal Cert.KernelIdeal.Gen Cert.Sage
open Idealize.ShloMosaic.StableHlo

variable [Cert.KernelIdeal.Facts] (m : (ℓ : Loc Cert.KernelIdeal.nD Cert.KernelIdeal.τ Cert.KernelIdeal.sig) → Buf (Elt Ideal) ℓ)

/-! ### The vertex array -/

/-- The vertex operand is the reshape of the transpose of the vertex argument. -/
theorem v1_term (c : Dev nD) :
    (V m c main_v1 : S54x1024x128.Idx → EReal)
      = shapeCast S54x1024x128 (transpose S54x4096x32 [1, 0, 2] (m ((c : Thread nD τ).loc main_arg0))
          Facts₀.transposes_S4096x54x32_S54x4096x32_1_0_2) Facts₀.shapeCasts_S54x4096x32_S54x1024x128 := by
  dsimp only [Gen.V, Gen.V0]
  simp only [Gen.hostOps0, Gen.hostOps0_1, List.flatten_cons, List.flatten_nil, List.append_nil, List.cons_append,
    List.nil_append]
  after_results
  rfl

/-- Row-major, (v, 4 q + g, f) of [54, 4096, 32] and (v, q, 32 g + f) of [54, 1024, 128] are the same position. -/
theorem v1_apply (c : Dev nD) (v : Fin 54) (q : Fin 1024) (g : Fin 4) (f : Fin 32) :
    V m c main_v1 (ix3 v q (lane g f)) = m ((c : Thread nD τ).loc main_arg0) (ix3 (bq q g) v f) := by
  show (V m c main_v1 : S54x1024x128.Idx → EReal) (ix3 v q (lane g f)) = _
  rw [v1_term]
  refine (shapeCast_apply _ _ (ix3 v q (lane g f)) (ix3 v (bq q g) f : S54x4096x32.Idx) ?_).trans ?_
  · rw [Shape.rowMajor_val_three, Shape.rowMajor_val_three]
    show (v.val * 4096 + (4 * q.val + g.val)) * 32 + f.val = (v.val * 1024 + q.val) * 128 + (32 * g.val + f.val)
    omega
  · exact transpose_apply _ _ _ (ix3 v (bq q g) f : S54x4096x32.Idx) (ix3 (bq q g) v f : S4096x54x32.Idx)
      (fun b => match b with | ⟨0, _⟩ => rfl | ⟨1, _⟩ => rfl | ⟨2, _⟩ => rfl)

/-! ### The edge array -/

/-- The edge operand: the edge argument reshaped, transposed, reshaped. -/
theorem v4_term (c : Dev nD) :
    (V m c main_v4 : S72x1024x64.Idx → EReal)
      = shapeCast S72x1024x64 (transpose S3x24x1024x4x16 [3, 2, 0, 1, 4]
          (shapeCast S1024x4x24x3x16 (m ((c : Thread nD τ).loc main_arg1)) Facts₀.shapeCasts_S4096x72x16_S1024x4x24x3x16)
          Facts₀.transposes_S1024x4x24x3x16_S3x24x1024x4x16_3_2_0_1_4) Facts₀.shapeCasts_S3x24x1024x4x16_S72x1024x64 := by
  dsimp only [Gen.V, Gen.V0]
  simp only [Gen.hostOps0, Gen.hostOps0_1, List.flatten_cons, List.flatten_nil, List.append_nil, List.cons_append,
    List.nil_append]
  after_results
  rfl

/-- Row `e = 24 j + w` of the operand is edge `3 w + j`; lane `16 g + d` of packed row `q` is feature `d` of batch
    element `4 q + g`: the three layout steps each keep the row-major position or permute the coordinates. -/
theorem v4_apply (c : Dev nD) (e : Fin 72) (q : Fin 1024) (g : Fin 4) (d : Fin 16) :
    V m c main_v4 (ix3 e q (lane16 g d)) = m ((c : Thread nD τ).loc main_arg1) (ix3 (bq q g) (edgeOf e) d) := by
  show (V m c main_v4 : S72x1024x64.Idx → EReal) (ix3 e q (lane16 g d)) = _
  rw [v4_term]
  have he := e.isLt
  let j : Fin 3 := ⟨e.val / 24, by omega⟩
  let w : Fin 24 := ⟨e.val % 24, by omega⟩
  refine (shapeCast_apply _ _ (ix3 e q (lane16 g d)) (ix5 j w q g d : S3x24x1024x4x16.Idx) ?_).trans ?_
  · rw [Shape.rowMajor_val_five, Shape.rowMajor_val_three]
    show ((((e.val / 24) * 24 + e.val % 24) * 1024 + q.val) * 4 + g.val) * 16 + d.val
      = (e.val * 1024 + q.val) * 64 + (16 * g.val + d.val)
    omega
  refine (transpose_apply _ _ _ (ix5 j w q g d : S3x24x1024x4x16.Idx) (ix5 q g w j d : S1024x4x24x3x16.Idx)
      (fun b => match b with | ⟨0, _⟩ => rfl | ⟨1, _⟩ => rfl | ⟨2, _⟩ => rfl | ⟨3, _⟩ => rfl | ⟨4, _⟩ => rfl)).trans ?_
  refine shapeCast_apply _ _ (ix5 q g w j d : S1024x4x24x3x16.Idx) (ix3 (bq q g) (edgeOf e) d : S4096x72x16.Idx) ?_
  rw [Shape.rowMajor_val_three, Shape.rowMajor_val_five]
  show ((4 * q.val + g.val) * 72 + (3 * (e.val % 24) + e.val / 24)) * 16 + d.val
    = (((q.val * 4 + g.val) * 24 + e.val % 24) * 3 + e.val / 24) * 16 + d.val
  omega

/-! ### The two biases -/

/-- A bias operand: the bias reshaped to [1, 5, 1, 32], repeated along the third axis, flattened. -/
theorem v60_term (c : Dev nD) :
    (V m c main_v60 : S5x1x128.Idx → EReal)
      = shapeCast S5x1x128 (shapeCast S5x128 (broadcastInDim S1x5x4x32 ![0, 1, 2, 3] Facts₀.bcast_S1x5x1x32_S1x5x4x32_0_1_2_3
          (shapeCast S1x5x1x32 (m ((c : Thread nD τ).loc main_arg3)) Facts₀.shapeCasts_S5x32_S1x5x1x32))
          Facts₀.shapeCasts_S1x5x4x32_S5x128) Facts₀.shapeCasts_S5x128_S5x1x128 := by
  dsimp only [Gen.V, Gen.V0]
  simp only [Gen.hostOps0, Gen.hostOps0_1, List.flatten_cons, List.flatten_nil, List.append_nil, List.cons_append,
    List.nil_append]
  after_results_simp
  rfl

theorem v64_term (c : Dev nD) :
    (V m c main_v64 : S5x1x128.Idx → EReal)
      = shapeCast S5x1x128 (shapeCast S5x128 (broadcastInDim S1x5x4x32 ![0, 1, 2, 3] Facts₀.bcast_S1x5x1x32_S1x5x4x32_0_1_2_3
          (shapeCast S1x5x1x32 (m ((c : Thread nD τ).loc main_arg5)) Facts₀.shapeCasts_S5x32_S1x5x1x32))
          Facts₀.shapeCasts_S1x5x4x32_S5x128) Facts₀.shapeCasts_S5x128_S5x1x128 := by
  dsimp only [Gen.V, Gen.V0]
  simp only [Gen.hostOps0, Gen.hostOps0_1, List.flatten_cons, List.flatten_nil, List.append_nil, List.cons_append,
    List.nil_append]
  after_results_simp
  rfl

/-- The repeated bias at lane `32 g + o` of row `i` is entry `(i, o)` of the bias, whatever the lane group `g`. -/
theorem hostBias_apply (x : S5x32.Idx → EReal) (i : Fin 5) (g : Fin 4) (o : Fin 32) :
    shapeCast S5x1x128 (shapeCast S5x128 (broadcastInDim S1x5x4x32 ![0, 1, 2, 3] Facts₀.bcast_S1x5x1x32_S1x5x4x32_0_1_2_3
          (shapeCast S1x5x1x32 x Facts₀.shapeCasts_S5x32_S1x5x1x32))
          Facts₀.shapeCasts_S1x5x4x32_S5x128) Facts₀.shapeCasts_S5x128_S5x1x128 (ix3 i 0 (lane g o)) = x (ix2 i o) := by
  refine (shapeCast_apply _ _ (ix3 i (0 : Fin 1) (lane g o) : S5x1x128.Idx) (ix2 i (lane g o) : S5x128.Idx) ?_).trans ?_
  · rw [Shape.rowMajor_val_two, Shape.rowMajor_val_three]
    show i.val * 128 + (32 * g.val + o.val) = (i.val * 1 + 0) * 128 + (32 * g.val + o.val)
    omega
  refine (shapeCast_apply _ _ (ix2 i (lane g o) : S5x128.Idx) (ix4 (0 : Fin 1) i g o : S1x5x4x32.Idx) ?_).trans ?_
  · rw [Shape.rowMajor_val_four, Shape.rowMajor_val_two]
    show ((0 * 5 + i.val) * 4 + g.val) * 32 + o.val = i.val * 128 + (32 * g.val + o.val)
    omega
  refine (broadcastInDim_apply _ _ _ (ix4 (0 : Fin 1) i g o : S1x5x4x32.Idx) (ix4 (0 : Fin 1) i (0 : Fin 1) o : S1x5x1x32.Idx)
      (fun a => match a with | ⟨0, _⟩ => rfl | ⟨1, _⟩ => rfl | ⟨2, _⟩ => rfl | ⟨3, _⟩ => rfl)).trans ?_
  refine shapeCast_apply _ _ (ix4 (0 : Fin 1) i (0 : Fin 1) o : S1x5x1x32.Idx) (ix2 i o : S5x32.Idx) ?_
  rw [Shape.rowMajor_val_two, Shape.rowMajor_val_four]
  show i.val * 32 + o.val = ((0 * 5 + i.val) * 1 + 0) * 32 + o.val
  omega

theorem v60_apply (c : Dev nD) (i : Fin 5) (g : Fin 4) (o : Fin 32) :
    V m c main_v60 (ix3 i 0 (lane g o)) = m ((c : Thread nD τ).loc main_arg3) (ix2 i o) := by
  show (V m c main_v60 : S5x1x128.Idx → EReal) (ix3 i 0 (lane g o)) = _
  rw [v60_term]
  exact hostBias_apply _ i g o

theorem v64_apply (c : Dev nD) (i : Fin 5) (g : Fin 4) (o : Fin 32) :
    V m c main_v64 (ix3 i 0 (lane g o)) = m ((c : Thread nD τ).loc main_arg5) (ix2 i o) := by
  show (V m c main_v64 : S5x1x128.Idx → EReal) (ix3 i 0 (lane g o)) = _
  rw [v64_term]
  exact hostBias_apply _ i g o

end Cert.KerSide

end
-- ==== Proof.KerHostKron.lean ====
/-
  The arrays the host part of the kernel's program builds before the launch, read at an index: the four
  block-diagonal weight matrices (the 4 × 4 identity ⊗ a slice of a weight, reshaped) and the block-diagonal
  matrix of ones (the identity ⊗ the 32 × 32 matrix of ones).

  The identity's entry (g', g) is the conversion of the bit of "g' + 0 = g": the real 1 when g' = g, the real 0
  otherwise. The product with a weight entry is then that entry (1 · w = w) or zero (0 · w = 0, for every
  extended real). The reshape [5, 4, F, 4, 32] → [5, 4 F, 128] keeps the row-major position: the entry
  (i, g', f, g, o) is the entry (i, F g' + f, 32 g + o).
-/
import proofs.«100883_g78494822302262_cont_9to1_m_206_5_alg».proof.Proof.Gen.KernelIdeal.Frame
import proofs.«100883_g78494822302262_cont_9to1_m_206_5_alg».proof.Proof.Sage
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost

noncomputable section

namespace Cert.KerSide

open Idealize.ShloMosaic Idealize.ShloMosaic.TcCoe Idealize.ShloMosaic.ValueIdx Cert.KernelIdeal Cert.KernelIdeal.Gen Cert.Sage

/-! ## The identity -/

/-- The bit of "row number plus zero equals column number" on a 4 × 4 grid, as a natural number. -/
theorem eyeBit : ∀ g' g : Fin 4,
    (IntOp.cmpi CmpIPredicate.eq (IntOp.addi (BitVec.ofNat 32 g'.val) 0#32) (BitVec.ofNat 32 g.val)).toNat = if g' = g then 1 else 0 := by
  decide

/-- The 4 × 4 identity built from the two iotas: entry (g', g) is 1 when g' = g and 0 otherwise
    (the conversion of a bit is the bit's value as a real). -/
theorem eye_apply (h0 : S_.BroadcastsInDim S4x4 (![] : Fin 0 → Fin S4x4.rank)) (g' g : Fin 4) :
    (uitofp FTy.f32 (cmpi CmpIPredicate.eq (addi (iotaInDim S4x4 32 0) (broadcastInDim S4x4 ![] h0 (constantI S_ 32 0#32)))
      (iotaInDim S4x4 32 1)) : FVec Ideal S4x4 .f32) (ix2 g' g) = if g' = g then 1 else 0 := by
  show (((IntOp.cmpi CmpIPredicate.eq (IntOp.addi (BitVec.ofNat 32 g'.val) 0#32) (BitVec.ofNat 32 g.val)).toNat : ℝ) : EReal) = _
  rw [eyeBit]
  by_cases h : g' = g
  · rw [if_pos h, if_pos h]; simp
  · rw [if_neg h, if_neg h]; simp

/-! ## The identity ⊗ a matrix, reshaped -/

/-- The identity ⊗ weight array with 32 weight rows, reshaped to a block-diagonal matrix: entry
    (i, 32 g' + f, 32 g + o) is the identity's entry (g', g) times the weight's entry (i, f, o). -/
theorem kron32_apply (I : FVec Ideal S4x4 .f32) (w : FVec Ideal S5x32x32 .f32)
    (h1 : S4x4.BroadcastsInDim S1x4x1x4x1 ![1, 3])
    (h2 : S5x32x32.BroadcastsInDim S5x1x32x1x32 ![0, 2, 4])
    (h3 : S1x4x1x4x1.BroadcastsInDim S5x4x32x4x32 ![0, 1, 2, 3, 4])
    (h4 : S5x1x32x1x32.BroadcastsInDim S5x4x32x4x32 ![0, 1, 2, 3, 4])
    (h5 : S5x4x32x4x32.ShapeCasts S5x128x128)
    (i : Fin 5) (g' : Fin 4) (f : Fin 32) (g : Fin 4) (o : Fin 32) :
    shapeCast S5x128x128 (mulf (broadcastInDim S5x4x32x4x32 ![0, 1, 2, 3, 4] h3 (broadcastInDim S1x4x1x4x1 ![1, 3] h1 I))
        (broadcastInDim S5x4x32x4x32 ![0, 1, 2, 3, 4] h4 (broadcastInDim S5x1x32x1x32 ![0, 2, 4] h2 w))) h5
      (ix3 i (lane g' f) (lane g o)) = I (ix2 g' g) * w (ix3 i f o) := by
  rw [shapeCast_apply _ h5 _ (ix5 i g' f g o) (by
    rw [Shape.rowMajor_val_five, Shape.rowMajor_val_three]
    show ((((i.val * 4 + g'.val) * 32 + f.val) * 4 + g.val) * 32 + o.val) = (i.val * 128 + (32 * g'.val + f.val)) * 128 + (32 * g.val + o.val)
    omega)]
  rw [mulf_apply]
  congr 1
  · rw [broadcastInDim_apply _ h3 _ _ (ix5 0 g' 0 g 0) (fun a => by
      match a with
      | ⟨0, _⟩ => rfl
      | ⟨1, _⟩ => rfl
      | ⟨2, _⟩ => rfl
      | ⟨3, _⟩ => rfl
      | ⟨4, _⟩ => rfl)]
    rw [broadcastInDim_apply _ h1 _ _ (ix2 g' g) (fun a => by
      match a with
      | ⟨0, _⟩ => rfl
      | ⟨1, _⟩ => rfl)]
  · rw [broadcastInDim_apply _ h4 _ _ (ix5 i 0 f 0 o) (fun a => by
      match a with
      | ⟨0, _⟩ => rfl
      | ⟨1, _⟩ => rfl
      | ⟨2, _⟩ => rfl
      | ⟨3, _⟩ => rfl
      | ⟨4, _⟩ => rfl)]
    rw [broadcastInDim_apply _ h2 _ _ (ix3 i f o) (fun a => by
      match a with
      | ⟨0, _⟩ => rfl
      | ⟨1, _⟩ => rfl
      | ⟨2, _⟩ => rfl)]

/-- The identity ⊗ weight array with 16 weight rows, reshaped to a block-diagonal matrix: entry
    (i, 16 g' + f, 32 g + o) is the identity's entry (g', g) times the weight's entry (i, f, o). -/
theorem kron16_apply (I : FVec Ideal S4x4 .f32) (w : FVec Ideal S5x16x32 .f32)
    (h1 : S4x4.BroadcastsInDim S1x4x1x4x1 ![1, 3])
    (h2 : S5x16x32.BroadcastsInDim S5x1x16x1x32 ![0, 2, 4])
    (h3 : S1x4x1x4x1.BroadcastsInDim S5x4x16x4x32 ![0, 1, 2, 3, 4])
    (h4 : S5x1x16x1x32.BroadcastsInDim S5x4x16x4x32 ![0, 1, 2, 3, 4])
    (h5 : S5x4x16x4x32.ShapeCasts S5x64x128)
    (i : Fin 5) (g' : Fin 4) (f : Fin 16) (g : Fin 4) (o : Fin 32) :
    shapeCast S5x64x128 (mulf (broadcastInDim S5x4x16x4x32 ![0, 1, 2, 3, 4] h3 (broadcastInDim S1x4x1x4x1 ![1, 3] h1 I))
        (broadcastInDim S5x4x16x4x32 ![0, 1, 2, 3, 4] h4 (broadcastInDim S5x1x16x1x32 ![0, 2, 4] h2 w))) h5
      (ix3 i (lane16 g' f) (lane g o)) = I (ix2 g' g) * w (ix3 i f o) := by
  rw [shapeCast_apply _ h5 _ (ix5 i g' f g o) (by
    rw [Shape.rowMajor_val_five, Shape.rowMajor_val_three]
    show ((((i.val * 4 + g'.val) * 16 + f.val) * 4 + g.val) * 32 + o.val) = (i.val * 64 + (16 * g'.val + f.val)) * 128 + (32 * g.val + o.val)
    omega)]
  rw [mulf_apply]
  congr 1
  · rw [broadcastInDim_apply _ h3 _ _ (ix5 0 g' 0 g 0) (fun a => by
      match a with
      | ⟨0, _⟩ => rfl
      | ⟨1, _⟩ => rfl
      | ⟨2, _⟩ => rfl
      | ⟨3, _⟩ => rfl
      | ⟨4, _⟩ => rfl)]
    rw [broadcastInDim_apply _ h1 _ _ (ix2 g' g) (fun a => by
      match a with
      | ⟨0, _⟩ => rfl
      | ⟨1, _⟩ => rfl)]
  · rw [broadcastInDim_apply _ h4 _ _ (ix5 i 0 f 0 o) (fun a => by
      match a with
      | ⟨0, _⟩ => rfl
      | ⟨1, _⟩ => rfl
      | ⟨2, _⟩ => rfl
      | ⟨3, _⟩ => rfl
      | ⟨4, _⟩ => rfl)]
    rw [broadcastInDim_apply _ h2 _ _ (ix3 i f o) (fun a => by
      match a with
      | ⟨0, _⟩ => rfl
      | ⟨1, _⟩ => rfl
      | ⟨2, _⟩ => rfl)]

/-- The identity ⊗ a 32 × 32 matrix, reshaped to 128 × 128: entry (32 g' + f, 32 g + o) is the identity's
    entry (g', g) times the matrix's entry (f, o). -/
theorem kronSq_apply (I : FVec Ideal S4x4 .f32) (J : FVec Ideal S32x32 .f32)
    (h1 : S4x4.BroadcastsInDim S4x1x4x1 ![0, 2])
    (h2 : S32x32.BroadcastsInDim S1x32x1x32 ![1, 3])
    (h3 : S4x1x4x1.BroadcastsInDim S4x32x4x32 ![0, 1, 2, 3])
    (h4 : S1x32x1x32.BroadcastsInDim S4x32x4x32 ![0, 1, 2, 3])
    (h5 : S4x32x4x32.ShapeCasts S128x128)
    (g' : Fin 4) (f : Fin 32) (g : Fin 4) (o : Fin 32) :
    shapeCast S128x128 (mulf (broadcastInDim S4x32x4x32 ![0, 1, 2, 3] h3 (broadcastInDim S4x1x4x1 ![0, 2] h1 I))
        (broadcastInDim S4x32x4x32 ![0, 1, 2, 3] h4 (broadcastInDim S1x32x1x32 ![1, 3] h2 J))) h5
      (ix2 (lane g' f) (lane g o)) = I (ix2 g' g) * J (ix2 f o) := by
  rw [shapeCast_apply _ h5 _ (ix4 g' f g o) (by
    rw [Shape.rowMajor_val_four, Shape.rowMajor_val_two]
    show (((g'.val * 32 + f.val) * 4 + g.val) * 32 + o.val) = (32 * g'.val + f.val) * 128 + (32 * g.val + o.val)
    omega)]
  rw [mulf_apply]
  congr 1
  · rw [broadcastInDim_apply _ h3 _ _ (ix4 g' 0 g 0) (fun a => by
      match a with
      | ⟨0, _⟩ => rfl
      | ⟨1, _⟩ => rfl
      | ⟨2, _⟩ => rfl
      | ⟨3, _⟩ => rfl)]
    rw [broadcastInDim_apply _ h1 _ _ (ix2 g' g) (fun a => by
      match a with
      | ⟨0, _⟩ => rfl
      | ⟨1, _⟩ => rfl)]
  · rw [broadcastInDim_apply _ h4 _ _ (ix4 0 f 0 o) (fun a => by
      match a with
      | ⟨0, _⟩ => rfl
      | ⟨1, _⟩ => rfl
      | ⟨2, _⟩ => rfl
      | ⟨3, _⟩ => rfl)]
    rw [broadcastInDim_apply _ h2 _ _ (ix2 f o) (fun a => by
      match a with
      | ⟨0, _⟩ => rfl
      | ⟨1, _⟩ => rfl)]

/-! ## The weight slices -/

/-- The first 32 rows of the 48-row weight. -/
theorem slice48_lo_apply (A : FVec Ideal S5x48x32 .f32) (h : S5x48x32.Slices ![0, 0, 0] S5x32x32)
    (i : Fin 5) (f : Fin 32) (o : Fin 32) :
    extractStridedSlice S5x32x32 ![0, 0, 0] A h (ix3 i f o) = A (ix3 i (Fin.castAdd 16 f) o) :=
  extractStridedSlice_apply _ A h _ _ (fun a => by
    match a with
    | ⟨0, _⟩ => exact (Nat.zero_add _).symm
    | ⟨1, _⟩ => exact (Nat.zero_add _).symm
    | ⟨2, _⟩ => exact (Nat.zero_add _).symm)

/-- The last 16 rows of the 48-row weight. -/
theorem slice48_hi_apply (A : FVec Ideal S5x48x32 .f32) (h : S5x48x32.Slices ![0, 32, 0] S5x16x32)
    (i : Fin 5) (d : Fin 16) (o : Fin 32) :
    extractStridedSlice S5x16x32 ![0, 32, 0] A h (ix3 i d o) = A (ix3 i (Fin.natAdd 32 d) o) :=
  extractStridedSlice_apply _ A h _ _ (fun a => by
    match a with
    | ⟨0, _⟩ => exact (Nat.zero_add _).symm
    | ⟨1, _⟩ => rfl
    | ⟨2, _⟩ => exact (Nat.zero_add _).symm)

/-- The first 32 rows of the 64-row weight. -/
theorem slice64_lo_apply (A : FVec Ideal S5x64x32 .f32) (h : S5x64x32.Slices ![0, 0, 0] S5x32x32)
    (i : Fin 5) (f : Fin 32) (o : Fin 32) :
    extractStridedSlice S5x32x32 ![0, 0, 0] A h (ix3 i f o) = A (ix3 i (Fin.castAdd 32 f) o) :=
  extractStridedSlice_apply _ A h _ _ (fun a => by
    match a with
    | ⟨0, _⟩ => exact (Nat.zero_add _).symm
    | ⟨1, _⟩ => exact (Nat.zero_add _).symm
    | ⟨2, _⟩ => exact (Nat.zero_add _).symm)

/-- The last 32 rows of the 64-row weight. -/
theorem slice64_hi_apply (A : FVec Ideal S5x64x32 .f32) (h : S5x64x32.Slices ![0, 32, 0] S5x32x32)
    (i : Fin 5) (f : Fin 32) (o : Fin 32) :
    extractStridedSlice S5x32x32 ![0, 32, 0] A h (ix3 i f o) = A (ix3 i (Fin.natAdd 32 f) o) :=
  extractStridedSlice_apply _ A h _ _ (fun a => by
    match a with
    | ⟨0, _⟩ => exact (Nat.zero_add _).symm
    | ⟨1, _⟩ => rfl
    | ⟨2, _⟩ => exact (Nat.zero_add _).symm)

/-! ## The host's arrays -/

variable [Cert.KernelIdeal.Facts] (m : (ℓ : Loc Cert.KernelIdeal.nD Cert.KernelIdeal.τ Cert.KernelIdeal.sig) → Buf (Elt Ideal) ℓ)

set_option maxHeartbeats 4000000 in
/-- What the host wrote in the array of value 18: the identity ⊗ a slice of argument 2, reshaped. -/
theorem v18_term (c : Dev nD) : (V m c main_v18 : S5x128x128.Idx → EReal) =
    shapeCast S5x128x128 (mulf
      (broadcastInDim S5x4x32x4x32 ![0, 1, 2, 3, 4] bcast_S1x4x1x4x1_S5x4x32x4x32_0_1_2_3_4 (broadcastInDim S1x4x1x4x1 ![1, 3] bcast_S4x4_S1x4x1x4x1_1_3
        ((uitofp FTy.f32 (cmpi CmpIPredicate.eq (addi (iotaInDim S4x4 32 0) (broadcastInDim S4x4 ![] bcast_S_S4x4 (constantI S_ 32 0#32))) (iotaInDim S4x4 32 1))) : FVec Ideal S4x4 .f32)))
      (broadcastInDim S5x4x32x4x32 ![0, 1, 2, 3, 4] bcast_S5x1x32x1x32_S5x4x32x4x32_0_1_2_3_4 (broadcastInDim S5x1x32x1x32 ![0, 2, 4] bcast_S5x32x32_S5x1x32x1x32_0_2_4
        (extractStridedSlice S5x32x32 ![0, 0, 0] (m ((c : Thread nD τ).loc main_arg2)) slices_S5x48x32_S5x32x32_0_0_0))))
      shapeCasts_S5x4x32x4x32_S5x128x128 := by
  dsimp only [Gen.V, Gen.V0]
  simp only [Gen.hostOps0, Gen.hostOps0_1, List.flatten_cons, List.flatten_nil, List.append_nil, List.cons_append, List.nil_append]
  open Idealize.ShloMosaic.StableHlo in after_results_simp
  rfl

/-- The block-diagonal copy of the first 32 rows of argument 2. -/
theorem v18_apply (c : Dev nD) (i : Fin 5) (g' : Fin 4) (f : Fin 32) (g : Fin 4) (o : Fin 32) :
    @Eq EReal (V m c main_v18 (ix3 i (lane g' f) (lane g o)))
      (if g' = g then m ((c : Thread nD τ).loc main_arg2) (ix3 i (Fin.castAdd 16 f) o) else 0) := by
  refine (congrFun (v18_term m c) _).trans ?_
  rw [kron32_apply, eye_apply, slice48_lo_apply]
  by_cases h : g' = g
  · rw [if_pos h, if_pos h, one_mul]
  · rw [if_neg h, if_neg h, zero_mul]

set_option maxHeartbeats 4000000 in
/-- What the host wrote in the array of value 30: the identity ⊗ a slice of argument 2, reshaped. -/
theorem v30_term (c : Dev nD) : (V m c main_v30 : S5x64x128.Idx → EReal) =
    shapeCast S5x64x128 (mulf
      (broadcastInDim S5x4x16x4x32 ![0, 1, 2, 3, 4] bcast_S1x4x1x4x1_S5x4x16x4x32_0_1_2_3_4 (broadcastInDim S1x4x1x4x1 ![1, 3] bcast_S4x4_S1x4x1x4x1_1_3
        ((uitofp FTy.f32 (cmpi CmpIPredicate.eq (addi (iotaInDim S4x4 32 0) (broadcastInDim S4x4 ![] bcast_S_S4x4 (constantI S_ 32 0#32))) (iotaInDim S4x4 32 1))) : FVec Ideal S4x4 .f32)))
      (broadcastInDim S5x4x16x4x32 ![0, 1, 2, 3, 4] bcast_S5x1x16x1x32_S5x4x16x4x32_0_1_2_3_4 (broadcastInDim S5x1x16x1x32 ![0, 2, 4] bcast_S5x16x32_S5x1x16x1x32_0_2_4
        (extractStridedSlice S5x16x32 ![0, 32, 0] (m ((c : Thread nD τ).loc main_arg2)) slices_S5x48x32_S5x16x32_0_32_0))))
      shapeCasts_S5x4x16x4x32_S5x64x128 := by
  dsimp only [Gen.V, Gen.V0]
  simp only [Gen.hostOps0, Gen.hostOps0_1, List.flatten_cons, List.flatten_nil, List.append_nil, List.cons_append, List.nil_append]
  open Idealize.ShloMosaic.StableHlo in after_results_simp
  rfl

/-- The block-diagonal copy of the last 16 rows of argument 2. -/
theorem v30_apply (c : Dev nD) (i : Fin 5) (g' : Fin 4) (d : Fin 16) (g : Fin 4) (o : Fin 32) :
    @Eq EReal (V m c main_v30 (ix3 i (lane16 g' d) (lane g o)))
      (if g' = g then m ((c : Thread nD τ).loc main_arg2) (ix3 i (Fin.natAdd 32 d) o) else 0) := by
  refine (congrFun (v30_term m c) _).trans ?_
  rw [kron16_apply, eye_apply, slice48_hi_apply]
  by_cases h : g' = g
  · rw [if_pos h, if_pos h, one_mul]
  · rw [if_neg h, if_neg h, zero_mul]

set_option maxHeartbeats 4000000 in
/-- What the host wrote in the array of value 43: the identity ⊗ a slice of argument 4, reshaped. -/
theorem v43_term (c : Dev nD) : (V m c main_v43 : S5x128x128.Idx → EReal) =
    shapeCast S5x128x128 (mulf
      (broadcastInDim S5x4x32x4x32 ![0, 1, 2, 3, 4] bcast_S1x4x1x4x1_S5x4x32x4x32_0_1_2_3_4 (broadcastInDim S1x4x1x4x1 ![1, 3] bcast_S4x4_S1x4x1x4x1_1_3
        ((uitofp FTy.f32 (cmpi CmpIPredicate.eq (addi (iotaInDim S4x4 32 0) (broadcastInDim S4x4 ![] bcast_S_S4x4 (constantI S_ 32 0#32))) (iotaInDim S4x4 32 1))) : FVec Ideal S4x4 .f32)))
      (broadcastInDim S5x4x32x4x32 ![0, 1, 2, 3, 4] bcast_S5x1x32x1x32_S5x4x32x4x32_0_1_2_3_4 (broadcastInDim S5x1x32x1x32 ![0, 2, 4] bcast_S5x32x32_S5x1x32x1x32_0_2_4
        (extractStridedSlice S5x32x32 ![0, 0, 0] (m ((c : Thread nD τ).loc main_arg4)) slices_S5x64x32_S5x32x32_0_0_0))))
      shapeCasts_S5x4x32x4x32_S5x128x128 := by
  dsimp only [Gen.V, Gen.V0]
  simp only [Gen.hostOps0, Gen.hostOps0_1, List.flatten_cons, List.flatten_nil, List.append_nil, List.cons_append, List.nil_append]
  open Idealize.ShloMosaic.StableHlo in after_results_simp
  rfl

/-- The block-diagonal copy of the first 32 rows of argument 4. -/
theorem v43_apply (c : Dev nD) (i : Fin 5) (g' : Fin 4) (f : Fin 32) (g : Fin 4) (o : Fin 32) :
    @Eq EReal (V m c main_v43 (ix3 i (lane g' f) (lane g o)))
      (if g' = g then m ((c : Thread nD τ).loc main_arg4) (ix3 i (Fin.castAdd 32 f) o) else 0) := by
  refine (congrFun (v43_term m c) _).trans ?_
  rw [kron32_apply, eye_apply, slice64_lo_apply]
  by_cases h : g' = g
  · rw [if_pos h, if_pos h, one_mul]
  · rw [if_neg h, if_neg h, zero_mul]

set_option maxHeartbeats 4000000 in
/-- What the host wrote in the array of value 56: the identity ⊗ a slice of argument 4, reshaped. -/
theorem v56_term (c : Dev nD) : (V m c main_v56 : S5x128x128.Idx → EReal) =
    shapeCast S5x128x128 (mulf
      (broadcastInDim S5x4x32x4x32 ![0, 1, 2, 3, 4] bcast_S1x4x1x4x1_S5x4x32x4x32_0_1_2_3_4 (broadcastInDim S1x4x1x4x1 ![1, 3] bcast_S4x4_S1x4x1x4x1_1_3
        ((uitofp FTy.f32 (cmpi CmpIPredicate.eq (addi (iotaInDim S4x4 32 0) (broadcastInDim S4x4 ![] bcast_S_S4x4 (constantI S_ 32 0#32))) (iotaInDim S4x4 32 1))) : FVec Ideal S4x4 .f32)))
      (broadcastInDim S5x4x32x4x32 ![0, 1, 2, 3, 4] bcast_S5x1x32x1x32_S5x4x32x4x32_0_1_2_3_4 (broadcastInDim S5x1x32x1x32 ![0, 2, 4] bcast_S5x32x32_S5x1x32x1x32_0_2_4
        (extractStridedSlice S5x32x32 ![0, 32, 0] (m ((c : Thread nD τ).loc main_arg4)) slices_S5x64x32_S5x32x32_0_32_0))))
      shapeCasts_S5x4x32x4x32_S5x128x128 := by
  dsimp only [Gen.V, Gen.V0]
  simp only [Gen.hostOps0, Gen.hostOps0_1, List.flatten_cons, List.flatten_nil, List.append_nil, List.cons_append, List.nil_append]
  open Idealize.ShloMosaic.StableHlo in after_results_simp
  rfl

/-- The block-diagonal copy of the last 32 rows of argument 4. -/
theorem v56_apply (c : Dev nD) (i : Fin 5) (g' : Fin 4) (f : Fin 32) (g : Fin 4) (o : Fin 32) :
    @Eq EReal (V m c main_v56 (ix3 i (lane g' f) (lane g o)))
      (if g' = g then m ((c : Thread nD τ).loc main_arg4) (ix3 i (Fin.natAdd 32 f) o) else 0) := by
  refine (congrFun (v56_term m c) _).trans ?_
  rw [kron32_apply, eye_apply, slice64_hi_apply]
  by_cases h : g' = g
  · rw [if_pos h, if_pos h, one_mul]
  · rw [if_neg h, if_neg h, zero_mul]

set_option maxHeartbeats 4000000 in
/-- What the host wrote in the array of value 72: the identity ⊗ the 32 × 32 matrix of ones, reshaped. -/
theorem v72_term (c : Dev nD) : (V m c main_v72 : S128x128.Idx → EReal) =
    shapeCast S128x128 (mulf
      (broadcastInDim S4x32x4x32 ![0, 1, 2, 3] bcast_S4x1x4x1_S4x32x4x32_0_1_2_3 (broadcastInDim S4x1x4x1 ![0, 2] bcast_S4x4_S4x1x4x1_0_2
        ((uitofp FTy.f32 (cmpi CmpIPredicate.eq (addi (iotaInDim S4x4 32 0) (broadcastInDim S4x4 ![] bcast_S_S4x4 (constantI S_ 32 0#32))) (iotaInDim S4x4 32 1))) : FVec Ideal S4x4 .f32)))
      (broadcastInDim S4x32x4x32 ![0, 1, 2, 3] bcast_S1x32x1x32_S4x32x4x32_0_1_2_3 (broadcastInDim S1x32x1x32 ![1, 3] bcast_S32x32_S1x32x1x32_1_3
        (broadcastInDim S32x32 ![] bcast_S_S32x32 (constant (F := Ideal) S_ .f32 0x3F800000#32)))))
      shapeCasts_S4x32x4x32_S128x128 := by
  dsimp only [Gen.V, Gen.V0]
  simp only [Gen.hostOps0, Gen.hostOps0_1, List.flatten_cons, List.flatten_nil, List.append_nil, List.cons_append, List.nil_append]
  open Idealize.ShloMosaic.StableHlo in after_results_simp
  rfl

/-- The block-diagonal matrix of ones. -/
theorem v72_apply (c : Dev nD) (g' : Fin 4) (f : Fin 32) (g : Fin 4) (o : Fin 32) :
    @Eq EReal (V m c main_v72 (ix2 (lane g' f) (lane g o))) (if g' = g then 1 else 0) := by
  refine (congrFun (v72_term m c) _).trans ?_
  rw [kronSq_apply, eye_apply, broadcastInDim_scalar_apply, constant_apply, Ideal.ofBits_one_f32, mul_one]

end Cert.KerSide

end
-- ==== Proof.KerValue.lean ====
/-
  The kernel program's result, index by index, is the specification's five layers in the kernel's arrangement.

  A batch element `b` sits in lane group `b mod 4` of packed row `b / 4`, which is row `(b / 4) mod 128` of the block
  that grid point `b / 512` works on. At that point the nine input blocks hold the packed inputs (the host operations
  before the region), the body's stored value is the five layers on packed rows, and the host operations after the region
  unpack the lanes.
-/
import proofs.«100883_g78494822302262_cont_9to1_m_206_5_alg».proof.Proof.KerRun
import proofs.«100883_g78494822302262_cont_9to1_m_206_5_alg».proof.Proof.KerChain
import proofs.«100883_g78494822302262_cont_9to1_m_206_5_alg».proof.Proof.KerPayload
import proofs.«100883_g78494822302262_cont_9to1_m_206_5_alg».proof.Proof.KerHostLayout
import proofs.«100883_g78494822302262_cont_9to1_m_206_5_alg».proof.Proof.KerHostKron

noncomputable section

namespace Cert.KerSide

open Idealize.ShloMosaic Idealize.ShloMosaic.TcCoe Idealize.ShloMosaic.ValueIdx Cert.KernelIdeal Cert.KernelIdeal.Gen Cert.Sage

variable (m : (ℓ : Loc Cert.KernelIdeal.nD Cert.KernelIdeal.τ Cert.KernelIdeal.sig) → Buf (Elt Ideal) ℓ)

/-- Every batch element is one lane group of one row of one grid point's block. -/
theorem exists_bat (b : Fin 4096) : ∃ (t : Fin 8) (r : Fin 128) (g : Fin 4), b = bat t r g :=
  ⟨⟨b.val / 512, by omega⟩, ⟨b.val / 4 % 128, by omega⟩, ⟨b.val % 4, by omega⟩, Fin.ext (by simp only [bat]; omega)⟩

/-- The specification's parameters read off the argument arrays. -/
abbrev params (c : Dev nD) : Params :=
  paramsOf (m ((c : Thread nD τ).loc main_arg1)) (m ((c : Thread nD τ).loc main_arg2)) (m ((c : Thread nD τ).loc main_arg3))
    (m ((c : Thread nD τ).loc main_arg4)) (m ((c : Thread nD τ).loc main_arg5))

/-- The vertex features read off the first argument array. -/
abbrev verts (c : Dev nD) : VF := vfOf (m ((c : Thread nD τ).loc main_arg0))

/-- At grid point `t` the nine input blocks are the packed inputs. -/
theorem packed (c : Dev nD) (t : Fin 8) :
    PackedBlock t (params m c) (verts m c) (iblk m c 0 (pt t)) (iblk m c 1 (pt t)) (iblk m c 2 (pt t)) (iblk m c 3 (pt t)) (iblk m c 4 (pt t))
      (iblk m c 5 (pt t)) (iblk m c 6 (pt t)) (iblk m c 7 (pt t)) (iblk m c 8 (pt t)) where
  vert := fun v r g f => by rw [iblk0_apply, v1_apply]; rfl
  edge := fun e r g d => by rw [iblk1_apply, v4_apply]; rfl
  wv := fun i g' f g o => by rw [iblk2_apply, v18_apply]; rfl
  we := fun i g' d g o => by rw [iblk3_apply, v30_apply]; rfl
  wh1 := fun i g' f g o => by rw [iblk4_apply, v43_apply]; rfl
  wh2 := fun i g' f g o => by rw [iblk5_apply, v56_apply]; rfl
  ebias := fun i g o => by rw [iblk6_apply, v60_apply]; rfl
  hbias := fun i g o => by rw [iblk7_apply, v64_apply]; rfl
  ones := fun g' f g o => by rw [iblk8_apply, v72_apply]

/-- The result array at (batch, vertex, feature) is the kernel-arrangement specification there. -/
theorem res_value (c : Dev nD) (b : Fin 4096) (n : Fin 54) (o : Fin 32) :
    res m c (ix3 b n o) = outK (params m c) (verts m c) b n o := by
  obtain ⟨t, r, g, rfl⟩ := exists_bat b
  rw [res_apply, out0_9_eq]
  exact out_apply t (params m c) (verts m c) _ _ _ _ _ _ _ _ _ (packed m c t) n r g o

end Cert.KerSide

end
-- ==== Proof.lean ====
/-
  The certificate: a GraphSAGE message-passing network of five layers on 4096 graphs of 54 vertices, as a fused
  kernel against its plain reference.

  Both programs compute, per layer, for every vertex the largest over its three neighbours of `tanh` of an affine map of
  (the neighbour's features, the connecting edge's features), then an affine map of (the vertex's features, that
  aggregate), and, except in the last layer, `tanh` of it scaled to unit length. The kernel works on four batch elements
  side by side in the 128 lanes with block-diagonal copies of the weights, splits each contraction in its vertex part and
  its edge (or aggregate) part, reads the static neighbour structure as rolls and a tiling of the vertex axis, takes the
  maximum before the bias and `tanh` (tanh is monotone, and so is adding the bias), and multiplies by the reciprocal
  square root of the row's sum of squares where the reference divides by its square root. On the extended reals the two
  agree at every row whose sum of squares is not zero; at a zero row the reference's quotient is `0 / 0`. The precondition
  therefore asks, besides finite inputs, that every norm the reference divides by is positive; finiteness itself is
  never used.

  The frames of the kernel at both instances are the generated ones; the reference's frame is its run with the value
  dropped; the idealization rewrote nothing.
-/
import proofs.«100883_g78494822302262_cont_9to1_m_206_5_alg».proof.Defs
import proofs.«100883_g78494822302262_cont_9to1_m_206_5_alg».proof.Proof.Gen.Kernel.Frame
import proofs.«100883_g78494822302262_cont_9to1_m_206_5_alg».proof.Proof.Gen.KernelIdeal.Frame
import proofs.«100883_g78494822302262_cont_9to1_m_206_5_alg».proof.Proof.Gen.ReferenceIdeal
import proofs.«100883_g78494822302262_cont_9to1_m_206_5_alg».proof.Proof.Gen.Pre_finite_inputs
import proofs.«100883_g78494822302262_cont_9to1_m_206_5_alg».proof.Proof.SageAlgebra
import proofs.«100883_g78494822302262_cont_9to1_m_206_5_alg».proof.Proof.RefRun
import proofs.«100883_g78494822302262_cont_9to1_m_206_5_alg».proof.Proof.RefChain
import proofs.«100883_g78494822302262_cont_9to1_m_206_5_alg».proof.Proof.PreNorms
import proofs.«100883_g78494822302262_cont_9to1_m_206_5_alg».proof.Proof.KerValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with what it computes dropped. -/
theorem frame_referenceIdeal : Cert.frame_ReferenceIdeal := fun m ρ _ =>
  (θ_run Cert.ReferenceIdeal.defs _ _).mono (fun _ h c => (h c).2) (Cert.RefSide.run m ρ)

theorem preserves : Cert.preserves_Kernel_KernelIdeal := trivial

/-- Both runs end with the same array: the kernel's is the specification in the kernel's arrangement, the reference's
    the specification in the reference's arrangement, of the same arguments; the two arrangements agree because the
    precondition makes every norm the reference divides by positive. -/
theorem algebraic : Cert.algebraic_KernelIdeal_ReferenceIdeal := by
  intro m ρ m' ρ' hpre hagree
  refine ⟨Cert.KerSide.res m, Cert.KerSide.run m ρ, ?_⟩
  refine (θ_run Cert.ReferenceIdeal.defs _ _).mono (fun r h c => ⟨(h c).1.trans ?_, (h c).2⟩) (Cert.RefSide.run m' ρ')
  obtain ⟨h0, h1, h2, h3, h4, h5⟩ := hagree c
  rw [h0, h1, h2, h3, h4, h5]
  funext idx
  obtain ⟨b, n, o, rfl⟩ : ∃ (b : Fin 4096) (n : Fin 54) (o : Fin 32), idx = ix3 b n o := ⟨idx 0, idx 1, idx 2, eq_ix3 idx⟩
  rw [Cert.RefSide.out_apply]
  show _ = Cert.KerSide.res m c (ix3 b n o)
  rw [Cert.KerSide.res_value]
  exact (congrFun (congrFun (congrFun (Cert.Sage.outK_eq_outR _ _ (Cert.PreSide.pos_of_pre _ _ _ _ _ _ (hpre c))) b) n) o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
